-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v668)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v668) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v672) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S24x256x256 : Shape := ⟨3, ![24, 256, 256]⟩
abbrev S24x256 : Shape := ⟨2, ![24, 256]⟩
abbrev S72x28 : Shape := ⟨2, ![72, 28]⟩
abbrev S3 : Shape := ⟨1, ![3]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S24x256x256 : S_.BroadcastsInDim S24x256x256 (![] : Fin 0 → Fin S24x256x256.rank)
  reducesTo_S24x256x256_S_d0_1_2 : S24x256x256.ReducesTo [0, 1, 2] S_
  bcast_S_S24x256 : S_.BroadcastsInDim S24x256 (![] : Fin 0 → Fin S24x256.rank)
  reducesTo_S24x256_S_d0_1 : S24x256.ReducesTo [0, 1] S_
  bcast_S_S72x28 : S_.BroadcastsInDim S72x28 (![] : Fin 0 → Fin S72x28.rank)
  reducesTo_S72x28_S_d0_1 : S72x28.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S72x28 .f32) (main_arg8 : FVec F S3 .f32) (main_arg9 : FVec F S3 .f32) (main_v33 : IVec S_ 1) : IVec S_ 1 :=
  let main_v34 : FVec F S72x28 .f32 := Host.absf main_arg7
  let main_cst_12 : FVec F S_ .f32 := constant S_ .f32 0x7F800000#32
  let main_v35 : FVec F S72x28 .f32 := broadcastInDim S72x28 ![] bcast_S_S72x28 main_cst_12
  let main_v36 : IVec S72x28 1 := cmpf .olt main_v34 main_v35
  let main_c_13 : IVec S_ 1 := constantI S_ 1 1#1
  let main_v37 : IVec S_ 1 := (fun x v => Host.reduce IntOp.andi x v reducesTo_S72x28_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S24x256 .f32) (main_arg5 : FVec F S24x256 .f32) (main_arg6 : FVec F S24x256 .f32) (main_arg7 : FVec F S72x28 .f32) (main_arg8 : FVec F S3 .f32) (main_arg9 : FVec F S3 .f32) (main_v13 : IVec S_ 1) (main_v16 : IVec S24x256x256 1) : IVec S_ 1 :=
  let main_c_5 : IVec S_ 1 := constantI S_ 1 1#1
  let main_v17 : IVec S_ 1 := (fun x v => Host.reduce IntOp.andi x v reducesTo_S24x256x256_S_d0_1_2 h_S_) main_v16 main_c_5
  let main_v18 : IVec S_ 1 := andi main_v13 main_v17
  let main_v19 : FVec F S24x256 .f32 := Host.absf main_arg4
  let main_cst_6 : FVec F S_ .f32 := constant S_ .f32 0x7F800000#32
  let main_v20 : FVec F S24x256 .f32 := broadcastInDim S24x256 ![] bcast_S_S24x256 main_cst_6
  let main_v21 : IVec S24x256 1 := cmpf .olt main_v19 main_v20
  let main_c_7 : IVec S_ 1 := constantI S_ 1 1#1
  let main_v22 : IVec S_ 1 := (fun x v => Host.reduce IntOp.andi x v reducesTo_S24x256_S_d0_1 h_S_) main_v21 main_c_7
  let main_v23 : IVec S_ 1 := andi main_v18 main_v22
  let main_v24 : FVec F S24x256 .f32 := Host.absf main_arg5
  let main_cst_8 : FVec F S_ .f32 := constant S_ .f32 0x7F800000#32
  let main_v25 : FVec F S24x256 .f32 := broadcastInDim S24x256 ![] bcast_S_S24x256 main_cst_8
  let main_v26 : IVec S24x256 1 := cmpf .olt main_v24 main_v25
  let main_c_9 : IVec S_ 1 := constantI S_ 1 1#1
  let main_v27 : IVec S_ 1 := (fun x v => Host.reduce IntOp.andi x v reducesTo_S24x256_S_d0_1 h_S_) main_v26 main_c_9
  let main_v28 : IVec S_ 1 := andi main_v23 main_v27
  let main_v29 : FVec F S24x256 .f32 := Host.absf main_arg6
  let main_cst_10 : FVec F S_ .f32 := constant S_ .f32 0x7F800000#32
  let main_v30 : FVec F S24x256 .f32 := broadcastInDim S24x256 ![] bcast_S_S24x256 main_cst_10
  let main_v31 : IVec S24x256 1 := cmpf .olt main_v29 main_v30
  let main_c_11 : IVec S_ 1 := constantI S_ 1 1#1
  let main_v32 : IVec S_ 1 := (fun x v => Host.reduce IntOp.andi x v reducesTo_S24x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S1000000x3 .f32) (main_arg1 : FVec F S24x256x256 .f32) (main_arg2 : FVec F S24x256x256 .f32) (main_arg3 : FVec F S24x256x256 .f32) (main_arg4 : FVec F S24x256 .f32) (main_arg5 : FVec F S24x256 .f32) (main_arg6 : FVec F S24x256 .f32) (main_arg7 : FVec F S72x28 .f32) (main_arg8 : FVec F S3 .f32) (main_arg9 : FVec F S3 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S24x256x256 .f32 := Host.absf main_arg1
  let main_cst_0 : FVec F S_ .f32 := constant S_ .f32 0x7F800000#32
  let main_v5 : FVec F S24x256x256 .f32 := broadcastInDim S24x256x256 ![] bcast_S_S24x256x256 main_cst_0
  let main_v6 : IVec S24x256x256 1 := cmpf .olt main_v4 main_v5
  let main_c_1 : IVec S_ 1 := constantI S_ 1 1#1
  let main_v7 : IVec S_ 1 := (fun x v => Host.reduce IntOp.andi x v reducesTo_S24x256x256_S_d0_1_2 h_S_) main_v6 main_c_1
  let main_v8 : IVec S_ 1 := andi main_v3 main_v7
  let main_v9 : FVec F S24x256x256 .f32 := Host.absf main_arg2
  let main_cst_2 : FVec F S_ .f32 := constant S_ .f32 0x7F800000#32
  let main_v10 : FVec F S24x256x256 .f32 := broadcastInDim S24x256x256 ![] bcast_S_S24x256x256 main_cst_2
  let main_v11 : IVec S24x256x256 1 := cmpf .olt main_v9 main_v10
  let main_c_3 : IVec S_ 1 := constantI S_ 1 1#1
  let main_v12 : IVec S_ 1 := (fun x v => Host.reduce IntOp.andi x v reducesTo_S24x256x256_S_d0_1_2 h_S_) main_v11 main_c_3
  let main_v13 : IVec S_ 1 := andi main_v8 main_v12
  let main_v14 : FVec F S24x256x256 .f32 := Host.absf main_arg3
  let main_cst_4 : FVec F S_ .f32 := constant S_ .f32 0x7F800000#32
  let main_v15 : FVec F S24x256x256 .f32 := broadcastInDim S24x256x256 ![] bcast_S_S24x256x256 main_cst_4
  let main_v16 : IVec S24x256x256 1 := cmpf .olt main_v14 main_v15
  fn_part1 (F := F) main_arg4 main_arg5 main_arg6 main_arg7 main_arg8 main_arg9 main_v13 main_v16
-- ==== Kernel.lean ====
abbrev S1000000x3 : Shape := ⟨2, ![1000000, 3]⟩
abbrev S24x256x256 : Shape := ⟨3, ![24, 256, 256]⟩
abbrev S24x256 : Shape := ⟨2, ![24, 256]⟩
abbrev S72x28 : Shape := ⟨2, ![72, 28]⟩
abbrev S3 : Shape := ⟨1, ![3]⟩
abbrev S1x3 : Shape := ⟨2, ![1, 3]⟩
abbrev S_ : Shape := ⟨0, ![]⟩
abbrev S1000000x1 : Shape := ⟨2, ![1000000, 1]⟩
abbrev S1000000 : Shape := ⟨1, ![1000000]⟩
abbrev S1000000x2 : Shape := ⟨2, ![1000000, 2]⟩
abbrev S24x1000000 : Shape := ⟨2, ![24, 1000000]⟩
abbrev S1x1000000 : Shape := ⟨2, ![1, 1000000]⟩
abbrev S1000000x24 : Shape := ⟨2, ![1000000, 24]⟩
abbrev S1000000x28 : Shape := ⟨2, ![1000000, 28]⟩
abbrev S10000x24 : Shape := ⟨2, ![10000, 24]⟩
abbrev S10000x28 : Shape := ⟨2, ![10000, 28]⟩
abbrev S24x28 : Shape := ⟨2, ![24, 28]⟩

abbrev nBuf : Space → Nat
  | .hbm => 1134
  | .vmem => 15
  | .smem => 0
  | _ => 0

abbrev hbmTy0_0 (i : Nat) : BufTy := match i % 128 with
  | 0 => ⟨S1000000x3, .f32⟩
  | 1 => ⟨S24x256x256, .f32⟩
  | 2 => ⟨S24x256x256, .f32⟩
  | 3 => ⟨S24x256x256, .f32⟩
  | 4 => ⟨S24x256, .f32⟩
  | 5 => ⟨S24x256, .f32⟩
  | 6 => ⟨S24x256, .f32⟩
  | 7 => ⟨S72x28, .f32⟩
  | 8 => ⟨S3, .f32⟩
  | 9 => ⟨S3, .f32⟩
  | 10 => ⟨S1x3, .f32⟩
  | 11 => ⟨S1000000x3, .f32⟩
  | 12 => ⟨S1000000x3, .f32⟩
  | 13 => ⟨S3, .f32⟩
  | 14 => ⟨S1x3, .f32⟩
  | 15 => ⟨S1000000x3, .f32⟩
  | 16 => ⟨S1000000x3, .f32⟩
  | 17 => ⟨S_, .f32⟩
  | 18 => ⟨S1000000x3, .f32⟩
  | 19 => ⟨S1000000x3, .f32⟩
  | 20 => ⟨S_, .f32⟩
  | 21 => ⟨S1000000x3, .f32⟩
  | 22 => ⟨S1000000x3, .f32⟩
  | 23 => ⟨S1000000x1, .f32⟩
  | 24 => ⟨S1000000, .f32⟩
  | 25 => ⟨S1000000x1, .f32⟩
  | 26 => ⟨S1000000, .f32⟩
  | 27 => ⟨S1000000x1, .f32⟩
  | 28 => ⟨S1000000, .f32⟩
  | 29 => ⟨S_, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000, .f32⟩
  | 48 => ⟨S1000000, .f32⟩
  | 49 => ⟨S1000000, .f32⟩
  | 50 => ⟨S1000000, .f32⟩
  | 51 => ⟨S1000000, .i32⟩
  | 52 => ⟨S1000000, .i32⟩
  | 53 => ⟨S_, .i32⟩
  | 54 => ⟨S1000000, .i32⟩
  | 55 => ⟨S1000000, .i32⟩
  | 56 => ⟨S_, .i32⟩
  | 57 => ⟨S1000000, .i32⟩
  | 58 => ⟨S1000000, .i32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S1x1000000, .f32⟩
  | 122 => ⟨S24x1000000, .f32⟩
  | 123 => ⟨S24x1000000, .f32⟩
  | 124 => ⟨S_, .i32⟩
  | 125 => ⟨S1000000, .i32⟩
  | 126 => ⟨S1000000, .i1⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S1000000, .i1⟩
  | 3 => ⟨S_, .i32⟩
  | 4 => ⟨S1000000, .i32⟩
  | 5 => ⟨S1000000, .i1⟩
  | 6 => ⟨S1000000, .i1⟩
  | 7 => ⟨S_, .i32⟩
  | 8 => ⟨S1000000, .i32⟩
  | 9 => ⟨S1000000, .i1⟩
  | 10 => ⟨S1000000, .i1⟩
  | 11 => ⟨S_, .i32⟩
  | 12 => ⟨S_, .i32⟩
  | 13 => ⟨S_, .i32⟩
  | 14 => ⟨S1000000, .i32⟩
  | 15 => ⟨S1000000, .i32⟩
  | 16 => ⟨S_, .i32⟩
  | 17 => ⟨S1000000, .i32⟩
  | 18 => ⟨S1000000, .i32⟩
  | 19 => ⟨S_, .i32⟩
  | 20 => ⟨S_, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x1, .i32⟩
  | 43 => ⟨S1000000x2, .i32⟩
  | 44 => ⟨S24x1000000, .f32⟩
  | 45 => ⟨S1x1000000, .i1⟩
  | 46 => ⟨S_, .f32⟩
  | 47 => ⟨S_, .f32⟩
  | 48 => ⟨S24x1000000, .i1⟩
  | 49 => ⟨S24x1000000, .f32⟩
  | 50 => ⟨S24x1000000, .f32⟩
  | 51 => ⟨S_, .f32⟩
  | 52 => ⟨S1000000, .f32⟩
  | 53 => ⟨S1000000, .f32⟩
  | 54 => ⟨S1000000, .f32⟩
  | 55 => ⟨S1x1000000, .f32⟩
  | 56 => ⟨S24x1000000, .f32⟩
  | 57 => ⟨S24x1000000, .f32⟩
  | 58 => ⟨S24x1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S1000000, .f32⟩
  | 118 => ⟨S1x1000000, .f32⟩
  | 119 => ⟨S24x1000000, .f32⟩
  | 120 => ⟨S24x1000000, .f32⟩
  | 121 => ⟨S24x1000000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_2 (i : Nat) : BufTy := match i % 128 with
  | 0 => ⟨S1000000, .i1⟩
  | 1 => ⟨S_, .i32⟩
  | 2 => ⟨S1000000, .i32⟩
  | 3 => ⟨S1000000, .i1⟩
  | 4 => ⟨S1000000, .i1⟩
  | 5 => ⟨S_, .i32⟩
  | 6 => ⟨S1000000, .i32⟩
  | 7 => ⟨S1000000, .i1⟩
  | 8 => ⟨S1000000, .i1⟩
  | 9 => ⟨S_, .i32⟩
  | 10 => ⟨S_, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i32⟩
  | 17 => ⟨S_, .i32⟩
  | 18 => ⟨S_, .i32⟩
  | 19 => ⟨S_, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x1, .i32⟩
  | 41 => ⟨S1000000x2, .i32⟩
  | 42 => ⟨S24x1000000, .f32⟩
  | 43 => ⟨S1x1000000, .i1⟩
  | 44 => ⟨S_, .f32⟩
  | 45 => ⟨S_, .f32⟩
  | 46 => ⟨S24x1000000, .i1⟩
  | 47 => ⟨S24x1000000, .f32⟩
  | 48 => ⟨S24x1000000, .f32⟩
  | 49 => ⟨S1000000, .f32⟩
  | 50 => ⟨S1x1000000, .f32⟩
  | 51 => ⟨S24x1000000, .f32⟩
  | 52 => ⟨S24x1000000, .f32⟩
  | 53 => ⟨S24x1000000, .f32⟩
  | 54 => ⟨S1000000x24, .f32⟩
  | 55 => ⟨S_, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_3 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S1x1000000, .f32⟩
  | 20 => ⟨S24x1000000, .f32⟩
  | 21 => ⟨S24x1000000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i1⟩
  | 28 => ⟨S1000000, .i1⟩
  | 29 => ⟨S_, .i32⟩
  | 30 => ⟨S1000000, .i32⟩
  | 31 => ⟨S1000000, .i1⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x1, .i32⟩
  | 69 => ⟨S1000000x2, .i32⟩
  | 70 => ⟨S24x1000000, .f32⟩
  | 71 => ⟨S1x1000000, .i1⟩
  | 72 => ⟨S_, .f32⟩
  | 73 => ⟨S_, .f32⟩
  | 74 => ⟨S24x1000000, .i1⟩
  | 75 => ⟨S24x1000000, .f32⟩
  | 76 => ⟨S24x1000000, .f32⟩
  | 77 => ⟨S_, .f32⟩
  | 78 => ⟨S1000000, .f32⟩
  | 79 => ⟨S1000000, .f32⟩
  | 80 => ⟨S1000000, .f32⟩
  | 81 => ⟨S1x1000000, .f32⟩
  | 82 => ⟨S24x1000000, .f32⟩
  | 83 => ⟨S24x1000000, .f32⟩
  | 84 => ⟨S24x1000000, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_4 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S1000000, .f32⟩
  | 16 => ⟨S1x1000000, .f32⟩
  | 17 => ⟨S24x1000000, .f32⟩
  | 18 => ⟨S24x1000000, .f32⟩
  | 19 => ⟨S24x1000000, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i1⟩
  | 26 => ⟨S1000000, .i1⟩
  | 27 => ⟨S_, .i32⟩
  | 28 => ⟨S1000000, .i32⟩
  | 29 => ⟨S1000000, .i1⟩
  | 30 => ⟨S1000000, .i1⟩
  | 31 => ⟨S_, .i32⟩
  | 32 => ⟨S1000000, .i32⟩
  | 33 => ⟨S1000000, .i1⟩
  | 34 => ⟨S1000000, .i1⟩
  | 35 => ⟨S_, .i32⟩
  | 36 => ⟨S_, .i32⟩
  | 37 => ⟨S_, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S_, .i32⟩
  | 45 => ⟨S_, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x1, .i32⟩
  | 67 => ⟨S1000000x2, .i32⟩
  | 68 => ⟨S24x1000000, .f32⟩
  | 69 => ⟨S1x1000000, .i1⟩
  | 70 => ⟨S_, .f32⟩
  | 71 => ⟨S_, .f32⟩
  | 72 => ⟨S24x1000000, .i1⟩
  | 73 => ⟨S24x1000000, .f32⟩
  | 74 => ⟨S24x1000000, .f32⟩
  | 75 => ⟨S1000000, .f32⟩
  | 76 => ⟨S1x1000000, .f32⟩
  | 77 => ⟨S24x1000000, .f32⟩
  | 78 => ⟨S24x1000000, .f32⟩
  | 79 => ⟨S24x1000000, .f32⟩
  | 80 => ⟨S1000000x24, .f32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S1000000, .f32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_5 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1x1000000, .f32⟩
  | 46 => ⟨S24x1000000, .f32⟩
  | 47 => ⟨S24x1000000, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i1⟩
  | 54 => ⟨S1000000, .i1⟩
  | 55 => ⟨S_, .i32⟩
  | 56 => ⟨S1000000, .i32⟩
  | 57 => ⟨S1000000, .i1⟩
  | 58 => ⟨S1000000, .i1⟩
  | 59 => ⟨S_, .i32⟩
  | 60 => ⟨S1000000, .i32⟩
  | 61 => ⟨S1000000, .i1⟩
  | 62 => ⟨S1000000, .i1⟩
  | 63 => ⟨S_, .i32⟩
  | 64 => ⟨S_, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S_, .i32⟩
  | 72 => ⟨S_, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x1, .i32⟩
  | 95 => ⟨S1000000x2, .i32⟩
  | 96 => ⟨S24x1000000, .f32⟩
  | 97 => ⟨S1x1000000, .i1⟩
  | 98 => ⟨S_, .f32⟩
  | 99 => ⟨S_, .f32⟩
  | 100 => ⟨S24x1000000, .i1⟩
  | 101 => ⟨S24x1000000, .f32⟩
  | 102 => ⟨S24x1000000, .f32⟩
  | 103 => ⟨S_, .f32⟩
  | 104 => ⟨S1000000, .f32⟩
  | 105 => ⟨S1000000, .f32⟩
  | 106 => ⟨S1000000, .f32⟩
  | 107 => ⟨S1x1000000, .f32⟩
  | 108 => ⟨S24x1000000, .f32⟩
  | 109 => ⟨S24x1000000, .f32⟩
  | 110 => ⟨S24x1000000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_6 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S1000000, .f32⟩
  | 42 => ⟨S1x1000000, .f32⟩
  | 43 => ⟨S24x1000000, .f32⟩
  | 44 => ⟨S24x1000000, .f32⟩
  | 45 => ⟨S24x1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i1⟩
  | 52 => ⟨S1000000, .i1⟩
  | 53 => ⟨S_, .i32⟩
  | 54 => ⟨S1000000, .i32⟩
  | 55 => ⟨S1000000, .i1⟩
  | 56 => ⟨S1000000, .i1⟩
  | 57 => ⟨S_, .i32⟩
  | 58 => ⟨S1000000, .i32⟩
  | 59 => ⟨S1000000, .i1⟩
  | 60 => ⟨S1000000, .i1⟩
  | 61 => ⟨S_, .i32⟩
  | 62 => ⟨S_, .i32⟩
  | 63 => ⟨S_, .i32⟩
  | 64 => ⟨S1000000, .i32⟩
  | 65 => ⟨S1000000, .i32⟩
  | 66 => ⟨S_, .i32⟩
  | 67 => ⟨S1000000, .i32⟩
  | 68 => ⟨S1000000, .i32⟩
  | 69 => ⟨S_, .i32⟩
  | 70 => ⟨S_, .i32⟩
  | 71 => ⟨S_, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x1, .i32⟩
  | 93 => ⟨S1000000x2, .i32⟩
  | 94 => ⟨S24x1000000, .f32⟩
  | 95 => ⟨S1x1000000, .i1⟩
  | 96 => ⟨S_, .f32⟩
  | 97 => ⟨S_, .f32⟩
  | 98 => ⟨S24x1000000, .i1⟩
  | 99 => ⟨S24x1000000, .f32⟩
  | 100 => ⟨S24x1000000, .f32⟩
  | 101 => ⟨S1000000, .f32⟩
  | 102 => ⟨S1x1000000, .f32⟩
  | 103 => ⟨S24x1000000, .f32⟩
  | 104 => ⟨S24x1000000, .f32⟩
  | 105 => ⟨S24x1000000, .f32⟩
  | 106 => ⟨S1000000x24, .f32⟩
  | 107 => ⟨S_, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S1000000, .f32⟩
  | 118 => ⟨S1000000, .i32⟩
  | 119 => ⟨S_, .i32⟩
  | 120 => ⟨S1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_7 (i : Nat) : BufTy := match i % 128 with
  | 0 => ⟨S1000000, .i1⟩
  | 1 => ⟨S_, .i32⟩
  | 2 => ⟨S_, .i32⟩
  | 3 => ⟨S_, .i32⟩
  | 4 => ⟨S1000000, .i32⟩
  | 5 => ⟨S1000000, .i32⟩
  | 6 => ⟨S_, .i32⟩
  | 7 => ⟨S1000000, .i32⟩
  | 8 => ⟨S1000000, .i32⟩
  | 9 => ⟨S1x1000000, .i1⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S24x1000000, .f32⟩
  | 19 => ⟨S_, .f32⟩
  | 20 => ⟨S_, .f32⟩
  | 21 => ⟨S24x1000000, .i1⟩
  | 22 => ⟨S24x1000000, .f32⟩
  | 23 => ⟨S24x1000000, .f32⟩
  | 24 => ⟨S_, .f32⟩
  | 25 => ⟨S1000000, .f32⟩
  | 26 => ⟨S1000000, .f32⟩
  | 27 => ⟨S1x1000000, .f32⟩
  | 28 => ⟨S24x1000000, .f32⟩
  | 29 => ⟨S24x1000000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1x1000000, .i1⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S24x1000000, .f32⟩
  | 55 => ⟨S_, .f32⟩
  | 56 => ⟨S_, .f32⟩
  | 57 => ⟨S24x1000000, .i1⟩
  | 58 => ⟨S24x1000000, .f32⟩
  | 59 => ⟨S24x1000000, .f32⟩
  | 60 => ⟨S1x1000000, .f32⟩
  | 61 => ⟨S24x1000000, .f32⟩
  | 62 => ⟨S24x1000000, .f32⟩
  | 63 => ⟨S24x1000000, .f32⟩
  | 64 => ⟨S1000000x24, .f32⟩
  | 65 => ⟨S_, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S1000000, .f32⟩
  | 76 => ⟨S1000000, .i32⟩
  | 77 => ⟨S_, .i32⟩
  | 78 => ⟨S1000000, .i32⟩
  | 79 => ⟨S1000000, .i32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i1⟩
  | 86 => ⟨S1000000, .i1⟩
  | 87 => ⟨S_, .i32⟩
  | 88 => ⟨S_, .i32⟩
  | 89 => ⟨S_, .i32⟩
  | 90 => ⟨S1000000, .i32⟩
  | 91 => ⟨S1000000, .i32⟩
  | 92 => ⟨S_, .i32⟩
  | 93 => ⟨S1000000, .i32⟩
  | 94 => ⟨S1000000, .i32⟩
  | 95 => ⟨S1x1000000, .i1⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S24x1000000, .f32⟩
  | 105 => ⟨S_, .f32⟩
  | 106 => ⟨S_, .f32⟩
  | 107 => ⟨S24x1000000, .i1⟩
  | 108 => ⟨S24x1000000, .f32⟩
  | 109 => ⟨S24x1000000, .f32⟩
  | 110 => ⟨S_, .f32⟩
  | 111 => ⟨S1000000, .f32⟩
  | 112 => ⟨S1000000, .f32⟩
  | 113 => ⟨S1x1000000, .f32⟩
  | 114 => ⟨S24x1000000, .f32⟩
  | 115 => ⟨S24x1000000, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i1⟩
  | 122 => ⟨S1000000, .i1⟩
  | 123 => ⟨S_, .i32⟩
  | 124 => ⟨S_, .i32⟩
  | 125 => ⟨S_, .i32⟩
  | 126 => ⟨S1000000, .i32⟩
  | 127 => ⟨S1000000, .i32⟩
  | _ => ⟨S1000000x3, .f32⟩

abbrev hbmTy0_8 (i : Nat) : BufTy := match i % 128 with
  | 0 => ⟨S_, .i32⟩
  | 1 => ⟨S1000000, .i32⟩
  | 2 => ⟨S1000000, .i32⟩
  | 3 => ⟨S1x1000000, .i1⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S24x1000000, .f32⟩
  | 13 => ⟨S_, .f32⟩
  | 14 => ⟨S_, .f32⟩
  | 15 => ⟨S24x1000000, .i1⟩
  | 16 => ⟨S24x1000000, .f32⟩
  | 17 => ⟨S24x1000000, .f32⟩
  | 18 => ⟨S1x1000000, .f32⟩
  | 19 => ⟨S24x1000000, .f32⟩
  | 20 => ⟨S24x1000000, .f32⟩
  | 21 => ⟨S24x1000000, .f32⟩
  | 22 => ⟨S1000000x24, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S1000000, .f32⟩
  | 34 => ⟨S1000000, .i32⟩
  | 35 => ⟨S_, .i32⟩
  | 36 => ⟨S1000000, .i32⟩
  | 37 => ⟨S1000000, .i32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i1⟩
  | 44 => ⟨S1000000, .i1⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S1x1000000, .i1⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S24x1000000, .f32⟩
  | 63 => ⟨S_, .f32⟩
  | 64 => ⟨S_, .f32⟩
  | 65 => ⟨S24x1000000, .i1⟩
  | 66 => ⟨S24x1000000, .f32⟩
  | 67 => ⟨S24x1000000, .f32⟩
  | 68 => ⟨S_, .f32⟩
  | 69 => ⟨S1000000, .f32⟩
  | 70 => ⟨S1000000, .f32⟩
  | 71 => ⟨S1x1000000, .f32⟩
  | 72 => ⟨S24x1000000, .f32⟩
  | 73 => ⟨S24x1000000, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i1⟩
  | 80 => ⟨S1000000, .i1⟩
  | 81 => ⟨S_, .i32⟩
  | 82 => ⟨S_, .i32⟩
  | 83 => ⟨S_, .i32⟩
  | 84 => ⟨S1000000, .i32⟩
  | 85 => ⟨S1000000, .i32⟩
  | 86 => ⟨S_, .i32⟩
  | 87 => ⟨S1000000, .i32⟩
  | 88 => ⟨S1000000, .i32⟩
  | 89 => ⟨S1x1000000, .i1⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S24x1000000, .f32⟩
  | 99 => ⟨S_, .f32⟩
  | 100 => ⟨S_, .f32⟩
  | 101 => ⟨S24x1000000, .i1⟩
  | 102 => ⟨S24x1000000, .f32⟩
  | 103 => ⟨S24x1000000, .f32⟩
  | 104 => ⟨S1x1000000, .f32⟩
  | 105 => ⟨S24x1000000, .f32⟩
  | 106 => ⟨S24x1000000, .f32⟩
  | 107 => ⟨S24x1000000, .f32⟩
  | 108 => ⟨S1000000x24, .f32⟩
  | 109 => ⟨S1000000x28, .f32⟩
  | _ => ⟨S1000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x3, .f32⟩

abbrev bufTy : (tb : Table) → Fin (tcTables nBuf tb) → BufTy
  | .hbm, ⟨i, _⟩ => hbmTy i
  | .local _ .vmem, ⟨0, _⟩ => ⟨S10000x24, .f32⟩
  | .local _ .vmem, ⟨1, _⟩ => ⟨S10000x24, .f32⟩
  | .local _ .vmem, ⟨2, _⟩ => ⟨S10000x24, .f32⟩
  | .local _ .vmem, ⟨3, _⟩ => ⟨S10000x24, .f32⟩
  | .local _ .vmem, ⟨4, _⟩ => ⟨S10000x24, .f32⟩
  | .local _ .vmem, ⟨5, _⟩ => ⟨S10000x24, .f32⟩
  | .local _ .vmem, ⟨6, _⟩ => ⟨S10000x24, .f32⟩
  | .local _ .vmem, ⟨7, _⟩ => ⟨S10000x24, .f32⟩
  | .local _ .vmem, ⟨8, _⟩ => ⟨S10000x24, .f32⟩
  | .local _ .vmem, ⟨9, _⟩ => ⟨S10000x24, .f32⟩
  | .local _ .vmem, ⟨10, _⟩ => ⟨S10000x24, .f32⟩
  | .local _ .vmem, ⟨11, _⟩ => ⟨S10000x24, .f32⟩
  | .local _ .vmem, ⟨12, _⟩ => ⟨S72x28, .f32⟩
  | .local _ .vmem, ⟨13, _⟩ => ⟨S10000x28, .f32⟩
  | .local _ .vmem, ⟨14, _⟩ => ⟨S10000x28, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_c_13 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v50 : Ref sig .tc := ⟨.hbm, 81, rfl⟩
abbrev main_c_14 : Ref sig .tc := ⟨.hbm, 82, rfl⟩
abbrev main_c_15 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v51 : Ref sig .tc := ⟨.hbm, 89, rfl⟩
abbrev main_c_16 : Ref sig .tc := ⟨.hbm, 90, rfl⟩
abbrev main_v52 : Ref sig .tc := ⟨.hbm, 91, rfl⟩
abbrev main_v53 : Ref sig .tc := ⟨.hbm, 92, rfl⟩
abbrev main_c_17 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_18 : Ref sig .tc := ⟨.hbm, 97, rfl⟩
abbrev main_v57 : Ref sig .tc := ⟨.hbm, 98, rfl⟩
abbrev main_v58 : Ref sig .tc := ⟨.hbm, 99, rfl⟩
abbrev main_c_19 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_20 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v67 : Ref sig .tc := ⟨.hbm, 113, rfl⟩
abbrev main_cst_21 : Ref sig .tc := ⟨.hbm, 114, rfl⟩
abbrev main_v68 : Ref sig .tc := ⟨.hbm, 115, rfl⟩
abbrev main_v69 : Ref sig .tc := ⟨.hbm, 116, rfl⟩
abbrev main_cst_22 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_23 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_25 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_26 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_27 : Ref sig .tc := ⟨.hbm, 139, rfl⟩
abbrev main_c_28 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v87 : Ref sig .tc := ⟨.hbm, 146, rfl⟩
abbrev main_c_29 : Ref sig .tc := ⟨.hbm, 147, rfl⟩
abbrev main_c_30 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v88 : Ref sig .tc := ⟨.hbm, 154, rfl⟩
abbrev main_c_31 : Ref sig .tc := ⟨.hbm, 155, rfl⟩
abbrev main_v89 : Ref sig .tc := ⟨.hbm, 156, rfl⟩
abbrev main_v90 : Ref sig .tc := ⟨.hbm, 157, rfl⟩
abbrev main_c_32 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c_33 : Ref sig .tc := ⟨.hbm, 162, rfl⟩
abbrev main_v94 : Ref sig .tc := ⟨.hbm, 163, rfl⟩
abbrev main_v95 : Ref sig .tc := ⟨.hbm, 164, rfl⟩
abbrev main_c_34 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_35 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v104 : Ref sig .tc := ⟨.hbm, 178, rfl⟩
abbrev main_cst_36 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_37 : Ref sig .tc := ⟨.hbm, 187, rfl⟩
abbrev main_v112 : Ref sig .tc := ⟨.hbm, 188, rfl⟩
abbrev main_v113 : Ref sig .tc := ⟨.hbm, 189, rfl⟩
abbrev main_c_38 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_c_39 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_c_40 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_41 : Ref sig .tc := ⟨.hbm, 202, rfl⟩
abbrev main_c_42 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_c_43 : Ref sig .tc := ⟨.hbm, 210, rfl⟩
abbrev main_c_44 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_v124 : Ref sig .tc := ⟨.hbm, 217, rfl⟩
abbrev main_c_45 : Ref sig .tc := ⟨.hbm, 218, rfl⟩
abbrev main_v125 : Ref sig .tc := ⟨.hbm, 219, rfl⟩
abbrev main_v126 : Ref sig .tc := ⟨.hbm, 220, rfl⟩
abbrev main_c_46 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_c_47 : Ref sig .tc := ⟨.hbm, 225, rfl⟩
abbrev main_v130 : Ref sig .tc := ⟨.hbm, 226, rfl⟩
abbrev main_v131 : Ref sig .tc := ⟨.hbm, 227, rfl⟩
abbrev main_c_48 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_cst_49 : Ref sig .tc := ⟨.hbm, 237, rfl⟩
abbrev main_call8_v0 : Ref sig .tc := ⟨.hbm, 238, rfl⟩
abbrev main_call8_v1 : Ref sig .tc := ⟨.hbm, 239, rfl⟩
abbrev main_call8_v2 : Ref sig .tc := ⟨.hbm, 240, rfl⟩
abbrev main_v140 : Ref sig .tc := ⟨.hbm, 241, rfl⟩
abbrev main_cst_50 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_c_51 : Ref sig .tc := ⟨.hbm, 250, rfl⟩
abbrev main_v148 : Ref sig .tc := ⟨.hbm, 251, rfl⟩
abbrev main_v149 : Ref sig .tc := ⟨.hbm, 252, rfl⟩
abbrev main_c_52 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_c_53 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_c_54 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_c_55 : Ref sig .tc := ⟨.hbm, 265, rfl⟩
abbrev main_c_56 : Ref sig .tc := ⟨.hbm, 266, rfl⟩
abbrev main_call9_v0 : Ref sig .tc := ⟨.hbm, 267, rfl⟩
abbrev main_call9_v1 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_v159 : Ref sig .tc := ⟨.hbm, 272, rfl⟩
abbrev main_c_57 : Ref sig .tc := ⟨.hbm, 273, rfl⟩
abbrev main_c_58 : Ref sig .tc := ⟨.hbm, 274, rfl⟩
abbrev main_call10_v0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_v160 : Ref sig .tc := ⟨.hbm, 280, rfl⟩
abbrev main_c_59 : Ref sig .tc := ⟨.hbm, 281, rfl⟩
abbrev main_v161 : Ref sig .tc := ⟨.hbm, 282, rfl⟩
abbrev main_v162 : Ref sig .tc := ⟨.hbm, 283, rfl⟩
abbrev main_c_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_c_61 : Ref sig .tc := ⟨.hbm, 288, rfl⟩
abbrev main_v166 : Ref sig .tc := ⟨.hbm, 289, rfl⟩
abbrev main_v167 : Ref sig .tc := ⟨.hbm, 290, rfl⟩
abbrev main_c_62 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_cst_63 : Ref sig .tc := ⟨.hbm, 300, rfl⟩
abbrev main_call11_v0 : Ref sig .tc := ⟨.hbm, 301, rfl⟩
abbrev main_call11_v1 : Ref sig .tc := ⟨.hbm, 302, rfl⟩
abbrev main_call11_v2 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_cst_64 : Ref sig .tc := ⟨.hbm, 311, rfl⟩
abbrev main_v183 : Ref sig .tc := ⟨.hbm, 312, rfl⟩
abbrev main_v184 : Ref sig .tc := ⟨.hbm, 313, rfl⟩
abbrev main_cst_65 : Ref sig .tc := ⟨.hbm, 314, rfl⟩
abbrev main_v185 : Ref sig .tc := ⟨.hbm, 315, rfl⟩
abbrev main_v186 : Ref sig .tc := ⟨.hbm, 316, rfl⟩
abbrev main_cst_66 : Ref sig .tc := ⟨.hbm, 317, rfl⟩
abbrev main_v187 : Ref sig .tc := ⟨.hbm, 318, rfl⟩
abbrev main_v188 : Ref sig .tc := ⟨.hbm, 319, rfl⟩
abbrev main_cst_67 : Ref sig .tc := ⟨.hbm, 320, rfl⟩
abbrev main_v189 : Ref sig .tc := ⟨.hbm, 321, rfl⟩
abbrev main_v190 : Ref sig .tc := ⟨.hbm, 322, rfl⟩
abbrev main_cst_68 : Ref sig .tc := ⟨.hbm, 323, rfl⟩
abbrev main_v191 : Ref sig .tc := ⟨.hbm, 324, rfl⟩
abbrev main_v192 : Ref sig .tc := ⟨.hbm, 325, rfl⟩
abbrev main_cst_69 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_c_70 : Ref sig .tc := ⟨.hbm, 335, rfl⟩
abbrev main_v201 : Ref sig .tc := ⟨.hbm, 336, rfl⟩
abbrev main_v202 : Ref sig .tc := ⟨.hbm, 337, rfl⟩
abbrev main_c_71 : Ref sig .tc := ⟨.hbm, 338, rfl⟩
abbrev main_v203 : Ref sig .tc := ⟨.hbm, 339, rfl⟩
abbrev main_v204 : Ref sig .tc := ⟨.hbm, 340, rfl⟩
abbrev main_c_72 : Ref sig .tc := ⟨.hbm, 341, rfl⟩
abbrev main_v205 : Ref sig .tc := ⟨.hbm, 342, rfl⟩
abbrev main_v206 : Ref sig .tc := ⟨.hbm, 343, rfl⟩
abbrev main_c_73 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_c_74 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_c_75 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_c_76 : Ref sig .tc := ⟨.hbm, 356, rfl⟩
abbrev main_c_77 : Ref sig .tc := ⟨.hbm, 357, rfl⟩
abbrev main_call12_v0 : Ref sig .tc := ⟨.hbm, 358, rfl⟩
abbrev main_call12_v1 : Ref sig .tc := ⟨.hbm, 359, rfl⟩
abbrev main_call12_v2 : Ref sig .tc := ⟨.hbm, 360, rfl⟩
abbrev main_call12_v3 : Ref sig .tc := ⟨.hbm, 361, rfl⟩
abbrev main_call12_v4 : Ref sig .tc := ⟨.hbm, 362, rfl⟩
abbrev main_v216 : Ref sig .tc := ⟨.hbm, 363, rfl⟩
abbrev main_c_78 : Ref sig .tc := ⟨.hbm, 364, rfl⟩
abbrev main_c_79 : Ref sig .tc := ⟨.hbm, 365, rfl⟩
abbrev main_call13_v0 : Ref sig .tc := ⟨.hbm, 366, rfl⟩
abbrev main_call13_v1 : Ref sig .tc := ⟨.hbm, 367, rfl⟩
abbrev main_call13_v2 : Ref sig .tc := ⟨.hbm, 368, rfl⟩
abbrev main_call13_v3 : Ref sig .tc := ⟨.hbm, 369, rfl⟩
abbrev main_call13_v4 : Ref sig .tc := ⟨.hbm, 370, rfl⟩
abbrev main_v217 : Ref sig .tc := ⟨.hbm, 371, rfl⟩
abbrev main_c_80 : Ref sig .tc := ⟨.hbm, 372, rfl⟩
abbrev main_v218 : Ref sig .tc := ⟨.hbm, 373, rfl⟩
abbrev main_v219 : Ref sig .tc := ⟨.hbm, 374, rfl⟩
abbrev main_c_81 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_c_82 : Ref sig .tc := ⟨.hbm, 379, rfl⟩
abbrev main_v223 : Ref sig .tc := ⟨.hbm, 380, rfl⟩
abbrev main_v224 : Ref sig .tc := ⟨.hbm, 381, rfl⟩
abbrev main_c_83 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_cst_84 : Ref sig .tc := ⟨.hbm, 391, rfl⟩
abbrev main_call14_v0 : Ref sig .tc := ⟨.hbm, 392, rfl⟩
abbrev main_call14_v1 : Ref sig .tc := ⟨.hbm, 393, rfl⟩
abbrev main_call14_v2 : Ref sig .tc := ⟨.hbm, 394, rfl⟩
abbrev main_v233 : Ref sig .tc := ⟨.hbm, 395, rfl⟩
abbrev main_cst_85 : Ref sig .tc := ⟨.hbm, 396, rfl⟩
abbrev main_v234 : Ref sig .tc := ⟨.hbm, 397, rfl⟩
abbrev main_v235 : Ref sig .tc := ⟨.hbm, 398, rfl⟩
abbrev main_cst_86 : Ref sig .tc := ⟨.hbm, 399, rfl⟩
abbrev main_v236 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_c_87 : Ref sig .tc := ⟨.hbm, 406, rfl⟩
abbrev main_v242 : Ref sig .tc := ⟨.hbm, 407, rfl⟩
abbrev main_v243 : Ref sig .tc := ⟨.hbm, 408, rfl⟩
abbrev main_c_88 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_c_89 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_c_90 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_c_91 : Ref sig .tc := ⟨.hbm, 421, rfl⟩
abbrev main_c_92 : Ref sig .tc := ⟨.hbm, 422, rfl⟩
abbrev main_call15_v0 : Ref sig .tc := ⟨.hbm, 423, rfl⟩
abbrev main_call15_v1 : Ref sig .tc := ⟨.hbm, 424, rfl⟩
abbrev main_call15_v2 : Ref sig .tc := ⟨.hbm, 425, rfl⟩
abbrev main_call15_v3 : Ref sig .tc := ⟨.hbm, 426, rfl⟩
abbrev main_call15_v4 : Ref sig .tc := ⟨.hbm, 427, rfl⟩
abbrev main_v253 : Ref sig .tc := ⟨.hbm, 428, rfl⟩
abbrev main_c_93 : Ref sig .tc := ⟨.hbm, 429, rfl⟩
abbrev main_c_94 : Ref sig .tc := ⟨.hbm, 430, rfl⟩
abbrev main_call16_v0 : Ref sig .tc := ⟨.hbm, 431, rfl⟩
abbrev main_call16_v1 : Ref sig .tc := ⟨.hbm, 432, rfl⟩
abbrev main_call16_v2 : Ref sig .tc := ⟨.hbm, 433, rfl⟩
abbrev main_call16_v3 : Ref sig .tc := ⟨.hbm, 434, rfl⟩
abbrev main_call16_v4 : Ref sig .tc := ⟨.hbm, 435, rfl⟩
abbrev main_v254 : Ref sig .tc := ⟨.hbm, 436, rfl⟩
abbrev main_c_95 : Ref sig .tc := ⟨.hbm, 437, rfl⟩
abbrev main_v255 : Ref sig .tc := ⟨.hbm, 438, rfl⟩
abbrev main_v256 : Ref sig .tc := ⟨.hbm, 439, rfl⟩
abbrev main_c_96 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_c_97 : Ref sig .tc := ⟨.hbm, 444, rfl⟩
abbrev main_v260 : Ref sig .tc := ⟨.hbm, 445, rfl⟩
abbrev main_v261 : Ref sig .tc := ⟨.hbm, 446, rfl⟩
abbrev main_c_98 : Ref sig .tc := ⟨.hbm, 447, rfl⟩
abbrev main_v262 : Ref sig .tc := ⟨.hbm, 448, rfl⟩
abbrev main_v263 : Ref sig .tc := ⟨.hbm, 449, rfl⟩
abbrev main_v264 : Ref sig .tc := ⟨.hbm, 450, rfl⟩
abbrev main_v265 : Ref sig .tc := ⟨.hbm, 451, rfl⟩
abbrev main_v266 : Ref sig .tc := ⟨.hbm, 452, rfl⟩
abbrev main_v267 : Ref sig .tc := ⟨.hbm, 453, rfl⟩
abbrev main_v268 : Ref sig .tc := ⟨.hbm, 454, rfl⟩
abbrev main_v269 : Ref sig .tc := ⟨.hbm, 455, rfl⟩
abbrev main_cst_99 : Ref sig .tc := ⟨.hbm, 456, rfl⟩
abbrev main_call17_v0 : Ref sig .tc := ⟨.hbm, 457, rfl⟩
abbrev main_call17_v1 : Ref sig .tc := ⟨.hbm, 458, rfl⟩
abbrev main_call17_v2 : Ref sig .tc := ⟨.hbm, 459, rfl⟩
abbrev main_v270 : Ref sig .tc := ⟨.hbm, 460, rfl⟩
abbrev main_cst_100 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_c_101 : Ref sig .tc := ⟨.hbm, 469, rfl⟩
abbrev main_v278 : Ref sig .tc := ⟨.hbm, 470, rfl⟩
abbrev main_v279 : Ref sig .tc := ⟨.hbm, 471, rfl⟩
abbrev main_c_102 : Ref sig .tc := ⟨.hbm, 472, rfl⟩
abbrev main_v280 : Ref sig .tc := ⟨.hbm, 473, rfl⟩
abbrev main_v281 : Ref sig .tc := ⟨.hbm, 474, rfl⟩
abbrev main_v282 : Ref sig .tc := ⟨.hbm, 475, rfl⟩
abbrev main_c_103 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_c_104 : Ref sig .tc := ⟨.hbm, 480, rfl⟩
abbrev main_v286 : Ref sig .tc := ⟨.hbm, 481, rfl⟩
abbrev main_v287 : Ref sig .tc := ⟨.hbm, 482, rfl⟩
abbrev main_v288 : Ref sig .tc := ⟨.hbm, 483, rfl⟩
abbrev main_c_105 : Ref sig .tc := ⟨.hbm, 484, rfl⟩
abbrev main_c_106 : Ref sig .tc := ⟨.hbm, 485, rfl⟩
abbrev main_call18_v0 : Ref sig .tc := ⟨.hbm, 486, rfl⟩
abbrev main_call18_v1 : Ref sig .tc := ⟨.hbm, 487, rfl⟩
abbrev main_call18_v2 : Ref sig .tc := ⟨.hbm, 488, rfl⟩
abbrev main_call18_v3 : Ref sig .tc := ⟨.hbm, 489, rfl⟩
abbrev main_call18_v4 : Ref sig .tc := ⟨.hbm, 490, rfl⟩
abbrev main_v289 : Ref sig .tc := ⟨.hbm, 491, rfl⟩
abbrev main_c_107 : Ref sig .tc := ⟨.hbm, 492, rfl⟩
abbrev main_c_108 : Ref sig .tc := ⟨.hbm, 493, rfl⟩
abbrev main_call19_v0 : Ref sig .tc := ⟨.hbm, 494, rfl⟩
abbrev main_call19_v1 : Ref sig .tc := ⟨.hbm, 495, rfl⟩
abbrev main_call19_v2 : Ref sig .tc := ⟨.hbm, 496, rfl⟩
abbrev main_call19_v3 : Ref sig .tc := ⟨.hbm, 497, rfl⟩
abbrev main_call19_v4 : Ref sig .tc := ⟨.hbm, 498, rfl⟩
abbrev main_v290 : Ref sig .tc := ⟨.hbm, 499, rfl⟩
abbrev main_c_109 : Ref sig .tc := ⟨.hbm, 500, rfl⟩
abbrev main_v291 : Ref sig .tc := ⟨.hbm, 501, rfl⟩
abbrev main_v292 : Ref sig .tc := ⟨.hbm, 502, rfl⟩
abbrev main_c_110 : Ref sig .tc := ⟨.hbm, 503, rfl⟩
abbrev main_v293 : Ref sig .tc := ⟨.hbm, 504, rfl⟩
abbrev main_v294 : Ref sig .tc := ⟨.hbm, 505, rfl⟩
abbrev main_v295 : Ref sig .tc := ⟨.hbm, 506, rfl⟩
abbrev main_c_111 : Ref sig .tc := ⟨.hbm, 507, rfl⟩
abbrev main_v296 : Ref sig .tc := ⟨.hbm, 508, rfl⟩
abbrev main_v297 : Ref sig .tc := ⟨.hbm, 509, rfl⟩
abbrev main_c_112 : Ref sig .tc := ⟨.hbm, 510, rfl⟩
abbrev main_v298 : Ref sig .tc := ⟨.hbm, 511, rfl⟩
abbrev main_v299 : Ref sig .tc := ⟨.hbm, 512, rfl⟩
abbrev main_v300 : Ref sig .tc := ⟨.hbm, 513, rfl⟩
abbrev main_v301 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_cst_113 : Ref sig .tc := ⟨.hbm, 519, rfl⟩
abbrev main_call20_v0 : Ref sig .tc := ⟨.hbm, 520, rfl⟩
abbrev main_call20_v1 : Ref sig .tc := ⟨.hbm, 521, rfl⟩
abbrev main_call20_v2 : Ref sig .tc := ⟨.hbm, 522, rfl⟩
abbrev main_v306 : Ref sig .tc := ⟨.hbm, 523, rfl⟩
abbrev main_cst_114 : Ref sig .tc := ⟨.hbm, 524, rfl⟩
abbrev main_v307 : Ref sig .tc := ⟨.hbm, 525, rfl⟩
abbrev main_v308 : Ref sig .tc := ⟨.hbm, 526, rfl⟩
abbrev main_v309 : Ref sig .tc := ⟨.hbm, 527, rfl⟩
abbrev main_v310 : Ref sig .tc := ⟨.hbm, 528, rfl⟩
abbrev main_v311 : Ref sig .tc := ⟨.hbm, 529, rfl⟩
abbrev main_v312 : Ref sig .tc := ⟨.hbm, 530, rfl⟩
abbrev main_v313 : Ref sig .tc := ⟨.hbm, 531, rfl⟩
abbrev main_c_115 : Ref sig .tc := ⟨.hbm, 532, rfl⟩
abbrev main_v314 : Ref sig .tc := ⟨.hbm, 533, rfl⟩
abbrev main_v315 : Ref sig .tc := ⟨.hbm, 534, rfl⟩
abbrev main_c_116 : Ref sig .tc := ⟨.hbm, 535, rfl⟩
abbrev main_v316 : Ref sig .tc := ⟨.hbm, 536, rfl⟩
abbrev main_v317 : Ref sig .tc := ⟨.hbm, 537, rfl⟩
abbrev main_v318 : Ref sig .tc := ⟨.hbm, 538, rfl⟩
abbrev main_c_117 : Ref sig .tc := ⟨.hbm, 539, rfl⟩
abbrev main_v319 : Ref sig .tc := ⟨.hbm, 540, rfl⟩
abbrev main_v320 : Ref sig .tc := ⟨.hbm, 541, rfl⟩
abbrev main_v321 : Ref sig .tc := ⟨.hbm, 542, rfl⟩
abbrev main_c_118 : Ref sig .tc := ⟨.hbm, 543, rfl⟩
abbrev main_v322 : Ref sig .tc := ⟨.hbm, 544, rfl⟩
abbrev main_v323 : Ref sig .tc := ⟨.hbm, 545, rfl⟩
abbrev main_v324 : Ref sig .tc := ⟨.hbm, 546, rfl⟩
abbrev main_c_119 : Ref sig .tc := ⟨.hbm, 547, rfl⟩
abbrev main_c_120 : Ref sig .tc := ⟨.hbm, 548, rfl⟩
abbrev main_call21_v0 : Ref sig .tc := ⟨.hbm, 549, rfl⟩
abbrev main_call21_v1 : Ref sig .tc := ⟨.hbm, 550, rfl⟩
abbrev main_call21_v2 : Ref sig .tc := ⟨.hbm, 551, rfl⟩
abbrev main_call21_v3 : Ref sig .tc := ⟨.hbm, 552, rfl⟩
abbrev main_call21_v4 : Ref sig .tc := ⟨.hbm, 553, rfl⟩
abbrev main_v325 : Ref sig .tc := ⟨.hbm, 554, rfl⟩
abbrev main_c_121 : Ref sig .tc := ⟨.hbm, 555, rfl⟩
abbrev main_c_122 : Ref sig .tc := ⟨.hbm, 556, rfl⟩
abbrev main_call22_v0 : Ref sig .tc := ⟨.hbm, 557, rfl⟩
abbrev main_call22_v1 : Ref sig .tc := ⟨.hbm, 558, rfl⟩
abbrev main_call22_v2 : Ref sig .tc := ⟨.hbm, 559, rfl⟩
abbrev main_call22_v3 : Ref sig .tc := ⟨.hbm, 560, rfl⟩
abbrev main_call22_v4 : Ref sig .tc := ⟨.hbm, 561, rfl⟩
abbrev main_v326 : Ref sig .tc := ⟨.hbm, 562, rfl⟩
abbrev main_c_123 : Ref sig .tc := ⟨.hbm, 563, rfl⟩
abbrev main_v327 : Ref sig .tc := ⟨.hbm, 564, rfl⟩
abbrev main_v328 : Ref sig .tc := ⟨.hbm, 565, rfl⟩
abbrev main_c_124 : Ref sig .tc := ⟨.hbm, 566, rfl⟩
abbrev main_v329 : Ref sig .tc := ⟨.hbm, 567, rfl⟩
abbrev main_v330 : Ref sig .tc := ⟨.hbm, 568, rfl⟩
abbrev main_v331 : Ref sig .tc := ⟨.hbm, 569, rfl⟩
abbrev main_c_125 : Ref sig .tc := ⟨.hbm, 570, rfl⟩
abbrev main_v332 : Ref sig .tc := ⟨.hbm, 571, rfl⟩
abbrev main_v333 : Ref sig .tc := ⟨.hbm, 572, rfl⟩
abbrev main_c_126 : Ref sig .tc := ⟨.hbm, 573, rfl⟩
abbrev main_v334 : Ref sig .tc := ⟨.hbm, 574, rfl⟩
abbrev main_v335 : Ref sig .tc := ⟨.hbm, 575, rfl⟩
abbrev main_v336 : Ref sig .tc := ⟨.hbm, 576, rfl⟩
abbrev main_v337 : Ref sig .tc := ⟨.hbm, 577, rfl⟩
abbrev main_v338 : Ref sig .tc := ⟨.hbm, 578, rfl⟩
abbrev main_v339 : Ref sig .tc := ⟨.hbm, 579, rfl⟩
abbrev main_v340 : Ref sig .tc := ⟨.hbm, 580, rfl⟩
abbrev main_v341 : Ref sig .tc := ⟨.hbm, 581, rfl⟩
abbrev main_cst_127 : Ref sig .tc := ⟨.hbm, 582, rfl⟩
abbrev main_call23_v0 : Ref sig .tc := ⟨.hbm, 583, rfl⟩
abbrev main_call23_v1 : Ref sig .tc := ⟨.hbm, 584, rfl⟩
abbrev main_call23_v2 : Ref sig .tc := ⟨.hbm, 585, rfl⟩
abbrev main_v342 : Ref sig .tc := ⟨.hbm, 586, rfl⟩
abbrev main_v343 : Ref sig .tc := ⟨.hbm, 587, rfl⟩
abbrev main_v344 : Ref sig .tc := ⟨.hbm, 588, rfl⟩
abbrev main_v345 : Ref sig .tc := ⟨.hbm, 589, rfl⟩
abbrev main_v346 : Ref sig .tc := ⟨.hbm, 590, rfl⟩
abbrev main_v347 : Ref sig .tc := ⟨.hbm, 591, rfl⟩
abbrev main_v348 : Ref sig .tc := ⟨.hbm, 592, rfl⟩
abbrev main_cst_128 : Ref sig .tc := ⟨.hbm, 593, rfl⟩
abbrev main_v349 : Ref sig .tc := ⟨.hbm, 594, rfl⟩
abbrev main_v350 : Ref sig .tc := ⟨.hbm, 595, rfl⟩
abbrev main_cst_129 : Ref sig .tc := ⟨.hbm, 596, rfl⟩
abbrev main_v351 : Ref sig .tc := ⟨.hbm, 597, rfl⟩
abbrev main_v352 : Ref sig .tc := ⟨.hbm, 598, rfl⟩
abbrev main_cst_130 : Ref sig .tc := ⟨.hbm, 599, rfl⟩
abbrev main_v353 : Ref sig .tc := ⟨.hbm, 600, rfl⟩
abbrev main_v354 : Ref sig .tc := ⟨.hbm, 601, rfl⟩
abbrev main_cst_131 : Ref sig .tc := ⟨.hbm, 602, rfl⟩
abbrev main_v355 : Ref sig .tc := ⟨.hbm, 603, rfl⟩
abbrev main_v356 : Ref sig .tc := ⟨.hbm, 604, rfl⟩
abbrev main_cst_132 : Ref sig .tc := ⟨.hbm, 605, rfl⟩
abbrev main_v357 : Ref sig .tc := ⟨.hbm, 606, rfl⟩
abbrev main_v358 : Ref sig .tc := ⟨.hbm, 607, rfl⟩
abbrev main_cst_133 : Ref sig .tc := ⟨.hbm, 608, rfl⟩
abbrev main_v359 : Ref sig .tc := ⟨.hbm, 609, rfl⟩
abbrev main_v360 : Ref sig .tc := ⟨.hbm, 610, rfl⟩
abbrev main_v361 : Ref sig .tc := ⟨.hbm, 611, rfl⟩
abbrev main_v362 : Ref sig .tc := ⟨.hbm, 612, rfl⟩
abbrev main_v363 : Ref sig .tc := ⟨.hbm, 613, rfl⟩
abbrev main_v364 : Ref sig .tc := ⟨.hbm, 614, rfl⟩
abbrev main_v365 : Ref sig .tc := ⟨.hbm, 615, rfl⟩
abbrev main_v366 : Ref sig .tc := ⟨.hbm, 616, rfl⟩
abbrev main_c_134 : Ref sig .tc := ⟨.hbm, 617, rfl⟩
abbrev main_v367 : Ref sig .tc := ⟨.hbm, 618, rfl⟩
abbrev main_v368 : Ref sig .tc := ⟨.hbm, 619, rfl⟩
abbrev main_c_135 : Ref sig .tc := ⟨.hbm, 620, rfl⟩
abbrev main_v369 : Ref sig .tc := ⟨.hbm, 621, rfl⟩
abbrev main_v370 : Ref sig .tc := ⟨.hbm, 622, rfl⟩
abbrev main_c_136 : Ref sig .tc := ⟨.hbm, 623, rfl⟩
abbrev main_v371 : Ref sig .tc := ⟨.hbm, 624, rfl⟩
abbrev main_v372 : Ref sig .tc := ⟨.hbm, 625, rfl⟩
abbrev main_c_137 : Ref sig .tc := ⟨.hbm, 626, rfl⟩
abbrev main_v373 : Ref sig .tc := ⟨.hbm, 627, rfl⟩
abbrev main_v374 : Ref sig .tc := ⟨.hbm, 628, rfl⟩
abbrev main_v375 : Ref sig .tc := ⟨.hbm, 629, rfl⟩
abbrev main_c_138 : Ref sig .tc := ⟨.hbm, 630, rfl⟩
abbrev main_v376 : Ref sig .tc := ⟨.hbm, 631, rfl⟩
abbrev main_v377 : Ref sig .tc := ⟨.hbm, 632, rfl⟩
abbrev main_v378 : Ref sig .tc := ⟨.hbm, 633, rfl⟩
abbrev main_c_139 : Ref sig .tc := ⟨.hbm, 634, rfl⟩
abbrev main_v379 : Ref sig .tc := ⟨.hbm, 635, rfl⟩
abbrev main_v380 : Ref sig .tc := ⟨.hbm, 636, rfl⟩
abbrev main_v381 : Ref sig .tc := ⟨.hbm, 637, rfl⟩
abbrev main_c_140 : Ref sig .tc := ⟨.hbm, 638, rfl⟩
abbrev main_c_141 : Ref sig .tc := ⟨.hbm, 639, rfl⟩
abbrev main_call24_v0 : Ref sig .tc := ⟨.hbm, 640, rfl⟩
abbrev main_call24_v1 : Ref sig .tc := ⟨.hbm, 641, rfl⟩
abbrev main_call24_v2 : Ref sig .tc := ⟨.hbm, 642, rfl⟩
abbrev main_call24_v3 : Ref sig .tc := ⟨.hbm, 643, rfl⟩
abbrev main_call24_v4 : Ref sig .tc := ⟨.hbm, 644, rfl⟩
abbrev main_v382 : Ref sig .tc := ⟨.hbm, 645, rfl⟩
abbrev main_c_142 : Ref sig .tc := ⟨.hbm, 646, rfl⟩
abbrev main_c_143 : Ref sig .tc := ⟨.hbm, 647, rfl⟩
abbrev main_call25_v0 : Ref sig .tc := ⟨.hbm, 648, rfl⟩
abbrev main_call25_v1 : Ref sig .tc := ⟨.hbm, 649, rfl⟩
abbrev main_call25_v2 : Ref sig .tc := ⟨.hbm, 650, rfl⟩
abbrev main_call25_v3 : Ref sig .tc := ⟨.hbm, 651, rfl⟩
abbrev main_call25_v4 : Ref sig .tc := ⟨.hbm, 652, rfl⟩
abbrev main_v383 : Ref sig .tc := ⟨.hbm, 653, rfl⟩
abbrev main_c_144 : Ref sig .tc := ⟨.hbm, 654, rfl⟩
abbrev main_v384 : Ref sig .tc := ⟨.hbm, 655, rfl⟩
abbrev main_v385 : Ref sig .tc := ⟨.hbm, 656, rfl⟩
abbrev main_c_145 : Ref sig .tc := ⟨.hbm, 657, rfl⟩
abbrev main_v386 : Ref sig .tc := ⟨.hbm, 658, rfl⟩
abbrev main_v387 : Ref sig .tc := ⟨.hbm, 659, rfl⟩
abbrev main_v388 : Ref sig .tc := ⟨.hbm, 660, rfl⟩
abbrev main_c_146 : Ref sig .tc := ⟨.hbm, 661, rfl⟩
abbrev main_v389 : Ref sig .tc := ⟨.hbm, 662, rfl⟩
abbrev main_v390 : Ref sig .tc := ⟨.hbm, 663, rfl⟩
abbrev main_c_147 : Ref sig .tc := ⟨.hbm, 664, rfl⟩
abbrev main_v391 : Ref sig .tc := ⟨.hbm, 665, rfl⟩
abbrev main_v392 : Ref sig .tc := ⟨.hbm, 666, rfl⟩
abbrev main_v393 : Ref sig .tc := ⟨.hbm, 667, rfl⟩
abbrev main_v394 : Ref sig .tc := ⟨.hbm, 668, rfl⟩
abbrev main_v395 : Ref sig .tc := ⟨.hbm, 669, rfl⟩
abbrev main_v396 : Ref sig .tc := ⟨.hbm, 670, rfl⟩
abbrev main_v397 : Ref sig .tc := ⟨.hbm, 671, rfl⟩
abbrev main_v398 : Ref sig .tc := ⟨.hbm, 672, rfl⟩
abbrev main_cst_148 : Ref sig .tc := ⟨.hbm, 673, rfl⟩
abbrev main_call26_v0 : Ref sig .tc := ⟨.hbm, 674, rfl⟩
abbrev main_call26_v1 : Ref sig .tc := ⟨.hbm, 675, rfl⟩
abbrev main_call26_v2 : Ref sig .tc := ⟨.hbm, 676, rfl⟩
abbrev main_v399 : Ref sig .tc := ⟨.hbm, 677, rfl⟩
abbrev main_cst_149 : Ref sig .tc := ⟨.hbm, 678, rfl⟩
abbrev main_v400 : Ref sig .tc := ⟨.hbm, 679, rfl⟩
abbrev main_v401 : Ref sig .tc := ⟨.hbm, 680, rfl⟩
abbrev main_cst_150 : Ref sig .tc := ⟨.hbm, 681, rfl⟩
abbrev main_v402 : Ref sig .tc := ⟨.hbm, 682, rfl⟩
abbrev main_v403 : Ref sig .tc := ⟨.hbm, 683, rfl⟩
abbrev main_v404 : Ref sig .tc := ⟨.hbm, 684, rfl⟩
abbrev main_v405 : Ref sig .tc := ⟨.hbm, 685, rfl⟩
abbrev main_v406 : Ref sig .tc := ⟨.hbm, 686, rfl⟩
abbrev main_v407 : Ref sig .tc := ⟨.hbm, 687, rfl⟩
abbrev main_c_151 : Ref sig .tc := ⟨.hbm, 688, rfl⟩
abbrev main_v408 : Ref sig .tc := ⟨.hbm, 689, rfl⟩
abbrev main_v409 : Ref sig .tc := ⟨.hbm, 690, rfl⟩
abbrev main_c_152 : Ref sig .tc := ⟨.hbm, 691, rfl⟩
abbrev main_v410 : Ref sig .tc := ⟨.hbm, 692, rfl⟩
abbrev main_v411 : Ref sig .tc := ⟨.hbm, 693, rfl⟩
abbrev main_v412 : Ref sig .tc := ⟨.hbm, 694, rfl⟩
abbrev main_c_153 : Ref sig .tc := ⟨.hbm, 695, rfl⟩
abbrev main_v413 : Ref sig .tc := ⟨.hbm, 696, rfl⟩
abbrev main_v414 : Ref sig .tc := ⟨.hbm, 697, rfl⟩
abbrev main_v415 : Ref sig .tc := ⟨.hbm, 698, rfl⟩
abbrev main_c_154 : Ref sig .tc := ⟨.hbm, 699, rfl⟩
abbrev main_v416 : Ref sig .tc := ⟨.hbm, 700, rfl⟩
abbrev main_v417 : Ref sig .tc := ⟨.hbm, 701, rfl⟩
abbrev main_v418 : Ref sig .tc := ⟨.hbm, 702, rfl⟩
abbrev main_c_155 : Ref sig .tc := ⟨.hbm, 703, rfl⟩
abbrev main_c_156 : Ref sig .tc := ⟨.hbm, 704, rfl⟩
abbrev main_call27_v0 : Ref sig .tc := ⟨.hbm, 705, rfl⟩
abbrev main_call27_v1 : Ref sig .tc := ⟨.hbm, 706, rfl⟩
abbrev main_call27_v2 : Ref sig .tc := ⟨.hbm, 707, rfl⟩
abbrev main_call27_v3 : Ref sig .tc := ⟨.hbm, 708, rfl⟩
abbrev main_call27_v4 : Ref sig .tc := ⟨.hbm, 709, rfl⟩
abbrev main_v419 : Ref sig .tc := ⟨.hbm, 710, rfl⟩
abbrev main_c_157 : Ref sig .tc := ⟨.hbm, 711, rfl⟩
abbrev main_c_158 : Ref sig .tc := ⟨.hbm, 712, rfl⟩
abbrev main_call28_v0 : Ref sig .tc := ⟨.hbm, 713, rfl⟩
abbrev main_call28_v1 : Ref sig .tc := ⟨.hbm, 714, rfl⟩
abbrev main_call28_v2 : Ref sig .tc := ⟨.hbm, 715, rfl⟩
abbrev main_call28_v3 : Ref sig .tc := ⟨.hbm, 716, rfl⟩
abbrev main_call28_v4 : Ref sig .tc := ⟨.hbm, 717, rfl⟩
abbrev main_v420 : Ref sig .tc := ⟨.hbm, 718, rfl⟩
abbrev main_c_159 : Ref sig .tc := ⟨.hbm, 719, rfl⟩
abbrev main_v421 : Ref sig .tc := ⟨.hbm, 720, rfl⟩
abbrev main_v422 : Ref sig .tc := ⟨.hbm, 721, rfl⟩
abbrev main_c_160 : Ref sig .tc := ⟨.hbm, 722, rfl⟩
abbrev main_v423 : Ref sig .tc := ⟨.hbm, 723, rfl⟩
abbrev main_v424 : Ref sig .tc := ⟨.hbm, 724, rfl⟩
abbrev main_v425 : Ref sig .tc := ⟨.hbm, 725, rfl⟩
abbrev main_c_161 : Ref sig .tc := ⟨.hbm, 726, rfl⟩
abbrev main_v426 : Ref sig .tc := ⟨.hbm, 727, rfl⟩
abbrev main_v427 : Ref sig .tc := ⟨.hbm, 728, rfl⟩
abbrev main_c_162 : Ref sig .tc := ⟨.hbm, 729, rfl⟩
abbrev main_v428 : Ref sig .tc := ⟨.hbm, 730, rfl⟩
abbrev main_v429 : Ref sig .tc := ⟨.hbm, 731, rfl⟩
abbrev main_v430 : Ref sig .tc := ⟨.hbm, 732, rfl⟩
abbrev main_v431 : Ref sig .tc := ⟨.hbm, 733, rfl⟩
abbrev main_v432 : Ref sig .tc := ⟨.hbm, 734, rfl⟩
abbrev main_v433 : Ref sig .tc := ⟨.hbm, 735, rfl⟩
abbrev main_v434 : Ref sig .tc := ⟨.hbm, 736, rfl⟩
abbrev main_v435 : Ref sig .tc := ⟨.hbm, 737, rfl⟩
abbrev main_cst_163 : Ref sig .tc := ⟨.hbm, 738, rfl⟩
abbrev main_call29_v0 : Ref sig .tc := ⟨.hbm, 739, rfl⟩
abbrev main_call29_v1 : Ref sig .tc := ⟨.hbm, 740, rfl⟩
abbrev main_call29_v2 : Ref sig .tc := ⟨.hbm, 741, rfl⟩
abbrev main_v436 : Ref sig .tc := ⟨.hbm, 742, rfl⟩
abbrev main_cst_164 : Ref sig .tc := ⟨.hbm, 743, rfl⟩
abbrev main_v437 : Ref sig .tc := ⟨.hbm, 744, rfl⟩
abbrev main_v438 : Ref sig .tc := ⟨.hbm, 745, rfl⟩
abbrev main_v439 : Ref sig .tc := ⟨.hbm, 746, rfl⟩
abbrev main_v440 : Ref sig .tc := ⟨.hbm, 747, rfl⟩
abbrev main_v441 : Ref sig .tc := ⟨.hbm, 748, rfl⟩
abbrev main_v442 : Ref sig .tc := ⟨.hbm, 749, rfl⟩
abbrev main_v443 : Ref sig .tc := ⟨.hbm, 750, rfl⟩
abbrev main_c_165 : Ref sig .tc := ⟨.hbm, 751, rfl⟩
abbrev main_v444 : Ref sig .tc := ⟨.hbm, 752, rfl⟩
abbrev main_v445 : Ref sig .tc := ⟨.hbm, 753, rfl⟩
abbrev main_c_166 : Ref sig .tc := ⟨.hbm, 754, rfl⟩
abbrev main_v446 : Ref sig .tc := ⟨.hbm, 755, rfl⟩
abbrev main_v447 : Ref sig .tc := ⟨.hbm, 756, rfl⟩
abbrev main_v448 : Ref sig .tc := ⟨.hbm, 757, rfl⟩
abbrev main_c_167 : Ref sig .tc := ⟨.hbm, 758, rfl⟩
abbrev main_v449 : Ref sig .tc := ⟨.hbm, 759, rfl⟩
abbrev main_v450 : Ref sig .tc := ⟨.hbm, 760, rfl⟩
abbrev main_v451 : Ref sig .tc := ⟨.hbm, 761, rfl⟩
abbrev main_c_168 : Ref sig .tc := ⟨.hbm, 762, rfl⟩
abbrev main_v452 : Ref sig .tc := ⟨.hbm, 763, rfl⟩
abbrev main_v453 : Ref sig .tc := ⟨.hbm, 764, rfl⟩
abbrev main_v454 : Ref sig .tc := ⟨.hbm, 765, rfl⟩
abbrev main_c_169 : Ref sig .tc := ⟨.hbm, 766, rfl⟩
abbrev main_c_170 : Ref sig .tc := ⟨.hbm, 767, rfl⟩
abbrev main_call30_v0 : Ref sig .tc := ⟨.hbm, 768, rfl⟩
abbrev main_call30_v1 : Ref sig .tc := ⟨.hbm, 769, rfl⟩
abbrev main_call30_v2 : Ref sig .tc := ⟨.hbm, 770, rfl⟩
abbrev main_call30_v3 : Ref sig .tc := ⟨.hbm, 771, rfl⟩
abbrev main_call30_v4 : Ref sig .tc := ⟨.hbm, 772, rfl⟩
abbrev main_v455 : Ref sig .tc := ⟨.hbm, 773, rfl⟩
abbrev main_c_171 : Ref sig .tc := ⟨.hbm, 774, rfl⟩
abbrev main_c_172 : Ref sig .tc := ⟨.hbm, 775, rfl⟩
abbrev main_call31_v0 : Ref sig .tc := ⟨.hbm, 776, rfl⟩
abbrev main_call31_v1 : Ref sig .tc := ⟨.hbm, 777, rfl⟩
abbrev main_call31_v2 : Ref sig .tc := ⟨.hbm, 778, rfl⟩
abbrev main_call31_v3 : Ref sig .tc := ⟨.hbm, 779, rfl⟩
abbrev main_call31_v4 : Ref sig .tc := ⟨.hbm, 780, rfl⟩
abbrev main_v456 : Ref sig .tc := ⟨.hbm, 781, rfl⟩
abbrev main_c_173 : Ref sig .tc := ⟨.hbm, 782, rfl⟩
abbrev main_v457 : Ref sig .tc := ⟨.hbm, 783, rfl⟩
abbrev main_v458 : Ref sig .tc := ⟨.hbm, 784, rfl⟩
abbrev main_c_174 : Ref sig .tc := ⟨.hbm, 785, rfl⟩
abbrev main_v459 : Ref sig .tc := ⟨.hbm, 786, rfl⟩
abbrev main_v460 : Ref sig .tc := ⟨.hbm, 787, rfl⟩
abbrev main_v461 : Ref sig .tc := ⟨.hbm, 788, rfl⟩
abbrev main_c_175 : Ref sig .tc := ⟨.hbm, 789, rfl⟩
abbrev main_v462 : Ref sig .tc := ⟨.hbm, 790, rfl⟩
abbrev main_v463 : Ref sig .tc := ⟨.hbm, 791, rfl⟩
abbrev main_c_176 : Ref sig .tc := ⟨.hbm, 792, rfl⟩
abbrev main_v464 : Ref sig .tc := ⟨.hbm, 793, rfl⟩
abbrev main_v465 : Ref sig .tc := ⟨.hbm, 794, rfl⟩
abbrev main_v466 : Ref sig .tc := ⟨.hbm, 795, rfl⟩
abbrev main_v467 : Ref sig .tc := ⟨.hbm, 796, rfl⟩
abbrev main_v468 : Ref sig .tc := ⟨.hbm, 797, rfl⟩
abbrev main_v469 : Ref sig .tc := ⟨.hbm, 798, rfl⟩
abbrev main_v470 : Ref sig .tc := ⟨.hbm, 799, rfl⟩
abbrev main_v471 : Ref sig .tc := ⟨.hbm, 800, rfl⟩
abbrev main_cst_177 : Ref sig .tc := ⟨.hbm, 801, rfl⟩
abbrev main_call32_v0 : Ref sig .tc := ⟨.hbm, 802, rfl⟩
abbrev main_call32_v1 : Ref sig .tc := ⟨.hbm, 803, rfl⟩
abbrev main_call32_v2 : Ref sig .tc := ⟨.hbm, 804, rfl⟩
abbrev main_v472 : Ref sig .tc := ⟨.hbm, 805, rfl⟩
abbrev main_cst_178 : Ref sig .tc := ⟨.hbm, 806, rfl⟩
abbrev main_v473 : Ref sig .tc := ⟨.hbm, 807, rfl⟩
abbrev main_v474 : Ref sig .tc := ⟨.hbm, 808, rfl⟩
abbrev main_v475 : Ref sig .tc := ⟨.hbm, 809, rfl⟩
abbrev main_v476 : Ref sig .tc := ⟨.hbm, 810, rfl⟩
abbrev main_v477 : Ref sig .tc := ⟨.hbm, 811, rfl⟩
abbrev main_v478 : Ref sig .tc := ⟨.hbm, 812, rfl⟩
abbrev main_v479 : Ref sig .tc := ⟨.hbm, 813, rfl⟩
abbrev main_c_179 : Ref sig .tc := ⟨.hbm, 814, rfl⟩
abbrev main_v480 : Ref sig .tc := ⟨.hbm, 815, rfl⟩
abbrev main_v481 : Ref sig .tc := ⟨.hbm, 816, rfl⟩
abbrev main_c_180 : Ref sig .tc := ⟨.hbm, 817, rfl⟩
abbrev main_v482 : Ref sig .tc := ⟨.hbm, 818, rfl⟩
abbrev main_v483 : Ref sig .tc := ⟨.hbm, 819, rfl⟩
abbrev main_v484 : Ref sig .tc := ⟨.hbm, 820, rfl⟩
abbrev main_c_181 : Ref sig .tc := ⟨.hbm, 821, rfl⟩
abbrev main_v485 : Ref sig .tc := ⟨.hbm, 822, rfl⟩
abbrev main_v486 : Ref sig .tc := ⟨.hbm, 823, rfl⟩
abbrev main_v487 : Ref sig .tc := ⟨.hbm, 824, rfl⟩
abbrev main_c_182 : Ref sig .tc := ⟨.hbm, 825, rfl⟩
abbrev main_v488 : Ref sig .tc := ⟨.hbm, 826, rfl⟩
abbrev main_v489 : Ref sig .tc := ⟨.hbm, 827, rfl⟩
abbrev main_v490 : Ref sig .tc := ⟨.hbm, 828, rfl⟩
abbrev main_c_183 : Ref sig .tc := ⟨.hbm, 829, rfl⟩
abbrev main_c_184 : Ref sig .tc := ⟨.hbm, 830, rfl⟩
abbrev main_call33_v0 : Ref sig .tc := ⟨.hbm, 831, rfl⟩
abbrev main_call33_v1 : Ref sig .tc := ⟨.hbm, 832, rfl⟩
abbrev main_call33_v2 : Ref sig .tc := ⟨.hbm, 833, rfl⟩
abbrev main_call33_v3 : Ref sig .tc := ⟨.hbm, 834, rfl⟩
abbrev main_call33_v4 : Ref sig .tc := ⟨.hbm, 835, rfl⟩
abbrev main_v491 : Ref sig .tc := ⟨.hbm, 836, rfl⟩
abbrev main_c_185 : Ref sig .tc := ⟨.hbm, 837, rfl⟩
abbrev main_c_186 : Ref sig .tc := ⟨.hbm, 838, rfl⟩
abbrev main_call34_v0 : Ref sig .tc := ⟨.hbm, 839, rfl⟩
abbrev main_call34_v1 : Ref sig .tc := ⟨.hbm, 840, rfl⟩
abbrev main_call34_v2 : Ref sig .tc := ⟨.hbm, 841, rfl⟩
abbrev main_call34_v3 : Ref sig .tc := ⟨.hbm, 842, rfl⟩
abbrev main_call34_v4 : Ref sig .tc := ⟨.hbm, 843, rfl⟩
abbrev main_v492 : Ref sig .tc := ⟨.hbm, 844, rfl⟩
abbrev main_c_187 : Ref sig .tc := ⟨.hbm, 845, rfl⟩
abbrev main_v493 : Ref sig .tc := ⟨.hbm, 846, rfl⟩
abbrev main_v494 : Ref sig .tc := ⟨.hbm, 847, rfl⟩
abbrev main_c_188 : Ref sig .tc := ⟨.hbm, 848, rfl⟩
abbrev main_v495 : Ref sig .tc := ⟨.hbm, 849, rfl⟩
abbrev main_v496 : Ref sig .tc := ⟨.hbm, 850, rfl⟩
abbrev main_v497 : Ref sig .tc := ⟨.hbm, 851, rfl⟩
abbrev main_c_189 : Ref sig .tc := ⟨.hbm, 852, rfl⟩
abbrev main_v498 : Ref sig .tc := ⟨.hbm, 853, rfl⟩
abbrev main_v499 : Ref sig .tc := ⟨.hbm, 854, rfl⟩
abbrev main_c_190 : Ref sig .tc := ⟨.hbm, 855, rfl⟩
abbrev main_v500 : Ref sig .tc := ⟨.hbm, 856, rfl⟩
abbrev main_v501 : Ref sig .tc := ⟨.hbm, 857, rfl⟩
abbrev main_v502 : Ref sig .tc := ⟨.hbm, 858, rfl⟩
abbrev main_v503 : Ref sig .tc := ⟨.hbm, 859, rfl⟩
abbrev main_v504 : Ref sig .tc := ⟨.hbm, 860, rfl⟩
abbrev main_v505 : Ref sig .tc := ⟨.hbm, 861, rfl⟩
abbrev main_v506 : Ref sig .tc := ⟨.hbm, 862, rfl⟩
abbrev main_v507 : Ref sig .tc := ⟨.hbm, 863, rfl⟩
abbrev main_cst_191 : Ref sig .tc := ⟨.hbm, 864, rfl⟩
abbrev main_call35_v0 : Ref sig .tc := ⟨.hbm, 865, rfl⟩
abbrev main_call35_v1 : Ref sig .tc := ⟨.hbm, 866, rfl⟩
abbrev main_call35_v2 : Ref sig .tc := ⟨.hbm, 867, rfl⟩
abbrev main_v508 : Ref sig .tc := ⟨.hbm, 868, rfl⟩
abbrev main_v509 : Ref sig .tc := ⟨.hbm, 869, rfl⟩
abbrev main_v510 : Ref sig .tc := ⟨.hbm, 870, rfl⟩
abbrev main_v511 : Ref sig .tc := ⟨.hbm, 871, rfl⟩
abbrev main_v512 : Ref sig .tc := ⟨.hbm, 872, rfl⟩
abbrev main_v513 : Ref sig .tc := ⟨.hbm, 873, rfl⟩
abbrev main_v514 : Ref sig .tc := ⟨.hbm, 874, rfl⟩
abbrev main_cst_192 : Ref sig .tc := ⟨.hbm, 875, rfl⟩
abbrev main_v515 : Ref sig .tc := ⟨.hbm, 876, rfl⟩
abbrev main_v516 : Ref sig .tc := ⟨.hbm, 877, rfl⟩
abbrev main_cst_193 : Ref sig .tc := ⟨.hbm, 878, rfl⟩
abbrev main_v517 : Ref sig .tc := ⟨.hbm, 879, rfl⟩
abbrev main_v518 : Ref sig .tc := ⟨.hbm, 880, rfl⟩
abbrev main_cst_194 : Ref sig .tc := ⟨.hbm, 881, rfl⟩
abbrev main_v519 : Ref sig .tc := ⟨.hbm, 882, rfl⟩
abbrev main_v520 : Ref sig .tc := ⟨.hbm, 883, rfl⟩
abbrev main_v521 : Ref sig .tc := ⟨.hbm, 884, rfl⟩
abbrev main_v522 : Ref sig .tc := ⟨.hbm, 885, rfl⟩
abbrev main_v523 : Ref sig .tc := ⟨.hbm, 886, rfl⟩
abbrev main_c_195 : Ref sig .tc := ⟨.hbm, 887, rfl⟩
abbrev main_v524 : Ref sig .tc := ⟨.hbm, 888, rfl⟩
abbrev main_v525 : Ref sig .tc := ⟨.hbm, 889, rfl⟩
abbrev main_c_196 : Ref sig .tc := ⟨.hbm, 890, rfl⟩
abbrev main_v526 : Ref sig .tc := ⟨.hbm, 891, rfl⟩
abbrev main_v527 : Ref sig .tc := ⟨.hbm, 892, rfl⟩
abbrev main_c_197 : Ref sig .tc := ⟨.hbm, 893, rfl⟩
abbrev main_v528 : Ref sig .tc := ⟨.hbm, 894, rfl⟩
abbrev main_v529 : Ref sig .tc := ⟨.hbm, 895, rfl⟩
abbrev main_v530 : Ref sig .tc := ⟨.hbm, 896, rfl⟩
abbrev main_c_198 : Ref sig .tc := ⟨.hbm, 897, rfl⟩
abbrev main_c_199 : Ref sig .tc := ⟨.hbm, 898, rfl⟩
abbrev main_call36_v0 : Ref sig .tc := ⟨.hbm, 899, rfl⟩
abbrev main_call36_v1 : Ref sig .tc := ⟨.hbm, 900, rfl⟩
abbrev main_call36_v2 : Ref sig .tc := ⟨.hbm, 901, rfl⟩
abbrev main_call36_v3 : Ref sig .tc := ⟨.hbm, 902, rfl⟩
abbrev main_call36_v4 : Ref sig .tc := ⟨.hbm, 903, rfl⟩
abbrev main_v531 : Ref sig .tc := ⟨.hbm, 904, rfl⟩
abbrev main_v532 : Ref sig .tc := ⟨.hbm, 905, rfl⟩
abbrev main_c_200 : Ref sig .tc := ⟨.hbm, 906, rfl⟩
abbrev main_v533 : Ref sig .tc := ⟨.hbm, 907, rfl⟩
abbrev main_v534 : Ref sig .tc := ⟨.hbm, 908, rfl⟩
abbrev main_c_201 : Ref sig .tc := ⟨.hbm, 909, rfl⟩
abbrev main_v535 : Ref sig .tc := ⟨.hbm, 910, rfl⟩
abbrev main_v536 : Ref sig .tc := ⟨.hbm, 911, rfl⟩
abbrev main_v537 : Ref sig .tc := ⟨.hbm, 912, rfl⟩
abbrev main_v538 : Ref sig .tc := ⟨.hbm, 913, rfl⟩
abbrev main_v539 : Ref sig .tc := ⟨.hbm, 914, rfl⟩
abbrev main_cst_202 : Ref sig .tc := ⟨.hbm, 915, rfl⟩
abbrev main_call37_v0 : Ref sig .tc := ⟨.hbm, 916, rfl⟩
abbrev main_call37_v1 : Ref sig .tc := ⟨.hbm, 917, rfl⟩
abbrev main_call37_v2 : Ref sig .tc := ⟨.hbm, 918, rfl⟩
abbrev main_v540 : Ref sig .tc := ⟨.hbm, 919, rfl⟩
abbrev main_cst_203 : Ref sig .tc := ⟨.hbm, 920, rfl⟩
abbrev main_v541 : Ref sig .tc := ⟨.hbm, 921, rfl⟩
abbrev main_v542 : Ref sig .tc := ⟨.hbm, 922, rfl⟩
abbrev main_v543 : Ref sig .tc := ⟨.hbm, 923, rfl⟩
abbrev main_v544 : Ref sig .tc := ⟨.hbm, 924, rfl⟩
abbrev main_v545 : Ref sig .tc := ⟨.hbm, 925, rfl⟩
abbrev main_c_204 : Ref sig .tc := ⟨.hbm, 926, rfl⟩
abbrev main_v546 : Ref sig .tc := ⟨.hbm, 927, rfl⟩
abbrev main_v547 : Ref sig .tc := ⟨.hbm, 928, rfl⟩
abbrev main_c_205 : Ref sig .tc := ⟨.hbm, 929, rfl⟩
abbrev main_v548 : Ref sig .tc := ⟨.hbm, 930, rfl⟩
abbrev main_v549 : Ref sig .tc := ⟨.hbm, 931, rfl⟩
abbrev main_v550 : Ref sig .tc := ⟨.hbm, 932, rfl⟩
abbrev main_c_206 : Ref sig .tc := ⟨.hbm, 933, rfl⟩
abbrev main_c_207 : Ref sig .tc := ⟨.hbm, 934, rfl⟩
abbrev main_call38_v0 : Ref sig .tc := ⟨.hbm, 935, rfl⟩
abbrev main_call38_v1 : Ref sig .tc := ⟨.hbm, 936, rfl⟩
abbrev main_call38_v2 : Ref sig .tc := ⟨.hbm, 937, rfl⟩
abbrev main_call38_v3 : Ref sig .tc := ⟨.hbm, 938, rfl⟩
abbrev main_call38_v4 : Ref sig .tc := ⟨.hbm, 939, rfl⟩
abbrev main_v551 : Ref sig .tc := ⟨.hbm, 940, rfl⟩
abbrev main_v552 : Ref sig .tc := ⟨.hbm, 941, rfl⟩
abbrev main_c_208 : Ref sig .tc := ⟨.hbm, 942, rfl⟩
abbrev main_v553 : Ref sig .tc := ⟨.hbm, 943, rfl⟩
abbrev main_v554 : Ref sig .tc := ⟨.hbm, 944, rfl⟩
abbrev main_c_209 : Ref sig .tc := ⟨.hbm, 945, rfl⟩
abbrev main_v555 : Ref sig .tc := ⟨.hbm, 946, rfl⟩
abbrev main_v556 : Ref sig .tc := ⟨.hbm, 947, rfl⟩
abbrev main_v557 : Ref sig .tc := ⟨.hbm, 948, rfl⟩
abbrev main_v558 : Ref sig .tc := ⟨.hbm, 949, rfl⟩
abbrev main_v559 : Ref sig .tc := ⟨.hbm, 950, rfl⟩
abbrev main_cst_210 : Ref sig .tc := ⟨.hbm, 951, rfl⟩
abbrev main_call39_v0 : Ref sig .tc := ⟨.hbm, 952, rfl⟩
abbrev main_call39_v1 : Ref sig .tc := ⟨.hbm, 953, rfl⟩
abbrev main_call39_v2 : Ref sig .tc := ⟨.hbm, 954, rfl⟩
abbrev main_v560 : Ref sig .tc := ⟨.hbm, 955, rfl⟩
abbrev main_v561 : Ref sig .tc := ⟨.hbm, 956, rfl⟩
abbrev main_v562 : Ref sig .tc := ⟨.hbm, 957, rfl⟩
abbrev main_v563 : Ref sig .tc := ⟨.hbm, 958, rfl⟩
abbrev main_v564 : Ref sig .tc := ⟨.hbm, 959, rfl⟩
abbrev main_v565 : Ref sig .tc := ⟨.hbm, 960, rfl⟩
abbrev main_cst_211 : Ref sig .tc := ⟨.hbm, 961, rfl⟩
abbrev main_v566 : Ref sig .tc := ⟨.hbm, 962, rfl⟩
abbrev main_v567 : Ref sig .tc := ⟨.hbm, 963, rfl⟩
abbrev main_cst_212 : Ref sig .tc := ⟨.hbm, 964, rfl⟩
abbrev main_v568 : Ref sig .tc := ⟨.hbm, 965, rfl⟩
abbrev main_v569 : Ref sig .tc := ⟨.hbm, 966, rfl⟩
abbrev main_cst_213 : Ref sig .tc := ⟨.hbm, 967, rfl⟩
abbrev main_v570 : Ref sig .tc := ⟨.hbm, 968, rfl⟩
abbrev main_v571 : Ref sig .tc := ⟨.hbm, 969, rfl⟩
abbrev main_v572 : Ref sig .tc := ⟨.hbm, 970, rfl⟩
abbrev main_v573 : Ref sig .tc := ⟨.hbm, 971, rfl⟩
abbrev main_v574 : Ref sig .tc := ⟨.hbm, 972, rfl⟩
abbrev main_c_214 : Ref sig .tc := ⟨.hbm, 973, rfl⟩
abbrev main_v575 : Ref sig .tc := ⟨.hbm, 974, rfl⟩
abbrev main_v576 : Ref sig .tc := ⟨.hbm, 975, rfl⟩
abbrev main_c_215 : Ref sig .tc := ⟨.hbm, 976, rfl⟩
abbrev main_v577 : Ref sig .tc := ⟨.hbm, 977, rfl⟩
abbrev main_v578 : Ref sig .tc := ⟨.hbm, 978, rfl⟩
abbrev main_c_216 : Ref sig .tc := ⟨.hbm, 979, rfl⟩
abbrev main_v579 : Ref sig .tc := ⟨.hbm, 980, rfl⟩
abbrev main_v580 : Ref sig .tc := ⟨.hbm, 981, rfl⟩
abbrev main_v581 : Ref sig .tc := ⟨.hbm, 982, rfl⟩
abbrev main_c_217 : Ref sig .tc := ⟨.hbm, 983, rfl⟩
abbrev main_c_218 : Ref sig .tc := ⟨.hbm, 984, rfl⟩
abbrev main_call40_v0 : Ref sig .tc := ⟨.hbm, 985, rfl⟩
abbrev main_call40_v1 : Ref sig .tc := ⟨.hbm, 986, rfl⟩
abbrev main_call40_v2 : Ref sig .tc := ⟨.hbm, 987, rfl⟩
abbrev main_call40_v3 : Ref sig .tc := ⟨.hbm, 988, rfl⟩
abbrev main_call40_v4 : Ref sig .tc := ⟨.hbm, 989, rfl⟩
abbrev main_v582 : Ref sig .tc := ⟨.hbm, 990, rfl⟩
abbrev main_v583 : Ref sig .tc := ⟨.hbm, 991, rfl⟩
abbrev main_c_219 : Ref sig .tc := ⟨.hbm, 992, rfl⟩
abbrev main_v584 : Ref sig .tc := ⟨.hbm, 993, rfl⟩
abbrev main_v585 : Ref sig .tc := ⟨.hbm, 994, rfl⟩
abbrev main_c_220 : Ref sig .tc := ⟨.hbm, 995, rfl⟩
abbrev main_v586 : Ref sig .tc := ⟨.hbm, 996, rfl⟩
abbrev main_v587 : Ref sig .tc := ⟨.hbm, 997, rfl⟩
abbrev main_v588 : Ref sig .tc := ⟨.hbm, 998, rfl⟩
abbrev main_v589 : Ref sig .tc := ⟨.hbm, 999, rfl⟩
abbrev main_v590 : Ref sig .tc := ⟨.hbm, 1000, rfl⟩
abbrev main_cst_221 : Ref sig .tc := ⟨.hbm, 1001, rfl⟩
abbrev main_call41_v0 : Ref sig .tc := ⟨.hbm, 1002, rfl⟩
abbrev main_call41_v1 : Ref sig .tc := ⟨.hbm, 1003, rfl⟩
abbrev main_call41_v2 : Ref sig .tc := ⟨.hbm, 1004, rfl⟩
abbrev main_v591 : Ref sig .tc := ⟨.hbm, 1005, rfl⟩
abbrev main_cst_222 : Ref sig .tc := ⟨.hbm, 1006, rfl⟩
abbrev main_v592 : Ref sig .tc := ⟨.hbm, 1007, rfl⟩
abbrev main_v593 : Ref sig .tc := ⟨.hbm, 1008, rfl⟩
abbrev main_v594 : Ref sig .tc := ⟨.hbm, 1009, rfl⟩
abbrev main_v595 : Ref sig .tc := ⟨.hbm, 1010, rfl⟩
abbrev main_v596 : Ref sig .tc := ⟨.hbm, 1011, rfl⟩
abbrev main_c_223 : Ref sig .tc := ⟨.hbm, 1012, rfl⟩
abbrev main_v597 : Ref sig .tc := ⟨.hbm, 1013, rfl⟩
abbrev main_v598 : Ref sig .tc := ⟨.hbm, 1014, rfl⟩
abbrev main_c_224 : Ref sig .tc := ⟨.hbm, 1015, rfl⟩
abbrev main_v599 : Ref sig .tc := ⟨.hbm, 1016, rfl⟩
abbrev main_v600 : Ref sig .tc := ⟨.hbm, 1017, rfl⟩
abbrev main_v601 : Ref sig .tc := ⟨.hbm, 1018, rfl⟩
abbrev main_c_225 : Ref sig .tc := ⟨.hbm, 1019, rfl⟩
abbrev main_c_226 : Ref sig .tc := ⟨.hbm, 1020, rfl⟩
abbrev main_call42_v0 : Ref sig .tc := ⟨.hbm, 1021, rfl⟩
abbrev main_call42_v1 : Ref sig .tc := ⟨.hbm, 1022, rfl⟩
abbrev main_call42_v2 : Ref sig .tc := ⟨.hbm, 1023, rfl⟩
abbrev main_call42_v3 : Ref sig .tc := ⟨.hbm, 1024, rfl⟩
abbrev main_call42_v4 : Ref sig .tc := ⟨.hbm, 1025, rfl⟩
abbrev main_v602 : Ref sig .tc := ⟨.hbm, 1026, rfl⟩
abbrev main_v603 : Ref sig .tc := ⟨.hbm, 1027, rfl⟩
abbrev main_c_227 : Ref sig .tc := ⟨.hbm, 1028, rfl⟩
abbrev main_v604 : Ref sig .tc := ⟨.hbm, 1029, rfl⟩
abbrev main_v605 : Ref sig .tc := ⟨.hbm, 1030, rfl⟩
abbrev main_c_228 : Ref sig .tc := ⟨.hbm, 1031, rfl⟩
abbrev main_v606 : Ref sig .tc := ⟨.hbm, 1032, rfl⟩
abbrev main_v607 : Ref sig .tc := ⟨.hbm, 1033, rfl⟩
abbrev main_v608 : Ref sig .tc := ⟨.hbm, 1034, rfl⟩
abbrev main_v609 : Ref sig .tc := ⟨.hbm, 1035, rfl⟩
abbrev main_v610 : Ref sig .tc := ⟨.hbm, 1036, rfl⟩
abbrev main_cst_229 : Ref sig .tc := ⟨.hbm, 1037, rfl⟩
abbrev main_call43_v0 : Ref sig .tc := ⟨.hbm, 1038, rfl⟩
abbrev main_call43_v1 : Ref sig .tc := ⟨.hbm, 1039, rfl⟩
abbrev main_call43_v2 : Ref sig .tc := ⟨.hbm, 1040, rfl⟩
abbrev main_v611 : Ref sig .tc := ⟨.hbm, 1041, rfl⟩
abbrev main_v612 : Ref sig .tc := ⟨.hbm, 1042, rfl⟩
abbrev main_v613 : Ref sig .tc := ⟨.hbm, 1043, rfl⟩
abbrev main_v614 : Ref sig .tc := ⟨.hbm, 1044, rfl⟩
abbrev main_v615 : Ref sig .tc := ⟨.hbm, 1045, rfl⟩
abbrev main_v616 : Ref sig .tc := ⟨.hbm, 1046, rfl⟩
abbrev main_cst_230 : Ref sig .tc := ⟨.hbm, 1047, rfl⟩
abbrev main_v617 : Ref sig .tc := ⟨.hbm, 1048, rfl⟩
abbrev main_v618 : Ref sig .tc := ⟨.hbm, 1049, rfl⟩
abbrev main_cst_231 : Ref sig .tc := ⟨.hbm, 1050, rfl⟩
abbrev main_v619 : Ref sig .tc := ⟨.hbm, 1051, rfl⟩
abbrev main_v620 : Ref sig .tc := ⟨.hbm, 1052, rfl⟩
abbrev main_cst_232 : Ref sig .tc := ⟨.hbm, 1053, rfl⟩
abbrev main_v621 : Ref sig .tc := ⟨.hbm, 1054, rfl⟩
abbrev main_v622 : Ref sig .tc := ⟨.hbm, 1055, rfl⟩
abbrev main_v623 : Ref sig .tc := ⟨.hbm, 1056, rfl⟩
abbrev main_v624 : Ref sig .tc := ⟨.hbm, 1057, rfl⟩
abbrev main_v625 : Ref sig .tc := ⟨.hbm, 1058, rfl⟩
abbrev main_c_233 : Ref sig .tc := ⟨.hbm, 1059, rfl⟩
abbrev main_v626 : Ref sig .tc := ⟨.hbm, 1060, rfl⟩
abbrev main_v627 : Ref sig .tc := ⟨.hbm, 1061, rfl⟩
abbrev main_c_234 : Ref sig .tc := ⟨.hbm, 1062, rfl⟩
abbrev main_v628 : Ref sig .tc := ⟨.hbm, 1063, rfl⟩
abbrev main_v629 : Ref sig .tc := ⟨.hbm, 1064, rfl⟩
abbrev main_c_235 : Ref sig .tc := ⟨.hbm, 1065, rfl⟩
abbrev main_v630 : Ref sig .tc := ⟨.hbm, 1066, rfl⟩
abbrev main_v631 : Ref sig .tc := ⟨.hbm, 1067, rfl⟩
abbrev main_v632 : Ref sig .tc := ⟨.hbm, 1068, rfl⟩
abbrev main_c_236 : Ref sig .tc := ⟨.hbm, 1069, rfl⟩
abbrev main_c_237 : Ref sig .tc := ⟨.hbm, 1070, rfl⟩
abbrev main_call44_v0 : Ref sig .tc := ⟨.hbm, 1071, rfl⟩
abbrev main_call44_v1 : Ref sig .tc := ⟨.hbm, 1072, rfl⟩
abbrev main_call44_v2 : Ref sig .tc := ⟨.hbm, 1073, rfl⟩
abbrev main_call44_v3 : Ref sig .tc := ⟨.hbm, 1074, rfl⟩
abbrev main_call44_v4 : Ref sig .tc := ⟨.hbm, 1075, rfl⟩
abbrev main_v633 : Ref sig .tc := ⟨.hbm, 1076, rfl⟩
abbrev main_v634 : Ref sig .tc := ⟨.hbm, 1077, rfl⟩
abbrev main_c_238 : Ref sig .tc := ⟨.hbm, 1078, rfl⟩
abbrev main_v635 : Ref sig .tc := ⟨.hbm, 1079, rfl⟩
abbrev main_v636 : Ref sig .tc := ⟨.hbm, 1080, rfl⟩
abbrev main_c_239 : Ref sig .tc := ⟨.hbm, 1081, rfl⟩
abbrev main_v637 : Ref sig .tc := ⟨.hbm, 1082, rfl⟩
abbrev main_v638 : Ref sig .tc := ⟨.hbm, 1083, rfl⟩
abbrev main_v639 : Ref sig .tc := ⟨.hbm, 1084, rfl⟩
abbrev main_v640 : Ref sig .tc := ⟨.hbm, 1085, rfl⟩
abbrev main_v641 : Ref sig .tc := ⟨.hbm, 1086, rfl⟩
abbrev main_cst_240 : Ref sig .tc := ⟨.hbm, 1087, rfl⟩
abbrev main_call45_v0 : Ref sig .tc := ⟨.hbm, 1088, rfl⟩
abbrev main_call45_v1 : Ref sig .tc := ⟨.hbm, 1089, rfl⟩
abbrev main_call45_v2 : Ref sig .tc := ⟨.hbm, 1090, rfl⟩
abbrev main_v642 : Ref sig .tc := ⟨.hbm, 1091, rfl⟩
abbrev main_cst_241 : Ref sig .tc := ⟨.hbm, 1092, rfl⟩
abbrev main_v643 : Ref sig .tc := ⟨.hbm, 1093, rfl⟩
abbrev main_v644 : Ref sig .tc := ⟨.hbm, 1094, rfl⟩
abbrev main_v645 : Ref sig .tc := ⟨.hbm, 1095, rfl⟩
abbrev main_v646 : Ref sig .tc := ⟨.hbm, 1096, rfl⟩
abbrev main_v647 : Ref sig .tc := ⟨.hbm, 1097, rfl⟩
abbrev main_c_242 : Ref sig .tc := ⟨.hbm, 1098, rfl⟩
abbrev main_v648 : Ref sig .tc := ⟨.hbm, 1099, rfl⟩
abbrev main_v649 : Ref sig .tc := ⟨.hbm, 1100, rfl⟩
abbrev main_c_243 : Ref sig .tc := ⟨.hbm, 1101, rfl⟩
abbrev main_v650 : Ref sig .tc := ⟨.hbm, 1102, rfl⟩
abbrev main_v651 : Ref sig .tc := ⟨.hbm, 1103, rfl⟩
abbrev main_v652 : Ref sig .tc := ⟨.hbm, 1104, rfl⟩
abbrev main_c_244 : Ref sig .tc := ⟨.hbm, 1105, rfl⟩
abbrev main_c_245 : Ref sig .tc := ⟨.hbm, 1106, rfl⟩
abbrev main_call46_v0 : Ref sig .tc := ⟨.hbm, 1107, rfl⟩
abbrev main_call46_v1 : Ref sig .tc := ⟨.hbm, 1108, rfl⟩
abbrev main_call46_v2 : Ref sig .tc := ⟨.hbm, 1109, rfl⟩
abbrev main_call46_v3 : Ref sig .tc := ⟨.hbm, 1110, rfl⟩
abbrev main_call46_v4 : Ref sig .tc := ⟨.hbm, 1111, rfl⟩
abbrev main_v653 : Ref sig .tc := ⟨.hbm, 1112, rfl⟩
abbrev main_v654 : Ref sig .tc := ⟨.hbm, 1113, rfl⟩
abbrev main_c_246 : Ref sig .tc := ⟨.hbm, 1114, rfl⟩
abbrev main_v655 : Ref sig .tc := ⟨.hbm, 1115, rfl⟩
abbrev main_v656 : Ref sig .tc := ⟨.hbm, 1116, rfl⟩
abbrev main_c_247 : Ref sig .tc := ⟨.hbm, 1117, rfl⟩
abbrev main_v657 : Ref sig .tc := ⟨.hbm, 1118, rfl⟩
abbrev main_v658 : Ref sig .tc := ⟨.hbm, 1119, rfl⟩
abbrev main_v659 : Ref sig .tc := ⟨.hbm, 1120, rfl⟩
abbrev main_v660 : Ref sig .tc := ⟨.hbm, 1121, rfl⟩
abbrev main_v661 : Ref sig .tc := ⟨.hbm, 1122, rfl⟩
abbrev main_cst_248 : Ref sig .tc := ⟨.hbm, 1123, rfl⟩
abbrev main_call47_v0 : Ref sig .tc := ⟨.hbm, 1124, rfl⟩
abbrev main_call47_v1 : Ref sig .tc := ⟨.hbm, 1125, rfl⟩
abbrev main_call47_v2 : Ref sig .tc := ⟨.hbm, 1126, rfl⟩
abbrev main_v662 : Ref sig .tc := ⟨.hbm, 1127, rfl⟩
abbrev main_v663 : Ref sig .tc := ⟨.hbm, 1128, rfl⟩
abbrev main_v664 : Ref sig .tc := ⟨.hbm, 1129, rfl⟩
abbrev main_v665 : Ref sig .tc := ⟨.hbm, 1130, rfl⟩
abbrev main_v666 : Ref sig .tc := ⟨.hbm, 1131, rfl⟩
abbrev main_v667 : Ref sig .tc := ⟨.hbm, 1132, rfl⟩
abbrev main_v668 : Ref sig .tc := ⟨.hbm, 1133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S72x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000_S1x1000000_1 : S1000000.BroadcastsInDim S1x1000000 (![1] : Fin 1 → Fin S1x1000000.rank)
  bcast_S1x1000000_S24x1000000_0_1 : S1x1000000.BroadcastsInDim S24x1000000 (![0, 1] : Fin 2 → Fin S24x1000000.rank)
  bcast_S_S24x1000000 : S_.BroadcastsInDim S24x1000000 (![] : Fin 0 → Fin S24x1000000.rank)
  transposes_S24x1000000_S1000000x24_1_0 : S24x1000000.Transposes [1, 0] S1000000x24
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  bitsLt_bf16_f32 : FTy.bits .bf16 < FTy.bits .f32
  inb_S72x28_S24x28_0_0 : ∀ a, (![0, 0] : Fin 2 → Nat) a + S24x28.size a ≤ S72x28.size a
  h_S24x28 : 0 < S24x28.numel
  inb_S72x28_S24x28_24_0 : ∀ a, (![24, 0] : Fin 2 → Nat) a + S24x28.size a ≤ S72x28.size a
  inb_S72x28_S24x28_48_0 : ∀ a, (![48, 0] : Fin 2 → Nat) a + S24x28.size a ≤ S72x28.size a
  inb_S10000x28_S10000x28_0_0 : ∀ a, (![0, 0] : Fin 2 → Nat) a + S10000x28.size a ≤ S10000x28.size a
  h_S10000x28 : 0 < S10000x28.numel
  gather_S24x256x256_S1000000x2_S24x1000000_0_12_n_n_12_1_2411_wf : GatherDims.WF S24x256x256 S1000000x2 S24x1000000 [0] [1, 2] [] [1, 2] [] 1 ![24, 1, 1]
  gather_S24x256_S1000000x1_S24x1000000_0_1_n_n_1_1_241_wf : GatherDims.WF S24x256 S1000000x1 S24x1000000 [0] [1] [] [1] [] 1 ![24, 1]
  dot_S10000x24_S24x28_S10000x28_1_0_0_1_n_n_wf : DotDims.WF S10000x24 S24x28 S10000x28 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x24.size a ≤ S1000000x24.size a
  hwx0_0 : ∀ i : grid0.Coords, EltTy.bits .f32 = 32 ∨ (Rect.block (s := S1000000x24) S10000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x24.size a ≤ S1000000x24.size a
  hwx0_1 : ∀ i : grid0.Coords, EltTy.bits .f32 = 32 ∨ (Rect.block (s := S1000000x24) S10000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x24.size a ≤ S1000000x24.size a
  hwx0_2 : ∀ i : grid0.Coords, EltTy.bits .f32 = 32 ∨ (Rect.block (s := S1000000x24) S10000x24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x24.size a ≤ S1000000x24.size a
  hwx0_3 : ∀ i : grid0.Coords, EltTy.bits .f32 = 32 ∨ (Rect.block (s := S1000000x24) S10000x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x24.size a ≤ S1000000x24.size a
  hwx0_4 : ∀ i : grid0.Coords, EltTy.bits .f32 = 32 ∨ (Rect.block (s := S1000000x24) S10000x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x24.size a ≤ S1000000x24.size a
  hwx0_5 : ∀ i : grid0.Coords, EltTy.bits .f32 = 32 ∨ (Rect.block (s := S1000000x24) S10000x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S72x28.size a ≤ S72x28.size a
  hwx0_6 : ∀ i : grid0.Coords, EltTy.bits .f32 = 32 ∨ (Rect.block (s := S72x28) S72x28.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x28.size a ≤ S1000000x28.size a
  hwx0_7 : ∀ i : grid0.Coords, EltTy.bits .f32 = 32 ∨ (Rect.block (s := S1000000x28) S10000x28.size (cc0_transform_7 i) (hinb0_7 i)).WholeWords (EltTy.packing .f32)

variable [Facts₀]

def gather_S24x256x256_S1000000x2_S24x1000000_0_12_n_n_12_1_2411 : GatherDims S24x256x256 S1000000x2 S24x1000000 where
  offsetDims := [0]
  collapsedSliceDims := [1, 2]
  operandBatchingDims := []
  startIndicesBatchingDims := []
  startIndexMap := [1, 2]
  indexVectorDim := 1
  sliceSizes := ![24, 1, 1]
  wf := gather_S24x256x256_S1000000x2_S24x1000000_0_12_n_n_12_1_2411_wf
def gather_S24x256_S1000000x1_S24x1000000_0_1_n_n_1_1_241 : GatherDims S24x256 S1000000x1 S24x1000000 where
  offsetDims := [0]
  collapsedSliceDims := [1]
  operandBatchingDims := []
  startIndicesBatchingDims := []
  startIndexMap := [1]
  indexVectorDim := 1
  sliceSizes := ![24, 1]
  wf := gather_S24x256_S1000000x1_S24x1000000_0_1_n_n_1_1_241_wf
def dot_S10000x24_S24x28_S10000x28_1_0_0_1_n_n : DotDims S10000x24 S24x28 S10000x28 where
  lhsContracting := [1]
  rhsContracting := [0]
  lhsNonContracting := [0]
  rhsNonContracting := [1]
  lhsBatch := []
  rhsBatch := []
  wf := dot_S10000x24_S24x28_S10000x28_1_0_0_1_n_n_wf

abbrev win0_0 : Pipeline.Window sig grid0 :=
  Pipeline.Window.ofSpec (Memref.whole main_v182) S10000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v348) S10000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v514) S10000x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v565) S10000x24.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v616) S10000x24.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v667) S10000x24.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S72x28.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v668) S10000x28.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S24x256x256 : Shape := ⟨3, ![24, 256, 256]⟩
abbrev S24x256 : Shape := ⟨2, ![24, 256]⟩
abbrev S72x28 : Shape := ⟨2, ![72, 28]⟩
abbrev S3 : Shape := ⟨1, ![3]⟩
abbrev S1x3 : Shape := ⟨2, ![1, 3]⟩
abbrev S_ : Shape := ⟨0, ![]⟩
abbrev S1000000x1 : Shape := ⟨2, ![1000000, 1]⟩
abbrev S1000000 : Shape := ⟨1, ![1000000]⟩
abbrev S1000000x2 : Shape := ⟨2, ![1000000, 2]⟩
abbrev S24x1000000 : Shape := ⟨2, ![24, 1000000]⟩
abbrev S1x1000000 : Shape := ⟨2, ![1, 1000000]⟩
abbrev S1000000x24 : Shape := ⟨2, ![1000000, 24]⟩
abbrev S1000000x72 : Shape := ⟨2, ![1000000, 72]⟩
abbrev S1000000x28 : Shape := ⟨2, ![1000000, 28]⟩

abbrev nBuf : Space → Nat
  | .hbm => 1138
  | .vmem => 0
  | .smem => 0
  | _ => 0

abbrev hbmTy0_0 (i : Nat) : BufTy := match i % 128 with
  | 0 => ⟨S1000000x3, .f32⟩
  | 1 => ⟨S24x256x256, .f32⟩
  | 2 => ⟨S24x256x256, .f32⟩
  | 3 => ⟨S24x256x256, .f32⟩
  | 4 => ⟨S24x256, .f32⟩
  | 5 => ⟨S24x256, .f32⟩
  | 6 => ⟨S24x256, .f32⟩
  | 7 => ⟨S72x28, .f32⟩
  | 8 => ⟨S3, .f32⟩
  | 9 => ⟨S3, .f32⟩
  | 10 => ⟨S1x3, .f32⟩
  | 11 => ⟨S1000000x3, .f32⟩
  | 12 => ⟨S1000000x3, .f32⟩
  | 13 => ⟨S3, .f32⟩
  | 14 => ⟨S1x3, .f32⟩
  | 15 => ⟨S1000000x3, .f32⟩
  | 16 => ⟨S1000000x3, .f32⟩
  | 17 => ⟨S_, .f32⟩
  | 18 => ⟨S1000000x3, .f32⟩
  | 19 => ⟨S1000000x3, .f32⟩
  | 20 => ⟨S_, .f32⟩
  | 21 => ⟨S1000000x3, .f32⟩
  | 22 => ⟨S1000000x3, .f32⟩
  | 23 => ⟨S1000000x1, .f32⟩
  | 24 => ⟨S1000000, .f32⟩
  | 25 => ⟨S1000000x1, .f32⟩
  | 26 => ⟨S1000000, .f32⟩
  | 27 => ⟨S1000000x1, .f32⟩
  | 28 => ⟨S1000000, .f32⟩
  | 29 => ⟨S_, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S_, .f32⟩
  | 36 => ⟨S1000000, .f32⟩
  | 37 => ⟨S1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S1000000, .f32⟩
  | 48 => ⟨S1000000, .f32⟩
  | 49 => ⟨S1000000, .f32⟩
  | 50 => ⟨S1000000, .f32⟩
  | 51 => ⟨S1000000, .i32⟩
  | 52 => ⟨S1000000, .i32⟩
  | 53 => ⟨S_, .i32⟩
  | 54 => ⟨S1000000, .i32⟩
  | 55 => ⟨S1000000, .i32⟩
  | 56 => ⟨S_, .i32⟩
  | 57 => ⟨S1000000, .i32⟩
  | 58 => ⟨S1000000, .i32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S1x1000000, .f32⟩
  | 122 => ⟨S24x1000000, .f32⟩
  | 123 => ⟨S24x1000000, .f32⟩
  | 124 => ⟨S_, .i32⟩
  | 125 => ⟨S1000000, .i32⟩
  | 126 => ⟨S1000000, .i1⟩
  | 127 => ⟨S_, .i32⟩
  | _ => ⟨S1000000x3, .f32⟩

abbrev hbmTy0_1 (i : Nat) : BufTy := match i % 128 with
  | 0 => ⟨S1000000, .i32⟩
  | 1 => ⟨S1000000, .i1⟩
  | 2 => ⟨S1000000, .i1⟩
  | 3 => ⟨S_, .i32⟩
  | 4 => ⟨S1000000, .i32⟩
  | 5 => ⟨S1000000, .i1⟩
  | 6 => ⟨S1000000, .i1⟩
  | 7 => ⟨S_, .i32⟩
  | 8 => ⟨S1000000, .i32⟩
  | 9 => ⟨S1000000, .i1⟩
  | 10 => ⟨S1000000, .i1⟩
  | 11 => ⟨S_, .i32⟩
  | 12 => ⟨S_, .i32⟩
  | 13 => ⟨S_, .i32⟩
  | 14 => ⟨S1000000, .i32⟩
  | 15 => ⟨S1000000, .i32⟩
  | 16 => ⟨S_, .i32⟩
  | 17 => ⟨S1000000, .i32⟩
  | 18 => ⟨S1000000, .i32⟩
  | 19 => ⟨S_, .i32⟩
  | 20 => ⟨S_, .i32⟩
  | 21 => ⟨S_, .i32⟩
  | 22 => ⟨S1000000, .i32⟩
  | 23 => ⟨S1000000, .i32⟩
  | 24 => ⟨S_, .i32⟩
  | 25 => ⟨S1000000, .i32⟩
  | 26 => ⟨S1000000, .i32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x1, .i32⟩
  | 43 => ⟨S1000000x2, .i32⟩
  | 44 => ⟨S24x1000000, .f32⟩
  | 45 => ⟨S1x1000000, .i1⟩
  | 46 => ⟨S_, .f32⟩
  | 47 => ⟨S_, .f32⟩
  | 48 => ⟨S24x1000000, .i1⟩
  | 49 => ⟨S24x1000000, .f32⟩
  | 50 => ⟨S24x1000000, .f32⟩
  | 51 => ⟨S_, .f32⟩
  | 52 => ⟨S1000000, .f32⟩
  | 53 => ⟨S1000000, .f32⟩
  | 54 => ⟨S1000000, .f32⟩
  | 55 => ⟨S1x1000000, .f32⟩
  | 56 => ⟨S24x1000000, .f32⟩
  | 57 => ⟨S24x1000000, .f32⟩
  | 58 => ⟨S24x1000000, .f32⟩
  | 59 => ⟨S_, .i32⟩
  | 60 => ⟨S1000000, .i32⟩
  | 61 => ⟨S1000000, .i1⟩
  | 62 => ⟨S_, .i32⟩
  | 63 => ⟨S1000000, .i32⟩
  | 64 => ⟨S1000000, .i1⟩
  | 65 => ⟨S1000000, .i1⟩
  | 66 => ⟨S_, .i32⟩
  | 67 => ⟨S1000000, .i32⟩
  | 68 => ⟨S1000000, .i1⟩
  | 69 => ⟨S1000000, .i1⟩
  | 70 => ⟨S_, .i32⟩
  | 71 => ⟨S1000000, .i32⟩
  | 72 => ⟨S1000000, .i1⟩
  | 73 => ⟨S1000000, .i1⟩
  | 74 => ⟨S_, .i32⟩
  | 75 => ⟨S_, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S_, .i32⟩
  | 84 => ⟨S_, .i32⟩
  | 85 => ⟨S1000000, .i32⟩
  | 86 => ⟨S1000000, .i32⟩
  | 87 => ⟨S_, .i32⟩
  | 88 => ⟨S1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x1, .i32⟩
  | 106 => ⟨S1000000x2, .i32⟩
  | 107 => ⟨S24x1000000, .f32⟩
  | 108 => ⟨S1x1000000, .i1⟩
  | 109 => ⟨S_, .f32⟩
  | 110 => ⟨S_, .f32⟩
  | 111 => ⟨S24x1000000, .i1⟩
  | 112 => ⟨S24x1000000, .f32⟩
  | 113 => ⟨S24x1000000, .f32⟩
  | 114 => ⟨S_, .f32⟩
  | 115 => ⟨S1000000, .f32⟩
  | 116 => ⟨S1000000, .f32⟩
  | 117 => ⟨S1000000, .f32⟩
  | 118 => ⟨S1x1000000, .f32⟩
  | 119 => ⟨S24x1000000, .f32⟩
  | 120 => ⟨S24x1000000, .f32⟩
  | 121 => ⟨S24x1000000, .f32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_2 (i : Nat) : BufTy := match i % 128 with
  | 0 => ⟨S1000000, .i1⟩
  | 1 => ⟨S_, .i32⟩
  | 2 => ⟨S1000000, .i32⟩
  | 3 => ⟨S1000000, .i1⟩
  | 4 => ⟨S1000000, .i1⟩
  | 5 => ⟨S_, .i32⟩
  | 6 => ⟨S1000000, .i32⟩
  | 7 => ⟨S1000000, .i1⟩
  | 8 => ⟨S1000000, .i1⟩
  | 9 => ⟨S_, .i32⟩
  | 10 => ⟨S_, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i32⟩
  | 17 => ⟨S_, .i32⟩
  | 18 => ⟨S_, .i32⟩
  | 19 => ⟨S_, .i32⟩
  | 20 => ⟨S1000000, .i32⟩
  | 21 => ⟨S1000000, .i32⟩
  | 22 => ⟨S_, .i32⟩
  | 23 => ⟨S1000000, .i32⟩
  | 24 => ⟨S1000000, .i32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x1, .i32⟩
  | 41 => ⟨S1000000x2, .i32⟩
  | 42 => ⟨S24x1000000, .f32⟩
  | 43 => ⟨S1x1000000, .i1⟩
  | 44 => ⟨S_, .f32⟩
  | 45 => ⟨S_, .f32⟩
  | 46 => ⟨S24x1000000, .i1⟩
  | 47 => ⟨S24x1000000, .f32⟩
  | 48 => ⟨S24x1000000, .f32⟩
  | 49 => ⟨S1000000, .f32⟩
  | 50 => ⟨S1x1000000, .f32⟩
  | 51 => ⟨S24x1000000, .f32⟩
  | 52 => ⟨S24x1000000, .f32⟩
  | 53 => ⟨S24x1000000, .f32⟩
  | 54 => ⟨S1000000x24, .f32⟩
  | 55 => ⟨S_, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S1000000, .i32⟩
  | 78 => ⟨S1000000, .i32⟩
  | 79 => ⟨S_, .i32⟩
  | 80 => ⟨S1000000, .i32⟩
  | 81 => ⟨S1000000, .i32⟩
  | 82 => ⟨S_, .i32⟩
  | 83 => ⟨S1000000, .i32⟩
  | 84 => ⟨S1000000, .i32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_3 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S1x1000000, .f32⟩
  | 20 => ⟨S24x1000000, .f32⟩
  | 21 => ⟨S24x1000000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i1⟩
  | 28 => ⟨S1000000, .i1⟩
  | 29 => ⟨S_, .i32⟩
  | 30 => ⟨S1000000, .i32⟩
  | 31 => ⟨S1000000, .i1⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x1, .i32⟩
  | 69 => ⟨S1000000x2, .i32⟩
  | 70 => ⟨S24x1000000, .f32⟩
  | 71 => ⟨S1x1000000, .i1⟩
  | 72 => ⟨S_, .f32⟩
  | 73 => ⟨S_, .f32⟩
  | 74 => ⟨S24x1000000, .i1⟩
  | 75 => ⟨S24x1000000, .f32⟩
  | 76 => ⟨S24x1000000, .f32⟩
  | 77 => ⟨S_, .f32⟩
  | 78 => ⟨S1000000, .f32⟩
  | 79 => ⟨S1000000, .f32⟩
  | 80 => ⟨S1000000, .f32⟩
  | 81 => ⟨S1x1000000, .f32⟩
  | 82 => ⟨S24x1000000, .f32⟩
  | 83 => ⟨S24x1000000, .f32⟩
  | 84 => ⟨S24x1000000, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i1⟩
  | 91 => ⟨S1000000, .i1⟩
  | 92 => ⟨S_, .i32⟩
  | 93 => ⟨S1000000, .i32⟩
  | 94 => ⟨S1000000, .i1⟩
  | 95 => ⟨S1000000, .i1⟩
  | 96 => ⟨S_, .i32⟩
  | 97 => ⟨S1000000, .i32⟩
  | 98 => ⟨S1000000, .i1⟩
  | 99 => ⟨S1000000, .i1⟩
  | 100 => ⟨S_, .i32⟩
  | 101 => ⟨S_, .i32⟩
  | 102 => ⟨S_, .i32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S_, .i32⟩
  | 110 => ⟨S_, .i32⟩
  | 111 => ⟨S1000000, .i32⟩
  | 112 => ⟨S1000000, .i32⟩
  | 113 => ⟨S_, .i32⟩
  | 114 => ⟨S1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S_, .i32⟩
  | 124 => ⟨S1000000, .i32⟩
  | 125 => ⟨S1000000, .i1⟩
  | 126 => ⟨S_, .i32⟩
  | 127 => ⟨S1000000, .i32⟩
  | _ => ⟨S1000000x3, .f32⟩

abbrev hbmTy0_4 (i : Nat) : BufTy := match i % 128 with
  | 0 => ⟨S1000000, .i32⟩
  | 1 => ⟨S1000000, .i32⟩
  | 2 => ⟨S1000000x1, .i32⟩
  | 3 => ⟨S1000000x1, .i32⟩
  | 4 => ⟨S1000000x2, .i32⟩
  | 5 => ⟨S24x1000000, .f32⟩
  | 6 => ⟨S1x1000000, .i1⟩
  | 7 => ⟨S_, .f32⟩
  | 8 => ⟨S_, .f32⟩
  | 9 => ⟨S24x1000000, .i1⟩
  | 10 => ⟨S24x1000000, .f32⟩
  | 11 => ⟨S24x1000000, .f32⟩
  | 12 => ⟨S_, .f32⟩
  | 13 => ⟨S1000000, .f32⟩
  | 14 => ⟨S1000000, .f32⟩
  | 15 => ⟨S1000000, .f32⟩
  | 16 => ⟨S1x1000000, .f32⟩
  | 17 => ⟨S24x1000000, .f32⟩
  | 18 => ⟨S24x1000000, .f32⟩
  | 19 => ⟨S24x1000000, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i1⟩
  | 26 => ⟨S1000000, .i1⟩
  | 27 => ⟨S_, .i32⟩
  | 28 => ⟨S1000000, .i32⟩
  | 29 => ⟨S1000000, .i1⟩
  | 30 => ⟨S1000000, .i1⟩
  | 31 => ⟨S_, .i32⟩
  | 32 => ⟨S1000000, .i32⟩
  | 33 => ⟨S1000000, .i1⟩
  | 34 => ⟨S1000000, .i1⟩
  | 35 => ⟨S_, .i32⟩
  | 36 => ⟨S_, .i32⟩
  | 37 => ⟨S_, .i32⟩
  | 38 => ⟨S1000000, .i32⟩
  | 39 => ⟨S1000000, .i32⟩
  | 40 => ⟨S_, .i32⟩
  | 41 => ⟨S1000000, .i32⟩
  | 42 => ⟨S1000000, .i32⟩
  | 43 => ⟨S_, .i32⟩
  | 44 => ⟨S_, .i32⟩
  | 45 => ⟨S_, .i32⟩
  | 46 => ⟨S1000000, .i32⟩
  | 47 => ⟨S1000000, .i32⟩
  | 48 => ⟨S_, .i32⟩
  | 49 => ⟨S1000000, .i32⟩
  | 50 => ⟨S1000000, .i32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000x1, .i32⟩
  | 67 => ⟨S1000000x2, .i32⟩
  | 68 => ⟨S24x1000000, .f32⟩
  | 69 => ⟨S1x1000000, .i1⟩
  | 70 => ⟨S_, .f32⟩
  | 71 => ⟨S_, .f32⟩
  | 72 => ⟨S24x1000000, .i1⟩
  | 73 => ⟨S24x1000000, .f32⟩
  | 74 => ⟨S24x1000000, .f32⟩
  | 75 => ⟨S1000000, .f32⟩
  | 76 => ⟨S1x1000000, .f32⟩
  | 77 => ⟨S24x1000000, .f32⟩
  | 78 => ⟨S24x1000000, .f32⟩
  | 79 => ⟨S24x1000000, .f32⟩
  | 80 => ⟨S1000000x24, .f32⟩
  | 81 => ⟨S_, .f32⟩
  | 82 => ⟨S1000000, .f32⟩
  | 83 => ⟨S1000000, .f32⟩
  | 84 => ⟨S_, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S1000000, .f32⟩
  | 103 => ⟨S1000000, .i32⟩
  | 104 => ⟨S1000000, .i32⟩
  | 105 => ⟨S_, .i32⟩
  | 106 => ⟨S1000000, .i32⟩
  | 107 => ⟨S1000000, .i32⟩
  | 108 => ⟨S_, .i32⟩
  | 109 => ⟨S1000000, .i32⟩
  | 110 => ⟨S1000000, .i32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_5 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1x1000000, .f32⟩
  | 46 => ⟨S24x1000000, .f32⟩
  | 47 => ⟨S24x1000000, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i1⟩
  | 54 => ⟨S1000000, .i1⟩
  | 55 => ⟨S_, .i32⟩
  | 56 => ⟨S1000000, .i32⟩
  | 57 => ⟨S1000000, .i1⟩
  | 58 => ⟨S1000000, .i1⟩
  | 59 => ⟨S_, .i32⟩
  | 60 => ⟨S1000000, .i32⟩
  | 61 => ⟨S1000000, .i1⟩
  | 62 => ⟨S1000000, .i1⟩
  | 63 => ⟨S_, .i32⟩
  | 64 => ⟨S_, .i32⟩
  | 65 => ⟨S_, .i32⟩
  | 66 => ⟨S1000000, .i32⟩
  | 67 => ⟨S1000000, .i32⟩
  | 68 => ⟨S_, .i32⟩
  | 69 => ⟨S1000000, .i32⟩
  | 70 => ⟨S1000000, .i32⟩
  | 71 => ⟨S_, .i32⟩
  | 72 => ⟨S_, .i32⟩
  | 73 => ⟨S_, .i32⟩
  | 74 => ⟨S1000000, .i32⟩
  | 75 => ⟨S1000000, .i32⟩
  | 76 => ⟨S_, .i32⟩
  | 77 => ⟨S1000000, .i32⟩
  | 78 => ⟨S1000000, .i32⟩
  | 79 => ⟨S_, .i32⟩
  | 80 => ⟨S1000000, .i32⟩
  | 81 => ⟨S1000000, .i1⟩
  | 82 => ⟨S_, .i32⟩
  | 83 => ⟨S1000000, .i32⟩
  | 84 => ⟨S1000000, .i32⟩
  | 85 => ⟨S1000000, .i32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x1, .i32⟩
  | 95 => ⟨S1000000x2, .i32⟩
  | 96 => ⟨S24x1000000, .f32⟩
  | 97 => ⟨S1x1000000, .i1⟩
  | 98 => ⟨S_, .f32⟩
  | 99 => ⟨S_, .f32⟩
  | 100 => ⟨S24x1000000, .i1⟩
  | 101 => ⟨S24x1000000, .f32⟩
  | 102 => ⟨S24x1000000, .f32⟩
  | 103 => ⟨S_, .f32⟩
  | 104 => ⟨S1000000, .f32⟩
  | 105 => ⟨S1000000, .f32⟩
  | 106 => ⟨S1000000, .f32⟩
  | 107 => ⟨S1x1000000, .f32⟩
  | 108 => ⟨S24x1000000, .f32⟩
  | 109 => ⟨S24x1000000, .f32⟩
  | 110 => ⟨S24x1000000, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i1⟩
  | 117 => ⟨S1000000, .i1⟩
  | 118 => ⟨S_, .i32⟩
  | 119 => ⟨S1000000, .i32⟩
  | 120 => ⟨S1000000, .i1⟩
  | 121 => ⟨S1000000, .i1⟩
  | 122 => ⟨S_, .i32⟩
  | 123 => ⟨S1000000, .i32⟩
  | 124 => ⟨S1000000, .i1⟩
  | 125 => ⟨S1000000, .i1⟩
  | 126 => ⟨S_, .i32⟩
  | 127 => ⟨S_, .i32⟩
  | _ => ⟨S1000000x3, .f32⟩

abbrev hbmTy0_6 (i : Nat) : BufTy := match i % 128 with
  | 0 => ⟨S_, .i32⟩
  | 1 => ⟨S1000000, .i32⟩
  | 2 => ⟨S1000000, .i32⟩
  | 3 => ⟨S_, .i32⟩
  | 4 => ⟨S1000000, .i32⟩
  | 5 => ⟨S1000000, .i32⟩
  | 6 => ⟨S_, .i32⟩
  | 7 => ⟨S_, .i32⟩
  | 8 => ⟨S_, .i32⟩
  | 9 => ⟨S1000000, .i32⟩
  | 10 => ⟨S1000000, .i32⟩
  | 11 => ⟨S_, .i32⟩
  | 12 => ⟨S1000000, .i32⟩
  | 13 => ⟨S1000000, .i32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x1, .i32⟩
  | 30 => ⟨S1000000x2, .i32⟩
  | 31 => ⟨S24x1000000, .f32⟩
  | 32 => ⟨S1x1000000, .i1⟩
  | 33 => ⟨S_, .f32⟩
  | 34 => ⟨S_, .f32⟩
  | 35 => ⟨S24x1000000, .i1⟩
  | 36 => ⟨S24x1000000, .f32⟩
  | 37 => ⟨S24x1000000, .f32⟩
  | 38 => ⟨S_, .f32⟩
  | 39 => ⟨S1000000, .f32⟩
  | 40 => ⟨S1000000, .f32⟩
  | 41 => ⟨S1000000, .f32⟩
  | 42 => ⟨S1x1000000, .f32⟩
  | 43 => ⟨S24x1000000, .f32⟩
  | 44 => ⟨S24x1000000, .f32⟩
  | 45 => ⟨S24x1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i1⟩
  | 52 => ⟨S1000000, .i1⟩
  | 53 => ⟨S_, .i32⟩
  | 54 => ⟨S1000000, .i32⟩
  | 55 => ⟨S1000000, .i1⟩
  | 56 => ⟨S1000000, .i1⟩
  | 57 => ⟨S_, .i32⟩
  | 58 => ⟨S1000000, .i32⟩
  | 59 => ⟨S1000000, .i1⟩
  | 60 => ⟨S1000000, .i1⟩
  | 61 => ⟨S_, .i32⟩
  | 62 => ⟨S_, .i32⟩
  | 63 => ⟨S_, .i32⟩
  | 64 => ⟨S1000000, .i32⟩
  | 65 => ⟨S1000000, .i32⟩
  | 66 => ⟨S_, .i32⟩
  | 67 => ⟨S1000000, .i32⟩
  | 68 => ⟨S1000000, .i32⟩
  | 69 => ⟨S_, .i32⟩
  | 70 => ⟨S_, .i32⟩
  | 71 => ⟨S_, .i32⟩
  | 72 => ⟨S1000000, .i32⟩
  | 73 => ⟨S1000000, .i32⟩
  | 74 => ⟨S_, .i32⟩
  | 75 => ⟨S1000000, .i32⟩
  | 76 => ⟨S1000000, .i32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x1, .i32⟩
  | 93 => ⟨S1000000x2, .i32⟩
  | 94 => ⟨S24x1000000, .f32⟩
  | 95 => ⟨S1x1000000, .i1⟩
  | 96 => ⟨S_, .f32⟩
  | 97 => ⟨S_, .f32⟩
  | 98 => ⟨S24x1000000, .i1⟩
  | 99 => ⟨S24x1000000, .f32⟩
  | 100 => ⟨S24x1000000, .f32⟩
  | 101 => ⟨S1000000, .f32⟩
  | 102 => ⟨S1x1000000, .f32⟩
  | 103 => ⟨S24x1000000, .f32⟩
  | 104 => ⟨S24x1000000, .f32⟩
  | 105 => ⟨S24x1000000, .f32⟩
  | 106 => ⟨S1000000x24, .f32⟩
  | 107 => ⟨S_, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S1000000, .f32⟩
  | 118 => ⟨S1000000, .i32⟩
  | 119 => ⟨S_, .i32⟩
  | 120 => ⟨S1000000, .i32⟩
  | 121 => ⟨S1000000, .i32⟩
  | 122 => ⟨S_, .i32⟩
  | 123 => ⟨S1000000, .i32⟩
  | 124 => ⟨S1000000, .i1⟩
  | 125 => ⟨S_, .i32⟩
  | 126 => ⟨S1000000, .i32⟩
  | 127 => ⟨S1000000, .i1⟩
  | _ => ⟨S1000000x3, .f32⟩

abbrev hbmTy0_7 (i : Nat) : BufTy := match i % 128 with
  | 0 => ⟨S1000000, .i1⟩
  | 1 => ⟨S_, .i32⟩
  | 2 => ⟨S_, .i32⟩
  | 3 => ⟨S_, .i32⟩
  | 4 => ⟨S1000000, .i32⟩
  | 5 => ⟨S1000000, .i32⟩
  | 6 => ⟨S_, .i32⟩
  | 7 => ⟨S1000000, .i32⟩
  | 8 => ⟨S1000000, .i32⟩
  | 9 => ⟨S1x1000000, .i1⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S24x1000000, .f32⟩
  | 19 => ⟨S_, .f32⟩
  | 20 => ⟨S_, .f32⟩
  | 21 => ⟨S24x1000000, .i1⟩
  | 22 => ⟨S24x1000000, .f32⟩
  | 23 => ⟨S24x1000000, .f32⟩
  | 24 => ⟨S_, .f32⟩
  | 25 => ⟨S1000000, .f32⟩
  | 26 => ⟨S1000000, .f32⟩
  | 27 => ⟨S1x1000000, .f32⟩
  | 28 => ⟨S24x1000000, .f32⟩
  | 29 => ⟨S24x1000000, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i1⟩
  | 36 => ⟨S1000000, .i1⟩
  | 37 => ⟨S_, .i32⟩
  | 38 => ⟨S_, .i32⟩
  | 39 => ⟨S_, .i32⟩
  | 40 => ⟨S1000000, .i32⟩
  | 41 => ⟨S1000000, .i32⟩
  | 42 => ⟨S_, .i32⟩
  | 43 => ⟨S1000000, .i32⟩
  | 44 => ⟨S1000000, .i32⟩
  | 45 => ⟨S1x1000000, .i1⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S24x1000000, .f32⟩
  | 55 => ⟨S_, .f32⟩
  | 56 => ⟨S_, .f32⟩
  | 57 => ⟨S24x1000000, .i1⟩
  | 58 => ⟨S24x1000000, .f32⟩
  | 59 => ⟨S24x1000000, .f32⟩
  | 60 => ⟨S1x1000000, .f32⟩
  | 61 => ⟨S24x1000000, .f32⟩
  | 62 => ⟨S24x1000000, .f32⟩
  | 63 => ⟨S24x1000000, .f32⟩
  | 64 => ⟨S1000000x24, .f32⟩
  | 65 => ⟨S_, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S1000000, .f32⟩
  | 76 => ⟨S1000000, .i32⟩
  | 77 => ⟨S_, .i32⟩
  | 78 => ⟨S1000000, .i32⟩
  | 79 => ⟨S1000000, .i32⟩
  | 80 => ⟨S_, .i32⟩
  | 81 => ⟨S1000000, .i32⟩
  | 82 => ⟨S1000000, .i1⟩
  | 83 => ⟨S_, .i32⟩
  | 84 => ⟨S1000000, .i32⟩
  | 85 => ⟨S1000000, .i1⟩
  | 86 => ⟨S1000000, .i1⟩
  | 87 => ⟨S_, .i32⟩
  | 88 => ⟨S_, .i32⟩
  | 89 => ⟨S_, .i32⟩
  | 90 => ⟨S1000000, .i32⟩
  | 91 => ⟨S1000000, .i32⟩
  | 92 => ⟨S_, .i32⟩
  | 93 => ⟨S1000000, .i32⟩
  | 94 => ⟨S1000000, .i32⟩
  | 95 => ⟨S1x1000000, .i1⟩
  | 96 => ⟨S_, .i32⟩
  | 97 => ⟨S1000000, .i32⟩
  | 98 => ⟨S1000000, .i1⟩
  | 99 => ⟨S_, .i32⟩
  | 100 => ⟨S1000000, .i32⟩
  | 101 => ⟨S1000000, .i32⟩
  | 102 => ⟨S1000000, .i32⟩
  | 103 => ⟨S1000000x1, .i32⟩
  | 104 => ⟨S24x1000000, .f32⟩
  | 105 => ⟨S_, .f32⟩
  | 106 => ⟨S_, .f32⟩
  | 107 => ⟨S24x1000000, .i1⟩
  | 108 => ⟨S24x1000000, .f32⟩
  | 109 => ⟨S24x1000000, .f32⟩
  | 110 => ⟨S_, .f32⟩
  | 111 => ⟨S1000000, .f32⟩
  | 112 => ⟨S1000000, .f32⟩
  | 113 => ⟨S1x1000000, .f32⟩
  | 114 => ⟨S24x1000000, .f32⟩
  | 115 => ⟨S24x1000000, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i1⟩
  | 122 => ⟨S1000000, .i1⟩
  | 123 => ⟨S_, .i32⟩
  | 124 => ⟨S_, .i32⟩
  | 125 => ⟨S_, .i32⟩
  | 126 => ⟨S1000000, .i32⟩
  | 127 => ⟨S1000000, .i32⟩
  | _ => ⟨S1000000x3, .f32⟩

abbrev hbmTy0_8 (i : Nat) : BufTy := match i % 128 with
  | 0 => ⟨S_, .i32⟩
  | 1 => ⟨S1000000, .i32⟩
  | 2 => ⟨S1000000, .i32⟩
  | 3 => ⟨S1x1000000, .i1⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S24x1000000, .f32⟩
  | 13 => ⟨S_, .f32⟩
  | 14 => ⟨S_, .f32⟩
  | 15 => ⟨S24x1000000, .i1⟩
  | 16 => ⟨S24x1000000, .f32⟩
  | 17 => ⟨S24x1000000, .f32⟩
  | 18 => ⟨S1x1000000, .f32⟩
  | 19 => ⟨S24x1000000, .f32⟩
  | 20 => ⟨S24x1000000, .f32⟩
  | 21 => ⟨S24x1000000, .f32⟩
  | 22 => ⟨S1000000x24, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S1000000, .f32⟩
  | 34 => ⟨S1000000, .i32⟩
  | 35 => ⟨S_, .i32⟩
  | 36 => ⟨S1000000, .i32⟩
  | 37 => ⟨S1000000, .i32⟩
  | 38 => ⟨S_, .i32⟩
  | 39 => ⟨S1000000, .i32⟩
  | 40 => ⟨S1000000, .i1⟩
  | 41 => ⟨S_, .i32⟩
  | 42 => ⟨S1000000, .i32⟩
  | 43 => ⟨S1000000, .i1⟩
  | 44 => ⟨S1000000, .i1⟩
  | 45 => ⟨S_, .i32⟩
  | 46 => ⟨S_, .i32⟩
  | 47 => ⟨S_, .i32⟩
  | 48 => ⟨S1000000, .i32⟩
  | 49 => ⟨S1000000, .i32⟩
  | 50 => ⟨S_, .i32⟩
  | 51 => ⟨S1000000, .i32⟩
  | 52 => ⟨S1000000, .i32⟩
  | 53 => ⟨S1x1000000, .i1⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S24x1000000, .f32⟩
  | 63 => ⟨S_, .f32⟩
  | 64 => ⟨S_, .f32⟩
  | 65 => ⟨S24x1000000, .i1⟩
  | 66 => ⟨S24x1000000, .f32⟩
  | 67 => ⟨S24x1000000, .f32⟩
  | 68 => ⟨S_, .f32⟩
  | 69 => ⟨S1000000, .f32⟩
  | 70 => ⟨S1000000, .f32⟩
  | 71 => ⟨S1x1000000, .f32⟩
  | 72 => ⟨S24x1000000, .f32⟩
  | 73 => ⟨S24x1000000, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i1⟩
  | 80 => ⟨S1000000, .i1⟩
  | 81 => ⟨S_, .i32⟩
  | 82 => ⟨S_, .i32⟩
  | 83 => ⟨S_, .i32⟩
  | 84 => ⟨S1000000, .i32⟩
  | 85 => ⟨S1000000, .i32⟩
  | 86 => ⟨S_, .i32⟩
  | 87 => ⟨S1000000, .i32⟩
  | 88 => ⟨S1000000, .i32⟩
  | 89 => ⟨S1x1000000, .i1⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S24x1000000, .f32⟩
  | 99 => ⟨S_, .f32⟩
  | 100 => ⟨S_, .f32⟩
  | 101 => ⟨S24x1000000, .i1⟩
  | 102 => ⟨S24x1000000, .f32⟩
  | 103 => ⟨S24x1000000, .f32⟩
  | 104 => ⟨S1x1000000, .f32⟩
  | 105 => ⟨S24x1000000, .f32⟩
  | 106 => ⟨S24x1000000, .f32⟩
  | 107 => ⟨S24x1000000, .f32⟩
  | 108 => ⟨S1000000x24, .f32⟩
  | 109 => ⟨S1000000x24, .f32⟩
  | 110 => ⟨S1000000x24, .f32⟩
  | 111 => ⟨S1000000x24, .f32⟩
  | 112 => ⟨S1000000x72, .f32⟩
  | 113 => ⟨S1000000x28, .f32⟩
  | _ => ⟨S1000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_c_13 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v50 : Ref sig .tc := ⟨.hbm, 81, rfl⟩
abbrev main_c_14 : Ref sig .tc := ⟨.hbm, 82, rfl⟩
abbrev main_c_15 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v51 : Ref sig .tc := ⟨.hbm, 89, rfl⟩
abbrev main_c_16 : Ref sig .tc := ⟨.hbm, 90, rfl⟩
abbrev main_v52 : Ref sig .tc := ⟨.hbm, 91, rfl⟩
abbrev main_v53 : Ref sig .tc := ⟨.hbm, 92, rfl⟩
abbrev main_c_17 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_c_18 : Ref sig .tc := ⟨.hbm, 97, rfl⟩
abbrev main_v57 : Ref sig .tc := ⟨.hbm, 98, rfl⟩
abbrev main_v58 : Ref sig .tc := ⟨.hbm, 99, rfl⟩
abbrev main_c_19 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_20 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v67 : Ref sig .tc := ⟨.hbm, 113, rfl⟩
abbrev main_cst_21 : Ref sig .tc := ⟨.hbm, 114, rfl⟩
abbrev main_v68 : Ref sig .tc := ⟨.hbm, 115, rfl⟩
abbrev main_v69 : Ref sig .tc := ⟨.hbm, 116, rfl⟩
abbrev main_cst_22 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_c_23 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_c_25 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_26 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_27 : Ref sig .tc := ⟨.hbm, 139, rfl⟩
abbrev main_c_28 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_v87 : Ref sig .tc := ⟨.hbm, 146, rfl⟩
abbrev main_c_29 : Ref sig .tc := ⟨.hbm, 147, rfl⟩
abbrev main_c_30 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_v88 : Ref sig .tc := ⟨.hbm, 154, rfl⟩
abbrev main_c_31 : Ref sig .tc := ⟨.hbm, 155, rfl⟩
abbrev main_v89 : Ref sig .tc := ⟨.hbm, 156, rfl⟩
abbrev main_v90 : Ref sig .tc := ⟨.hbm, 157, rfl⟩
abbrev main_c_32 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_c_33 : Ref sig .tc := ⟨.hbm, 162, rfl⟩
abbrev main_v94 : Ref sig .tc := ⟨.hbm, 163, rfl⟩
abbrev main_v95 : Ref sig .tc := ⟨.hbm, 164, rfl⟩
abbrev main_c_34 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_35 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v104 : Ref sig .tc := ⟨.hbm, 178, rfl⟩
abbrev main_cst_36 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_c_37 : Ref sig .tc := ⟨.hbm, 187, rfl⟩
abbrev main_v112 : Ref sig .tc := ⟨.hbm, 188, rfl⟩
abbrev main_v113 : Ref sig .tc := ⟨.hbm, 189, rfl⟩
abbrev main_c_38 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_c_39 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_c_40 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_c_41 : Ref sig .tc := ⟨.hbm, 202, rfl⟩
abbrev main_c_42 : Ref sig .tc := ⟨.hbm, 203, rfl⟩
abbrev main_call6_v0 : Ref sig .tc := ⟨.hbm, 204, rfl⟩
abbrev main_call6_v1 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_v123 : Ref sig .tc := ⟨.hbm, 209, rfl⟩
abbrev main_c_43 : Ref sig .tc := ⟨.hbm, 210, rfl⟩
abbrev main_c_44 : Ref sig .tc := ⟨.hbm, 211, rfl⟩
abbrev main_call7_v0 : Ref sig .tc := ⟨.hbm, 212, rfl⟩
abbrev main_call7_v1 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_v124 : Ref sig .tc := ⟨.hbm, 217, rfl⟩
abbrev main_c_45 : Ref sig .tc := ⟨.hbm, 218, rfl⟩
abbrev main_v125 : Ref sig .tc := ⟨.hbm, 219, rfl⟩
abbrev main_v126 : Ref sig .tc := ⟨.hbm, 220, rfl⟩
abbrev main_c_46 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_c_47 : Ref sig .tc := ⟨.hbm, 225, rfl⟩
abbrev main_v130 : Ref sig .tc := ⟨.hbm, 226, rfl⟩
abbrev main_v131 : Ref sig .tc := ⟨.hbm, 227, rfl⟩
abbrev main_c_48 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_cst_49 : Ref sig .tc := ⟨.hbm, 237, rfl⟩
abbrev main_call8_v0 : Ref sig .tc := ⟨.hbm, 238, rfl⟩
abbrev main_call8_v1 : Ref sig .tc := ⟨.hbm, 239, rfl⟩
abbrev main_call8_v2 : Ref sig .tc := ⟨.hbm, 240, rfl⟩
abbrev main_v140 : Ref sig .tc := ⟨.hbm, 241, rfl⟩
abbrev main_cst_50 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_c_51 : Ref sig .tc := ⟨.hbm, 250, rfl⟩
abbrev main_v148 : Ref sig .tc := ⟨.hbm, 251, rfl⟩
abbrev main_v149 : Ref sig .tc := ⟨.hbm, 252, rfl⟩
abbrev main_c_52 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_c_53 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_c_54 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_c_55 : Ref sig .tc := ⟨.hbm, 265, rfl⟩
abbrev main_c_56 : Ref sig .tc := ⟨.hbm, 266, rfl⟩
abbrev main_call9_v0 : Ref sig .tc := ⟨.hbm, 267, rfl⟩
abbrev main_call9_v1 : Ref sig .tc := ⟨.hbm, 268, rfl⟩
abbrev main_call9_v2 : Ref sig .tc := ⟨.hbm, 269, rfl⟩
abbrev main_call9_v3 : Ref sig .tc := ⟨.hbm, 270, rfl⟩
abbrev main_call9_v4 : Ref sig .tc := ⟨.hbm, 271, rfl⟩
abbrev main_v159 : Ref sig .tc := ⟨.hbm, 272, rfl⟩
abbrev main_c_57 : Ref sig .tc := ⟨.hbm, 273, rfl⟩
abbrev main_c_58 : Ref sig .tc := ⟨.hbm, 274, rfl⟩
abbrev main_call10_v0 : Ref sig .tc := ⟨.hbm, 275, rfl⟩
abbrev main_call10_v1 : Ref sig .tc := ⟨.hbm, 276, rfl⟩
abbrev main_call10_v2 : Ref sig .tc := ⟨.hbm, 277, rfl⟩
abbrev main_call10_v3 : Ref sig .tc := ⟨.hbm, 278, rfl⟩
abbrev main_call10_v4 : Ref sig .tc := ⟨.hbm, 279, rfl⟩
abbrev main_v160 : Ref sig .tc := ⟨.hbm, 280, rfl⟩
abbrev main_c_59 : Ref sig .tc := ⟨.hbm, 281, rfl⟩
abbrev main_v161 : Ref sig .tc := ⟨.hbm, 282, rfl⟩
abbrev main_v162 : Ref sig .tc := ⟨.hbm, 283, rfl⟩
abbrev main_c_60 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_c_61 : Ref sig .tc := ⟨.hbm, 288, rfl⟩
abbrev main_v166 : Ref sig .tc := ⟨.hbm, 289, rfl⟩
abbrev main_v167 : Ref sig .tc := ⟨.hbm, 290, rfl⟩
abbrev main_c_62 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_cst_63 : Ref sig .tc := ⟨.hbm, 300, rfl⟩
abbrev main_call11_v0 : Ref sig .tc := ⟨.hbm, 301, rfl⟩
abbrev main_call11_v1 : Ref sig .tc := ⟨.hbm, 302, rfl⟩
abbrev main_call11_v2 : Ref sig .tc := ⟨.hbm, 303, rfl⟩
abbrev main_v176 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_cst_64 : Ref sig .tc := ⟨.hbm, 311, rfl⟩
abbrev main_v183 : Ref sig .tc := ⟨.hbm, 312, rfl⟩
abbrev main_v184 : Ref sig .tc := ⟨.hbm, 313, rfl⟩
abbrev main_cst_65 : Ref sig .tc := ⟨.hbm, 314, rfl⟩
abbrev main_v185 : Ref sig .tc := ⟨.hbm, 315, rfl⟩
abbrev main_v186 : Ref sig .tc := ⟨.hbm, 316, rfl⟩
abbrev main_cst_66 : Ref sig .tc := ⟨.hbm, 317, rfl⟩
abbrev main_v187 : Ref sig .tc := ⟨.hbm, 318, rfl⟩
abbrev main_v188 : Ref sig .tc := ⟨.hbm, 319, rfl⟩
abbrev main_cst_67 : Ref sig .tc := ⟨.hbm, 320, rfl⟩
abbrev main_v189 : Ref sig .tc := ⟨.hbm, 321, rfl⟩
abbrev main_v190 : Ref sig .tc := ⟨.hbm, 322, rfl⟩
abbrev main_cst_68 : Ref sig .tc := ⟨.hbm, 323, rfl⟩
abbrev main_v191 : Ref sig .tc := ⟨.hbm, 324, rfl⟩
abbrev main_v192 : Ref sig .tc := ⟨.hbm, 325, rfl⟩
abbrev main_cst_69 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_c_70 : Ref sig .tc := ⟨.hbm, 335, rfl⟩
abbrev main_v201 : Ref sig .tc := ⟨.hbm, 336, rfl⟩
abbrev main_v202 : Ref sig .tc := ⟨.hbm, 337, rfl⟩
abbrev main_c_71 : Ref sig .tc := ⟨.hbm, 338, rfl⟩
abbrev main_v203 : Ref sig .tc := ⟨.hbm, 339, rfl⟩
abbrev main_v204 : Ref sig .tc := ⟨.hbm, 340, rfl⟩
abbrev main_c_72 : Ref sig .tc := ⟨.hbm, 341, rfl⟩
abbrev main_v205 : Ref sig .tc := ⟨.hbm, 342, rfl⟩
abbrev main_v206 : Ref sig .tc := ⟨.hbm, 343, rfl⟩
abbrev main_c_73 : Ref sig .tc := ⟨.hbm, 344, rfl⟩
abbrev main_v207 : Ref sig .tc := ⟨.hbm, 345, rfl⟩
abbrev main_v208 : Ref sig .tc := ⟨.hbm, 346, rfl⟩
abbrev main_v209 : Ref sig .tc := ⟨.hbm, 347, rfl⟩
abbrev main_c_74 : Ref sig .tc := ⟨.hbm, 348, rfl⟩
abbrev main_v210 : Ref sig .tc := ⟨.hbm, 349, rfl⟩
abbrev main_v211 : Ref sig .tc := ⟨.hbm, 350, rfl⟩
abbrev main_v212 : Ref sig .tc := ⟨.hbm, 351, rfl⟩
abbrev main_c_75 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_c_76 : Ref sig .tc := ⟨.hbm, 356, rfl⟩
abbrev main_c_77 : Ref sig .tc := ⟨.hbm, 357, rfl⟩
abbrev main_call12_v0 : Ref sig .tc := ⟨.hbm, 358, rfl⟩
abbrev main_call12_v1 : Ref sig .tc := ⟨.hbm, 359, rfl⟩
abbrev main_call12_v2 : Ref sig .tc := ⟨.hbm, 360, rfl⟩
abbrev main_call12_v3 : Ref sig .tc := ⟨.hbm, 361, rfl⟩
abbrev main_call12_v4 : Ref sig .tc := ⟨.hbm, 362, rfl⟩
abbrev main_v216 : Ref sig .tc := ⟨.hbm, 363, rfl⟩
abbrev main_c_78 : Ref sig .tc := ⟨.hbm, 364, rfl⟩
abbrev main_c_79 : Ref sig .tc := ⟨.hbm, 365, rfl⟩
abbrev main_call13_v0 : Ref sig .tc := ⟨.hbm, 366, rfl⟩
abbrev main_call13_v1 : Ref sig .tc := ⟨.hbm, 367, rfl⟩
abbrev main_call13_v2 : Ref sig .tc := ⟨.hbm, 368, rfl⟩
abbrev main_call13_v3 : Ref sig .tc := ⟨.hbm, 369, rfl⟩
abbrev main_call13_v4 : Ref sig .tc := ⟨.hbm, 370, rfl⟩
abbrev main_v217 : Ref sig .tc := ⟨.hbm, 371, rfl⟩
abbrev main_c_80 : Ref sig .tc := ⟨.hbm, 372, rfl⟩
abbrev main_v218 : Ref sig .tc := ⟨.hbm, 373, rfl⟩
abbrev main_v219 : Ref sig .tc := ⟨.hbm, 374, rfl⟩
abbrev main_c_81 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_c_82 : Ref sig .tc := ⟨.hbm, 379, rfl⟩
abbrev main_v223 : Ref sig .tc := ⟨.hbm, 380, rfl⟩
abbrev main_v224 : Ref sig .tc := ⟨.hbm, 381, rfl⟩
abbrev main_c_83 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_cst_84 : Ref sig .tc := ⟨.hbm, 391, rfl⟩
abbrev main_call14_v0 : Ref sig .tc := ⟨.hbm, 392, rfl⟩
abbrev main_call14_v1 : Ref sig .tc := ⟨.hbm, 393, rfl⟩
abbrev main_call14_v2 : Ref sig .tc := ⟨.hbm, 394, rfl⟩
abbrev main_v233 : Ref sig .tc := ⟨.hbm, 395, rfl⟩
abbrev main_cst_85 : Ref sig .tc := ⟨.hbm, 396, rfl⟩
abbrev main_v234 : Ref sig .tc := ⟨.hbm, 397, rfl⟩
abbrev main_v235 : Ref sig .tc := ⟨.hbm, 398, rfl⟩
abbrev main_cst_86 : Ref sig .tc := ⟨.hbm, 399, rfl⟩
abbrev main_v236 : Ref sig .tc := ⟨.hbm, 400, rfl⟩
abbrev main_v237 : Ref sig .tc := ⟨.hbm, 401, rfl⟩
abbrev main_v238 : Ref sig .tc := ⟨.hbm, 402, rfl⟩
abbrev main_v239 : Ref sig .tc := ⟨.hbm, 403, rfl⟩
abbrev main_v240 : Ref sig .tc := ⟨.hbm, 404, rfl⟩
abbrev main_v241 : Ref sig .tc := ⟨.hbm, 405, rfl⟩
abbrev main_c_87 : Ref sig .tc := ⟨.hbm, 406, rfl⟩
abbrev main_v242 : Ref sig .tc := ⟨.hbm, 407, rfl⟩
abbrev main_v243 : Ref sig .tc := ⟨.hbm, 408, rfl⟩
abbrev main_c_88 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_c_89 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_c_90 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_c_91 : Ref sig .tc := ⟨.hbm, 421, rfl⟩
abbrev main_c_92 : Ref sig .tc := ⟨.hbm, 422, rfl⟩
abbrev main_call15_v0 : Ref sig .tc := ⟨.hbm, 423, rfl⟩
abbrev main_call15_v1 : Ref sig .tc := ⟨.hbm, 424, rfl⟩
abbrev main_call15_v2 : Ref sig .tc := ⟨.hbm, 425, rfl⟩
abbrev main_call15_v3 : Ref sig .tc := ⟨.hbm, 426, rfl⟩
abbrev main_call15_v4 : Ref sig .tc := ⟨.hbm, 427, rfl⟩
abbrev main_v253 : Ref sig .tc := ⟨.hbm, 428, rfl⟩
abbrev main_c_93 : Ref sig .tc := ⟨.hbm, 429, rfl⟩
abbrev main_c_94 : Ref sig .tc := ⟨.hbm, 430, rfl⟩
abbrev main_call16_v0 : Ref sig .tc := ⟨.hbm, 431, rfl⟩
abbrev main_call16_v1 : Ref sig .tc := ⟨.hbm, 432, rfl⟩
abbrev main_call16_v2 : Ref sig .tc := ⟨.hbm, 433, rfl⟩
abbrev main_call16_v3 : Ref sig .tc := ⟨.hbm, 434, rfl⟩
abbrev main_call16_v4 : Ref sig .tc := ⟨.hbm, 435, rfl⟩
abbrev main_v254 : Ref sig .tc := ⟨.hbm, 436, rfl⟩
abbrev main_c_95 : Ref sig .tc := ⟨.hbm, 437, rfl⟩
abbrev main_v255 : Ref sig .tc := ⟨.hbm, 438, rfl⟩
abbrev main_v256 : Ref sig .tc := ⟨.hbm, 439, rfl⟩
abbrev main_c_96 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_c_97 : Ref sig .tc := ⟨.hbm, 444, rfl⟩
abbrev main_v260 : Ref sig .tc := ⟨.hbm, 445, rfl⟩
abbrev main_v261 : Ref sig .tc := ⟨.hbm, 446, rfl⟩
abbrev main_c_98 : Ref sig .tc := ⟨.hbm, 447, rfl⟩
abbrev main_v262 : Ref sig .tc := ⟨.hbm, 448, rfl⟩
abbrev main_v263 : Ref sig .tc := ⟨.hbm, 449, rfl⟩
abbrev main_v264 : Ref sig .tc := ⟨.hbm, 450, rfl⟩
abbrev main_v265 : Ref sig .tc := ⟨.hbm, 451, rfl⟩
abbrev main_v266 : Ref sig .tc := ⟨.hbm, 452, rfl⟩
abbrev main_v267 : Ref sig .tc := ⟨.hbm, 453, rfl⟩
abbrev main_v268 : Ref sig .tc := ⟨.hbm, 454, rfl⟩
abbrev main_v269 : Ref sig .tc := ⟨.hbm, 455, rfl⟩
abbrev main_cst_99 : Ref sig .tc := ⟨.hbm, 456, rfl⟩
abbrev main_call17_v0 : Ref sig .tc := ⟨.hbm, 457, rfl⟩
abbrev main_call17_v1 : Ref sig .tc := ⟨.hbm, 458, rfl⟩
abbrev main_call17_v2 : Ref sig .tc := ⟨.hbm, 459, rfl⟩
abbrev main_v270 : Ref sig .tc := ⟨.hbm, 460, rfl⟩
abbrev main_cst_100 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_c_101 : Ref sig .tc := ⟨.hbm, 469, rfl⟩
abbrev main_v278 : Ref sig .tc := ⟨.hbm, 470, rfl⟩
abbrev main_v279 : Ref sig .tc := ⟨.hbm, 471, rfl⟩
abbrev main_c_102 : Ref sig .tc := ⟨.hbm, 472, rfl⟩
abbrev main_v280 : Ref sig .tc := ⟨.hbm, 473, rfl⟩
abbrev main_v281 : Ref sig .tc := ⟨.hbm, 474, rfl⟩
abbrev main_v282 : Ref sig .tc := ⟨.hbm, 475, rfl⟩
abbrev main_c_103 : Ref sig .tc := ⟨.hbm, 476, rfl⟩
abbrev main_v283 : Ref sig .tc := ⟨.hbm, 477, rfl⟩
abbrev main_v284 : Ref sig .tc := ⟨.hbm, 478, rfl⟩
abbrev main_v285 : Ref sig .tc := ⟨.hbm, 479, rfl⟩
abbrev main_c_104 : Ref sig .tc := ⟨.hbm, 480, rfl⟩
abbrev main_v286 : Ref sig .tc := ⟨.hbm, 481, rfl⟩
abbrev main_v287 : Ref sig .tc := ⟨.hbm, 482, rfl⟩
abbrev main_v288 : Ref sig .tc := ⟨.hbm, 483, rfl⟩
abbrev main_c_105 : Ref sig .tc := ⟨.hbm, 484, rfl⟩
abbrev main_c_106 : Ref sig .tc := ⟨.hbm, 485, rfl⟩
abbrev main_call18_v0 : Ref sig .tc := ⟨.hbm, 486, rfl⟩
abbrev main_call18_v1 : Ref sig .tc := ⟨.hbm, 487, rfl⟩
abbrev main_call18_v2 : Ref sig .tc := ⟨.hbm, 488, rfl⟩
abbrev main_call18_v3 : Ref sig .tc := ⟨.hbm, 489, rfl⟩
abbrev main_call18_v4 : Ref sig .tc := ⟨.hbm, 490, rfl⟩
abbrev main_v289 : Ref sig .tc := ⟨.hbm, 491, rfl⟩
abbrev main_c_107 : Ref sig .tc := ⟨.hbm, 492, rfl⟩
abbrev main_c_108 : Ref sig .tc := ⟨.hbm, 493, rfl⟩
abbrev main_call19_v0 : Ref sig .tc := ⟨.hbm, 494, rfl⟩
abbrev main_call19_v1 : Ref sig .tc := ⟨.hbm, 495, rfl⟩
abbrev main_call19_v2 : Ref sig .tc := ⟨.hbm, 496, rfl⟩
abbrev main_call19_v3 : Ref sig .tc := ⟨.hbm, 497, rfl⟩
abbrev main_call19_v4 : Ref sig .tc := ⟨.hbm, 498, rfl⟩
abbrev main_v290 : Ref sig .tc := ⟨.hbm, 499, rfl⟩
abbrev main_c_109 : Ref sig .tc := ⟨.hbm, 500, rfl⟩
abbrev main_v291 : Ref sig .tc := ⟨.hbm, 501, rfl⟩
abbrev main_v292 : Ref sig .tc := ⟨.hbm, 502, rfl⟩
abbrev main_c_110 : Ref sig .tc := ⟨.hbm, 503, rfl⟩
abbrev main_v293 : Ref sig .tc := ⟨.hbm, 504, rfl⟩
abbrev main_v294 : Ref sig .tc := ⟨.hbm, 505, rfl⟩
abbrev main_v295 : Ref sig .tc := ⟨.hbm, 506, rfl⟩
abbrev main_c_111 : Ref sig .tc := ⟨.hbm, 507, rfl⟩
abbrev main_v296 : Ref sig .tc := ⟨.hbm, 508, rfl⟩
abbrev main_v297 : Ref sig .tc := ⟨.hbm, 509, rfl⟩
abbrev main_c_112 : Ref sig .tc := ⟨.hbm, 510, rfl⟩
abbrev main_v298 : Ref sig .tc := ⟨.hbm, 511, rfl⟩
abbrev main_v299 : Ref sig .tc := ⟨.hbm, 512, rfl⟩
abbrev main_v300 : Ref sig .tc := ⟨.hbm, 513, rfl⟩
abbrev main_v301 : Ref sig .tc := ⟨.hbm, 514, rfl⟩
abbrev main_v302 : Ref sig .tc := ⟨.hbm, 515, rfl⟩
abbrev main_v303 : Ref sig .tc := ⟨.hbm, 516, rfl⟩
abbrev main_v304 : Ref sig .tc := ⟨.hbm, 517, rfl⟩
abbrev main_v305 : Ref sig .tc := ⟨.hbm, 518, rfl⟩
abbrev main_cst_113 : Ref sig .tc := ⟨.hbm, 519, rfl⟩
abbrev main_call20_v0 : Ref sig .tc := ⟨.hbm, 520, rfl⟩
abbrev main_call20_v1 : Ref sig .tc := ⟨.hbm, 521, rfl⟩
abbrev main_call20_v2 : Ref sig .tc := ⟨.hbm, 522, rfl⟩
abbrev main_v306 : Ref sig .tc := ⟨.hbm, 523, rfl⟩
abbrev main_cst_114 : Ref sig .tc := ⟨.hbm, 524, rfl⟩
abbrev main_v307 : Ref sig .tc := ⟨.hbm, 525, rfl⟩
abbrev main_v308 : Ref sig .tc := ⟨.hbm, 526, rfl⟩
abbrev main_v309 : Ref sig .tc := ⟨.hbm, 527, rfl⟩
abbrev main_v310 : Ref sig .tc := ⟨.hbm, 528, rfl⟩
abbrev main_v311 : Ref sig .tc := ⟨.hbm, 529, rfl⟩
abbrev main_v312 : Ref sig .tc := ⟨.hbm, 530, rfl⟩
abbrev main_v313 : Ref sig .tc := ⟨.hbm, 531, rfl⟩
abbrev main_c_115 : Ref sig .tc := ⟨.hbm, 532, rfl⟩
abbrev main_v314 : Ref sig .tc := ⟨.hbm, 533, rfl⟩
abbrev main_v315 : Ref sig .tc := ⟨.hbm, 534, rfl⟩
abbrev main_c_116 : Ref sig .tc := ⟨.hbm, 535, rfl⟩
abbrev main_v316 : Ref sig .tc := ⟨.hbm, 536, rfl⟩
abbrev main_v317 : Ref sig .tc := ⟨.hbm, 537, rfl⟩
abbrev main_v318 : Ref sig .tc := ⟨.hbm, 538, rfl⟩
abbrev main_c_117 : Ref sig .tc := ⟨.hbm, 539, rfl⟩
abbrev main_v319 : Ref sig .tc := ⟨.hbm, 540, rfl⟩
abbrev main_v320 : Ref sig .tc := ⟨.hbm, 541, rfl⟩
abbrev main_v321 : Ref sig .tc := ⟨.hbm, 542, rfl⟩
abbrev main_c_118 : Ref sig .tc := ⟨.hbm, 543, rfl⟩
abbrev main_v322 : Ref sig .tc := ⟨.hbm, 544, rfl⟩
abbrev main_v323 : Ref sig .tc := ⟨.hbm, 545, rfl⟩
abbrev main_v324 : Ref sig .tc := ⟨.hbm, 546, rfl⟩
abbrev main_c_119 : Ref sig .tc := ⟨.hbm, 547, rfl⟩
abbrev main_c_120 : Ref sig .tc := ⟨.hbm, 548, rfl⟩
abbrev main_call21_v0 : Ref sig .tc := ⟨.hbm, 549, rfl⟩
abbrev main_call21_v1 : Ref sig .tc := ⟨.hbm, 550, rfl⟩
abbrev main_call21_v2 : Ref sig .tc := ⟨.hbm, 551, rfl⟩
abbrev main_call21_v3 : Ref sig .tc := ⟨.hbm, 552, rfl⟩
abbrev main_call21_v4 : Ref sig .tc := ⟨.hbm, 553, rfl⟩
abbrev main_v325 : Ref sig .tc := ⟨.hbm, 554, rfl⟩
abbrev main_c_121 : Ref sig .tc := ⟨.hbm, 555, rfl⟩
abbrev main_c_122 : Ref sig .tc := ⟨.hbm, 556, rfl⟩
abbrev main_call22_v0 : Ref sig .tc := ⟨.hbm, 557, rfl⟩
abbrev main_call22_v1 : Ref sig .tc := ⟨.hbm, 558, rfl⟩
abbrev main_call22_v2 : Ref sig .tc := ⟨.hbm, 559, rfl⟩
abbrev main_call22_v3 : Ref sig .tc := ⟨.hbm, 560, rfl⟩
abbrev main_call22_v4 : Ref sig .tc := ⟨.hbm, 561, rfl⟩
abbrev main_v326 : Ref sig .tc := ⟨.hbm, 562, rfl⟩
abbrev main_c_123 : Ref sig .tc := ⟨.hbm, 563, rfl⟩
abbrev main_v327 : Ref sig .tc := ⟨.hbm, 564, rfl⟩
abbrev main_v328 : Ref sig .tc := ⟨.hbm, 565, rfl⟩
abbrev main_c_124 : Ref sig .tc := ⟨.hbm, 566, rfl⟩
abbrev main_v329 : Ref sig .tc := ⟨.hbm, 567, rfl⟩
abbrev main_v330 : Ref sig .tc := ⟨.hbm, 568, rfl⟩
abbrev main_v331 : Ref sig .tc := ⟨.hbm, 569, rfl⟩
abbrev main_c_125 : Ref sig .tc := ⟨.hbm, 570, rfl⟩
abbrev main_v332 : Ref sig .tc := ⟨.hbm, 571, rfl⟩
abbrev main_v333 : Ref sig .tc := ⟨.hbm, 572, rfl⟩
abbrev main_c_126 : Ref sig .tc := ⟨.hbm, 573, rfl⟩
abbrev main_v334 : Ref sig .tc := ⟨.hbm, 574, rfl⟩
abbrev main_v335 : Ref sig .tc := ⟨.hbm, 575, rfl⟩
abbrev main_v336 : Ref sig .tc := ⟨.hbm, 576, rfl⟩
abbrev main_v337 : Ref sig .tc := ⟨.hbm, 577, rfl⟩
abbrev main_v338 : Ref sig .tc := ⟨.hbm, 578, rfl⟩
abbrev main_v339 : Ref sig .tc := ⟨.hbm, 579, rfl⟩
abbrev main_v340 : Ref sig .tc := ⟨.hbm, 580, rfl⟩
abbrev main_v341 : Ref sig .tc := ⟨.hbm, 581, rfl⟩
abbrev main_cst_127 : Ref sig .tc := ⟨.hbm, 582, rfl⟩
abbrev main_call23_v0 : Ref sig .tc := ⟨.hbm, 583, rfl⟩
abbrev main_call23_v1 : Ref sig .tc := ⟨.hbm, 584, rfl⟩
abbrev main_call23_v2 : Ref sig .tc := ⟨.hbm, 585, rfl⟩
abbrev main_v342 : Ref sig .tc := ⟨.hbm, 586, rfl⟩
abbrev main_v343 : Ref sig .tc := ⟨.hbm, 587, rfl⟩
abbrev main_v344 : Ref sig .tc := ⟨.hbm, 588, rfl⟩
abbrev main_v345 : Ref sig .tc := ⟨.hbm, 589, rfl⟩
abbrev main_v346 : Ref sig .tc := ⟨.hbm, 590, rfl⟩
abbrev main_v347 : Ref sig .tc := ⟨.hbm, 591, rfl⟩
abbrev main_v348 : Ref sig .tc := ⟨.hbm, 592, rfl⟩
abbrev main_cst_128 : Ref sig .tc := ⟨.hbm, 593, rfl⟩
abbrev main_v349 : Ref sig .tc := ⟨.hbm, 594, rfl⟩
abbrev main_v350 : Ref sig .tc := ⟨.hbm, 595, rfl⟩
abbrev main_cst_129 : Ref sig .tc := ⟨.hbm, 596, rfl⟩
abbrev main_v351 : Ref sig .tc := ⟨.hbm, 597, rfl⟩
abbrev main_v352 : Ref sig .tc := ⟨.hbm, 598, rfl⟩
abbrev main_cst_130 : Ref sig .tc := ⟨.hbm, 599, rfl⟩
abbrev main_v353 : Ref sig .tc := ⟨.hbm, 600, rfl⟩
abbrev main_v354 : Ref sig .tc := ⟨.hbm, 601, rfl⟩
abbrev main_cst_131 : Ref sig .tc := ⟨.hbm, 602, rfl⟩
abbrev main_v355 : Ref sig .tc := ⟨.hbm, 603, rfl⟩
abbrev main_v356 : Ref sig .tc := ⟨.hbm, 604, rfl⟩
abbrev main_cst_132 : Ref sig .tc := ⟨.hbm, 605, rfl⟩
abbrev main_v357 : Ref sig .tc := ⟨.hbm, 606, rfl⟩
abbrev main_v358 : Ref sig .tc := ⟨.hbm, 607, rfl⟩
abbrev main_cst_133 : Ref sig .tc := ⟨.hbm, 608, rfl⟩
abbrev main_v359 : Ref sig .tc := ⟨.hbm, 609, rfl⟩
abbrev main_v360 : Ref sig .tc := ⟨.hbm, 610, rfl⟩
abbrev main_v361 : Ref sig .tc := ⟨.hbm, 611, rfl⟩
abbrev main_v362 : Ref sig .tc := ⟨.hbm, 612, rfl⟩
abbrev main_v363 : Ref sig .tc := ⟨.hbm, 613, rfl⟩
abbrev main_v364 : Ref sig .tc := ⟨.hbm, 614, rfl⟩
abbrev main_v365 : Ref sig .tc := ⟨.hbm, 615, rfl⟩
abbrev main_v366 : Ref sig .tc := ⟨.hbm, 616, rfl⟩
abbrev main_c_134 : Ref sig .tc := ⟨.hbm, 617, rfl⟩
abbrev main_v367 : Ref sig .tc := ⟨.hbm, 618, rfl⟩
abbrev main_v368 : Ref sig .tc := ⟨.hbm, 619, rfl⟩
abbrev main_c_135 : Ref sig .tc := ⟨.hbm, 620, rfl⟩
abbrev main_v369 : Ref sig .tc := ⟨.hbm, 621, rfl⟩
abbrev main_v370 : Ref sig .tc := ⟨.hbm, 622, rfl⟩
abbrev main_c_136 : Ref sig .tc := ⟨.hbm, 623, rfl⟩
abbrev main_v371 : Ref sig .tc := ⟨.hbm, 624, rfl⟩
abbrev main_v372 : Ref sig .tc := ⟨.hbm, 625, rfl⟩
abbrev main_c_137 : Ref sig .tc := ⟨.hbm, 626, rfl⟩
abbrev main_v373 : Ref sig .tc := ⟨.hbm, 627, rfl⟩
abbrev main_v374 : Ref sig .tc := ⟨.hbm, 628, rfl⟩
abbrev main_v375 : Ref sig .tc := ⟨.hbm, 629, rfl⟩
abbrev main_c_138 : Ref sig .tc := ⟨.hbm, 630, rfl⟩
abbrev main_v376 : Ref sig .tc := ⟨.hbm, 631, rfl⟩
abbrev main_v377 : Ref sig .tc := ⟨.hbm, 632, rfl⟩
abbrev main_v378 : Ref sig .tc := ⟨.hbm, 633, rfl⟩
abbrev main_c_139 : Ref sig .tc := ⟨.hbm, 634, rfl⟩
abbrev main_v379 : Ref sig .tc := ⟨.hbm, 635, rfl⟩
abbrev main_v380 : Ref sig .tc := ⟨.hbm, 636, rfl⟩
abbrev main_v381 : Ref sig .tc := ⟨.hbm, 637, rfl⟩
abbrev main_c_140 : Ref sig .tc := ⟨.hbm, 638, rfl⟩
abbrev main_c_141 : Ref sig .tc := ⟨.hbm, 639, rfl⟩
abbrev main_call24_v0 : Ref sig .tc := ⟨.hbm, 640, rfl⟩
abbrev main_call24_v1 : Ref sig .tc := ⟨.hbm, 641, rfl⟩
abbrev main_call24_v2 : Ref sig .tc := ⟨.hbm, 642, rfl⟩
abbrev main_call24_v3 : Ref sig .tc := ⟨.hbm, 643, rfl⟩
abbrev main_call24_v4 : Ref sig .tc := ⟨.hbm, 644, rfl⟩
abbrev main_v382 : Ref sig .tc := ⟨.hbm, 645, rfl⟩
abbrev main_c_142 : Ref sig .tc := ⟨.hbm, 646, rfl⟩
abbrev main_c_143 : Ref sig .tc := ⟨.hbm, 647, rfl⟩
abbrev main_call25_v0 : Ref sig .tc := ⟨.hbm, 648, rfl⟩
abbrev main_call25_v1 : Ref sig .tc := ⟨.hbm, 649, rfl⟩
abbrev main_call25_v2 : Ref sig .tc := ⟨.hbm, 650, rfl⟩
abbrev main_call25_v3 : Ref sig .tc := ⟨.hbm, 651, rfl⟩
abbrev main_call25_v4 : Ref sig .tc := ⟨.hbm, 652, rfl⟩
abbrev main_v383 : Ref sig .tc := ⟨.hbm, 653, rfl⟩
abbrev main_c_144 : Ref sig .tc := ⟨.hbm, 654, rfl⟩
abbrev main_v384 : Ref sig .tc := ⟨.hbm, 655, rfl⟩
abbrev main_v385 : Ref sig .tc := ⟨.hbm, 656, rfl⟩
abbrev main_c_145 : Ref sig .tc := ⟨.hbm, 657, rfl⟩
abbrev main_v386 : Ref sig .tc := ⟨.hbm, 658, rfl⟩
abbrev main_v387 : Ref sig .tc := ⟨.hbm, 659, rfl⟩
abbrev main_v388 : Ref sig .tc := ⟨.hbm, 660, rfl⟩
abbrev main_c_146 : Ref sig .tc := ⟨.hbm, 661, rfl⟩
abbrev main_v389 : Ref sig .tc := ⟨.hbm, 662, rfl⟩
abbrev main_v390 : Ref sig .tc := ⟨.hbm, 663, rfl⟩
abbrev main_c_147 : Ref sig .tc := ⟨.hbm, 664, rfl⟩
abbrev main_v391 : Ref sig .tc := ⟨.hbm, 665, rfl⟩
abbrev main_v392 : Ref sig .tc := ⟨.hbm, 666, rfl⟩
abbrev main_v393 : Ref sig .tc := ⟨.hbm, 667, rfl⟩
abbrev main_v394 : Ref sig .tc := ⟨.hbm, 668, rfl⟩
abbrev main_v395 : Ref sig .tc := ⟨.hbm, 669, rfl⟩
abbrev main_v396 : Ref sig .tc := ⟨.hbm, 670, rfl⟩
abbrev main_v397 : Ref sig .tc := ⟨.hbm, 671, rfl⟩
abbrev main_v398 : Ref sig .tc := ⟨.hbm, 672, rfl⟩
abbrev main_cst_148 : Ref sig .tc := ⟨.hbm, 673, rfl⟩
abbrev main_call26_v0 : Ref sig .tc := ⟨.hbm, 674, rfl⟩
abbrev main_call26_v1 : Ref sig .tc := ⟨.hbm, 675, rfl⟩
abbrev main_call26_v2 : Ref sig .tc := ⟨.hbm, 676, rfl⟩
abbrev main_v399 : Ref sig .tc := ⟨.hbm, 677, rfl⟩
abbrev main_cst_149 : Ref sig .tc := ⟨.hbm, 678, rfl⟩
abbrev main_v400 : Ref sig .tc := ⟨.hbm, 679, rfl⟩
abbrev main_v401 : Ref sig .tc := ⟨.hbm, 680, rfl⟩
abbrev main_cst_150 : Ref sig .tc := ⟨.hbm, 681, rfl⟩
abbrev main_v402 : Ref sig .tc := ⟨.hbm, 682, rfl⟩
abbrev main_v403 : Ref sig .tc := ⟨.hbm, 683, rfl⟩
abbrev main_v404 : Ref sig .tc := ⟨.hbm, 684, rfl⟩
abbrev main_v405 : Ref sig .tc := ⟨.hbm, 685, rfl⟩
abbrev main_v406 : Ref sig .tc := ⟨.hbm, 686, rfl⟩
abbrev main_v407 : Ref sig .tc := ⟨.hbm, 687, rfl⟩
abbrev main_c_151 : Ref sig .tc := ⟨.hbm, 688, rfl⟩
abbrev main_v408 : Ref sig .tc := ⟨.hbm, 689, rfl⟩
abbrev main_v409 : Ref sig .tc := ⟨.hbm, 690, rfl⟩
abbrev main_c_152 : Ref sig .tc := ⟨.hbm, 691, rfl⟩
abbrev main_v410 : Ref sig .tc := ⟨.hbm, 692, rfl⟩
abbrev main_v411 : Ref sig .tc := ⟨.hbm, 693, rfl⟩
abbrev main_v412 : Ref sig .tc := ⟨.hbm, 694, rfl⟩
abbrev main_c_153 : Ref sig .tc := ⟨.hbm, 695, rfl⟩
abbrev main_v413 : Ref sig .tc := ⟨.hbm, 696, rfl⟩
abbrev main_v414 : Ref sig .tc := ⟨.hbm, 697, rfl⟩
abbrev main_v415 : Ref sig .tc := ⟨.hbm, 698, rfl⟩
abbrev main_c_154 : Ref sig .tc := ⟨.hbm, 699, rfl⟩
abbrev main_v416 : Ref sig .tc := ⟨.hbm, 700, rfl⟩
abbrev main_v417 : Ref sig .tc := ⟨.hbm, 701, rfl⟩
abbrev main_v418 : Ref sig .tc := ⟨.hbm, 702, rfl⟩
abbrev main_c_155 : Ref sig .tc := ⟨.hbm, 703, rfl⟩
abbrev main_c_156 : Ref sig .tc := ⟨.hbm, 704, rfl⟩
abbrev main_call27_v0 : Ref sig .tc := ⟨.hbm, 705, rfl⟩
abbrev main_call27_v1 : Ref sig .tc := ⟨.hbm, 706, rfl⟩
abbrev main_call27_v2 : Ref sig .tc := ⟨.hbm, 707, rfl⟩
abbrev main_call27_v3 : Ref sig .tc := ⟨.hbm, 708, rfl⟩
abbrev main_call27_v4 : Ref sig .tc := ⟨.hbm, 709, rfl⟩
abbrev main_v419 : Ref sig .tc := ⟨.hbm, 710, rfl⟩
abbrev main_c_157 : Ref sig .tc := ⟨.hbm, 711, rfl⟩
abbrev main_c_158 : Ref sig .tc := ⟨.hbm, 712, rfl⟩
abbrev main_call28_v0 : Ref sig .tc := ⟨.hbm, 713, rfl⟩
abbrev main_call28_v1 : Ref sig .tc := ⟨.hbm, 714, rfl⟩
abbrev main_call28_v2 : Ref sig .tc := ⟨.hbm, 715, rfl⟩
abbrev main_call28_v3 : Ref sig .tc := ⟨.hbm, 716, rfl⟩
abbrev main_call28_v4 : Ref sig .tc := ⟨.hbm, 717, rfl⟩
abbrev main_v420 : Ref sig .tc := ⟨.hbm, 718, rfl⟩
abbrev main_c_159 : Ref sig .tc := ⟨.hbm, 719, rfl⟩
abbrev main_v421 : Ref sig .tc := ⟨.hbm, 720, rfl⟩
abbrev main_v422 : Ref sig .tc := ⟨.hbm, 721, rfl⟩
abbrev main_c_160 : Ref sig .tc := ⟨.hbm, 722, rfl⟩
abbrev main_v423 : Ref sig .tc := ⟨.hbm, 723, rfl⟩
abbrev main_v424 : Ref sig .tc := ⟨.hbm, 724, rfl⟩
abbrev main_v425 : Ref sig .tc := ⟨.hbm, 725, rfl⟩
abbrev main_c_161 : Ref sig .tc := ⟨.hbm, 726, rfl⟩
abbrev main_v426 : Ref sig .tc := ⟨.hbm, 727, rfl⟩
abbrev main_v427 : Ref sig .tc := ⟨.hbm, 728, rfl⟩
abbrev main_c_162 : Ref sig .tc := ⟨.hbm, 729, rfl⟩
abbrev main_v428 : Ref sig .tc := ⟨.hbm, 730, rfl⟩
abbrev main_v429 : Ref sig .tc := ⟨.hbm, 731, rfl⟩
abbrev main_v430 : Ref sig .tc := ⟨.hbm, 732, rfl⟩
abbrev main_v431 : Ref sig .tc := ⟨.hbm, 733, rfl⟩
abbrev main_v432 : Ref sig .tc := ⟨.hbm, 734, rfl⟩
abbrev main_v433 : Ref sig .tc := ⟨.hbm, 735, rfl⟩
abbrev main_v434 : Ref sig .tc := ⟨.hbm, 736, rfl⟩
abbrev main_v435 : Ref sig .tc := ⟨.hbm, 737, rfl⟩
abbrev main_cst_163 : Ref sig .tc := ⟨.hbm, 738, rfl⟩
abbrev main_call29_v0 : Ref sig .tc := ⟨.hbm, 739, rfl⟩
abbrev main_call29_v1 : Ref sig .tc := ⟨.hbm, 740, rfl⟩
abbrev main_call29_v2 : Ref sig .tc := ⟨.hbm, 741, rfl⟩
abbrev main_v436 : Ref sig .tc := ⟨.hbm, 742, rfl⟩
abbrev main_cst_164 : Ref sig .tc := ⟨.hbm, 743, rfl⟩
abbrev main_v437 : Ref sig .tc := ⟨.hbm, 744, rfl⟩
abbrev main_v438 : Ref sig .tc := ⟨.hbm, 745, rfl⟩
abbrev main_v439 : Ref sig .tc := ⟨.hbm, 746, rfl⟩
abbrev main_v440 : Ref sig .tc := ⟨.hbm, 747, rfl⟩
abbrev main_v441 : Ref sig .tc := ⟨.hbm, 748, rfl⟩
abbrev main_v442 : Ref sig .tc := ⟨.hbm, 749, rfl⟩
abbrev main_v443 : Ref sig .tc := ⟨.hbm, 750, rfl⟩
abbrev main_c_165 : Ref sig .tc := ⟨.hbm, 751, rfl⟩
abbrev main_v444 : Ref sig .tc := ⟨.hbm, 752, rfl⟩
abbrev main_v445 : Ref sig .tc := ⟨.hbm, 753, rfl⟩
abbrev main_c_166 : Ref sig .tc := ⟨.hbm, 754, rfl⟩
abbrev main_v446 : Ref sig .tc := ⟨.hbm, 755, rfl⟩
abbrev main_v447 : Ref sig .tc := ⟨.hbm, 756, rfl⟩
abbrev main_v448 : Ref sig .tc := ⟨.hbm, 757, rfl⟩
abbrev main_c_167 : Ref sig .tc := ⟨.hbm, 758, rfl⟩
abbrev main_v449 : Ref sig .tc := ⟨.hbm, 759, rfl⟩
abbrev main_v450 : Ref sig .tc := ⟨.hbm, 760, rfl⟩
abbrev main_v451 : Ref sig .tc := ⟨.hbm, 761, rfl⟩
abbrev main_c_168 : Ref sig .tc := ⟨.hbm, 762, rfl⟩
abbrev main_v452 : Ref sig .tc := ⟨.hbm, 763, rfl⟩
abbrev main_v453 : Ref sig .tc := ⟨.hbm, 764, rfl⟩
abbrev main_v454 : Ref sig .tc := ⟨.hbm, 765, rfl⟩
abbrev main_c_169 : Ref sig .tc := ⟨.hbm, 766, rfl⟩
abbrev main_c_170 : Ref sig .tc := ⟨.hbm, 767, rfl⟩
abbrev main_call30_v0 : Ref sig .tc := ⟨.hbm, 768, rfl⟩
abbrev main_call30_v1 : Ref sig .tc := ⟨.hbm, 769, rfl⟩
abbrev main_call30_v2 : Ref sig .tc := ⟨.hbm, 770, rfl⟩
abbrev main_call30_v3 : Ref sig .tc := ⟨.hbm, 771, rfl⟩
abbrev main_call30_v4 : Ref sig .tc := ⟨.hbm, 772, rfl⟩
abbrev main_v455 : Ref sig .tc := ⟨.hbm, 773, rfl⟩
abbrev main_c_171 : Ref sig .tc := ⟨.hbm, 774, rfl⟩
abbrev main_c_172 : Ref sig .tc := ⟨.hbm, 775, rfl⟩
abbrev main_call31_v0 : Ref sig .tc := ⟨.hbm, 776, rfl⟩
abbrev main_call31_v1 : Ref sig .tc := ⟨.hbm, 777, rfl⟩
abbrev main_call31_v2 : Ref sig .tc := ⟨.hbm, 778, rfl⟩
abbrev main_call31_v3 : Ref sig .tc := ⟨.hbm, 779, rfl⟩
abbrev main_call31_v4 : Ref sig .tc := ⟨.hbm, 780, rfl⟩
abbrev main_v456 : Ref sig .tc := ⟨.hbm, 781, rfl⟩
abbrev main_c_173 : Ref sig .tc := ⟨.hbm, 782, rfl⟩
abbrev main_v457 : Ref sig .tc := ⟨.hbm, 783, rfl⟩
abbrev main_v458 : Ref sig .tc := ⟨.hbm, 784, rfl⟩
abbrev main_c_174 : Ref sig .tc := ⟨.hbm, 785, rfl⟩
abbrev main_v459 : Ref sig .tc := ⟨.hbm, 786, rfl⟩
abbrev main_v460 : Ref sig .tc := ⟨.hbm, 787, rfl⟩
abbrev main_v461 : Ref sig .tc := ⟨.hbm, 788, rfl⟩
abbrev main_c_175 : Ref sig .tc := ⟨.hbm, 789, rfl⟩
abbrev main_v462 : Ref sig .tc := ⟨.hbm, 790, rfl⟩
abbrev main_v463 : Ref sig .tc := ⟨.hbm, 791, rfl⟩
abbrev main_c_176 : Ref sig .tc := ⟨.hbm, 792, rfl⟩
abbrev main_v464 : Ref sig .tc := ⟨.hbm, 793, rfl⟩
abbrev main_v465 : Ref sig .tc := ⟨.hbm, 794, rfl⟩
abbrev main_v466 : Ref sig .tc := ⟨.hbm, 795, rfl⟩
abbrev main_v467 : Ref sig .tc := ⟨.hbm, 796, rfl⟩
abbrev main_v468 : Ref sig .tc := ⟨.hbm, 797, rfl⟩
abbrev main_v469 : Ref sig .tc := ⟨.hbm, 798, rfl⟩
abbrev main_v470 : Ref sig .tc := ⟨.hbm, 799, rfl⟩
abbrev main_v471 : Ref sig .tc := ⟨.hbm, 800, rfl⟩
abbrev main_cst_177 : Ref sig .tc := ⟨.hbm, 801, rfl⟩
abbrev main_call32_v0 : Ref sig .tc := ⟨.hbm, 802, rfl⟩
abbrev main_call32_v1 : Ref sig .tc := ⟨.hbm, 803, rfl⟩
abbrev main_call32_v2 : Ref sig .tc := ⟨.hbm, 804, rfl⟩
abbrev main_v472 : Ref sig .tc := ⟨.hbm, 805, rfl⟩
abbrev main_cst_178 : Ref sig .tc := ⟨.hbm, 806, rfl⟩
abbrev main_v473 : Ref sig .tc := ⟨.hbm, 807, rfl⟩
abbrev main_v474 : Ref sig .tc := ⟨.hbm, 808, rfl⟩
abbrev main_v475 : Ref sig .tc := ⟨.hbm, 809, rfl⟩
abbrev main_v476 : Ref sig .tc := ⟨.hbm, 810, rfl⟩
abbrev main_v477 : Ref sig .tc := ⟨.hbm, 811, rfl⟩
abbrev main_v478 : Ref sig .tc := ⟨.hbm, 812, rfl⟩
abbrev main_v479 : Ref sig .tc := ⟨.hbm, 813, rfl⟩
abbrev main_c_179 : Ref sig .tc := ⟨.hbm, 814, rfl⟩
abbrev main_v480 : Ref sig .tc := ⟨.hbm, 815, rfl⟩
abbrev main_v481 : Ref sig .tc := ⟨.hbm, 816, rfl⟩
abbrev main_c_180 : Ref sig .tc := ⟨.hbm, 817, rfl⟩
abbrev main_v482 : Ref sig .tc := ⟨.hbm, 818, rfl⟩
abbrev main_v483 : Ref sig .tc := ⟨.hbm, 819, rfl⟩
abbrev main_v484 : Ref sig .tc := ⟨.hbm, 820, rfl⟩
abbrev main_c_181 : Ref sig .tc := ⟨.hbm, 821, rfl⟩
abbrev main_v485 : Ref sig .tc := ⟨.hbm, 822, rfl⟩
abbrev main_v486 : Ref sig .tc := ⟨.hbm, 823, rfl⟩
abbrev main_v487 : Ref sig .tc := ⟨.hbm, 824, rfl⟩
abbrev main_c_182 : Ref sig .tc := ⟨.hbm, 825, rfl⟩
abbrev main_v488 : Ref sig .tc := ⟨.hbm, 826, rfl⟩
abbrev main_v489 : Ref sig .tc := ⟨.hbm, 827, rfl⟩
abbrev main_v490 : Ref sig .tc := ⟨.hbm, 828, rfl⟩
abbrev main_c_183 : Ref sig .tc := ⟨.hbm, 829, rfl⟩
abbrev main_c_184 : Ref sig .tc := ⟨.hbm, 830, rfl⟩
abbrev main_call33_v0 : Ref sig .tc := ⟨.hbm, 831, rfl⟩
abbrev main_call33_v1 : Ref sig .tc := ⟨.hbm, 832, rfl⟩
abbrev main_call33_v2 : Ref sig .tc := ⟨.hbm, 833, rfl⟩
abbrev main_call33_v3 : Ref sig .tc := ⟨.hbm, 834, rfl⟩
abbrev main_call33_v4 : Ref sig .tc := ⟨.hbm, 835, rfl⟩
abbrev main_v491 : Ref sig .tc := ⟨.hbm, 836, rfl⟩
abbrev main_c_185 : Ref sig .tc := ⟨.hbm, 837, rfl⟩
abbrev main_c_186 : Ref sig .tc := ⟨.hbm, 838, rfl⟩
abbrev main_call34_v0 : Ref sig .tc := ⟨.hbm, 839, rfl⟩
abbrev main_call34_v1 : Ref sig .tc := ⟨.hbm, 840, rfl⟩
abbrev main_call34_v2 : Ref sig .tc := ⟨.hbm, 841, rfl⟩
abbrev main_call34_v3 : Ref sig .tc := ⟨.hbm, 842, rfl⟩
abbrev main_call34_v4 : Ref sig .tc := ⟨.hbm, 843, rfl⟩
abbrev main_v492 : Ref sig .tc := ⟨.hbm, 844, rfl⟩
abbrev main_c_187 : Ref sig .tc := ⟨.hbm, 845, rfl⟩
abbrev main_v493 : Ref sig .tc := ⟨.hbm, 846, rfl⟩
abbrev main_v494 : Ref sig .tc := ⟨.hbm, 847, rfl⟩
abbrev main_c_188 : Ref sig .tc := ⟨.hbm, 848, rfl⟩
abbrev main_v495 : Ref sig .tc := ⟨.hbm, 849, rfl⟩
abbrev main_v496 : Ref sig .tc := ⟨.hbm, 850, rfl⟩
abbrev main_v497 : Ref sig .tc := ⟨.hbm, 851, rfl⟩
abbrev main_c_189 : Ref sig .tc := ⟨.hbm, 852, rfl⟩
abbrev main_v498 : Ref sig .tc := ⟨.hbm, 853, rfl⟩
abbrev main_v499 : Ref sig .tc := ⟨.hbm, 854, rfl⟩
abbrev main_c_190 : Ref sig .tc := ⟨.hbm, 855, rfl⟩
abbrev main_v500 : Ref sig .tc := ⟨.hbm, 856, rfl⟩
abbrev main_v501 : Ref sig .tc := ⟨.hbm, 857, rfl⟩
abbrev main_v502 : Ref sig .tc := ⟨.hbm, 858, rfl⟩
abbrev main_v503 : Ref sig .tc := ⟨.hbm, 859, rfl⟩
abbrev main_v504 : Ref sig .tc := ⟨.hbm, 860, rfl⟩
abbrev main_v505 : Ref sig .tc := ⟨.hbm, 861, rfl⟩
abbrev main_v506 : Ref sig .tc := ⟨.hbm, 862, rfl⟩
abbrev main_v507 : Ref sig .tc := ⟨.hbm, 863, rfl⟩
abbrev main_cst_191 : Ref sig .tc := ⟨.hbm, 864, rfl⟩
abbrev main_call35_v0 : Ref sig .tc := ⟨.hbm, 865, rfl⟩
abbrev main_call35_v1 : Ref sig .tc := ⟨.hbm, 866, rfl⟩
abbrev main_call35_v2 : Ref sig .tc := ⟨.hbm, 867, rfl⟩
abbrev main_v508 : Ref sig .tc := ⟨.hbm, 868, rfl⟩
abbrev main_v509 : Ref sig .tc := ⟨.hbm, 869, rfl⟩
abbrev main_v510 : Ref sig .tc := ⟨.hbm, 870, rfl⟩
abbrev main_v511 : Ref sig .tc := ⟨.hbm, 871, rfl⟩
abbrev main_v512 : Ref sig .tc := ⟨.hbm, 872, rfl⟩
abbrev main_v513 : Ref sig .tc := ⟨.hbm, 873, rfl⟩
abbrev main_v514 : Ref sig .tc := ⟨.hbm, 874, rfl⟩
abbrev main_cst_192 : Ref sig .tc := ⟨.hbm, 875, rfl⟩
abbrev main_v515 : Ref sig .tc := ⟨.hbm, 876, rfl⟩
abbrev main_v516 : Ref sig .tc := ⟨.hbm, 877, rfl⟩
abbrev main_cst_193 : Ref sig .tc := ⟨.hbm, 878, rfl⟩
abbrev main_v517 : Ref sig .tc := ⟨.hbm, 879, rfl⟩
abbrev main_v518 : Ref sig .tc := ⟨.hbm, 880, rfl⟩
abbrev main_cst_194 : Ref sig .tc := ⟨.hbm, 881, rfl⟩
abbrev main_v519 : Ref sig .tc := ⟨.hbm, 882, rfl⟩
abbrev main_v520 : Ref sig .tc := ⟨.hbm, 883, rfl⟩
abbrev main_v521 : Ref sig .tc := ⟨.hbm, 884, rfl⟩
abbrev main_v522 : Ref sig .tc := ⟨.hbm, 885, rfl⟩
abbrev main_v523 : Ref sig .tc := ⟨.hbm, 886, rfl⟩
abbrev main_c_195 : Ref sig .tc := ⟨.hbm, 887, rfl⟩
abbrev main_v524 : Ref sig .tc := ⟨.hbm, 888, rfl⟩
abbrev main_v525 : Ref sig .tc := ⟨.hbm, 889, rfl⟩
abbrev main_c_196 : Ref sig .tc := ⟨.hbm, 890, rfl⟩
abbrev main_v526 : Ref sig .tc := ⟨.hbm, 891, rfl⟩
abbrev main_v527 : Ref sig .tc := ⟨.hbm, 892, rfl⟩
abbrev main_c_197 : Ref sig .tc := ⟨.hbm, 893, rfl⟩
abbrev main_v528 : Ref sig .tc := ⟨.hbm, 894, rfl⟩
abbrev main_v529 : Ref sig .tc := ⟨.hbm, 895, rfl⟩
abbrev main_v530 : Ref sig .tc := ⟨.hbm, 896, rfl⟩
abbrev main_c_198 : Ref sig .tc := ⟨.hbm, 897, rfl⟩
abbrev main_c_199 : Ref sig .tc := ⟨.hbm, 898, rfl⟩
abbrev main_call36_v0 : Ref sig .tc := ⟨.hbm, 899, rfl⟩
abbrev main_call36_v1 : Ref sig .tc := ⟨.hbm, 900, rfl⟩
abbrev main_call36_v2 : Ref sig .tc := ⟨.hbm, 901, rfl⟩
abbrev main_call36_v3 : Ref sig .tc := ⟨.hbm, 902, rfl⟩
abbrev main_call36_v4 : Ref sig .tc := ⟨.hbm, 903, rfl⟩
abbrev main_v531 : Ref sig .tc := ⟨.hbm, 904, rfl⟩
abbrev main_v532 : Ref sig .tc := ⟨.hbm, 905, rfl⟩
abbrev main_c_200 : Ref sig .tc := ⟨.hbm, 906, rfl⟩
abbrev main_v533 : Ref sig .tc := ⟨.hbm, 907, rfl⟩
abbrev main_v534 : Ref sig .tc := ⟨.hbm, 908, rfl⟩
abbrev main_c_201 : Ref sig .tc := ⟨.hbm, 909, rfl⟩
abbrev main_v535 : Ref sig .tc := ⟨.hbm, 910, rfl⟩
abbrev main_v536 : Ref sig .tc := ⟨.hbm, 911, rfl⟩
abbrev main_v537 : Ref sig .tc := ⟨.hbm, 912, rfl⟩
abbrev main_v538 : Ref sig .tc := ⟨.hbm, 913, rfl⟩
abbrev main_v539 : Ref sig .tc := ⟨.hbm, 914, rfl⟩
abbrev main_cst_202 : Ref sig .tc := ⟨.hbm, 915, rfl⟩
abbrev main_call37_v0 : Ref sig .tc := ⟨.hbm, 916, rfl⟩
abbrev main_call37_v1 : Ref sig .tc := ⟨.hbm, 917, rfl⟩
abbrev main_call37_v2 : Ref sig .tc := ⟨.hbm, 918, rfl⟩
abbrev main_v540 : Ref sig .tc := ⟨.hbm, 919, rfl⟩
abbrev main_cst_203 : Ref sig .tc := ⟨.hbm, 920, rfl⟩
abbrev main_v541 : Ref sig .tc := ⟨.hbm, 921, rfl⟩
abbrev main_v542 : Ref sig .tc := ⟨.hbm, 922, rfl⟩
abbrev main_v543 : Ref sig .tc := ⟨.hbm, 923, rfl⟩
abbrev main_v544 : Ref sig .tc := ⟨.hbm, 924, rfl⟩
abbrev main_v545 : Ref sig .tc := ⟨.hbm, 925, rfl⟩
abbrev main_c_204 : Ref sig .tc := ⟨.hbm, 926, rfl⟩
abbrev main_v546 : Ref sig .tc := ⟨.hbm, 927, rfl⟩
abbrev main_v547 : Ref sig .tc := ⟨.hbm, 928, rfl⟩
abbrev main_c_205 : Ref sig .tc := ⟨.hbm, 929, rfl⟩
abbrev main_v548 : Ref sig .tc := ⟨.hbm, 930, rfl⟩
abbrev main_v549 : Ref sig .tc := ⟨.hbm, 931, rfl⟩
abbrev main_v550 : Ref sig .tc := ⟨.hbm, 932, rfl⟩
abbrev main_c_206 : Ref sig .tc := ⟨.hbm, 933, rfl⟩
abbrev main_c_207 : Ref sig .tc := ⟨.hbm, 934, rfl⟩
abbrev main_call38_v0 : Ref sig .tc := ⟨.hbm, 935, rfl⟩
abbrev main_call38_v1 : Ref sig .tc := ⟨.hbm, 936, rfl⟩
abbrev main_call38_v2 : Ref sig .tc := ⟨.hbm, 937, rfl⟩
abbrev main_call38_v3 : Ref sig .tc := ⟨.hbm, 938, rfl⟩
abbrev main_call38_v4 : Ref sig .tc := ⟨.hbm, 939, rfl⟩
abbrev main_v551 : Ref sig .tc := ⟨.hbm, 940, rfl⟩
abbrev main_v552 : Ref sig .tc := ⟨.hbm, 941, rfl⟩
abbrev main_c_208 : Ref sig .tc := ⟨.hbm, 942, rfl⟩
abbrev main_v553 : Ref sig .tc := ⟨.hbm, 943, rfl⟩
abbrev main_v554 : Ref sig .tc := ⟨.hbm, 944, rfl⟩
abbrev main_c_209 : Ref sig .tc := ⟨.hbm, 945, rfl⟩
abbrev main_v555 : Ref sig .tc := ⟨.hbm, 946, rfl⟩
abbrev main_v556 : Ref sig .tc := ⟨.hbm, 947, rfl⟩
abbrev main_v557 : Ref sig .tc := ⟨.hbm, 948, rfl⟩
abbrev main_v558 : Ref sig .tc := ⟨.hbm, 949, rfl⟩
abbrev main_v559 : Ref sig .tc := ⟨.hbm, 950, rfl⟩
abbrev main_cst_210 : Ref sig .tc := ⟨.hbm, 951, rfl⟩
abbrev main_call39_v0 : Ref sig .tc := ⟨.hbm, 952, rfl⟩
abbrev main_call39_v1 : Ref sig .tc := ⟨.hbm, 953, rfl⟩
abbrev main_call39_v2 : Ref sig .tc := ⟨.hbm, 954, rfl⟩
abbrev main_v560 : Ref sig .tc := ⟨.hbm, 955, rfl⟩
abbrev main_v561 : Ref sig .tc := ⟨.hbm, 956, rfl⟩
abbrev main_v562 : Ref sig .tc := ⟨.hbm, 957, rfl⟩
abbrev main_v563 : Ref sig .tc := ⟨.hbm, 958, rfl⟩
abbrev main_v564 : Ref sig .tc := ⟨.hbm, 959, rfl⟩
abbrev main_v565 : Ref sig .tc := ⟨.hbm, 960, rfl⟩
abbrev main_cst_211 : Ref sig .tc := ⟨.hbm, 961, rfl⟩
abbrev main_v566 : Ref sig .tc := ⟨.hbm, 962, rfl⟩
abbrev main_v567 : Ref sig .tc := ⟨.hbm, 963, rfl⟩
abbrev main_cst_212 : Ref sig .tc := ⟨.hbm, 964, rfl⟩
abbrev main_v568 : Ref sig .tc := ⟨.hbm, 965, rfl⟩
abbrev main_v569 : Ref sig .tc := ⟨.hbm, 966, rfl⟩
abbrev main_cst_213 : Ref sig .tc := ⟨.hbm, 967, rfl⟩
abbrev main_v570 : Ref sig .tc := ⟨.hbm, 968, rfl⟩
abbrev main_v571 : Ref sig .tc := ⟨.hbm, 969, rfl⟩
abbrev main_v572 : Ref sig .tc := ⟨.hbm, 970, rfl⟩
abbrev main_v573 : Ref sig .tc := ⟨.hbm, 971, rfl⟩
abbrev main_v574 : Ref sig .tc := ⟨.hbm, 972, rfl⟩
abbrev main_c_214 : Ref sig .tc := ⟨.hbm, 973, rfl⟩
abbrev main_v575 : Ref sig .tc := ⟨.hbm, 974, rfl⟩
abbrev main_v576 : Ref sig .tc := ⟨.hbm, 975, rfl⟩
abbrev main_c_215 : Ref sig .tc := ⟨.hbm, 976, rfl⟩
abbrev main_v577 : Ref sig .tc := ⟨.hbm, 977, rfl⟩
abbrev main_v578 : Ref sig .tc := ⟨.hbm, 978, rfl⟩
abbrev main_c_216 : Ref sig .tc := ⟨.hbm, 979, rfl⟩
abbrev main_v579 : Ref sig .tc := ⟨.hbm, 980, rfl⟩
abbrev main_v580 : Ref sig .tc := ⟨.hbm, 981, rfl⟩
abbrev main_v581 : Ref sig .tc := ⟨.hbm, 982, rfl⟩
abbrev main_c_217 : Ref sig .tc := ⟨.hbm, 983, rfl⟩
abbrev main_c_218 : Ref sig .tc := ⟨.hbm, 984, rfl⟩
abbrev main_call40_v0 : Ref sig .tc := ⟨.hbm, 985, rfl⟩
abbrev main_call40_v1 : Ref sig .tc := ⟨.hbm, 986, rfl⟩
abbrev main_call40_v2 : Ref sig .tc := ⟨.hbm, 987, rfl⟩
abbrev main_call40_v3 : Ref sig .tc := ⟨.hbm, 988, rfl⟩
abbrev main_call40_v4 : Ref sig .tc := ⟨.hbm, 989, rfl⟩
abbrev main_v582 : Ref sig .tc := ⟨.hbm, 990, rfl⟩
abbrev main_v583 : Ref sig .tc := ⟨.hbm, 991, rfl⟩
abbrev main_c_219 : Ref sig .tc := ⟨.hbm, 992, rfl⟩
abbrev main_v584 : Ref sig .tc := ⟨.hbm, 993, rfl⟩
abbrev main_v585 : Ref sig .tc := ⟨.hbm, 994, rfl⟩
abbrev main_c_220 : Ref sig .tc := ⟨.hbm, 995, rfl⟩
abbrev main_v586 : Ref sig .tc := ⟨.hbm, 996, rfl⟩
abbrev main_v587 : Ref sig .tc := ⟨.hbm, 997, rfl⟩
abbrev main_v588 : Ref sig .tc := ⟨.hbm, 998, rfl⟩
abbrev main_v589 : Ref sig .tc := ⟨.hbm, 999, rfl⟩
abbrev main_v590 : Ref sig .tc := ⟨.hbm, 1000, rfl⟩
abbrev main_cst_221 : Ref sig .tc := ⟨.hbm, 1001, rfl⟩
abbrev main_call41_v0 : Ref sig .tc := ⟨.hbm, 1002, rfl⟩
abbrev main_call41_v1 : Ref sig .tc := ⟨.hbm, 1003, rfl⟩
abbrev main_call41_v2 : Ref sig .tc := ⟨.hbm, 1004, rfl⟩
abbrev main_v591 : Ref sig .tc := ⟨.hbm, 1005, rfl⟩
abbrev main_cst_222 : Ref sig .tc := ⟨.hbm, 1006, rfl⟩
abbrev main_v592 : Ref sig .tc := ⟨.hbm, 1007, rfl⟩
abbrev main_v593 : Ref sig .tc := ⟨.hbm, 1008, rfl⟩
abbrev main_v594 : Ref sig .tc := ⟨.hbm, 1009, rfl⟩
abbrev main_v595 : Ref sig .tc := ⟨.hbm, 1010, rfl⟩
abbrev main_v596 : Ref sig .tc := ⟨.hbm, 1011, rfl⟩
abbrev main_c_223 : Ref sig .tc := ⟨.hbm, 1012, rfl⟩
abbrev main_v597 : Ref sig .tc := ⟨.hbm, 1013, rfl⟩
abbrev main_v598 : Ref sig .tc := ⟨.hbm, 1014, rfl⟩
abbrev main_c_224 : Ref sig .tc := ⟨.hbm, 1015, rfl⟩
abbrev main_v599 : Ref sig .tc := ⟨.hbm, 1016, rfl⟩
abbrev main_v600 : Ref sig .tc := ⟨.hbm, 1017, rfl⟩
abbrev main_v601 : Ref sig .tc := ⟨.hbm, 1018, rfl⟩
abbrev main_c_225 : Ref sig .tc := ⟨.hbm, 1019, rfl⟩
abbrev main_c_226 : Ref sig .tc := ⟨.hbm, 1020, rfl⟩
abbrev main_call42_v0 : Ref sig .tc := ⟨.hbm, 1021, rfl⟩
abbrev main_call42_v1 : Ref sig .tc := ⟨.hbm, 1022, rfl⟩
abbrev main_call42_v2 : Ref sig .tc := ⟨.hbm, 1023, rfl⟩
abbrev main_call42_v3 : Ref sig .tc := ⟨.hbm, 1024, rfl⟩
abbrev main_call42_v4 : Ref sig .tc := ⟨.hbm, 1025, rfl⟩
abbrev main_v602 : Ref sig .tc := ⟨.hbm, 1026, rfl⟩
abbrev main_v603 : Ref sig .tc := ⟨.hbm, 1027, rfl⟩
abbrev main_c_227 : Ref sig .tc := ⟨.hbm, 1028, rfl⟩
abbrev main_v604 : Ref sig .tc := ⟨.hbm, 1029, rfl⟩
abbrev main_v605 : Ref sig .tc := ⟨.hbm, 1030, rfl⟩
abbrev main_c_228 : Ref sig .tc := ⟨.hbm, 1031, rfl⟩
abbrev main_v606 : Ref sig .tc := ⟨.hbm, 1032, rfl⟩
abbrev main_v607 : Ref sig .tc := ⟨.hbm, 1033, rfl⟩
abbrev main_v608 : Ref sig .tc := ⟨.hbm, 1034, rfl⟩
abbrev main_v609 : Ref sig .tc := ⟨.hbm, 1035, rfl⟩
abbrev main_v610 : Ref sig .tc := ⟨.hbm, 1036, rfl⟩
abbrev main_cst_229 : Ref sig .tc := ⟨.hbm, 1037, rfl⟩
abbrev main_call43_v0 : Ref sig .tc := ⟨.hbm, 1038, rfl⟩
abbrev main_call43_v1 : Ref sig .tc := ⟨.hbm, 1039, rfl⟩
abbrev main_call43_v2 : Ref sig .tc := ⟨.hbm, 1040, rfl⟩
abbrev main_v611 : Ref sig .tc := ⟨.hbm, 1041, rfl⟩
abbrev main_v612 : Ref sig .tc := ⟨.hbm, 1042, rfl⟩
abbrev main_v613 : Ref sig .tc := ⟨.hbm, 1043, rfl⟩
abbrev main_v614 : Ref sig .tc := ⟨.hbm, 1044, rfl⟩
abbrev main_v615 : Ref sig .tc := ⟨.hbm, 1045, rfl⟩
abbrev main_v616 : Ref sig .tc := ⟨.hbm, 1046, rfl⟩
abbrev main_cst_230 : Ref sig .tc := ⟨.hbm, 1047, rfl⟩
abbrev main_v617 : Ref sig .tc := ⟨.hbm, 1048, rfl⟩
abbrev main_v618 : Ref sig .tc := ⟨.hbm, 1049, rfl⟩
abbrev main_cst_231 : Ref sig .tc := ⟨.hbm, 1050, rfl⟩
abbrev main_v619 : Ref sig .tc := ⟨.hbm, 1051, rfl⟩
abbrev main_v620 : Ref sig .tc := ⟨.hbm, 1052, rfl⟩
abbrev main_cst_232 : Ref sig .tc := ⟨.hbm, 1053, rfl⟩
abbrev main_v621 : Ref sig .tc := ⟨.hbm, 1054, rfl⟩
abbrev main_v622 : Ref sig .tc := ⟨.hbm, 1055, rfl⟩
abbrev main_v623 : Ref sig .tc := ⟨.hbm, 1056, rfl⟩
abbrev main_v624 : Ref sig .tc := ⟨.hbm, 1057, rfl⟩
abbrev main_v625 : Ref sig .tc := ⟨.hbm, 1058, rfl⟩
abbrev main_c_233 : Ref sig .tc := ⟨.hbm, 1059, rfl⟩
abbrev main_v626 : Ref sig .tc := ⟨.hbm, 1060, rfl⟩
abbrev main_v627 : Ref sig .tc := ⟨.hbm, 1061, rfl⟩
abbrev main_c_234 : Ref sig .tc := ⟨.hbm, 1062, rfl⟩
abbrev main_v628 : Ref sig .tc := ⟨.hbm, 1063, rfl⟩
abbrev main_v629 : Ref sig .tc := ⟨.hbm, 1064, rfl⟩
abbrev main_c_235 : Ref sig .tc := ⟨.hbm, 1065, rfl⟩
abbrev main_v630 : Ref sig .tc := ⟨.hbm, 1066, rfl⟩
abbrev main_v631 : Ref sig .tc := ⟨.hbm, 1067, rfl⟩
abbrev main_v632 : Ref sig .tc := ⟨.hbm, 1068, rfl⟩
abbrev main_c_236 : Ref sig .tc := ⟨.hbm, 1069, rfl⟩
abbrev main_c_237 : Ref sig .tc := ⟨.hbm, 1070, rfl⟩
abbrev main_call44_v0 : Ref sig .tc := ⟨.hbm, 1071, rfl⟩
abbrev main_call44_v1 : Ref sig .tc := ⟨.hbm, 1072, rfl⟩
abbrev main_call44_v2 : Ref sig .tc := ⟨.hbm, 1073, rfl⟩
abbrev main_call44_v3 : Ref sig .tc := ⟨.hbm, 1074, rfl⟩
abbrev main_call44_v4 : Ref sig .tc := ⟨.hbm, 1075, rfl⟩
abbrev main_v633 : Ref sig .tc := ⟨.hbm, 1076, rfl⟩
abbrev main_v634 : Ref sig .tc := ⟨.hbm, 1077, rfl⟩
abbrev main_c_238 : Ref sig .tc := ⟨.hbm, 1078, rfl⟩
abbrev main_v635 : Ref sig .tc := ⟨.hbm, 1079, rfl⟩
abbrev main_v636 : Ref sig .tc := ⟨.hbm, 1080, rfl⟩
abbrev main_c_239 : Ref sig .tc := ⟨.hbm, 1081, rfl⟩
abbrev main_v637 : Ref sig .tc := ⟨.hbm, 1082, rfl⟩
abbrev main_v638 : Ref sig .tc := ⟨.hbm, 1083, rfl⟩
abbrev main_v639 : Ref sig .tc := ⟨.hbm, 1084, rfl⟩
abbrev main_v640 : Ref sig .tc := ⟨.hbm, 1085, rfl⟩
abbrev main_v641 : Ref sig .tc := ⟨.hbm, 1086, rfl⟩
abbrev main_cst_240 : Ref sig .tc := ⟨.hbm, 1087, rfl⟩
abbrev main_call45_v0 : Ref sig .tc := ⟨.hbm, 1088, rfl⟩
abbrev main_call45_v1 : Ref sig .tc := ⟨.hbm, 1089, rfl⟩
abbrev main_call45_v2 : Ref sig .tc := ⟨.hbm, 1090, rfl⟩
abbrev main_v642 : Ref sig .tc := ⟨.hbm, 1091, rfl⟩
abbrev main_cst_241 : Ref sig .tc := ⟨.hbm, 1092, rfl⟩
abbrev main_v643 : Ref sig .tc := ⟨.hbm, 1093, rfl⟩
abbrev main_v644 : Ref sig .tc := ⟨.hbm, 1094, rfl⟩
abbrev main_v645 : Ref sig .tc := ⟨.hbm, 1095, rfl⟩
abbrev main_v646 : Ref sig .tc := ⟨.hbm, 1096, rfl⟩
abbrev main_v647 : Ref sig .tc := ⟨.hbm, 1097, rfl⟩
abbrev main_c_242 : Ref sig .tc := ⟨.hbm, 1098, rfl⟩
abbrev main_v648 : Ref sig .tc := ⟨.hbm, 1099, rfl⟩
abbrev main_v649 : Ref sig .tc := ⟨.hbm, 1100, rfl⟩
abbrev main_c_243 : Ref sig .tc := ⟨.hbm, 1101, rfl⟩
abbrev main_v650 : Ref sig .tc := ⟨.hbm, 1102, rfl⟩
abbrev main_v651 : Ref sig .tc := ⟨.hbm, 1103, rfl⟩
abbrev main_v652 : Ref sig .tc := ⟨.hbm, 1104, rfl⟩
abbrev main_c_244 : Ref sig .tc := ⟨.hbm, 1105, rfl⟩
abbrev main_c_245 : Ref sig .tc := ⟨.hbm, 1106, rfl⟩
abbrev main_call46_v0 : Ref sig .tc := ⟨.hbm, 1107, rfl⟩
abbrev main_call46_v1 : Ref sig .tc := ⟨.hbm, 1108, rfl⟩
abbrev main_call46_v2 : Ref sig .tc := ⟨.hbm, 1109, rfl⟩
abbrev main_call46_v3 : Ref sig .tc := ⟨.hbm, 1110, rfl⟩
abbrev main_call46_v4 : Ref sig .tc := ⟨.hbm, 1111, rfl⟩
abbrev main_v653 : Ref sig .tc := ⟨.hbm, 1112, rfl⟩
abbrev main_v654 : Ref sig .tc := ⟨.hbm, 1113, rfl⟩
abbrev main_c_246 : Ref sig .tc := ⟨.hbm, 1114, rfl⟩
abbrev main_v655 : Ref sig .tc := ⟨.hbm, 1115, rfl⟩
abbrev main_v656 : Ref sig .tc := ⟨.hbm, 1116, rfl⟩
abbrev main_c_247 : Ref sig .tc := ⟨.hbm, 1117, rfl⟩
abbrev main_v657 : Ref sig .tc := ⟨.hbm, 1118, rfl⟩
abbrev main_v658 : Ref sig .tc := ⟨.hbm, 1119, rfl⟩
abbrev main_v659 : Ref sig .tc := ⟨.hbm, 1120, rfl⟩
abbrev main_v660 : Ref sig .tc := ⟨.hbm, 1121, rfl⟩
abbrev main_v661 : Ref sig .tc := ⟨.hbm, 1122, rfl⟩
abbrev main_cst_248 : Ref sig .tc := ⟨.hbm, 1123, rfl⟩
abbrev main_call47_v0 : Ref sig .tc := ⟨.hbm, 1124, rfl⟩
abbrev main_call47_v1 : Ref sig .tc := ⟨.hbm, 1125, rfl⟩
abbrev main_call47_v2 : Ref sig .tc := ⟨.hbm, 1126, rfl⟩
abbrev main_v662 : Ref sig .tc := ⟨.hbm, 1127, rfl⟩
abbrev main_v663 : Ref sig .tc := ⟨.hbm, 1128, rfl⟩
abbrev main_v664 : Ref sig .tc := ⟨.hbm, 1129, rfl⟩
abbrev main_v665 : Ref sig .tc := ⟨.hbm, 1130, rfl⟩
abbrev main_v666 : Ref sig .tc := ⟨.hbm, 1131, rfl⟩
abbrev main_v667 : Ref sig .tc := ⟨.hbm, 1132, rfl⟩
abbrev main_v668 : Ref sig .tc := ⟨.hbm, 1133, rfl⟩
abbrev main_v669 : Ref sig .tc := ⟨.hbm, 1134, rfl⟩
abbrev main_v670 : Ref sig .tc := ⟨.hbm, 1135, rfl⟩
abbrev main_v671 : Ref sig .tc := ⟨.hbm, 1136, rfl⟩
abbrev main_v672 : Ref sig .tc := ⟨.hbm, 1137, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S_S1000000x3 : S_.BroadcastsInDim S1000000x3 (![] : Fin 0 → Fin S1000000x3.rank)
  slices_S1000000x3_S1000000x1_0_0 : S1000000x3.Slices ![0, 0] S1000000x1
  shapeCasts_S1000000x1_S1000000 : S1000000x1.ShapeCasts S1000000
  slices_S1000000x3_S1000000x1_0_1 : S1000000x3.Slices ![0, 1] S1000000x1
  slices_S1000000x3_S1000000x1_0_2 : S1000000x3.Slices ![0, 2] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000_S1x1000000_1 : S1000000.BroadcastsInDim S1x1000000 (![1] : Fin 1 → Fin S1x1000000.rank)
  bcast_S1x1000000_S24x1000000_0_1 : S1x1000000.BroadcastsInDim S24x1000000 (![0, 1] : Fin 2 → Fin S24x1000000.rank)
  bcast_S_S24x1000000 : S_.BroadcastsInDim S24x1000000 (![] : Fin 0 → Fin S24x1000000.rank)
  transposes_S24x1000000_S1000000x24_1_0 : S24x1000000.Transposes [1, 0] S1000000x24
  concatenates_S1000000x24_S1000000x24_S1000000x24_S1000000x72_d1 : Shape.Concatenates [S1000000x24, S1000000x24, S1000000x24] S1000000x72 1
  gather_S24x256x256_S1000000x2_S24x1000000_0_12_n_n_12_1_2411_wf : GatherDims.WF S24x256x256 S1000000x2 S24x1000000 [0] [1, 2] [] [1, 2] [] 1 ![24, 1, 1]
  gather_S24x256_S1000000x1_S24x1000000_0_1_n_n_1_1_241_wf : GatherDims.WF S24x256 S1000000x1 S24x1000000 [0] [1] [] [1] [] 1 ![24, 1]
  dot_S1000000x72_S72x28_S1000000x28_1_0_0_1_n_n_wf : DotDims.WF S1000000x72 S72x28 S1000000x28 [1] [0] [0] [1] [] []

variable [Facts₀]

def gather_S24x256x256_S1000000x2_S24x1000000_0_12_n_n_12_1_2411 : GatherDims S24x256x256 S1000000x2 S24x1000000 where
  offsetDims := [0]
  collapsedSliceDims := [1, 2]
  operandBatchingDims := []
  startIndicesBatchingDims := []
  startIndexMap := [1, 2]
  indexVectorDim := 1
  sliceSizes := ![24, 1, 1]
  wf := gather_S24x256x256_S1000000x2_S24x1000000_0_12_n_n_12_1_2411_wf
def gather_S24x256_S1000000x1_S24x1000000_0_1_n_n_1_1_241 : GatherDims S24x256 S1000000x1 S24x1000000 where
  offsetDims := [0]
  collapsedSliceDims := [1]
  operandBatchingDims := []
  startIndicesBatchingDims := []
  startIndexMap := [1]
  indexVectorDim := 1
  sliceSizes := ![24, 1]
  wf := gather_S24x256_S1000000x1_S24x1000000_0_1_n_n_1_1_241_wf
def dot_S1000000x72_S72x28_S1000000x28_1_0_0_1_n_n : DotDims S1000000x72 S72x28 S1000000x28 where
  lhsContracting := [1]
  rhsContracting := [0]
  lhsNonContracting := [0]
  rhsNonContracting := [1]
  lhsBatch := []
  rhsBatch := []
  wf := dot_S1000000x72_S72x28_S1000000x28_1_0_0_1_n_n_wf

class Facts : Prop extends Facts₀ where

variable [Facts]
-- ==== Proof.KernelFeats.lean ====
/-
  Names, at their literal array types, for what the kernel's launch finds in its seven operands: the six sampled
  feature arrays (each 1000000 x 24: from the xy, xz, yz planes and the x, y, z lines), as the host operations before
  the launch leave them, and the mixing matrix (72 x 28), an argument of the program.
-/
import proofs.«177920_j1726576856425_1_alg».proof.Proof.KernelIdealFrame

noncomputable section

namespace Cert.KernelIdeal.Feats

open Cert.KernelIdeal Cert.KernelIdeal.Gen Cert.KernelIdeal.GenP Idealize.ShloMosaic Idealize.ShloMosaic.TcCoe Idealize.SL.Sem

variable {F : FTy → Type} [FloatOps F]
variable (m : (ℓ : Loc nD τ sig) → Buf (Elt F) ℓ)

/-- The xy-plane samples the launch finds. -/
def xy (c : Dev nD) : FVec F S1000000x24 .f32 := V m c main_v182
/-- The xz-plane samples the launch finds. -/
def xz (c : Dev nD) : FVec F S1000000x24 .f32 := V m c main_v348
/-- The yz-plane samples the launch finds. -/
def yz (c : Dev nD) : FVec F S1000000x24 .f32 := V m c main_v514
/-- The x-line samples the launch finds. -/
def x (c : Dev nD) : FVec F S1000000x24 .f32 := V m c main_v565
/-- The y-line samples the launch finds. -/
def y (c : Dev nD) : FVec F S1000000x24 .f32 := V m c main_v616
/-- The z-line samples the launch finds. -/
def z (c : Dev nD) : FVec F S1000000x24 .f32 := V m c main_v667
/-- The mixing matrix, as launched. -/
def mix (c : Dev nD) : FVec F S72x28 .f32 := m ((c.tc : Thread nD τ).loc main_arg7)

end Cert.KernelIdeal.Feats

end
-- ==== Proof.FuseSpec.lean ====
/-
  The function both programs compute from the six sampled feature arrays and the mixing matrix.

  Each of the 1000000 points n has six rows of 24 numbers: xy, xz, yz (sampled from the three planes) and x, y, z
  (sampled from the three lines). The mixing matrix f has 72 rows of 28 numbers, read as three bands of 24 rows.
  The result at (n, c) is

      sum over q < 24 of (xy (n, q) * z (n, q)) * f (q, c)
    + sum over q < 24 of (xz (n, q) * y (n, q)) * f (24 + q, c)
    + sum over q < 24 of (yz (n, q) * x (n, q)) * f (48 + q, c),

  the first two sums added first. One program forms the three band sums separately and adds them; the other lays
  the three products side by side into one row of 72 numbers and takes a single sum over the 72 rows of f. The two
  agree because a sum over 72 indices is the sum of its three bands of 24: only the grouping of the terms differs,
  which is sound on the extended reals whatever the terms (no term is moved across a product).
-/
import Idealize.ShloMosaic.Lib.ValueIdx
import Idealize.ShloMosaic.PureOps.Ideal.Laws

noncomputable section

namespace Cert.FuseSpec

open Idealize.ShloMosaic Idealize.ShloMosaic.ValueIdx

/-- The result at point n, channel c: the three band sums, the first two added first. -/
def fusedAt (xy xz yz x y z : FVec Ideal ⟨2, ![1000000, 24]⟩ .f32) (f : FVec Ideal ⟨2, ![72, 28]⟩ .f32)
    (n : Fin 1000000) (c : Fin 28) : EReal :=
  (∑ q : Fin 24, (xy (ix2 n q) * z (ix2 n q)) * f (ix2 (⟨q.val, by omega⟩ : Fin 72) c)
    + ∑ q : Fin 24, (xz (ix2 n q) * y (ix2 n q)) * f (ix2 (⟨24 + q.val, by omega⟩ : Fin 72) c))
    + ∑ q : Fin 24, (yz (ix2 n q) * x (ix2 n q)) * f (ix2 (⟨24 + 24 + q.val, by omega⟩ : Fin 72) c)

/-- The whole result array: entry (n, c) is `fusedAt … n c`. -/
def fused (xy xz yz x y z : FVec Ideal ⟨2, ![1000000, 24]⟩ .f32) (f : FVec Ideal ⟨2, ![72, 28]⟩ .f32) :
    FVec Ideal ⟨2, ![1000000, 28]⟩ .f32 :=
  fun i => fusedAt xy xz yz x y z f (i 0) (i 1)

theorem fused_apply (xy xz yz x y z : FVec Ideal ⟨2, ![1000000, 24]⟩ .f32) (f : FVec Ideal ⟨2, ![72, 28]⟩ .f32)
    (n : Fin 1000000) (c : Fin 28) : fused xy xz yz x y z f (ix2 n c) = fusedAt xy xz yz x y z f n c := rfl

end Cert.FuseSpec

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.KernelPayload.lean ====
/-
  The kernel body's arithmetic read at one entry of its result block.

  The body multiplies the plane block by the matching line block entry by entry (xy with z, xz with y, yz with x),
  contracts each product block (10000 x 24) with one band of 24 rows of the mixing matrix (24 x 28) into a zero
  accumulator, and adds the three results, the first two first. The narrowing format changes are the identity on the
  extended reals and the shape recasts are between equal shapes, so at entry (p, q) the body's value is

      (sum over k < 24 of (a (p, k) * b (p, k)) * f0 (k, q)  +  sum over k < 24 of (c (p, k) * d (p, k)) * f1 (k, q))
        + sum over k < 24 of (e (p, k) * g (p, k)) * f2 (k, q).
-/
import proofs.«177920_j1726576856425_1_alg».proof.Proof.Gen.KernelIdeal.Skeleton
import proofs.«177920_j1726576856425_1_alg».proof.Proof.LibPlainDot
import Idealize.ShloMosaic.Lib.Pipeline.Value
import Idealize.ShloMosaic.Lib.ValueIdx

noncomputable section

namespace Cert.KernelIdeal.FuseValue

open Cert.KernelIdeal Cert.KernelIdeal.Gen Idealize.ShloMosaic Idealize.ShloMosaic.ValueIdx

/-- One band's contraction at entry (p, q): the product block's row p against column q of the band. The body's
    dimension numbers contract the left operand's columns with the right operand's rows and keep no batch axis. -/
theorem band_apply (lhs : FVec Ideal S10000x24 .bf16) (rhs : FVec Ideal S24x28 .bf16) (p : Fin 10000) (q : Fin 28) :
    matmul dot_S10000x24_S24x28_S10000x28_1_0_0_1_n_n none lhs rhs (constant S10000x28 .f32 0x00000000#32) (ix2 p q)
      = ∑ k : Fin 24, lhs (ix2 p k) * rhs (ix2 k q) :=
  Cert.LibPlainDot.matmul_plain_apply 10000 24 28 lhs rhs p q

/-- The body's result block at entry (p, q): the three band sums of the entrywise products, the first two added first. -/
theorem payload_apply (a b c d e g : Vec Ideal S10000x24 .f32) (f0 f1 f2 : Vec Ideal S24x28 .f32) (p : Fin 10000) (q : Fin 28) :
    k0_pay1 a b c d e g f0 f1 f2 (ix2 p q)
      = (∑ k : Fin 24, (a (ix2 p k) * b (ix2 p k)) * f0 (ix2 k q)
          + ∑ k : Fin 24, (c (ix2 p k) * d (ix2 p k)) * f1 (ix2 k q))
        + ∑ k : Fin 24, (e (ix2 p k) * g (ix2 p k)) * f2 (ix2 k q) := by
  unfold k0_pay1
  simp only [shapeCast_self]
  rw [addf_apply, addf_apply, band_apply, band_apply, band_apply]
  rfl

end Cert.KernelIdeal.FuseValue

end
-- ==== Proof.KernelArray.lean ====
/-
  From the blocks to the array: the kernel program's result array is the fused function of the six feature arrays and
  the mixing matrix.

  The grid has 100 points. Point t takes rows [10000 t, 10000 (t + 1)) of each of the six feature arrays (1000000 x 24)
  and the whole mixing matrix (72 x 28), and writes rows [10000 t, 10000 (t + 1)) of the result (1000000 x 28). Entry
  (p, q) of what it writes is the three band sums of the body's arithmetic over row p of the six feature blocks, which
  is row 10000 t + p of the six arrays, and the bands of the staged matrix, which are rows 0-23, 24-47 and 48-71 of the
  matrix: the fused function at (10000 t + p, q). Row r of the result lies in the block of point r / 10000, so the 100
  blocks cover the array, and the array after the run is the fused function everywhere.
-/
import proofs.«177920_j1726576856425_1_alg».proof.Proof.KernelIdealValue
import proofs.«177920_j1726576856425_1_alg».proof.Proof.KernelFeats
import proofs.«177920_j1726576856425_1_alg».proof.Proof.FuseSpec
import proofs.«177920_j1726576856425_1_alg».proof.Proof.LibPlainDot
import proofs.«177920_j1726576856425_1_alg».proof.Proof.KernelPayload

noncomputable section

namespace Cert.KernelIdeal.FuseValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-- The zero offsets of a whole-block access, as the constant function. -/
theorem zero_offsets : (![0, 0] : Fin 2 → Nat) = fun _ => 0 := funext fun a => by fin_cases a <;> rfl

/-- A band of 24 rows of the mixing matrix, starting at row o, read at (k, q): the matrix at row o + k, column q. -/
theorem band_row (f : Vec Ideal S72x28 .f32) (o : Nat) (inb : ∀ a, (![o, 0] : Fin 2 → Nat) a + S24x28.size a ≤ S72x28.size a)
    (k : Fin 24) (q : Fin 28) (r : Fin 72) (hr : r.val = o + k.val) :
    View.ld f (Rect.unit (s := S72x28) ![o, 0] S24x28.size inb) (ix2 k q) = f (ix2 r q) := by
  show f _ = f _
  congr 1
  funext a
  apply Fin.ext
  match a with
  | ⟨0, _⟩ => show o + 1 * k.val = r.val; omega
  | ⟨1, _⟩ => show 0 + 1 * q.val = q.val; omega

/-- The body's result at entry j of its block is the fused function at entry i of the array, when row (j 0) of each
    feature block is row (i 0) of its array, the two entries are in the same column, and the staged mixing matrix is
    the matrix: the three bands the body reads are rows 0-23, 24-47 and 48-71 of it. -/
theorem entry_eq (xy xz yz x y z : FVec Ideal S1000000x24 .f32) (f : FVec Ideal S72x28 .f32)
    (a b c d e g : Vec Ideal S10000x24 .f32) (f6 : Vec Ideal S72x28 .f32) (j : S10000x28.Idx) (i : S1000000x28.Idx)
    (hf : f6 = f)
    (hq : (j 1).val = (i 1).val)
    (ha : ∀ k : Fin 24, a (ix2 (j 0) k) = xy (ix2 (i 0) k))
    (hb : ∀ k : Fin 24, b (ix2 (j 0) k) = z (ix2 (i 0) k))
    (hc : ∀ k : Fin 24, c (ix2 (j 0) k) = xz (ix2 (i 0) k))
    (hd : ∀ k : Fin 24, d (ix2 (j 0) k) = y (ix2 (i 0) k))
    (he : ∀ k : Fin 24, e (ix2 (j 0) k) = yz (ix2 (i 0) k))
    (hg : ∀ k : Fin 24, g (ix2 (j 0) k) = x (ix2 (i 0) k)) :
    k0_pay1 a b c d e g (View.ld f6 r0_1) (View.ld f6 r0_2) (View.ld f6 r0_3) j
      = Cert.FuseSpec.fused xy xz yz x y z f i := by
  subst hf
  obtain ⟨p, q, rfl⟩ : ∃ (p : Fin 10000) (q : Fin 28), j = ix2 p q := ⟨j 0, j 1, eq_ix2 j⟩
  obtain ⟨n, q', rfl⟩ : ∃ (n : Fin 1000000) (q' : Fin 28), i = ix2 n q' := ⟨i 0, i 1, eq_ix2 i⟩
  obtain rfl : q = q' := Fin.ext hq
  have ha' : ∀ k : Fin 24, a (ix2 p k) = xy (ix2 n k) := ha
  have hb' : ∀ k : Fin 24, b (ix2 p k) = z (ix2 n k) := hb
  have hc' : ∀ k : Fin 24, c (ix2 p k) = xz (ix2 n k) := hc
  have hd' : ∀ k : Fin 24, d (ix2 p k) = y (ix2 n k) := hd
  have he' : ∀ k : Fin 24, e (ix2 p k) = yz (ix2 n k) := he
  have hg' : ∀ k : Fin 24, g (ix2 p k) = x (ix2 n k) := hg
  rw [payload_apply, Cert.FuseSpec.fused_apply]
  unfold Cert.FuseSpec.fusedAt
  simp only [ha', hb', hc', hd', he', hg']
  refine congrArg₂ (· + ·) (congrArg₂ (· + ·) (Finset.sum_congr rfl fun k _ => ?_) (Finset.sum_congr rfl fun k _ => ?_))
    (Finset.sum_congr rfl fun k _ => ?_)
  · exact congrArg (_ * ·) (band_row f6 0 _ k q _ (Nat.zero_add _).symm)
  · exact congrArg (_ * ·) (band_row f6 24 _ k q _ rfl)
  · exact congrArg (_ * ·) (band_row f6 48 _ k q _ rfl)

section Blocks

variable (m : (ℓ : Loc nD τ sig) → Buf (Elt Ideal) ℓ)

/-- The printed index maps, decided once over the 100 grid points: at point t the result window and the six feature
    windows are at block row t, block column 0; the mixing matrix's window stays at block (0, 0). -/
theorem block_indices : ∀ t : Fin cfg0.N,
    (win0_7.index t (0 : Fin 2) = t.val ∧ win0_7.index t (1 : Fin 2) = 0)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

/-- Window 0 stages the xy samples: its block at point t is those samples read through the window's block. -/
theorem blk0_eq (c : Dev nD) (t : Fin cfg0.N) :
    iblk m c 0 t = ((cfg0.win 0).blk t).view.read (Elt Ideal) (Feats.xy m c) :=
  congrArg (((cfg0.win 0).blk t).view.read (Elt Ideal))
    (show V m c (Pipeline.arrRef spec0 0) = Feats.xy m c by unfold Feats.xy; rfl)

/-- Window 1 stages the xz samples: its block at point t is those samples read through the window's block. -/
theorem blk1_eq (c : Dev nD) (t : Fin cfg0.N) :
    iblk m c 1 t = ((cfg0.win 1).blk t).view.read (Elt Ideal) (Feats.xz m c) :=
  congrArg (((cfg0.win 1).blk t).view.read (Elt Ideal))
    (show V m c (Pipeline.arrRef spec0 1) = Feats.xz m c by unfold Feats.xz; rfl)

/-- Window 2 stages the yz samples: its block at point t is those samples read through the window's block. -/
theorem blk2_eq (c : Dev nD) (t : Fin cfg0.N) :
    iblk m c 2 t = ((cfg0.win 2).blk t).view.read (Elt Ideal) (Feats.yz m c) :=
  congrArg (((cfg0.win 2).blk t).view.read (Elt Ideal))
    (show V m c (Pipeline.arrRef spec0 2) = Feats.yz m c by unfold Feats.yz; rfl)

/-- Window 3 stages the x samples: its block at point t is those samples read through the window's block. -/
theorem blk3_eq (c : Dev nD) (t : Fin cfg0.N) :
    iblk m c 3 t = ((cfg0.win 3).blk t).view.read (Elt Ideal) (Feats.x m c) :=
  congrArg (((cfg0.win 3).blk t).view.read (Elt Ideal))
    (show V m c (Pipeline.arrRef spec0 3) = Feats.x m c by unfold Feats.x; rfl)

/-- Window 4 stages the y samples: its block at point t is those samples read through the window's block. -/
theorem blk4_eq (c : Dev nD) (t : Fin cfg0.N) :
    iblk m c 4 t = ((cfg0.win 4).blk t).view.read (Elt Ideal) (Feats.y m c) :=
  congrArg (((cfg0.win 4).blk t).view.read (Elt Ideal))
    (show V m c (Pipeline.arrRef spec0 4) = Feats.y m c by unfold Feats.y; rfl)

/-- Window 5 stages the z samples: its block at point t is those samples read through the window's block. -/
theorem blk5_eq (c : Dev nD) (t : Fin cfg0.N) :
    iblk m c 5 t = ((cfg0.win 5).blk t).view.read (Elt Ideal) (Feats.z m c) :=
  congrArg (((cfg0.win 5).blk t).view.read (Elt Ideal))
    (show V m c (Pipeline.arrRef spec0 5) = Feats.z m c by unfold Feats.z; rfl)

/-- The mixing matrix's window stages the program's argument, which the host operations before the launch leave as
    it was. -/
theorem blk6_eq (c : Dev nD) (t : Fin cfg0.N) :
    iblk m c 6 t = ((cfg0.win 6).blk t).view.read (Elt Ideal) (Feats.mix m c) :=
  congrArg (((cfg0.win 6).blk t).view.read (Elt Ideal)) (V_main_arg7 m c)

/-- Window 0's block at point t, read at (p, k), is the array at row 10000 t + p, column k. -/
theorem rows0 (A : FVec Ideal S1000000x24 .f32) (t : Fin cfg0.N) (y : S10000x24.Idx) (i : S1000000x24.Idx)
    (h0 : (i 0).val = 10000 * t.val + (y 0).val) (h1 : (i 1).val = (y 1).val) :
    ((cfg0.win 0).blk t).view.read (Elt Ideal) A y = A i := by
  obtain ⟨e0, e1⟩ := (block_indices t).2.1
  show A (((cfg0.win 0).blk t).view.emb y) = A i
  refine congrArg A (funext fun a => Fin.ext ?_)
  match a with
  | ⟨0, _⟩ => show win0_0.index t (0 : Fin 2) * 10000 + 1 * (y 0).val = (i 0).val; rw [e0, h0]; omega
  | ⟨1, _⟩ => show win0_0.index t (1 : Fin 2) * 24 + 1 * (y 1).val = (i 1).val; rw [e1, h1]; omega

/-- Window 1's block at point t, read at (p, k), is the array at row 10000 t + p, column k. -/
theorem rows1 (A : FVec Ideal S1000000x24 .f32) (t : Fin cfg0.N) (y : S10000x24.Idx) (i : S1000000x24.Idx)
    (h0 : (i 0).val = 10000 * t.val + (y 0).val) (h1 : (i 1).val = (y 1).val) :
    ((cfg0.win 1).blk t).view.read (Elt Ideal) A y = A i := by
  obtain ⟨e0, e1⟩ := (block_indices t).2.2.1
  show A (((cfg0.win 1).blk t).view.emb y) = A i
  refine congrArg A (funext fun a => Fin.ext ?_)
  match a with
  | ⟨0, _⟩ => show win0_1.index t (0 : Fin 2) * 10000 + 1 * (y 0).val = (i 0).val; rw [e0, h0]; omega
  | ⟨1, _⟩ => show win0_1.index t (1 : Fin 2) * 24 + 1 * (y 1).val = (i 1).val; rw [e1, h1]; omega

/-- Window 2's block at point t, read at (p, k), is the array at row 10000 t + p, column k. -/
theorem rows2 (A : FVec Ideal S1000000x24 .f32) (t : Fin cfg0.N) (y : S10000x24.Idx) (i : S1000000x24.Idx)
    (h0 : (i 0).val = 10000 * t.val + (y 0).val) (h1 : (i 1).val = (y 1).val) :
    ((cfg0.win 2).blk t).view.read (Elt Ideal) A y = A i := by
  obtain ⟨e0, e1⟩ := (block_indices t).2.2.2.1
  show A (((cfg0.win 2).blk t).view.emb y) = A i
  refine congrArg A (funext fun a => Fin.ext ?_)
  match a with
  | ⟨0, _⟩ => show win0_2.index t (0 : Fin 2) * 10000 + 1 * (y 0).val = (i 0).val; rw [e0, h0]; omega
  | ⟨1, _⟩ => show win0_2.index t (1 : Fin 2) * 24 + 1 * (y 1).val = (i 1).val; rw [e1, h1]; omega

/-- Window 3's block at point t, read at (p, k), is the array at row 10000 t + p, column k. -/
theorem rows3 (A : FVec Ideal S1000000x24 .f32) (t : Fin cfg0.N) (y : S10000x24.Idx) (i : S1000000x24.Idx)
    (h0 : (i 0).val = 10000 * t.val + (y 0).val) (h1 : (i 1).val = (y 1).val) :
    ((cfg0.win 3).blk t).view.read (Elt Ideal) A y = A i := by
  obtain ⟨e0, e1⟩ := (block_indices t).2.2.2.2.1
  show A (((cfg0.win 3).blk t).view.emb y) = A i
  refine congrArg A (funext fun a => Fin.ext ?_)
  match a with
  | ⟨0, _⟩ => show win0_3.index t (0 : Fin 2) * 10000 + 1 * (y 0).val = (i 0).val; rw [e0, h0]; omega
  | ⟨1, _⟩ => show win0_3.index t (1 : Fin 2) * 24 + 1 * (y 1).val = (i 1).val; rw [e1, h1]; omega

/-- Window 4's block at point t, read at (p, k), is the array at row 10000 t + p, column k. -/
theorem rows4 (A : FVec Ideal S1000000x24 .f32) (t : Fin cfg0.N) (y : S10000x24.Idx) (i : S1000000x24.Idx)
    (h0 : (i 0).val = 10000 * t.val + (y 0).val) (h1 : (i 1).val = (y 1).val) :
    ((cfg0.win 4).blk t).view.read (Elt Ideal) A y = A i := by
  obtain ⟨e0, e1⟩ := (block_indices t).2.2.2.2.2.1
  show A (((cfg0.win 4).blk t).view.emb y) = A i
  refine congrArg A (funext fun a => Fin.ext ?_)
  match a with
  | ⟨0, _⟩ => show win0_4.index t (0 : Fin 2) * 10000 + 1 * (y 0).val = (i 0).val; rw [e0, h0]; omega
  | ⟨1, _⟩ => show win0_4.index t (1 : Fin 2) * 24 + 1 * (y 1).val = (i 1).val; rw [e1, h1]; omega

/-- Window 5's block at point t, read at (p, k), is the array at row 10000 t + p, column k. -/
theorem rows5 (A : FVec Ideal S1000000x24 .f32) (t : Fin cfg0.N) (y : S10000x24.Idx) (i : S1000000x24.Idx)
    (h0 : (i 0).val = 10000 * t.val + (y 0).val) (h1 : (i 1).val = (y 1).val) :
    ((cfg0.win 5).blk t).view.read (Elt Ideal) A y = A i := by
  obtain ⟨e0, e1⟩ := (block_indices t).2.2.2.2.2.2.1
  show A (((cfg0.win 5).blk t).view.emb y) = A i
  refine congrArg A (funext fun a => Fin.ext ?_)
  match a with
  | ⟨0, _⟩ => show win0_5.index t (0 : Fin 2) * 10000 + 1 * (y 0).val = (i 0).val; rw [e0, h0]; omega
  | ⟨1, _⟩ => show win0_5.index t (1 : Fin 2) * 24 + 1 * (y 1).val = (i 1).val; rw [e1, h1]; omega

/-- The mixing matrix's block is the whole matrix at every point. -/
theorem whole6 (A : FVec Ideal S72x28 .f32) (t : Fin cfg0.N) :
    (((cfg0.win 6).blk t).view.read (Elt Ideal) A : Vec Ideal S72x28 .f32) = A := by
  obtain ⟨e0, e1⟩ := (block_indices t).2.2.2.2.2.2.2
  funext y
  show A (((cfg0.win 6).blk t).view.emb y) = A y
  refine congrArg A (funext fun a => Fin.ext ?_)
  match a with
  | ⟨0, _⟩ => show win0_6.index t (0 : Fin 2) * 72 + 1 * (y 0).val = (y 0).val; rw [e0]; omega
  | ⟨1, _⟩ => show win0_6.index t (1 : Fin 2) * 28 + 1 * (y 1).val = (y 1).val; rw [e1]; omega

/-- Entry j of the result window's block at point t sits in the array at row 10000 t + (j 0), column (j 1). -/
theorem result_entry (t : Fin cfg0.N) (j : S10000x28.Idx) :
    ((((cfg0.win 7).blk t).view.emb j : S1000000x28.Idx) 0).val = 10000 * t.val + (j 0).val
    ∧ ((((cfg0.win 7).blk t).view.emb j : S1000000x28.Idx) 1).val = (j 1).val := by
  obtain ⟨e0, e1⟩ := (block_indices t).1
  constructor
  · show win0_7.index t (0 : Fin 2) * 10000 + 1 * (j 0).val = _; rw [e0]; omega
  · show win0_7.index t (1 : Fin 2) * 28 + 1 * (j 1).val = _; rw [e1]; omega

/-- What point t writes back is block t of the fused function of the six feature arrays and the mixing matrix as the
    launch finds them: entry j of the block is the array's entry in row 10000 t + (j 0), column (j 1); each feature
    block's row (j 0) is its array's row 10000 t + (j 0); the mixing matrix's block is the whole matrix. -/
theorem point_writes_fused_block (c : Dev nD) (t : Fin cfg0.N) :
    (dats m 0 c).flushed 7 t = ((cfg0.win 7).blk t).view.read (Elt Ideal) (Cert.FuseSpec.fused (Feats.xy m c) (Feats.xz m c) (Feats.yz m c) (Feats.x m c) (Feats.y m c) (Feats.z m c) (Feats.mix m c)) := by
  rw [ValueP.flushed7]
  unfold out0_7
  rw [View.canon_unit_zero zero_offsets]
  simp only [View.ld_unit_zero (S := S10000x24) zero_offsets]
  rw [blk0_eq, blk1_eq, blk2_eq, blk3_eq, blk4_eq, blk5_eq, blk6_eq]
  funext j
  obtain ⟨hj0, hj1⟩ := result_entry t j
  show k0_pay1 (((cfg0.win 0).blk t).view.read (Elt Ideal) (Feats.xy m c)) (((cfg0.win 5).blk t).view.read (Elt Ideal) (Feats.z m c))
        (((cfg0.win 1).blk t).view.read (Elt Ideal) (Feats.xz m c)) (((cfg0.win 4).blk t).view.read (Elt Ideal) (Feats.y m c))
        (((cfg0.win 2).blk t).view.read (Elt Ideal) (Feats.yz m c)) (((cfg0.win 3).blk t).view.read (Elt Ideal) (Feats.x m c))
        (View.ld (((cfg0.win 6).blk t).view.read (Elt Ideal) (Feats.mix m c)) r0_1)
        (View.ld (((cfg0.win 6).blk t).view.read (Elt Ideal) (Feats.mix m c)) r0_2)
        (View.ld (((cfg0.win 6).blk t).view.read (Elt Ideal) (Feats.mix m c)) r0_3) j
      = (Cert.FuseSpec.fused (Feats.xy m c) (Feats.xz m c) (Feats.yz m c) (Feats.x m c) (Feats.y m c) (Feats.z m c) (Feats.mix m c)) (((cfg0.win 7).blk t).view.emb j)
  exact entry_eq _ _ _ _ _ _ _ _ _ _ _ _ _ _ j _ (whole6 _ t) hj1.symm
    (fun k => rows0 _ t _ _ hj0 rfl) (fun k => rows5 _ t _ _ hj0 rfl) (fun k => rows1 _ t _ _ hj0 rfl)
    (fun k => rows4 _ t _ _ hj0 rfl) (fun k => rows2 _ t _ _ hj0 rfl) (fun k => rows3 _ t _ _ hj0 rfl)

/-- Every entry of the result array is in some point's block: row r is in the block of point r / 10000. -/
theorem blocks_cover_rows (i : S1000000x28.Idx) :
    ∃ t : Fin cfg0.N, (cfg0.win 7).flush t = true ∧ i ∈ ((cfg0.win 7).blk t).view.set := by
  have hi0 : (i 0).val < 1000000 := idx2_lt0 i
  have hi1 : (i 1).val < 28 := idx2_lt1 i
  have hN : cfg0.N = 100 := N_0
  let t : Fin cfg0.N := ⟨(i 0).val / 10000, by rw [hN]; omega⟩
  obtain ⟨e0, e1⟩ := (block_indices t).1
  have ht : t.val = (i 0).val / 10000 := rfl
  refine ⟨t, flush0_7 t, ?_⟩
  show i ∈ ((View.whole main_v668).slice (win0_7.rect t)).set
  rw [View.set_slice_whole, Rect.mem_set_unit]
  intro a
  match a with
  | ⟨0, _⟩ =>
    show win0_7.index t (0 : Fin 2) * 10000 ≤ (i 0).val ∧ (i 0).val < win0_7.index t (0 : Fin 2) * 10000 + 10000
    rw [e0, ht]; omega
  | ⟨1, _⟩ =>
    show win0_7.index t (1 : Fin 2) * 28 ≤ (i 1).val ∧ (i 1).val < win0_7.index t (1 : Fin 2) * 28 + 28
    rw [e1]; omega

/-- So the result array after the run is the fused function of the six feature arrays and the mixing matrix. -/
theorem result_array (c : Dev nD) : (dats m 0 c).arrAt 7 cfg0.N = (Cert.FuseSpec.fused (Feats.xy m c) (Feats.xz m c) (Feats.yz m c) (Feats.x m c) (Feats.y m c) (Feats.z m c) (Feats.mix m c)) :=
  (dats m 0 c).arrAt_eq_of_cover 7 (Cert.FuseSpec.fused (Feats.xy m c) (Feats.xz m c) (Feats.yz m c) (Feats.x m c) (Feats.y m c) (Feats.z m c) (Feats.mix m c)) (fun t _ => point_writes_fused_block m c t) blocks_cover_rows

end Blocks

/-- The kernel program's run at Ideal: the result array is the fused function of the six feature arrays the launch finds and the mixing matrix; the arguments end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v668)
        = Cert.FuseSpec.fused (Feats.xy m c) (Feats.xz m c) (Feats.yz m c) (Feats.x m c) (Feats.y m c) (Feats.z m c) (Feats.mix m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (result_array m c), (h c).2⟩) (ValueP.run_blocks m ρ)

end Cert.KernelIdeal.FuseValue

end
-- ==== Proof.RefWindows.lean ====
/-
  The reference's @main as a chain of straight lines of host operations, window by window as it is printed: each
  window is the chain of its lines (a called function's operations a line of their own), and @main the chain of all
  of them. The lines up to the last are the operations that sample the six feature arrays; the last line,
  `closingOps`, is what the reference does with them: the three products, their concatenation along the columns,
  and the product with the mixing matrix. Beside each line: every operation touches TensorCore references only, and
  none allocates.
-/
import proofs.«177920_j1726576856425_1_alg».proof.Proof.Gen.ReferenceIdeal
import Idealize.ShloMosaic.Lib.Pipeline.Regions
import Idealize.ShloMosaic.Lib.StableHlo.Run

set_option maxRecDepth 5636

noncomputable section

namespace Cert.ReferenceIdeal.Windows

open Cert.ReferenceIdeal Cert.ReferenceIdeal.Gen Idealize.ShloMosaic Idealize.ShloMosaic.TcCoe
open Idealize.SL Idealize.SL.Sem

variable {F : FTy → Type} [FloatOps F]

/-- The reference's last five operations: xy*z, xz*y, yz*x, the three laid side by side, and the product with the mixing matrix. -/
abbrev closingOps : List (HloOp τ sig (Elt F)) :=
  [ StableHlo.binary main_v182 main_v667 main_v668 (mulf : (⟨S1000000x24, .f32⟩ : BufTy).Contents (Elt F) → (⟨S1000000x24, .f32⟩ : BufTy).Contents (Elt F) → (⟨S1000000x24, .f32⟩ : BufTy).Contents (Elt F)),
    StableHlo.binary main_v348 main_v616 main_v669 (mulf : (⟨S1000000x24, .f32⟩ : BufTy).Contents (Elt F) → (⟨S1000000x24, .f32⟩ : BufTy).Contents (Elt F) → (⟨S1000000x24, .f32⟩ : BufTy).Contents (Elt F)),
    StableHlo.binary main_v514 main_v565 main_v670 (mulf : (⟨S1000000x24, .f32⟩ : BufTy).Contents (Elt F) → (⟨S1000000x24, .f32⟩ : BufTy).Contents (Elt F) → (⟨S1000000x24, .f32⟩ : BufTy).Contents (Elt F)),
    StableHlo.nary ![main_v668, main_v669, main_v670] main_v671 (fun u => concatenate S1000000x72 1 [⟨S1000000x24, u 0⟩, ⟨S1000000x24, u 1⟩, ⟨S1000000x24, u 2⟩] concatenates_S1000000x24_S1000000x24_S1000000x24_S1000000x72_d1),
    StableHlo.binary main_v671 main_arg7 main_v672 ((fun l r => Host.dotGeneral dot_S1000000x72_S72x28_S1000000x28_1_0_0_1_n_n none l r) : (⟨S1000000x72, .f32⟩ : BufTy).Contents (Elt F) → (⟨S72x28, .f32⟩ : BufTy).Contents (Elt F) → (⟨S1000000x28, .f32⟩ : BufTy).Contents (Elt F)) ]
theorem closingOps_sub : (closingOps : List (HloOp τ sig (Elt F))).Forall fun op => op.bufs ⊆ StableHlo.tcRefs τ sig :=
  ⟨StableHlo.binary_bufs_sub .., StableHlo.binary_bufs_sub .., StableHlo.binary_bufs_sub .., StableHlo.nary_bufs_sub .., StableHlo.binary_bufs_sub ..⟩
theorem closingOps_fresh : (closingOps : List (HloOp τ sig (Elt F))).Forall fun op => op.fresh = ∅ := by
  simp only [List.Forall]; repeat' constructor

abbrev main_part0_ops0 : List (HloOp τ sig (Elt F)) :=
  ( StableHlo.unary main_arg8 main_v0 (broadcastInDim S1x3 ![1] bcast_S3_S1x3_1 : (⟨S3, .f32⟩ : BufTy).Contents (Elt F) → (⟨S1x3, .f32⟩ : BufTy).Contents (Elt F))
  :: StableHlo.unary main_v0 main_v1 (broadcastInDim S1000000x3 ![0, 1] bcast_S1x3_S1000000x3_0_1 : (⟨S1x3, .f32⟩ : BufTy).Contents (Elt F) → (⟨S1000000x3, .f32⟩ : BufTy).Contents (Elt F))
  :: StableHlo.binary main_arg0 main_v1 main_v2 (subf : (⟨S1000000x3, .f32⟩ : BufTy).Contents (Elt F) → (⟨S1000000x3, .f32⟩ : BufTy).Contents (Elt F) → (⟨S1000000x3, .f32⟩ : BufTy).Contents (Elt F))
  :: StableHlo.binary main_arg9 main_arg8 main_v3 (subf : (⟨S3, .f32⟩ : BufTy).Contents (Elt F) → (⟨S3, .f32⟩ : BufTy).Contents (Elt F) → (⟨S3, .f32⟩ : BufTy).Contents (Elt F))
  :: StableHlo.unary main_v3 main_v4 (broadcastInDim S1x3 ![1] bcast_S3_S1x3_1 : (⟨S3, .f32⟩ : BufTy).Contents (Elt F) → (⟨S1x3, .f32⟩ : BufTy).Contents (Elt F))
  :: StableHlo.unary main_v4 main_v5 (broadcastInDim S1000000x3 ![0, 1] bcast_S1x3_S1000000x3_0_1 : (⟨S1x3, .f32⟩ : BufTy).Contents (Elt F) → (⟨S1000000x3, .f32⟩ : BufTy).Contents (Elt F))
  :: StableHlo.binary main_v2 main_v5 main_v6 (Host.divf : (⟨S1000000x3, .f32⟩ : BufTy).Contents (Elt F) → (⟨S1000000x3, .f32⟩ : BufTy).Contents (Elt F) → (⟨S1000000x3, .f32⟩ : BufTy).Contents (Elt F))
  :: StableHlo.nullary main_cst (constant S_ .f32 0x40000000#32)
  :: StableHlo.unary main_cst main_v7 (broadcastInDim S1000000x3 ![] bcast_S_S1000000x3 : (⟨S_, .f32⟩ : BufTy).Contents (Elt F) → (⟨S1000000x3, .f32⟩ : BufTy).Contents (Elt F))
  :: StableHlo.binary main_v6 main_v7 main_v8 (mulf : (⟨S1000000x3, .f32⟩ : BufTy).Contents (Elt F) → (⟨S1000000x3, .f32⟩ : BufTy).Contents (Elt F) → (⟨S1000000x3, .f32⟩ : BufTy).Contents (Elt F))
  :: StableHlo.nullary main_cst_0 (constant S_ .f32 0x3F800000#32)
  :: StableHlo.unary main_cst_0 main_v9 (broadcastInDim S1000000x3 ![] bcast_S_S1000000x3 : (⟨S_, .f32⟩ : BufTy).Contents (Elt F) → (⟨S1000000x3, .f32⟩ : BufTy).Contents (Elt F))
  :: StableHlo.binary main_v8 main_v9 main_v10 (subf : (⟨S1000000x3, .f32⟩ : BufTy).Contents (Elt F) → (⟨S1000000x3, .f32⟩ : BufTy).Contents (Elt F) → (⟨S1000000x3, .f32⟩ : BufTy).Contents (Elt F))
  :: StableHlo.unary main_v10 main_v11 ((extractStridedSlice S1000000x1 ![0, 0] · slices_S1000000x3_S1000000x1_0_0) : (⟨S1000000x3, .f32⟩ : BufTy).Contents (Elt F) → (⟨S1000000x1, .f32⟩ : BufTy).Contents (Elt F))
  :: StableHlo.reshape main_v11 main_v12 rfl shapeCasts_S1000000x1_S1000000
  :: StableHlo.unary main_v10 main_v13 ((extractStridedSlice S1000000x1 ![0, 1] · slices_S1000000x3_S1000000x1_0_1) : (⟨S1000000x3, .f32⟩ : BufTy).Contents (Elt F) → (⟨S1000000x1, .f32⟩ : BufTy).Contents (Elt F))
  :: StableHlo.reshape main_v13 main_v14 rfl shapeCasts_S1000000x1_S1000000
  :: StableHlo.unary main_v10 main_v15 ((extractStridedSlice S1000000x1 ![0, 2] · slices_S1000000x3_S1000000x1_0_2) : (⟨S1000000x3, .f32⟩ : BufTy).Contents (Elt F) → (⟨S1000000x1, .f32⟩ : BufTy).Contents (Elt F))
  :: StableHlo.reshape main_v15 main_v16 rfl shapeCasts_S1000000x1_S1000000
  :: StableHlo.nullary main_cst_1 (constant S_ .f32 0x3F800000#32)
  :: StableHlo.unary main_cst_1 main_v17 (broadcastInDim S1000000 ![] bcast_S_S1000000 : (⟨S_, .f32⟩ : BufTy).Contents (Elt F) → (⟨S1000000, .f32⟩ : BufTy).Contents (Elt F))
  :: StableHlo.binary main_v12 main_v17 main_v18 (addf : (⟨S1000000, .f32⟩ : BufTy).Contents (Elt F) → (⟨S1000000, .f32⟩ : BufTy).Contents (Elt F) → (⟨S1000000, .f32⟩ : BufTy).Contents (Elt F))
  :: StableHlo.nullary main_cst_2 (constant S_ .f32 0x3F000000#32)
  :: StableHlo.unary main_cst_2 main_v19 (broadcastInDim S1000000 ![] bcast_S_S1000000 : (⟨S_, .f32⟩ : BufTy).Contents (Elt F) → (⟨S1000000, .f32⟩ : BufTy).Contents (Elt F))
  :: StableHlo.binary main_v18 main_v19 main_v20 (mulf : (⟨S1000000, .f32⟩ : BufTy).Contents (Elt F) → (⟨S1000000, .f32⟩ : BufTy).Contents (Elt F) → (⟨S1000000, .f32⟩ : BufTy).Contents (Elt F))
  :: StableHlo.nullary main_cst_3 (constant S_ .f32 0x437F0000#32)
  :: StableHlo.unary main_cst_3 main_v21 (broadcastInDim S1000000 ![] bcast_S_S1000000 : (⟨S_, .f32⟩ : BufTy).Contents (Elt F) → (⟨S1000000, .f32⟩ : BufTy).Contents (Elt F))
  :: StableHlo.binary main_v20 main_v21 main_v22 (mulf : (⟨S1000000, .f32⟩ : BufTy).Contents (Elt F) → (⟨S1000000, .f32⟩ : BufTy).Contents (Elt F) → (⟨S1000000, .f32⟩ : BufTy).Contents (Elt F))
  :: StableHlo.nullary main_cst_4 (constant S_ .f32 0x3F800000#32)
  :: StableHlo.unary main_cst_4 main_v23 (broadcastInDim S1000000 ![] bcast_S_S1000000 : (⟨S_, .f32⟩ : BufTy).Contents (Elt F) → (⟨S1000000, .f32⟩ : BufTy).Contents (Elt F))
  :: StableHlo.binary main_v14 main_v23 main_v24 (addf : (⟨S1000000, .f32⟩ : BufTy).Contents (Elt F) → (⟨S1000000, .f32⟩ : BufTy).Contents (Elt F) → (⟨S1000000, .f32⟩ : BufTy).Contents (Elt F))
  :: StableHlo.nullary main_cst_5 (constant S_ .f32 0x3F000000#32)
  :: StableHlo.unary main_cst_5 main_v25 (broadcastInDim S1000000 ![] bcast_S_S1000000 : (⟨S_, .f32⟩ : BufTy).Contents (Elt F) → (⟨S1000000, .f32⟩ : BufTy).Contents (Elt F))
  :: StableHlo.binary main_v24 main_v25 main_v26 (mulf : (⟨S1000000, .f32⟩ : BufTy).Contents (Elt F) → (⟨S1000000, .f32⟩ : BufTy).Contents (Elt F) → (⟨S1000000, .f32⟩ : BufTy).Contents (Elt F))
  :: StableHlo.nullary main_cst_6 (constant S_ .f32 0x437F0000#32)
  :: StableHlo.unary main_cst_6 main_v27 (broadcastInDim S1000000 ![] bcast_S_S1000000 : (⟨S_, .f32⟩ : BufTy).Contents (Elt F) → (⟨S1000000, .f32⟩ : BufTy).Contents (Elt F))
  :: StableHlo.binary main_v26 main_v27 main_v28 (mulf : (⟨S1000000, .f32⟩ : BufTy).Contents (Elt F) → (⟨S1000000, .f32⟩ : BufTy).Contents (Elt F) → (⟨S1000000, .f32⟩ : BufTy).Contents (Elt F))
  :: StableHlo.unary main_v22 main_v29 (Host.floor : (⟨S1000000, .f32⟩ : BufTy).Contents (Elt F) → (⟨S1000000, .f32⟩ : BufTy).Contents (Elt F))
  :: StableHlo.unary main_v28 main_v30 (Host.floor : (⟨S1000000, .f32⟩ : BufTy).Contents (Elt F) → (⟨S1000000, .f32⟩ : BufTy).Contents (Elt F))
  :: StableHlo.binary main_v22 main_v29 main_v31 (subf : (⟨S1000000, .f32⟩ : BufTy).Contents (Elt F) → (⟨S1000000, .f32⟩ : BufTy).Contents (Elt F) → (⟨S1000000, .f32⟩ : BufTy).Contents (Elt F))
  :: StableHlo.binary main_v28 main_v30 main_v32 (subf : (⟨S1000000, .f32⟩ : BufTy).Contents (Elt F) → (⟨S1000000, .f32⟩ : BufTy).Contents (Elt F) → (⟨S1000000, .f32⟩ : BufTy).Contents (Elt F))
  :: StableHlo.unary main_v29 main_v33 (fptosi 32 : (⟨S1000000, .f32⟩ : BufTy).Contents (Elt F) → (⟨S1000000, .i32⟩ : BufTy).Contents (Elt F))
  :: StableHlo.unary main_v30 main_v34 (fptosi 32 : (⟨S1000000, .f32⟩ : BufTy).Contents (Elt F) → (⟨S1000000, .i32⟩ : BufTy).Contents (Elt F))
  :: StableHlo.nullary main_c (constantI S_ 32 1#32)
  :: StableHlo.unary main_c main_v35 (broadcastInDim S1000000 ![] bcast_S_S1000000 : (⟨S_, .i32⟩ : BufTy).Contents (Elt F) → (⟨S1000000, .i32⟩ : BufTy).Contents (Elt F))
  :: StableHlo.binary main_v33 main_v35 main_v36 (addi : (⟨S1000000, .i32⟩ : BufTy).Contents (Elt F) → (⟨S1000000, .i32⟩ : BufTy).Contents (Elt F) → (⟨S1000000, .i32⟩ : BufTy).Contents (Elt F))
  :: StableHlo.nullary main_c_7 (constantI S_ 32 1#32)
  :: StableHlo.unary main_c_7 main_v37 (broadcastInDim S1000000 ![] bcast_S_S1000000 : (⟨S_, .i32⟩ : BufTy).Contents (Elt F) → (⟨S1000000, .i32⟩ : BufTy).Contents (Elt F))
  :: StableHlo.binary main_v34 main_v37 main_v38 (addi : (⟨S1000000, .i32⟩ : BufTy).Contents (Elt F) → (⟨S1000000, .i32⟩ : BufTy).Contents (Elt F) → (⟨S1000000, .i32⟩ : BufTy).Contents (Elt F))
  :: StableHlo.nullary main_c_8 (constantI S_ 32 0#32)
  :: StableHlo.unary main_c_8 main_v39 (broadcastInDim S1000000 ![] bcast_S_S1000000 : (⟨S_, .i32⟩ : BufTy).Contents (Elt F) → (⟨S1000000, .i32⟩ : BufTy).Contents (Elt F))
  :: StableHlo.binary main_v33 main_v39 main_v40 (cmpi .sge : (⟨S1000000, .i32⟩ : BufTy).Contents (Elt F) → (⟨S1000000, .i32⟩ : BufTy).Contents (Elt F) → (⟨S1000000, .i1⟩ : BufTy).Contents (Elt F))
  :: StableHlo.nullary main_c_9 (constantI S_ 32 256#32)
  :: StableHlo.unary main_c_9 main_v41 (broadcastInDim S1000000 ![] bcast_S_S1000000 : (⟨S_, .i32⟩ : BufTy).Contents (Elt F) → (⟨S1000000, .i32⟩ : BufTy).Contents (Elt F))
  :: StableHlo.binary main_v33 main_v41 main_v42 (cmpi .slt : (⟨S1000000, .i32⟩ : BufTy).Contents (Elt F) → (⟨S1000000, .i32⟩ : BufTy).Contents (Elt F) → (⟨S1000000, .i1⟩ : BufTy).Contents (Elt F))
  :: StableHlo.binary main_v40 main_v42 main_v43 (andi : (⟨S1000000, .i1⟩ : BufTy).Contents (Elt F) → (⟨S1000000, .i1⟩ : BufTy).Contents (Elt F) → (⟨S1000000, .i1⟩ : BufTy).Contents (Elt F))
  :: StableHlo.nullary main_c_10 (constantI S_ 32 0#32)
  :: StableHlo.unary main_c_10 main_v44 (broadcastInDim S1000000 ![] bcast_S_S1000000 : (⟨S_, .i32⟩ : BufTy).Contents (Elt F) → (⟨S1000000, .i32⟩ : BufTy).Contents (Elt F))
  :: StableHlo.binary main_v34 main_v44 main_v45 (cmpi .sge : (⟨S1000000, .i32⟩ : BufTy).Contents (Elt F) → (⟨S1000000, .i32⟩ : BufTy).Contents (Elt F) → (⟨S1000000, .i1⟩ : BufTy).Contents (Elt F))
  :: StableHlo.binary main_v43 main_v45 main_v46 (andi : (⟨S1000000, .i1⟩ : BufTy).Contents (Elt F) → (⟨S1000000, .i1⟩ : BufTy).Contents (Elt F) → (⟨S1000000, .i1⟩ : BufTy).Contents (Elt F))
  :: [] )
theorem main_part0_ops0_sub : (main_part0_ops0 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
theorem main_part0_ops0_fresh : (main_part0_ops0 : List (HloOp τ sig (Elt F))).Forall fun op => op.fresh = ∅ := by
  simp only [List.Forall]; repeat' constructor
theorem main_part0_chain (c : Dev nD) : main_part0 (F := F) c = (Pipeline.chainK
  [  ]
  (StableHlo.seq main_part0_ops0) : Prog (TpuEff nD τ sig (Elt F) (Pipeline.Sig Λ₀ (Fin 0) fun p => (pcfgs (F := F) p).Adm) .tc) PUnit) := by
  chain_rfl

abbrev main_part1_ops0 : List (HloOp τ sig (Elt F)) :=
  [ StableHlo.nullary main_c_11 (constantI S_ 32 256#32),
    StableHlo.unary main_c_11 main_v47 (broadcastInDim S1000000 ![] bcast_S_S1000000 : (⟨S_, .i32⟩ : BufTy).Contents (Elt F) → (⟨S1000000, .i32⟩ : BufTy).Contents (Elt F)),
    StableHlo.binary main_v34 main_v47 main_v48 (cmpi .slt : (⟨S1000000, .i32⟩ : BufTy).Contents (Elt F) → (⟨S1000000, .i32⟩ : BufTy).Contents (Elt F) → (⟨S1000000, .i1⟩ : BufTy).Contents (Elt F)),
    StableHlo.binary main_v46 main_v48 main_v49 (andi : (⟨S1000000, .i1⟩ : BufTy).Contents (Elt F) → (⟨S1000000, .i1⟩ : BufTy).Contents (Elt F) → (⟨S1000000, .i1⟩ : BufTy).Contents (Elt F)),
    StableHlo.nullary main_c_12 (constantI S_ 32 0#32),
    StableHlo.nullary main_c_13 (constantI S_ 32 255#32) ]
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.nullary_bufs_sub ..⟩
theorem main_part1_ops0_fresh : (main_part1_ops0 : List (HloOp τ sig (Elt F))).Forall fun op => op.fresh = ∅ := by
  simp only [List.Forall]; repeat' constructor
abbrev main_part1_ops1 : List (HloOp τ sig (Elt F)) :=
  [ StableHlo.TRef.unary (.of main_c_12 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S1000000, .i32⟩) (broadcastInDim S1000000 ![] bcast_S_S1000000),
    StableHlo.TRef.binary (.of main_call0_v1 : StableHlo.TRef sig ⟨S1000000, .i32⟩) (.of main_v33 : StableHlo.TRef sig ⟨S1000000, .i32⟩) (.of main_call0_v2 : StableHlo.TRef sig ⟨S1000000, .i32⟩) maxsi,
    StableHlo.TRef.unary (.of main_c_13 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S1000000, .i32⟩) (broadcastInDim S1000000 ![] bcast_S_S1000000),
    StableHlo.TRef.binary (.of main_call0_v4 : StableHlo.TRef sig ⟨S1000000, .i32⟩) (.of main_call0_v2 : StableHlo.TRef sig ⟨S1000000, .i32⟩) (.of main_v50 : StableHlo.TRef sig ⟨S1000000, .i32⟩) minsi ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part1_ops1_fresh : (main_part1_ops1 : List (HloOp τ sig (Elt F))).Forall fun op => op.fresh = ∅ := by
  simp only [List.Forall]; repeat' constructor
abbrev main_part1_ops2 : List (HloOp τ sig (Elt F)) :=
  [ StableHlo.nullary main_c_14 (constantI S_ 32 0#32),
    StableHlo.nullary main_c_15 (constantI S_ 32 255#32) ]
theorem main_part1_ops2_sub : (main_part1_ops2 : List (HloOp τ sig (Elt F))).Forall fun op => op.bufs ⊆ StableHlo.tcRefs τ sig :=
  ⟨StableHlo.nullary_bufs_sub .., StableHlo.nullary_bufs_sub ..⟩
theorem main_part1_ops2_fresh : (main_part1_ops2 : List (HloOp τ sig (Elt F))).Forall fun op => op.fresh = ∅ := by
  simp only [List.Forall]; repeat' constructor
abbrev main_part1_ops3 : List (HloOp τ sig (Elt F)) :=
  [ StableHlo.TRef.unary (.of main_c_14 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S1000000, .i32⟩) (broadcastInDim S1000000 ![] bcast_S_S1000000),
    StableHlo.TRef.binary (.of main_call1_v1 : StableHlo.TRef sig ⟨S1000000, .i32⟩) (.of main_v34 : StableHlo.TRef sig ⟨S1000000, .i32⟩) (.of main_call1_v2 : StableHlo.TRef sig ⟨S1000000, .i32⟩) maxsi,
    StableHlo.TRef.unary (.of main_c_15 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S1000000, .i32⟩) (broadcastInDim S1000000 ![] bcast_S_S1000000),
    StableHlo.TRef.binary (.of main_call1_v4 : StableHlo.TRef sig ⟨S1000000, .i32⟩) (.of main_call1_v2 : StableHlo.TRef sig ⟨S1000000, .i32⟩) (.of main_v51 : StableHlo.TRef sig ⟨S1000000, .i32⟩) minsi ]
theorem main_part1_ops3_sub : (main_part1_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part1_ops3_fresh : (main_part1_ops3 : List (HloOp τ sig (Elt F))).Forall fun op => op.fresh = ∅ := by
  simp only [List.Forall]; repeat' constructor
abbrev main_part1_ops4 : List (HloOp τ sig (Elt F)) :=
  [ StableHlo.nullary main_c_16 (constantI S_ 32 0#32),
    StableHlo.unary main_c_16 main_v52 (broadcastInDim S1000000 ![] bcast_S_S1000000 : (⟨S_, .i32⟩ : BufTy).Contents (Elt F) → (⟨S1000000, .i32⟩ : BufTy).Contents (Elt F)),
    StableHlo.binary main_v50 main_v52 main_v53 (cmpi .slt : (⟨S1000000, .i32⟩ : BufTy).Contents (Elt F) → (⟨S1000000, .i32⟩ : BufTy).Contents (Elt F) → (⟨S1000000, .i1⟩ : BufTy).Contents (Elt F)),
    StableHlo.nullary main_c_17 (constantI S_ 32 256#32),
    StableHlo.unary main_c_17 main_v54 (broadcastInDim S1000000 ![] bcast_S_S1000000 : (⟨S_, .i32⟩ : BufTy).Contents (Elt F) → (⟨S1000000, .i32⟩ : BufTy).Contents (Elt F)),
    StableHlo.binary main_v50 main_v54 main_v55 (addi : (⟨S1000000, .i32⟩ : BufTy).Contents (Elt F) → (⟨S1000000, .i32⟩ : BufTy).Contents (Elt F) → (⟨S1000000, .i32⟩ : BufTy).Contents (Elt F)),
    StableHlo.ternary main_v53 main_v55 main_v50 main_v56 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_18 (constantI S_ 32 0#32),
    StableHlo.unary main_c_18 main_v57 (broadcastInDim S1000000 ![] bcast_S_S1000000 : (⟨S_, .i32⟩ : BufTy).Contents (Elt F) → (⟨S1000000, .i32⟩ : BufTy).Contents (Elt F)),
    StableHlo.binary main_v51 main_v57 main_v58 (cmpi .slt : (⟨S1000000, .i32⟩ : BufTy).Contents (Elt F) → (⟨S1000000, .i32⟩ : BufTy).Contents (Elt F) → (⟨S1000000, .i1⟩ : BufTy).Contents (Elt F)),
    StableHlo.nullary main_c_19 (constantI S_ 32 256#32),
    StableHlo.unary main_c_19 main_v59 (broadcastInDim S1000000 ![] bcast_S_S1000000 : (⟨S_, .i32⟩ : BufTy).Contents (Elt F) → (⟨S1000000, .i32⟩ : BufTy).Contents (Elt F)),
    StableHlo.binary main_v51 main_v59 main_v60 (addi : (⟨S1000000, .i32⟩ : BufTy).Contents (Elt F) → (⟨S1000000, .i32⟩ : BufTy).Contents (Elt F) → (⟨S1000000, .i32⟩ : BufTy).Contents (Elt F)),
    StableHlo.ternary main_v58 main_v60 main_v51 main_v61 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v56 main_v62 (broadcastInDim S1000000x1 ![0] bcast_S1000000_S1000000x1_0 : (⟨S1000000, .i32⟩ : BufTy).Contents (Elt F) → (⟨S1000000x1, .i32⟩ : BufTy).Contents (Elt F)),
    StableHlo.unary main_v61 main_v63 (broadcastInDim S1000000x1 ![0] bcast_S1000000_S1000000x1_0 : (⟨S1000000, .i32⟩ : BufTy).Contents (Elt F) → (⟨S1000000x1, .i32⟩ : BufTy).Contents (Elt F)),
    StableHlo.binary main_v62 main_v63 main_v64 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg1 main_v64 main_v65 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v49 main_v66 (broadcastInDim S1x1000000 ![1] bcast_S1000000_S1x1000000_1 : (⟨S1000000, .i1⟩ : BufTy).Contents (Elt F) → (⟨S1x1000000, .i1⟩ : BufTy).Contents (Elt F)),
    StableHlo.nullary main_cst_20 (constant S_ .f32 0x00000000#32) ]
theorem main_part1_ops4_sub : (main_part1_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part1_ops4_fresh : (main_part1_ops4 : List (HloOp τ sig (Elt F))).Forall fun op => op.fresh = ∅ := by
  simp only [List.Forall]; repeat' constructor
abbrev main_part1_ops5 : List (HloOp τ sig (Elt F)) :=
  [ StableHlo.TRef.unary (.of main_cst_20 : StableHlo.TRef sig ⟨S_, .f32⟩) (.of main_call2_v0 : StableHlo.TRef sig ⟨S_, .f32⟩) id,
    StableHlo.TRef.unary (.of main_v66 : StableHlo.TRef sig ⟨S1x1000000, .i1⟩) (.of main_call2_v1 : StableHlo.TRef sig ⟨S24x1000000, .i1⟩) (broadcastInDim S24x1000000 ![0, 1] bcast_S1x1000000_S24x1000000_0_1),
    StableHlo.TRef.unary (.of main_call2_v0 : StableHlo.TRef sig ⟨S_, .f32⟩) (.of main_call2_v2 : StableHlo.TRef sig ⟨S24x1000000, .f32⟩) (broadcastInDim S24x1000000 ![] bcast_S_S24x1000000),
    StableHlo.TRef.ternary (.of main_call2_v1 : StableHlo.TRef sig ⟨S24x1000000, .i1⟩) (.of main_v65 : StableHlo.TRef sig ⟨S24x1000000, .f32⟩) (.of main_call2_v2 : StableHlo.TRef sig ⟨S24x1000000, .f32⟩) (.of main_v67 : StableHlo.TRef sig ⟨S24x1000000, .f32⟩) select ]
theorem main_part1_ops5_sub : (main_part1_ops5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part1_ops5_fresh : (main_part1_ops5 : List (HloOp τ sig (Elt F))).Forall fun op => op.fresh = ∅ := by
  simp only [List.Forall]; repeat' constructor
abbrev main_part1_ops6 : List (HloOp τ sig (Elt F)) :=
  [ StableHlo.nullary main_cst_21 (constant S_ .f32 0x3F800000#32),
    StableHlo.unary main_cst_21 main_v68 (broadcastInDim S1000000 ![] bcast_S_S1000000 : (⟨S_, .f32⟩ : BufTy).Contents (Elt F) → (⟨S1000000, .f32⟩ : BufTy).Contents (Elt F)),
    StableHlo.binary main_v68 main_v31 main_v69 (subf : (⟨S1000000, .f32⟩ : BufTy).Contents (Elt F) → (⟨S1000000, .f32⟩ : BufTy).Contents (Elt F) → (⟨S1000000, .f32⟩ : BufTy).Contents (Elt F)),
    StableHlo.nullary main_cst_22 (constant S_ .f32 0x3F800000#32),
    StableHlo.unary main_cst_22 main_v70 (broadcastInDim S1000000 ![] bcast_S_S1000000 : (⟨S_, .f32⟩ : BufTy).Contents (Elt F) → (⟨S1000000, .f32⟩ : BufTy).Contents (Elt F)),
    StableHlo.binary main_v70 main_v32 main_v71 (subf : (⟨S1000000, .f32⟩ : BufTy).Contents (Elt F) → (⟨S1000000, .f32⟩ : BufTy).Contents (Elt F) → (⟨S1000000, .f32⟩ : BufTy).Contents (Elt F)),
    StableHlo.binary main_v69 main_v71 main_v72 (mulf : (⟨S1000000, .f32⟩ : BufTy).Contents (Elt F) → (⟨S1000000, .f32⟩ : BufTy).Contents (Elt F) → (⟨S1000000, .f32⟩ : BufTy).Contents (Elt F)),
    StableHlo.unary main_v72 main_v73 (broadcastInDim S1x1000000 ![1] bcast_S1000000_S1x1000000_1 : (⟨S1000000, .f32⟩ : BufTy).Contents (Elt F) → (⟨S1x1000000, .f32⟩ : BufTy).Contents (Elt F)),
    StableHlo.unary main_v73 main_v74 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v67 main_v74 main_v75 (mulf : (⟨S24x1000000, .f32⟩ : BufTy).Contents (Elt F) → (⟨S24x1000000, .f32⟩ : BufTy).Contents (Elt F) → (⟨S24x1000000, .f32⟩ : BufTy).Contents (Elt F)),
    StableHlo.nullary main_c_23 (constantI S_ 32 0#32),
    StableHlo.unary main_c_23 main_v76 (broadcastInDim S1000000 ![] bcast_S_S1000000 : (⟨S_, .i32⟩ : BufTy).Contents (Elt F) → (⟨S1000000, .i32⟩ : BufTy).Contents (Elt F)),
    StableHlo.binary main_v33 main_v76 main_v77 (cmpi .sge : (⟨S1000000, .i32⟩ : BufTy).Contents (Elt F) → (⟨S1000000, .i32⟩ : BufTy).Contents (Elt F) → (⟨S1000000, .i1⟩ : BufTy).Contents (Elt F)),
    StableHlo.nullary main_c_24 (constantI S_ 32 256#32),
    StableHlo.unary main_c_24 main_v78 (broadcastInDim S1000000 ![] bcast_S_S1000000 : (⟨S_, .i32⟩ : BufTy).Contents (Elt F) → (⟨S1000000, .i32⟩ : BufTy).Contents (Elt F)),
    StableHlo.binary main_v33 main_v78 main_v79 (cmpi .slt : (⟨S1000000, .i32⟩ : BufTy).Contents (Elt F) → (⟨S1000000, .i32⟩ : BufTy).Contents (Elt F) → (⟨S1000000, .i1⟩ : BufTy).Contents (Elt F)),
    StableHlo.binary main_v77 main_v79 main_v80 (andi : (⟨S1000000, .i1⟩ : BufTy).Contents (Elt F) → (⟨S1000000, .i1⟩ : BufTy).Contents (Elt F) → (⟨S1000000, .i1⟩ : BufTy).Contents (Elt F)),
    StableHlo.nullary main_c_25 (constantI S_ 32 0#32),
    StableHlo.unary main_c_25 main_v81 (broadcastInDim S1000000 ![] bcast_S_S1000000 : (⟨S_, .i32⟩ : BufTy).Contents (Elt F) → (⟨S1000000, .i32⟩ : BufTy).Contents (Elt F)),
    StableHlo.binary main_v38 main_v81 main_v82 (cmpi .sge : (⟨S1000000, .i32⟩ : BufTy).Contents (Elt F) → (⟨S1000000, .i32⟩ : BufTy).Contents (Elt F) → (⟨S1000000, .i1⟩ : BufTy).Contents (Elt F)),
    StableHlo.binary main_v80 main_v82 main_v83 (andi : (⟨S1000000, .i1⟩ : BufTy).Contents (Elt F) → (⟨S1000000, .i1⟩ : BufTy).Contents (Elt F) → (⟨S1000000, .i1⟩ : BufTy).Contents (Elt F)),
    StableHlo.nullary main_c_26 (constantI S_ 32 256#32),
    StableHlo.unary main_c_26 main_v84 (broadcastInDim S1000000 ![] bcast_S_S1000000 : (⟨S_, .i32⟩ : BufTy).Contents (Elt F) → (⟨S1000000, .i32⟩ : BufTy).Contents (Elt F)),
    StableHlo.binary main_v38 main_v84 main_v85 (cmpi .slt : (⟨S1000000, .i32⟩ : BufTy).Contents (Elt F) → (⟨S1000000, .i32⟩ : BufTy).Contents (Elt F) → (⟨S1000000, .i1⟩ : BufTy).Contents (Elt F)),
    StableHlo.binary main_v83 main_v85 main_v86 (andi : (⟨S1000000, .i1⟩ : BufTy).Contents (Elt F) → (⟨S1000000, .i1⟩ : BufTy).Contents (Elt F) → (⟨S1000000, .i1⟩ : BufTy).Contents (Elt F)),
    StableHlo.nullary main_c_27 (constantI S_ 32 0#32),
    StableHlo.nullary main_c_28 (constantI S_ 32 255#32) ]
theorem main_part1_ops6_sub : (main_part1_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part1_ops6_fresh : (main_part1_ops6 : List (HloOp τ sig (Elt F))).Forall fun op => op.fresh = ∅ := by
  simp only [List.Forall]; repeat' constructor
abbrev main_part1_ops7 : List (HloOp τ sig (Elt F)) :=
  [ StableHlo.TRef.unary (.of main_c_27 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S1000000, .i32⟩) (broadcastInDim S1000000 ![] bcast_S_S1000000),
    StableHlo.TRef.binary (.of main_call3_v1 : StableHlo.TRef sig ⟨S1000000, .i32⟩) (.of main_v33 : StableHlo.TRef sig ⟨S1000000, .i32⟩) (.of main_call3_v2 : StableHlo.TRef sig ⟨S1000000, .i32⟩) maxsi,
    StableHlo.TRef.unary (.of main_c_28 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S1000000, .i32⟩) (broadcastInDim S1000000 ![] bcast_S_S1000000),
    StableHlo.TRef.binary (.of main_call3_v4 : StableHlo.TRef sig ⟨S1000000, .i32⟩) (.of main_call3_v2 : StableHlo.TRef sig ⟨S1000000, .i32⟩) (.of main_v87 : StableHlo.TRef sig ⟨S1000000, .i32⟩) minsi ]
theorem main_part1_ops7_sub : (main_part1_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part1_ops7_fresh : (main_part1_ops7 : List (HloOp τ sig (Elt F))).Forall fun op => op.fresh = ∅ := by
  simp only [List.Forall]; repeat' constructor
abbrev main_part1_ops8 : List (HloOp τ sig (Elt F)) :=
  [ StableHlo.nullary main_c_29 (constantI S_ 32 0#32) ]
theorem main_part1_ops8_sub : (main_part1_ops8 : List (HloOp τ sig (Elt F))).Forall fun op => op.bufs ⊆ StableHlo.tcRefs τ sig :=
  StableHlo.nullary_bufs_sub ..
theorem main_part1_ops8_fresh : (main_part1_ops8 : List (HloOp τ sig (Elt F))).Forall fun op => op.fresh = ∅ := by
  simp only [List.Forall]; repeat' constructor
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7 ]
  (StableHlo.seq main_part1_ops8) : Prog (TpuEff nD τ sig (Elt F) (Pipeline.Sig Λ₀ (Fin 0) fun p => (pcfgs (F := F) p).Adm) .tc) PUnit) := by
  chain_rfl

abbrev main_part2_ops0 : List (HloOp τ sig (Elt F)) :=
  [ StableHlo.nullary main_c_30 (constantI S_ 32 255#32) ]
theorem main_part2_ops0_sub : (main_part2_ops0 : List (HloOp τ sig (Elt F))).Forall fun op => op.bufs ⊆ StableHlo.tcRefs τ sig :=
  StableHlo.nullary_bufs_sub ..
theorem main_part2_ops0_fresh : (main_part2_ops0 : List (HloOp τ sig (Elt F))).Forall fun op => op.fresh = ∅ := by
  simp only [List.Forall]; repeat' constructor
abbrev main_part2_ops1 : List (HloOp τ sig (Elt F)) :=
  [ StableHlo.TRef.unary (.of main_c_29 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S1000000, .i32⟩) (broadcastInDim S1000000 ![] bcast_S_S1000000),
    StableHlo.TRef.binary (.of main_call4_v1 : StableHlo.TRef sig ⟨S1000000, .i32⟩) (.of main_v38 : StableHlo.TRef sig ⟨S1000000, .i32⟩) (.of main_call4_v2 : StableHlo.TRef sig ⟨S1000000, .i32⟩) maxsi,
    StableHlo.TRef.unary (.of main_c_30 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S1000000, .i32⟩) (broadcastInDim S1000000 ![] bcast_S_S1000000),
    StableHlo.TRef.binary (.of main_call4_v4 : StableHlo.TRef sig ⟨S1000000, .i32⟩) (.of main_call4_v2 : StableHlo.TRef sig ⟨S1000000, .i32⟩) (.of main_v88 : StableHlo.TRef sig ⟨S1000000, .i32⟩) minsi ]
theorem main_part2_ops1_sub : (main_part2_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part2_ops1_fresh : (main_part2_ops1 : List (HloOp τ sig (Elt F))).Forall fun op => op.fresh = ∅ := by
  simp only [List.Forall]; repeat' constructor
abbrev main_part2_ops2 : List (HloOp τ sig (Elt F)) :=
  [ StableHlo.nullary main_c_31 (constantI S_ 32 0#32),
    StableHlo.unary main_c_31 main_v89 (broadcastInDim S1000000 ![] bcast_S_S1000000 : (⟨S_, .i32⟩ : BufTy).Contents (Elt F) → (⟨S1000000, .i32⟩ : BufTy).Contents (Elt F)),
    StableHlo.binary main_v87 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_32 (constantI S_ 32 256#32),
    StableHlo.unary main_c_32 main_v91 (broadcastInDim S1000000 ![] bcast_S_S1000000 : (⟨S_, .i32⟩ : BufTy).Contents (Elt F) → (⟨S1000000, .i32⟩ : BufTy).Contents (Elt F)),
    StableHlo.binary main_v87 main_v91 main_v92 (addi : (⟨S1000000, .i32⟩ : BufTy).Contents (Elt F) → (⟨S1000000, .i32⟩ : BufTy).Contents (Elt F) → (⟨S1000000, .i32⟩ : BufTy).Contents (Elt F)),
    StableHlo.ternary main_v90 main_v92 main_v87 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_33 (constantI S_ 32 0#32),
    StableHlo.unary main_c_33 main_v94 (broadcastInDim S1000000 ![] bcast_S_S1000000 : (⟨S_, .i32⟩ : BufTy).Contents (Elt F) → (⟨S1000000, .i32⟩ : BufTy).Contents (Elt F)),
    StableHlo.binary main_v88 main_v94 main_v95 (cmpi .slt : (⟨S1000000, .i32⟩ : BufTy).Contents (Elt F) → (⟨S1000000, .i32⟩ : BufTy).Contents (Elt F) → (⟨S1000000, .i1⟩ : BufTy).Contents (Elt F)),
    StableHlo.nullary main_c_34 (constantI S_ 32 256#32),
    StableHlo.unary main_c_34 main_v96 (broadcastInDim S1000000 ![] bcast_S_S1000000 : (⟨S_, .i32⟩ : BufTy).Contents (Elt F) → (⟨S1000000, .i32⟩ : BufTy).Contents (Elt F)),
    StableHlo.binary main_v88 main_v96 main_v97 (addi : (⟨S1000000, .i32⟩ : BufTy).Contents (Elt F) → (⟨S1000000, .i32⟩ : BufTy).Contents (Elt F) → (⟨S1000000, .i32⟩ : BufTy).Contents (Elt F)),
    StableHlo.ternary main_v95 main_v97 main_v88 main_v98 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v99 (broadcastInDim S1000000x1 ![0] bcast_S1000000_S1000000x1_0 : (⟨S1000000, .i32⟩ : BufTy).Contents (Elt F) → (⟨S1000000x1, .i32⟩ : BufTy).Contents (Elt F)),
    StableHlo.unary main_v98 main_v100 (broadcastInDim S1000000x1 ![0] bcast_S1000000_S1000000x1_0 : (⟨S1000000, .i32⟩ : BufTy).Contents (Elt F) → (⟨S1000000x1, .i32⟩ : BufTy).Contents (Elt F)),
    StableHlo.binary main_v99 main_v100 main_v101 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg1 main_v101 main_v102 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v86 main_v103 (broadcastInDim S1x1000000 ![1] bcast_S1000000_S1x1000000_1 : (⟨S1000000, .i1⟩ : BufTy).Contents (Elt F) → (⟨S1x1000000, .i1⟩ : BufTy).Contents (Elt F)),
    StableHlo.nullary main_cst_35 (constant S_ .f32 0x00000000#32) ]
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part2_ops2_fresh : (main_part2_ops2 : List (HloOp τ sig (Elt F))).Forall fun op => op.fresh = ∅ := by
  simp only [List.Forall]; repeat' constructor
abbrev main_part2_ops3 : List (HloOp τ sig (Elt F)) :=
  [ StableHlo.TRef.unary (.of main_cst_35 : StableHlo.TRef sig ⟨S_, .f32⟩) (.of main_call5_v0 : StableHlo.TRef sig ⟨S_, .f32⟩) id,
    StableHlo.TRef.unary (.of main_v103 : StableHlo.TRef sig ⟨S1x1000000, .i1⟩) (.of main_call5_v1 : StableHlo.TRef sig ⟨S24x1000000, .i1⟩) (broadcastInDim S24x1000000 ![0, 1] bcast_S1x1000000_S24x1000000_0_1),
    StableHlo.TRef.unary (.of main_call5_v0 : StableHlo.TRef sig ⟨S_, .f32⟩) (.of main_call5_v2 : StableHlo.TRef sig ⟨S24x1000000, .f32⟩) (broadcastInDim S24x1000000 ![] bcast_S_S24x1000000),
    StableHlo.TRef.ternary (.of main_call5_v1 : StableHlo.TRef sig ⟨S24x1000000, .i1⟩) (.of main_v102 : StableHlo.TRef sig ⟨S24x1000000, .f32⟩) (.of main_call5_v2 : StableHlo.TRef sig ⟨S24x1000000, .f32⟩) (.of main_v104 : StableHlo.TRef sig ⟨S24x1000000, .f32⟩) select ]
theorem main_part2_ops3_sub : (main_part2_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part2_ops3_fresh : (main_part2_ops3 : List (HloOp τ sig (Elt F))).Forall fun op => op.fresh = ∅ := by
  simp only [List.Forall]; repeat' constructor
abbrev main_part2_ops4 : List (HloOp τ sig (Elt F)) :=
  [ StableHlo.nullary main_cst_36 (constant S_ .f32 0x3F800000#32),
    StableHlo.unary main_cst_36 main_v105 (broadcastInDim S1000000 ![] bcast_S_S1000000 : (⟨S_, .f32⟩ : BufTy).Contents (Elt F) → (⟨S1000000, .f32⟩ : BufTy).Contents (Elt F)),
    StableHlo.binary main_v105 main_v31 main_v106 (subf : (⟨S1000000, .f32⟩ : BufTy).Contents (Elt F) → (⟨S1000000, .f32⟩ : BufTy).Contents (Elt F) → (⟨S1000000, .f32⟩ : BufTy).Contents (Elt F)),
    StableHlo.binary main_v106 main_v32 main_v107 (mulf : (⟨S1000000, .f32⟩ : BufTy).Contents (Elt F) → (⟨S1000000, .f32⟩ : BufTy).Contents (Elt F) → (⟨S1000000, .f32⟩ : BufTy).Contents (Elt F)),
    StableHlo.unary main_v107 main_v108 (broadcastInDim S1x1000000 ![1] bcast_S1000000_S1x1000000_1 : (⟨S1000000, .f32⟩ : BufTy).Contents (Elt F) → (⟨S1x1000000, .f32⟩ : BufTy).Contents (Elt F)),
    StableHlo.unary main_v108 main_v109 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v104 main_v109 main_v110 (mulf : (⟨S24x1000000, .f32⟩ : BufTy).Contents (Elt F) → (⟨S24x1000000, .f32⟩ : BufTy).Contents (Elt F) → (⟨S24x1000000, .f32⟩ : BufTy).Contents (Elt F)),
    StableHlo.binary main_v75 main_v110 main_v111 (addf : (⟨S24x1000000, .f32⟩ : BufTy).Contents (Elt F) → (⟨S24x1000000, .f32⟩ : BufTy).Contents (Elt F) → (⟨S24x1000000, .f32⟩ : BufTy).Contents (Elt F)),
    StableHlo.nullary main_c_37 (constantI S_ 32 0#32),
    StableHlo.unary main_c_37 main_v112 (broadcastInDim S1000000 ![] bcast_S_S1000000 : (⟨S_, .i32⟩ : BufTy).Contents (Elt F) → (⟨S1000000, .i32⟩ : BufTy).Contents (Elt F)),
    StableHlo.binary main_v36 main_v112 main_v113 (cmpi .sge : (⟨S1000000, .i32⟩ : BufTy).Contents (Elt F) → (⟨S1000000, .i32⟩ : BufTy).Contents (Elt F) → (⟨S1000000, .i1⟩ : BufTy).Contents (Elt F)),
    StableHlo.nullary main_c_38 (constantI S_ 32 256#32),
    StableHlo.unary main_c_38 main_v114 (broadcastInDim S1000000 ![] bcast_S_S1000000 : (⟨S_, .i32⟩ : BufTy).Contents (Elt F) → (⟨S1000000, .i32⟩ : BufTy).Contents (Elt F)),
    StableHlo.binary main_v36 main_v114 main_v115 (cmpi .slt : (⟨S1000000, .i32⟩ : BufTy).Contents (Elt F) → (⟨S1000000, .i32⟩ : BufTy).Contents (Elt F) → (⟨S1000000, .i1⟩ : BufTy).Contents (Elt F)),
    StableHlo.binary main_v113 main_v115 main_v116 (andi : (⟨S1000000, .i1⟩ : BufTy).Contents (Elt F) → (⟨S1000000, .i1⟩ : BufTy).Contents (Elt F) → (⟨S1000000, .i1⟩ : BufTy).Contents (Elt F)),
    StableHlo.nullary main_c_39 (constantI S_ 32 0#32),
    StableHlo.unary main_c_39 main_v117 (broadcastInDim S1000000 ![] bcast_S_S1000000 : (⟨S_, .i32⟩ : BufTy).Contents (Elt F) → (⟨S1000000, .i32⟩ : BufTy).Contents (Elt F)),
    StableHlo.binary main_v34 main_v117 main_v118 (cmpi .sge : (⟨S1000000, .i32⟩ : BufTy).Contents (Elt F) → (⟨S1000000, .i32⟩ : BufTy).Contents (Elt F) → (⟨S1000000, .i1⟩ : BufTy).Contents (Elt F)),
    StableHlo.binary main_v116 main_v118 main_v119 (andi : (⟨S1000000, .i1⟩ : BufTy).Contents (Elt F) → (⟨S1000000, .i1⟩ : BufTy).Contents (Elt F) → (⟨S1000000, .i1⟩ : BufTy).Contents (Elt F)),
    StableHlo.nullary main_c_40 (constantI S_ 32 256#32),
    StableHlo.unary main_c_40 main_v120 (broadcastInDim S1000000 ![] bcast_S_S1000000 : (⟨S_, .i32⟩ : BufTy).Contents (Elt F) → (⟨S1000000, .i32⟩ : BufTy).Contents (Elt F)),
    StableHlo.binary main_v34 main_v120 main_v121 (cmpi .slt : (⟨S1000000, .i32⟩ : BufTy).Contents (Elt F) → (⟨S1000000, .i32⟩ : BufTy).Contents (Elt F) → (⟨S1000000, .i1⟩ : BufTy).Contents (Elt F)),
    StableHlo.binary main_v119 main_v121 main_v122 (andi : (⟨S1000000, .i1⟩ : BufTy).Contents (Elt F) → (⟨S1000000, .i1⟩ : BufTy).Contents (Elt F) → (⟨S1000000, .i1⟩ : BufTy).Contents (Elt F)),
    StableHlo.nullary main_c_41 (constantI S_ 32 0#32),
    StableHlo.nullary main_c_42 (constantI S_ 32 255#32) ]
theorem main_part2_ops4_sub : (main_part2_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part2_ops4_fresh : (main_part2_ops4 : List (HloOp τ sig (Elt F))).Forall fun op => op.fresh = ∅ := by
  simp only [List.Forall]; repeat' constructor
abbrev main_part2_ops5 : List (HloOp τ sig (Elt F)) :=
  [ StableHlo.TRef.unary (.of main_c_41 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S1000000, .i32⟩) (broadcastInDim S1000000 ![] bcast_S_S1000000),
    StableHlo.TRef.binary (.of main_call6_v1 : StableHlo.TRef sig ⟨S1000000, .i32⟩) (.of main_v36 : StableHlo.TRef sig ⟨S1000000, .i32⟩) (.of main_call6_v2 : StableHlo.TRef sig ⟨S1000000, .i32⟩) maxsi,
    StableHlo.TRef.unary (.of main_c_42 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S1000000, .i32⟩) (broadcastInDim S1000000 ![] bcast_S_S1000000),
    StableHlo.TRef.binary (.of main_call6_v4 : StableHlo.TRef sig ⟨S1000000, .i32⟩) (.of main_call6_v2 : StableHlo.TRef sig ⟨S1000000, .i32⟩) (.of main_v123 : StableHlo.TRef sig ⟨S1000000, .i32⟩) minsi ]
theorem main_part2_ops5_sub : (main_part2_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part2_ops5_fresh : (main_part2_ops5 : List (HloOp τ sig (Elt F))).Forall fun op => op.fresh = ∅ := by
  simp only [List.Forall]; repeat' constructor
abbrev main_part2_ops6 : List (HloOp τ sig (Elt F)) :=
  [ StableHlo.nullary main_c_43 (constantI S_ 32 0#32),
    StableHlo.nullary main_c_44 (constantI S_ 32 255#32) ]
theorem main_part2_ops6_sub : (main_part2_ops6 : List (HloOp τ sig (Elt F))).Forall fun op => op.bufs ⊆ StableHlo.tcRefs τ sig :=
  ⟨StableHlo.nullary_bufs_sub .., StableHlo.nullary_bufs_sub ..⟩
theorem main_part2_ops6_fresh : (main_part2_ops6 : List (HloOp τ sig (Elt F))).Forall fun op => op.fresh = ∅ := by
  simp only [List.Forall]; repeat' constructor
abbrev main_part2_ops7 : List (HloOp τ sig (Elt F)) :=
  [ StableHlo.TRef.unary (.of main_c_43 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S1000000, .i32⟩) (broadcastInDim S1000000 ![] bcast_S_S1000000),
    StableHlo.TRef.binary (.of main_call7_v1 : StableHlo.TRef sig ⟨S1000000, .i32⟩) (.of main_v34 : StableHlo.TRef sig ⟨S1000000, .i32⟩) (.of main_call7_v2 : StableHlo.TRef sig ⟨S1000000, .i32⟩) maxsi,
    StableHlo.TRef.unary (.of main_c_44 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S1000000, .i32⟩) (broadcastInDim S1000000 ![] bcast_S_S1000000),
    StableHlo.TRef.binary (.of main_call7_v4 : StableHlo.TRef sig ⟨S1000000, .i32⟩) (.of main_call7_v2 : StableHlo.TRef sig ⟨S1000000, .i32⟩) (.of main_v124 : StableHlo.TRef sig ⟨S1000000, .i32⟩) minsi ]
theorem main_part2_ops7_sub : (main_part2_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part2_ops7_fresh : (main_part2_ops7 : List (HloOp τ sig (Elt F))).Forall fun op => op.fresh = ∅ := by
  simp only [List.Forall]; repeat' constructor
abbrev main_part2_ops8 : List (HloOp τ sig (Elt F)) :=
  [ StableHlo.nullary main_c_45 (constantI S_ 32 0#32),
    StableHlo.unary main_c_45 main_v125 (broadcastInDim S1000000 ![] bcast_S_S1000000 : (⟨S_, .i32⟩ : BufTy).Contents (Elt F) → (⟨S1000000, .i32⟩ : BufTy).Contents (Elt F)),
    StableHlo.binary main_v123 main_v125 main_v126 (cmpi .slt : (⟨S1000000, .i32⟩ : BufTy).Contents (Elt F) → (⟨S1000000, .i32⟩ : BufTy).Contents (Elt F) → (⟨S1000000, .i1⟩ : BufTy).Contents (Elt F)),
    StableHlo.nullary main_c_46 (constantI S_ 32 256#32),
    StableHlo.unary main_c_46 main_v127 (broadcastInDim S1000000 ![] bcast_S_S1000000 : (⟨S_, .i32⟩ : BufTy).Contents (Elt F) → (⟨S1000000, .i32⟩ : BufTy).Contents (Elt F)),
    StableHlo.binary main_v123 main_v127 main_v128 (addi : (⟨S1000000, .i32⟩ : BufTy).Contents (Elt F) → (⟨S1000000, .i32⟩ : BufTy).Contents (Elt F) → (⟨S1000000, .i32⟩ : BufTy).Contents (Elt F)),
    StableHlo.ternary main_v126 main_v128 main_v123 main_v129 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_47 (constantI S_ 32 0#32) ]
theorem main_part2_ops8_sub : (main_part2_ops8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩
theorem main_part2_ops8_fresh : (main_part2_ops8 : List (HloOp τ sig (Elt F))).Forall fun op => op.fresh = ∅ := by
  simp only [List.Forall]; repeat' constructor
theorem main_part2_chain (c : Dev nD) : main_part2 (F := F) c = (Pipeline.chainK
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7 ]
  (StableHlo.seq main_part2_ops8) : Prog (TpuEff nD τ sig (Elt F) (Pipeline.Sig Λ₀ (Fin 0) fun p => (pcfgs (F := F) p).Adm) .tc) PUnit) := by
  chain_rfl

abbrev main_part3_ops0 : List (HloOp τ sig (Elt F)) :=
  [ StableHlo.unary main_c_47 main_v130 (broadcastInDim S1000000 ![] bcast_S_S1000000 : (⟨S_, .i32⟩ : BufTy).Contents (Elt F) → (⟨S1000000, .i32⟩ : BufTy).Contents (Elt F)),
    StableHlo.binary main_v124 main_v130 main_v131 (cmpi .slt : (⟨S1000000, .i32⟩ : BufTy).Contents (Elt F) → (⟨S1000000, .i32⟩ : BufTy).Contents (Elt F) → (⟨S1000000, .i1⟩ : BufTy).Contents (Elt F)),
    StableHlo.nullary main_c_48 (constantI S_ 32 256#32),
    StableHlo.unary main_c_48 main_v132 (broadcastInDim S1000000 ![] bcast_S_S1000000 : (⟨S_, .i32⟩ : BufTy).Contents (Elt F) → (⟨S1000000, .i32⟩ : BufTy).Contents (Elt F)),
    StableHlo.binary main_v124 main_v132 main_v133 (addi : (⟨S1000000, .i32⟩ : BufTy).Contents (Elt F) → (⟨S1000000, .i32⟩ : BufTy).Contents (Elt F) → (⟨S1000000, .i32⟩ : BufTy).Contents (Elt F)),
    StableHlo.ternary main_v131 main_v133 main_v124 main_v134 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v129 main_v135 (broadcastInDim S1000000x1 ![0] bcast_S1000000_S1000000x1_0 : (⟨S1000000, .i32⟩ : BufTy).Contents (Elt F) → (⟨S1000000x1, .i32⟩ : BufTy).Contents (Elt F)),
    StableHlo.unary main_v134 main_v136 (broadcastInDim S1000000x1 ![0] bcast_S1000000_S1000000x1_0 : (⟨S1000000, .i32⟩ : BufTy).Contents (Elt F) → (⟨S1000000x1, .i32⟩ : BufTy).Contents (Elt F)),
    StableHlo.binary main_v135 main_v136 main_v137 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg1 main_v137 main_v138 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v122 main_v139 (broadcastInDim S1x1000000 ![1] bcast_S1000000_S1x1000000_1 : (⟨S1000000, .i1⟩ : BufTy).Contents (Elt F) → (⟨S1x1000000, .i1⟩ : BufTy).Contents (Elt F)),
    StableHlo.nullary main_cst_49 (constant S_ .f32 0x00000000#32) ]
theorem main_part3_ops0_sub : (main_part3_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part3_ops0_fresh : (main_part3_ops0 : List (HloOp τ sig (Elt F))).Forall fun op => op.fresh = ∅ := by
  simp only [List.Forall]; repeat' constructor
abbrev main_part3_ops1 : List (HloOp τ sig (Elt F)) :=
  [ StableHlo.TRef.unary (.of main_cst_49 : StableHlo.TRef sig ⟨S_, .f32⟩) (.of main_call8_v0 : StableHlo.TRef sig ⟨S_, .f32⟩) id,
    StableHlo.TRef.unary (.of main_v139 : StableHlo.TRef sig ⟨S1x1000000, .i1⟩) (.of main_call8_v1 : StableHlo.TRef sig ⟨S24x1000000, .i1⟩) (broadcastInDim S24x1000000 ![0, 1] bcast_S1x1000000_S24x1000000_0_1),
    StableHlo.TRef.unary (.of main_call8_v0 : StableHlo.TRef sig ⟨S_, .f32⟩) (.of main_call8_v2 : StableHlo.TRef sig ⟨S24x1000000, .f32⟩) (broadcastInDim S24x1000000 ![] bcast_S_S24x1000000),
    StableHlo.TRef.ternary (.of main_call8_v1 : StableHlo.TRef sig ⟨S24x1000000, .i1⟩) (.of main_v138 : StableHlo.TRef sig ⟨S24x1000000, .f32⟩) (.of main_call8_v2 : StableHlo.TRef sig ⟨S24x1000000, .f32⟩) (.of main_v140 : StableHlo.TRef sig ⟨S24x1000000, .f32⟩) select ]
theorem main_part3_ops1_sub : (main_part3_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part3_ops1_fresh : (main_part3_ops1 : List (HloOp τ sig (Elt F))).Forall fun op => op.fresh = ∅ := by
  simp only [List.Forall]; repeat' constructor
abbrev main_part3_ops2 : List (HloOp τ sig (Elt F)) :=
  [ StableHlo.nullary main_cst_50 (constant S_ .f32 0x3F800000#32),
    StableHlo.unary main_cst_50 main_v141 (broadcastInDim S1000000 ![] bcast_S_S1000000 : (⟨S_, .f32⟩ : BufTy).Contents (Elt F) → (⟨S1000000, .f32⟩ : BufTy).Contents (Elt F)),
    StableHlo.binary main_v141 main_v32 main_v142 (subf : (⟨S1000000, .f32⟩ : BufTy).Contents (Elt F) → (⟨S1000000, .f32⟩ : BufTy).Contents (Elt F) → (⟨S1000000, .f32⟩ : BufTy).Contents (Elt F)),
    StableHlo.binary main_v31 main_v142 main_v143 (mulf : (⟨S1000000, .f32⟩ : BufTy).Contents (Elt F) → (⟨S1000000, .f32⟩ : BufTy).Contents (Elt F) → (⟨S1000000, .f32⟩ : BufTy).Contents (Elt F)),
    StableHlo.unary main_v143 main_v144 (broadcastInDim S1x1000000 ![1] bcast_S1000000_S1x1000000_1 : (⟨S1000000, .f32⟩ : BufTy).Contents (Elt F) → (⟨S1x1000000, .f32⟩ : BufTy).Contents (Elt F)),
    StableHlo.unary main_v144 main_v145 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v140 main_v145 main_v146 (mulf : (⟨S24x1000000, .f32⟩ : BufTy).Contents (Elt F) → (⟨S24x1000000, .f32⟩ : BufTy).Contents (Elt F) → (⟨S24x1000000, .f32⟩ : BufTy).Contents (Elt F)),
    StableHlo.binary main_v111 main_v146 main_v147 (addf : (⟨S24x1000000, .f32⟩ : BufTy).Contents (Elt F) → (⟨S24x1000000, .f32⟩ : BufTy).Contents (Elt F) → (⟨S24x1000000, .f32⟩ : BufTy).Contents (Elt F)),
    StableHlo.nullary main_c_51 (constantI S_ 32 0#32),
    StableHlo.unary main_c_51 main_v148 (broadcastInDim S1000000 ![] bcast_S_S1000000 : (⟨S_, .i32⟩ : BufTy).Contents (Elt F) → (⟨S1000000, .i32⟩ : BufTy).Contents (Elt F)),
    StableHlo.binary main_v36 main_v148 main_v149 (cmpi .sge : (⟨S1000000, .i32⟩ : BufTy).Contents (Elt F) → (⟨S1000000, .i32⟩ : BufTy).Contents (Elt F) → (⟨S1000000, .i1⟩ : BufTy).Contents (Elt F)),
    StableHlo.nullary main_c_52 (constantI S_ 32 256#32),
    StableHlo.unary main_c_52 main_v150 (broadcastInDim S1000000 ![] bcast_S_S1000000 : (⟨S_, .i32⟩ : BufTy).Contents (Elt F) → (⟨S1000000, .i32⟩ : BufTy).Contents (Elt F)),
    StableHlo.binary main_v36 main_v150 main_v151 (cmpi .slt : (⟨S1000000, .i32⟩ : BufTy).Contents (Elt F) → (⟨S1000000, .i32⟩ : BufTy).Contents (Elt F) → (⟨S1000000, .i1⟩ : BufTy).Contents (Elt F)),
    StableHlo.binary main_v149 main_v151 main_v152 (andi : (⟨S1000000, .i1⟩ : BufTy).Contents (Elt F) → (⟨S1000000, .i1⟩ : BufTy).Contents (Elt F) → (⟨S1000000, .i1⟩ : BufTy).Contents (Elt F)),
    StableHlo.nullary main_c_53 (constantI S_ 32 0#32),
    StableHlo.unary main_c_53 main_v153 (broadcastInDim S1000000 ![] bcast_S_S1000000 : (⟨S_, .i32⟩ : BufTy).Contents (Elt F) → (⟨S1000000, .i32⟩ : BufTy).Contents (Elt F)),
    StableHlo.binary main_v38 main_v153 main_v154 (cmpi .sge : (⟨S1000000, .i32⟩ : BufTy).Contents (Elt F) → (⟨S1000000, .i32⟩ : BufTy).Contents (Elt F) → (⟨S1000000, .i1⟩ : BufTy).Contents (Elt F)),
    StableHlo.binary main_v152 main_v154 main_v155 (andi : (⟨S1000000, .i1⟩ : BufTy).Contents (Elt F) → (⟨S1000000, .i1⟩ : BufTy).Contents (Elt F) → (⟨S1000000, .i1⟩ : BufTy).Contents (Elt F)),
    StableHlo.nullary main_c_54 (constantI S_ 32 256#32),
    StableHlo.unary main_c_54 main_v156 (broadcastInDim S1000000 ![] bcast_S_S1000000 : (⟨S_, .i32⟩ : BufTy).Contents (Elt F) → (⟨S1000000, .i32⟩ : BufTy).Contents (Elt F)),
    StableHlo.binary main_v38 main_v156 main_v157 (cmpi .slt : (⟨S1000000, .i32⟩ : BufTy).Contents (Elt F) → (⟨S1000000, .i32⟩ : BufTy).Contents (Elt F) → (⟨S1000000, .i1⟩ : BufTy).Contents (Elt F)),
    StableHlo.binary main_v155 main_v157 main_v158 (andi : (⟨S1000000, .i1⟩ : BufTy).Contents (Elt F) → (⟨S1000000, .i1⟩ : BufTy).Contents (Elt F) → (⟨S1000000, .i1⟩ : BufTy).Contents (Elt F)),
    StableHlo.nullary main_c_55 (constantI S_ 32 0#32),
    StableHlo.nullary main_c_56 (constantI S_ 32 255#32) ]
theorem main_part3_ops2_sub : (main_part3_ops2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part3_ops2_fresh : (main_part3_ops2 : List (HloOp τ sig (Elt F))).Forall fun op => op.fresh = ∅ := by
  simp only [List.Forall]; repeat' constructor
abbrev main_part3_ops3 : List (HloOp τ sig (Elt F)) :=
  [ StableHlo.TRef.unary (.of main_c_55 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S1000000, .i32⟩) (broadcastInDim S1000000 ![] bcast_S_S1000000),
    StableHlo.TRef.binary (.of main_call9_v1 : StableHlo.TRef sig ⟨S1000000, .i32⟩) (.of main_v36 : StableHlo.TRef sig ⟨S1000000, .i32⟩) (.of main_call9_v2 : StableHlo.TRef sig ⟨S1000000, .i32⟩) maxsi,
    StableHlo.TRef.unary (.of main_c_56 : StableHlo.TRef sig ⟨S_, .i32⟩) (.of main_call9_v3 : StableHlo.TRef sig ⟨S_, .i32⟩) id,
    StableHlo.TRef.unary (.of main_call9_v3 : StableHlo.TRef sig ⟨S_, .i32⟩) (.of main_call9_v4 : StableHlo.TRef sig ⟨S1000000, .i32⟩) (broadcastInDim S1000000 ![] bcast_S_S1000000),
    StableHlo.TRef.binary (.of main_call9_v4 : StableHlo.TRef sig ⟨S1000000, .i32⟩) (.of main_call9_v2 : StableHlo.TRef sig ⟨S1000000, .i32⟩) (.of main_v159 : StableHlo.TRef sig ⟨S1000000, .i32⟩) minsi ]
theorem main_part3_ops3_sub : (main_part3_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part3_ops3_fresh : (main_part3_ops3 : List (HloOp τ sig (Elt F))).Forall fun op => op.fresh = ∅ := by
  simp only [List.Forall]; repeat' constructor
abbrev main_part3_ops4 : List (HloOp τ sig (Elt F)) :=
  [ StableHlo.nullary main_c_57 (constantI S_ 32 0#32),
    StableHlo.nullary main_c_58 (constantI S_ 32 255#32) ]
theorem main_part3_ops4_sub : (main_part3_ops4 : List (HloOp τ sig (Elt F))).Forall fun op => op.bufs ⊆ StableHlo.tcRefs τ sig :=
  ⟨StableHlo.nullary_bufs_sub .., StableHlo.nullary_bufs_sub ..⟩
theorem main_part3_ops4_fresh : (main_part3_ops4 : List (HloOp τ sig (Elt F))).Forall fun op => op.fresh = ∅ := by
  simp only [List.Forall]; repeat' constructor
abbrev main_part3_ops5 : List (HloOp τ sig (Elt F)) :=
  [ StableHlo.TRef.unary (.of main_c_57 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S1000000, .i32⟩) (broadcastInDim S1000000 ![] bcast_S_S1000000),
    StableHlo.TRef.binary (.of main_call10_v1 : StableHlo.TRef sig ⟨S1000000, .i32⟩) (.of main_v38 : StableHlo.TRef sig ⟨S1000000, .i32⟩) (.of main_call10_v2 : StableHlo.TRef sig ⟨S1000000, .i32⟩) maxsi,
    StableHlo.TRef.unary (.of main_c_58 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S1000000, .i32⟩) (broadcastInDim S1000000 ![] bcast_S_S1000000),
    StableHlo.TRef.binary (.of main_call10_v4 : StableHlo.TRef sig ⟨S1000000, .i32⟩) (.of main_call10_v2 : StableHlo.TRef sig ⟨S1000000, .i32⟩) (.of main_v160 : StableHlo.TRef sig ⟨S1000000, .i32⟩) minsi ]
theorem main_part3_ops5_sub : (main_part3_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part3_ops5_fresh : (main_part3_ops5 : List (HloOp τ sig (Elt F))).Forall fun op => op.fresh = ∅ := by
  simp only [List.Forall]; repeat' constructor
abbrev main_part3_ops6 : List (HloOp τ sig (Elt F)) :=
  [ StableHlo.nullary main_c_59 (constantI S_ 32 0#32),
    StableHlo.unary main_c_59 main_v161 (broadcastInDim S1000000 ![] bcast_S_S1000000 : (⟨S_, .i32⟩ : BufTy).Contents (Elt F) → (⟨S1000000, .i32⟩ : BufTy).Contents (Elt F)),
    StableHlo.binary main_v159 main_v161 main_v162 (cmpi .slt : (⟨S1000000, .i32⟩ : BufTy).Contents (Elt F) → (⟨S1000000, .i32⟩ : BufTy).Contents (Elt F) → (⟨S1000000, .i1⟩ : BufTy).Contents (Elt F)),
    StableHlo.nullary main_c_60 (constantI S_ 32 256#32),
    StableHlo.unary main_c_60 main_v163 (broadcastInDim S1000000 ![] bcast_S_S1000000 : (⟨S_, .i32⟩ : BufTy).Contents (Elt F) → (⟨S1000000, .i32⟩ : BufTy).Contents (Elt F)),
    StableHlo.binary main_v159 main_v163 main_v164 (addi : (⟨S1000000, .i32⟩ : BufTy).Contents (Elt F) → (⟨S1000000, .i32⟩ : BufTy).Contents (Elt F) → (⟨S1000000, .i32⟩ : BufTy).Contents (Elt F)),
    StableHlo.ternary main_v162 main_v164 main_v159 main_v165 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_61 (constantI S_ 32 0#32),
    StableHlo.unary main_c_61 main_v166 (broadcastInDim S1000000 ![] bcast_S_S1000000 : (⟨S_, .i32⟩ : BufTy).Contents (Elt F) → (⟨S1000000, .i32⟩ : BufTy).Contents (Elt F)),
    StableHlo.binary main_v160 main_v166 main_v167 (cmpi .slt : (⟨S1000000, .i32⟩ : BufTy).Contents (Elt F) → (⟨S1000000, .i32⟩ : BufTy).Contents (Elt F) → (⟨S1000000, .i1⟩ : BufTy).Contents (Elt F)),
    StableHlo.nullary main_c_62 (constantI S_ 32 256#32),
    StableHlo.unary main_c_62 main_v168 (broadcastInDim S1000000 ![] bcast_S_S1000000 : (⟨S_, .i32⟩ : BufTy).Contents (Elt F) → (⟨S1000000, .i32⟩ : BufTy).Contents (Elt F)),
    StableHlo.binary main_v160 main_v168 main_v169 (addi : (⟨S1000000, .i32⟩ : BufTy).Contents (Elt F) → (⟨S1000000, .i32⟩ : BufTy).Contents (Elt F) → (⟨S1000000, .i32⟩ : BufTy).Contents (Elt F)),
    StableHlo.ternary main_v167 main_v169 main_v160 main_v170 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v165 main_v171 (broadcastInDim S1000000x1 ![0] bcast_S1000000_S1000000x1_0 : (⟨S1000000, .i32⟩ : BufTy).Contents (Elt F) → (⟨S1000000x1, .i32⟩ : BufTy).Contents (Elt F)),
    StableHlo.unary main_v170 main_v172 (broadcastInDim S1000000x1 ![0] bcast_S1000000_S1000000x1_0 : (⟨S1000000, .i32⟩ : BufTy).Contents (Elt F) → (⟨S1000000x1, .i32⟩ : BufTy).Contents (Elt F)),
    StableHlo.binary main_v171 main_v172 main_v173 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg1 main_v173 main_v174 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)) ]
theorem main_part3_ops6_sub : (main_part3_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
theorem main_part3_ops6_fresh : (main_part3_ops6 : List (HloOp τ sig (Elt F))).Forall fun op => op.fresh = ∅ := by
  simp only [List.Forall]; repeat' constructor
theorem main_part3_chain (c : Dev nD) : main_part3 (F := F) c = (Pipeline.chainK
  [ StableHlo.seq main_part3_ops0,
    StableHlo.seq main_part3_ops1,
    StableHlo.seq main_part3_ops2,
    StableHlo.seq main_part3_ops3,
    StableHlo.seq main_part3_ops4,
    StableHlo.seq main_part3_ops5 ]
  (StableHlo.seq main_part3_ops6) : Prog (TpuEff nD τ sig (Elt F) (Pipeline.Sig Λ₀ (Fin 0) fun p => (pcfgs (F := F) p).Adm) .tc) PUnit) := by
  chain_rfl

abbrev main_part4_ops0 : List (HloOp τ sig (Elt F)) :=
  [ StableHlo.unary main_v158 main_v175 (broadcastInDim S1x1000000 ![1] bcast_S1000000_S1x1000000_1 : (⟨S1000000, .i1⟩ : BufTy).Contents (Elt F) → (⟨S1x1000000, .i1⟩ : BufTy).Contents (Elt F)),
    StableHlo.nullary main_cst_63 (constant S_ .f32 0x00000000#32) ]
theorem main_part4_ops0_sub : (main_part4_ops0 : List (HloOp τ sig (Elt F))).Forall fun op => op.bufs ⊆ StableHlo.tcRefs τ sig :=
  ⟨StableHlo.unary_bufs_sub .., StableHlo.nullary_bufs_sub ..⟩
theorem main_part4_ops0_fresh : (main_part4_ops0 : List (HloOp τ sig (Elt F))).Forall fun op => op.fresh = ∅ := by
  simp only [List.Forall]; repeat' constructor
abbrev main_part4_ops1 : List (HloOp τ sig (Elt F)) :=
  [ StableHlo.TRef.unary (.of main_cst_63 : StableHlo.TRef sig ⟨S_, .f32⟩) (.of main_call11_v0 : StableHlo.TRef sig ⟨S_, .f32⟩) id,
    StableHlo.TRef.unary (.of main_v175 : StableHlo.TRef sig ⟨S1x1000000, .i1⟩) (.of main_call11_v1 : StableHlo.TRef sig ⟨S24x1000000, .i1⟩) (broadcastInDim S24x1000000 ![0, 1] bcast_S1x1000000_S24x1000000_0_1),
    StableHlo.TRef.unary (.of main_call11_v0 : StableHlo.TRef sig ⟨S_, .f32⟩) (.of main_call11_v2 : StableHlo.TRef sig ⟨S24x1000000, .f32⟩) (broadcastInDim S24x1000000 ![] bcast_S_S24x1000000),
    StableHlo.TRef.ternary (.of main_call11_v1 : StableHlo.TRef sig ⟨S24x1000000, .i1⟩) (.of main_v174 : StableHlo.TRef sig ⟨S24x1000000, .f32⟩) (.of main_call11_v2 : StableHlo.TRef sig ⟨S24x1000000, .f32⟩) (.of main_v176 : StableHlo.TRef sig ⟨S24x1000000, .f32⟩) select ]
theorem main_part4_ops1_sub : (main_part4_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part4_ops1_fresh : (main_part4_ops1 : List (HloOp τ sig (Elt F))).Forall fun op => op.fresh = ∅ := by
  simp only [List.Forall]; repeat' constructor
abbrev main_part4_ops2 : List (HloOp τ sig (Elt F)) :=
  ( StableHlo.binary main_v31 main_v32 main_v177 (mulf : (⟨S1000000, .f32⟩ : BufTy).Contents (Elt F) → (⟨S1000000, .f32⟩ : BufTy).Contents (Elt F) → (⟨S1000000, .f32⟩ : BufTy).Contents (Elt F))
  :: StableHlo.unary main_v177 main_v178 (broadcastInDim S1x1000000 ![1] bcast_S1000000_S1x1000000_1 : (⟨S1000000, .f32⟩ : BufTy).Contents (Elt F) → (⟨S1x1000000, .f32⟩ : BufTy).Contents (Elt F))
  :: StableHlo.unary main_v178 main_v179 (broadcastInDim S24x1000000 ![0, 1] bcast_S1x1000000_S24x1000000_0_1 : (⟨S1x1000000, .f32⟩ : BufTy).Contents (Elt F) → (⟨S24x1000000, .f32⟩ : BufTy).Contents (Elt F))
  :: StableHlo.binary main_v176 main_v179 main_v180 (mulf : (⟨S24x1000000, .f32⟩ : BufTy).Contents (Elt F) → (⟨S24x1000000, .f32⟩ : BufTy).Contents (Elt F) → (⟨S24x1000000, .f32⟩ : BufTy).Contents (Elt F))
  :: StableHlo.binary main_v147 main_v180 main_v181 (addf : (⟨S24x1000000, .f32⟩ : BufTy).Contents (Elt F) → (⟨S24x1000000, .f32⟩ : BufTy).Contents (Elt F) → (⟨S24x1000000, .f32⟩ : BufTy).Contents (Elt F))
  :: StableHlo.unary main_v181 main_v182 ((transpose S1000000x24 [1, 0] · transposes_S24x1000000_S1000000x24_1_0) : (⟨S24x1000000, .f32⟩ : BufTy).Contents (Elt F) → (⟨S1000000x24, .f32⟩ : BufTy).Contents (Elt F))
  :: StableHlo.nullary main_cst_64 (constant S_ .f32 0x3F800000#32)
  :: StableHlo.unary main_cst_64 main_v183 (broadcastInDim S1000000 ![] bcast_S_S1000000 : (⟨S_, .f32⟩ : BufTy).Contents (Elt F) → (⟨S1000000, .f32⟩ : BufTy).Contents (Elt F))
  :: StableHlo.binary main_v12 main_v183 main_v184 (addf : (⟨S1000000, .f32⟩ : BufTy).Contents (Elt F) → (⟨S1000000, .f32⟩ : BufTy).Contents (Elt F) → (⟨S1000000, .f32⟩ : BufTy).Contents (Elt F))
  :: StableHlo.nullary main_cst_65 (constant S_ .f32 0x3F000000#32)
  :: StableHlo.unary main_cst_65 main_v185 (broadcastInDim S1000000 ![] bcast_S_S1000000 : (⟨S_, .f32⟩ : BufTy).Contents (Elt F) → (⟨S1000000, .f32⟩ : BufTy).Contents (Elt F))
  :: StableHlo.binary main_v184 main_v185 main_v186 (mulf : (⟨S1000000, .f32⟩ : BufTy).Contents (Elt F) → (⟨S1000000, .f32⟩ : BufTy).Contents (Elt F) → (⟨S1000000, .f32⟩ : BufTy).Contents (Elt F))
  :: StableHlo.nullary main_cst_66 (constant S_ .f32 0x437F0000#32)
  :: StableHlo.unary main_cst_66 main_v187 (broadcastInDim S1000000 ![] bcast_S_S1000000 : (⟨S_, .f32⟩ : BufTy).Contents (Elt F) → (⟨S1000000, .f32⟩ : BufTy).Contents (Elt F))
  :: StableHlo.binary main_v186 main_v187 main_v188 (mulf : (⟨S1000000, .f32⟩ : BufTy).Contents (Elt F) → (⟨S1000000, .f32⟩ : BufTy).Contents (Elt F) → (⟨S1000000, .f32⟩ : BufTy).Contents (Elt F))
  :: StableHlo.nullary main_cst_67 (constant S_ .f32 0x3F800000#32)
  :: StableHlo.unary main_cst_67 main_v189 (broadcastInDim S1000000 ![] bcast_S_S1000000 : (⟨S_, .f32⟩ : BufTy).Contents (Elt F) → (⟨S1000000, .f32⟩ : BufTy).Contents (Elt F))
  :: StableHlo.binary main_v16 main_v189 main_v190 (addf : (⟨S1000000, .f32⟩ : BufTy).Contents (Elt F) → (⟨S1000000, .f32⟩ : BufTy).Contents (Elt F) → (⟨S1000000, .f32⟩ : BufTy).Contents (Elt F))
  :: StableHlo.nullary main_cst_68 (constant S_ .f32 0x3F000000#32)
  :: StableHlo.unary main_cst_68 main_v191 (broadcastInDim S1000000 ![] bcast_S_S1000000 : (⟨S_, .f32⟩ : BufTy).Contents (Elt F) → (⟨S1000000, .f32⟩ : BufTy).Contents (Elt F))
  :: StableHlo.binary main_v190 main_v191 main_v192 (mulf : (⟨S1000000, .f32⟩ : BufTy).Contents (Elt F) → (⟨S1000000, .f32⟩ : BufTy).Contents (Elt F) → (⟨S1000000, .f32⟩ : BufTy).Contents (Elt F))
  :: StableHlo.nullary main_cst_69 (constant S_ .f32 0x437F0000#32)
  :: StableHlo.unary main_cst_69 main_v193 (broadcastInDim S1000000 ![] bcast_S_S1000000 : (⟨S_, .f32⟩ : BufTy).Contents (Elt F) → (⟨S1000000, .f32⟩ : BufTy).Contents (Elt F))
  :: StableHlo.binary main_v192 main_v193 main_v194 (mulf : (⟨S1000000, .f32⟩ : BufTy).Contents (Elt F) → (⟨S1000000, .f32⟩ : BufTy).Contents (Elt F) → (⟨S1000000, .f32⟩ : BufTy).Contents (Elt F))
  :: StableHlo.unary main_v188 main_v195 (Host.floor : (⟨S1000000, .f32⟩ : BufTy).Contents (Elt F) → (⟨S1000000, .f32⟩ : BufTy).Contents (Elt F))
  :: StableHlo.unary main_v194 main_v196 (Host.floor : (⟨S1000000, .f32⟩ : BufTy).Contents (Elt F) → (⟨S1000000, .f32⟩ : BufTy).Contents (Elt F))
  :: StableHlo.binary main_v188 main_v195 main_v197 (subf : (⟨S1000000, .f32⟩ : BufTy).Contents (Elt F) → (⟨S1000000, .f32⟩ : BufTy).Contents (Elt F) → (⟨S1000000, .f32⟩ : BufTy).Contents (Elt F))
  :: StableHlo.binary main_v194 main_v196 main_v198 (subf : (⟨S1000000, .f32⟩ : BufTy).Contents (Elt F) → (⟨S1000000, .f32⟩ : BufTy).Contents (Elt F) → (⟨S1000000, .f32⟩ : BufTy).Contents (Elt F))
  :: StableHlo.unary main_v195 main_v199 (fptosi 32 : (⟨S1000000, .f32⟩ : BufTy).Contents (Elt F) → (⟨S1000000, .i32⟩ : BufTy).Contents (Elt F))
  :: StableHlo.unary main_v196 main_v200 (fptosi 32 : (⟨S1000000, .f32⟩ : BufTy).Contents (Elt F) → (⟨S1000000, .i32⟩ : BufTy).Contents (Elt F))
  :: StableHlo.nullary main_c_70 (constantI S_ 32 1#32)
  :: StableHlo.unary main_c_70 main_v201 (broadcastInDim S1000000 ![] bcast_S_S1000000 : (⟨S_, .i32⟩ : BufTy).Contents (Elt F) → (⟨S1000000, .i32⟩ : BufTy).Contents (Elt F))
  :: StableHlo.binary main_v199 main_v201 main_v202 (addi : (⟨S1000000, .i32⟩ : BufTy).Contents (Elt F) → (⟨S1000000, .i32⟩ : BufTy).Contents (Elt F) → (⟨S1000000, .i32⟩ : BufTy).Contents (Elt F))
  :: StableHlo.nullary main_c_71 (constantI S_ 32 1#32)
  :: StableHlo.unary main_c_71 main_v203 (broadcastInDim S1000000 ![] bcast_S_S1000000 : (⟨S_, .i32⟩ : BufTy).Contents (Elt F) → (⟨S1000000, .i32⟩ : BufTy).Contents (Elt F))
  :: StableHlo.binary main_v200 main_v203 main_v204 (addi : (⟨S1000000, .i32⟩ : BufTy).Contents (Elt F) → (⟨S1000000, .i32⟩ : BufTy).Contents (Elt F) → (⟨S1000000, .i32⟩ : BufTy).Contents (Elt F))
  :: StableHlo.nullary main_c_72 (constantI S_ 32 0#32)
  :: StableHlo.unary main_c_72 main_v205 (broadcastInDim S1000000 ![] bcast_S_S1000000 : (⟨S_, .i32⟩ : BufTy).Contents (Elt F) → (⟨S1000000, .i32⟩ : BufTy).Contents (Elt F))
  :: StableHlo.binary main_v199 main_v205 main_v206 (cmpi .sge : (⟨S1000000, .i32⟩ : BufTy).Contents (Elt F) → (⟨S1000000, .i32⟩ : BufTy).Contents (Elt F) → (⟨S1000000, .i1⟩ : BufTy).Contents (Elt F))
  :: StableHlo.nullary main_c_73 (constantI S_ 32 256#32)
  :: StableHlo.unary main_c_73 main_v207 (broadcastInDim S1000000 ![] bcast_S_S1000000 : (⟨S_, .i32⟩ : BufTy).Contents (Elt F) → (⟨S1000000, .i32⟩ : BufTy).Contents (Elt F))
  :: StableHlo.binary main_v199 main_v207 main_v208 (cmpi .slt : (⟨S1000000, .i32⟩ : BufTy).Contents (Elt F) → (⟨S1000000, .i32⟩ : BufTy).Contents (Elt F) → (⟨S1000000, .i1⟩ : BufTy).Contents (Elt F))
  :: StableHlo.binary main_v206 main_v208 main_v209 (andi : (⟨S1000000, .i1⟩ : BufTy).Contents (Elt F) → (⟨S1000000, .i1⟩ : BufTy).Contents (Elt F) → (⟨S1000000, .i1⟩ : BufTy).Contents (Elt F))
  :: StableHlo.nullary main_c_74 (constantI S_ 32 0#32)
  :: StableHlo.unary main_c_74 main_v210 (broadcastInDim S1000000 ![] bcast_S_S1000000 : (⟨S_, .i32⟩ : BufTy).Contents (Elt F) → (⟨S1000000, .i32⟩ : BufTy).Contents (Elt F))
  :: StableHlo.binary main_v200 main_v210 main_v211 (cmpi .sge : (⟨S1000000, .i32⟩ : BufTy).Contents (Elt F) → (⟨S1000000, .i32⟩ : BufTy).Contents (Elt F) → (⟨S1000000, .i1⟩ : BufTy).Contents (Elt F))
  :: StableHlo.binary main_v209 main_v211 main_v212 (andi : (⟨S1000000, .i1⟩ : BufTy).Contents (Elt F) → (⟨S1000000, .i1⟩ : BufTy).Contents (Elt F) → (⟨S1000000, .i1⟩ : BufTy).Contents (Elt F))
  :: StableHlo.nullary main_c_75 (constantI S_ 32 256#32)
  :: StableHlo.unary main_c_75 main_v213 (broadcastInDim S1000000 ![] bcast_S_S1000000 : (⟨S_, .i32⟩ : BufTy).Contents (Elt F) → (⟨S1000000, .i32⟩ : BufTy).Contents (Elt F))
  :: StableHlo.binary main_v200 main_v213 main_v214 (cmpi .slt : (⟨S1000000, .i32⟩ : BufTy).Contents (Elt F) → (⟨S1000000, .i32⟩ : BufTy).Contents (Elt F) → (⟨S1000000, .i1⟩ : BufTy).Contents (Elt F))
  :: StableHlo.binary main_v212 main_v214 main_v215 (andi : (⟨S1000000, .i1⟩ : BufTy).Contents (Elt F) → (⟨S1000000, .i1⟩ : BufTy).Contents (Elt F) → (⟨S1000000, .i1⟩ : BufTy).Contents (Elt F))
  :: StableHlo.nullary main_c_76 (constantI S_ 32 0#32)
  :: StableHlo.nullary main_c_77 (constantI S_ 32 255#32)
  :: [] )
theorem main_part4_ops2_sub : (main_part4_ops2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part4_ops2_fresh : (main_part4_ops2 : List (HloOp τ sig (Elt F))).Forall fun op => op.fresh = ∅ := by
  simp only [List.Forall]; repeat' constructor
abbrev main_part4_ops3 : List (HloOp τ sig (Elt F)) :=
  [ StableHlo.TRef.unary (.of main_c_76 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S1000000, .i32⟩) (broadcastInDim S1000000 ![] bcast_S_S1000000),
    StableHlo.TRef.binary (.of main_call12_v1 : StableHlo.TRef sig ⟨S1000000, .i32⟩) (.of main_v199 : StableHlo.TRef sig ⟨S1000000, .i32⟩) (.of main_call12_v2 : StableHlo.TRef sig ⟨S1000000, .i32⟩) maxsi,
    StableHlo.TRef.unary (.of main_c_77 : StableHlo.TRef sig ⟨S_, .i32⟩) (.of main_call12_v3 : StableHlo.TRef sig ⟨S_, .i32⟩) id,
    StableHlo.TRef.unary (.of main_call12_v3 : StableHlo.TRef sig ⟨S_, .i32⟩) (.of main_call12_v4 : StableHlo.TRef sig ⟨S1000000, .i32⟩) (broadcastInDim S1000000 ![] bcast_S_S1000000),
    StableHlo.TRef.binary (.of main_call12_v4 : StableHlo.TRef sig ⟨S1000000, .i32⟩) (.of main_call12_v2 : StableHlo.TRef sig ⟨S1000000, .i32⟩) (.of main_v216 : StableHlo.TRef sig ⟨S1000000, .i32⟩) minsi ]
theorem main_part4_ops3_sub : (main_part4_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part4_ops3_fresh : (main_part4_ops3 : List (HloOp τ sig (Elt F))).Forall fun op => op.fresh = ∅ := by
  simp only [List.Forall]; repeat' constructor
abbrev main_part4_ops4 : List (HloOp τ sig (Elt F)) :=
  [ StableHlo.nullary main_c_78 (constantI S_ 32 0#32),
    StableHlo.nullary main_c_79 (constantI S_ 32 255#32) ]
theorem main_part4_ops4_sub : (main_part4_ops4 : List (HloOp τ sig (Elt F))).Forall fun op => op.bufs ⊆ StableHlo.tcRefs τ sig :=
  ⟨StableHlo.nullary_bufs_sub .., StableHlo.nullary_bufs_sub ..⟩
theorem main_part4_ops4_fresh : (main_part4_ops4 : List (HloOp τ sig (Elt F))).Forall fun op => op.fresh = ∅ := by
  simp only [List.Forall]; repeat' constructor
abbrev main_part4_ops5 : List (HloOp τ sig (Elt F)) :=
  [ StableHlo.TRef.unary (.of main_c_78 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S1000000, .i32⟩) (broadcastInDim S1000000 ![] bcast_S_S1000000),
    StableHlo.TRef.binary (.of main_call13_v1 : StableHlo.TRef sig ⟨S1000000, .i32⟩) (.of main_v200 : StableHlo.TRef sig ⟨S1000000, .i32⟩) (.of main_call13_v2 : StableHlo.TRef sig ⟨S1000000, .i32⟩) maxsi,
    StableHlo.TRef.unary (.of main_c_79 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S1000000, .i32⟩) (broadcastInDim S1000000 ![] bcast_S_S1000000),
    StableHlo.TRef.binary (.of main_call13_v4 : StableHlo.TRef sig ⟨S1000000, .i32⟩) (.of main_call13_v2 : StableHlo.TRef sig ⟨S1000000, .i32⟩) (.of main_v217 : StableHlo.TRef sig ⟨S1000000, .i32⟩) minsi ]
theorem main_part4_ops5_sub : (main_part4_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part4_ops5_fresh : (main_part4_ops5 : List (HloOp τ sig (Elt F))).Forall fun op => op.fresh = ∅ := by
  simp only [List.Forall]; repeat' constructor
theorem main_part4_chain (c : Dev nD) : main_part4 (F := F) c = (Pipeline.chainK
  [ StableHlo.seq main_part4_ops0,
    StableHlo.seq main_part4_ops1,
    StableHlo.seq main_part4_ops2,
    StableHlo.seq main_part4_ops3,
    StableHlo.seq main_part4_ops4 ]
  (StableHlo.seq main_part4_ops5) : Prog (TpuEff nD τ sig (Elt F) (Pipeline.Sig Λ₀ (Fin 0) fun p => (pcfgs (F := F) p).Adm) .tc) PUnit) := by
  chain_rfl

abbrev main_part5_ops0 : List (HloOp τ sig (Elt F)) :=
  [ StableHlo.nullary main_c_80 (constantI S_ 32 0#32),
    StableHlo.unary main_c_80 main_v218 (broadcastInDim S1000000 ![] bcast_S_S1000000 : (⟨S_, .i32⟩ : BufTy).Contents (Elt F) → (⟨S1000000, .i32⟩ : BufTy).Contents (Elt F)),
    StableHlo.binary main_v216 main_v218 main_v219 (cmpi .slt : (⟨S1000000, .i32⟩ : BufTy).Contents (Elt F) → (⟨S1000000, .i32⟩ : BufTy).Contents (Elt F) → (⟨S1000000, .i1⟩ : BufTy).Contents (Elt F)),
    StableHlo.nullary main_c_81 (constantI S_ 32 256#32),
    StableHlo.unary main_c_81 main_v220 (broadcastInDim S1000000 ![] bcast_S_S1000000 : (⟨S_, .i32⟩ : BufTy).Contents (Elt F) → (⟨S1000000, .i32⟩ : BufTy).Contents (Elt F)),
    StableHlo.binary main_v216 main_v220 main_v221 (addi : (⟨S1000000, .i32⟩ : BufTy).Contents (Elt F) → (⟨S1000000, .i32⟩ : BufTy).Contents (Elt F) → (⟨S1000000, .i32⟩ : BufTy).Contents (Elt F)),
    StableHlo.ternary main_v219 main_v221 main_v216 main_v222 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_82 (constantI S_ 32 0#32),
    StableHlo.unary main_c_82 main_v223 (broadcastInDim S1000000 ![] bcast_S_S1000000 : (⟨S_, .i32⟩ : BufTy).Contents (Elt F) → (⟨S1000000, .i32⟩ : BufTy).Contents (Elt F)),
    StableHlo.binary main_v217 main_v223 main_v224 (cmpi .slt : (⟨S1000000, .i32⟩ : BufTy).Contents (Elt F) → (⟨S1000000, .i32⟩ : BufTy).Contents (Elt F) → (⟨S1000000, .i1⟩ : BufTy).Contents (Elt F)),
    StableHlo.nullary main_c_83 (constantI S_ 32 256#32),
    StableHlo.unary main_c_83 main_v225 (broadcastInDim S1000000 ![] bcast_S_S1000000 : (⟨S_, .i32⟩ : BufTy).Contents (Elt F) → (⟨S1000000, .i32⟩ : BufTy).Contents (Elt F)),
    StableHlo.binary main_v217 main_v225 main_v226 (addi : (⟨S1000000, .i32⟩ : BufTy).Contents (Elt F) → (⟨S1000000, .i32⟩ : BufTy).Contents (Elt F) → (⟨S1000000, .i32⟩ : BufTy).Contents (Elt F)),
    StableHlo.ternary main_v224 main_v226 main_v217 main_v227 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v222 main_v228 (broadcastInDim S1000000x1 ![0] bcast_S1000000_S1000000x1_0 : (⟨S1000000, .i32⟩ : BufTy).Contents (Elt F) → (⟨S1000000x1, .i32⟩ : BufTy).Contents (Elt F)),
    StableHlo.unary main_v227 main_v229 (broadcastInDim S1000000x1 ![0] bcast_S1000000_S1000000x1_0 : (⟨S1000000, .i32⟩ : BufTy).Contents (Elt F) → (⟨S1000000x1, .i32⟩ : BufTy).Contents (Elt F)),
    StableHlo.binary main_v228 main_v229 main_v230 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg2 main_v230 main_v231 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v215 main_v232 (broadcastInDim S1x1000000 ![1] bcast_S1000000_S1x1000000_1 : (⟨S1000000, .i1⟩ : BufTy).Contents (Elt F) → (⟨S1x1000000, .i1⟩ : BufTy).Contents (Elt F)),
    StableHlo.nullary main_cst_84 (constant S_ .f32 0x00000000#32) ]
theorem main_part5_ops0_sub : (main_part5_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part5_ops0_fresh : (main_part5_ops0 : List (HloOp τ sig (Elt F))).Forall fun op => op.fresh = ∅ := by
  simp only [List.Forall]; repeat' constructor
abbrev main_part5_ops1 : List (HloOp τ sig (Elt F)) :=
  [ StableHlo.TRef.unary (.of main_cst_84 : StableHlo.TRef sig ⟨S_, .f32⟩) (.of main_call14_v0 : StableHlo.TRef sig ⟨S_, .f32⟩) id,
    StableHlo.TRef.unary (.of main_v232 : StableHlo.TRef sig ⟨S1x1000000, .i1⟩) (.of main_call14_v1 : StableHlo.TRef sig ⟨S24x1000000, .i1⟩) (broadcastInDim S24x1000000 ![0, 1] bcast_S1x1000000_S24x1000000_0_1),
    StableHlo.TRef.unary (.of main_call14_v0 : StableHlo.TRef sig ⟨S_, .f32⟩) (.of main_call14_v2 : StableHlo.TRef sig ⟨S24x1000000, .f32⟩) (broadcastInDim S24x1000000 ![] bcast_S_S24x1000000),
    StableHlo.TRef.ternary (.of main_call14_v1 : StableHlo.TRef sig ⟨S24x1000000, .i1⟩) (.of main_v231 : StableHlo.TRef sig ⟨S24x1000000, .f32⟩) (.of main_call14_v2 : StableHlo.TRef sig ⟨S24x1000000, .f32⟩) (.of main_v233 : StableHlo.TRef sig ⟨S24x1000000, .f32⟩) select ]
theorem main_part5_ops1_sub : (main_part5_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part5_ops1_fresh : (main_part5_ops1 : List (HloOp τ sig (Elt F))).Forall fun op => op.fresh = ∅ := by
  simp only [List.Forall]; repeat' constructor
abbrev main_part5_ops2 : List (HloOp τ sig (Elt F)) :=
  [ StableHlo.nullary main_cst_85 (constant S_ .f32 0x3F800000#32),
    StableHlo.unary main_cst_85 main_v234 (broadcastInDim S1000000 ![] bcast_S_S1000000 : (⟨S_, .f32⟩ : BufTy).Contents (Elt F) → (⟨S1000000, .f32⟩ : BufTy).Contents (Elt F)),
    StableHlo.binary main_v234 main_v197 main_v235 (subf : (⟨S1000000, .f32⟩ : BufTy).Contents (Elt F) → (⟨S1000000, .f32⟩ : BufTy).Contents (Elt F) → (⟨S1000000, .f32⟩ : BufTy).Contents (Elt F)),
    StableHlo.nullary main_cst_86 (constant S_ .f32 0x3F800000#32),
    StableHlo.unary main_cst_86 main_v236 (broadcastInDim S1000000 ![] bcast_S_S1000000 : (⟨S_, .f32⟩ : BufTy).Contents (Elt F) → (⟨S1000000, .f32⟩ : BufTy).Contents (Elt F)),
    StableHlo.binary main_v236 main_v198 main_v237 (subf : (⟨S1000000, .f32⟩ : BufTy).Contents (Elt F) → (⟨S1000000, .f32⟩ : BufTy).Contents (Elt F) → (⟨S1000000, .f32⟩ : BufTy).Contents (Elt F)),
    StableHlo.binary main_v235 main_v237 main_v238 (mulf : (⟨S1000000, .f32⟩ : BufTy).Contents (Elt F) → (⟨S1000000, .f32⟩ : BufTy).Contents (Elt F) → (⟨S1000000, .f32⟩ : BufTy).Contents (Elt F)),
    StableHlo.unary main_v238 main_v239 (broadcastInDim S1x1000000 ![1] bcast_S1000000_S1x1000000_1 : (⟨S1000000, .f32⟩ : BufTy).Contents (Elt F) → (⟨S1x1000000, .f32⟩ : BufTy).Contents (Elt F)),
    StableHlo.unary main_v239 main_v240 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v233 main_v240 main_v241 (mulf : (⟨S24x1000000, .f32⟩ : BufTy).Contents (Elt F) → (⟨S24x1000000, .f32⟩ : BufTy).Contents (Elt F) → (⟨S24x1000000, .f32⟩ : BufTy).Contents (Elt F)),
    StableHlo.nullary main_c_87 (constantI S_ 32 0#32),
    StableHlo.unary main_c_87 main_v242 (broadcastInDim S1000000 ![] bcast_S_S1000000 : (⟨S_, .i32⟩ : BufTy).Contents (Elt F) → (⟨S1000000, .i32⟩ : BufTy).Contents (Elt F)),
    StableHlo.binary main_v199 main_v242 main_v243 (cmpi .sge : (⟨S1000000, .i32⟩ : BufTy).Contents (Elt F) → (⟨S1000000, .i32⟩ : BufTy).Contents (Elt F) → (⟨S1000000, .i1⟩ : BufTy).Contents (Elt F)),
    StableHlo.nullary main_c_88 (constantI S_ 32 256#32),
    StableHlo.unary main_c_88 main_v244 (broadcastInDim S1000000 ![] bcast_S_S1000000 : (⟨S_, .i32⟩ : BufTy).Contents (Elt F) → (⟨S1000000, .i32⟩ : BufTy).Contents (Elt F)),
    StableHlo.binary main_v199 main_v244 main_v245 (cmpi .slt : (⟨S1000000, .i32⟩ : BufTy).Contents (Elt F) → (⟨S1000000, .i32⟩ : BufTy).Contents (Elt F) → (⟨S1000000, .i1⟩ : BufTy).Contents (Elt F)),
    StableHlo.binary main_v243 main_v245 main_v246 (andi : (⟨S1000000, .i1⟩ : BufTy).Contents (Elt F) → (⟨S1000000, .i1⟩ : BufTy).Contents (Elt F) → (⟨S1000000, .i1⟩ : BufTy).Contents (Elt F)),
    StableHlo.nullary main_c_89 (constantI S_ 32 0#32),
    StableHlo.unary main_c_89 main_v247 (broadcastInDim S1000000 ![] bcast_S_S1000000 : (⟨S_, .i32⟩ : BufTy).Contents (Elt F) → (⟨S1000000, .i32⟩ : BufTy).Contents (Elt F)),
    StableHlo.binary main_v204 main_v247 main_v248 (cmpi .sge : (⟨S1000000, .i32⟩ : BufTy).Contents (Elt F) → (⟨S1000000, .i32⟩ : BufTy).Contents (Elt F) → (⟨S1000000, .i1⟩ : BufTy).Contents (Elt F)),
    StableHlo.binary main_v246 main_v248 main_v249 (andi : (⟨S1000000, .i1⟩ : BufTy).Contents (Elt F) → (⟨S1000000, .i1⟩ : BufTy).Contents (Elt F) → (⟨S1000000, .i1⟩ : BufTy).Contents (Elt F)),
    StableHlo.nullary main_c_90 (constantI S_ 32 256#32),
    StableHlo.unary main_c_90 main_v250 (broadcastInDim S1000000 ![] bcast_S_S1000000 : (⟨S_, .i32⟩ : BufTy).Contents (Elt F) → (⟨S1000000, .i32⟩ : BufTy).Contents (Elt F)),
    StableHlo.binary main_v204 main_v250 main_v251 (cmpi .slt : (⟨S1000000, .i32⟩ : BufTy).Contents (Elt F) → (⟨S1000000, .i32⟩ : BufTy).Contents (Elt F) → (⟨S1000000, .i1⟩ : BufTy).Contents (Elt F)),
    StableHlo.binary main_v249 main_v251 main_v252 (andi : (⟨S1000000, .i1⟩ : BufTy).Contents (Elt F) → (⟨S1000000, .i1⟩ : BufTy).Contents (Elt F) → (⟨S1000000, .i1⟩ : BufTy).Contents (Elt F)),
    StableHlo.nullary main_c_91 (constantI S_ 32 0#32),
    StableHlo.nullary main_c_92 (constantI S_ 32 255#32) ]
theorem main_part5_ops2_sub : (main_part5_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part5_ops2_fresh : (main_part5_ops2 : List (HloOp τ sig (Elt F))).Forall fun op => op.fresh = ∅ := by
  simp only [List.Forall]; repeat' constructor
abbrev main_part5_ops3 : List (HloOp τ sig (Elt F)) :=
  [ StableHlo.TRef.unary (.of main_c_91 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S1000000, .i32⟩) (broadcastInDim S1000000 ![] bcast_S_S1000000),
    StableHlo.TRef.binary (.of main_call15_v1 : StableHlo.TRef sig ⟨S1000000, .i32⟩) (.of main_v199 : StableHlo.TRef sig ⟨S1000000, .i32⟩) (.of main_call15_v2 : StableHlo.TRef sig ⟨S1000000, .i32⟩) maxsi,
    StableHlo.TRef.unary (.of main_c_92 : StableHlo.TRef sig ⟨S_, .i32⟩) (.of main_call15_v3 : StableHlo.TRef sig ⟨S_, .i32⟩) id,
    StableHlo.TRef.unary (.of main_call15_v3 : StableHlo.TRef sig ⟨S_, .i32⟩) (.of main_call15_v4 : StableHlo.TRef sig ⟨S1000000, .i32⟩) (broadcastInDim S1000000 ![] bcast_S_S1000000),
    StableHlo.TRef.binary (.of main_call15_v4 : StableHlo.TRef sig ⟨S1000000, .i32⟩) (.of main_call15_v2 : StableHlo.TRef sig ⟨S1000000, .i32⟩) (.of main_v253 : StableHlo.TRef sig ⟨S1000000, .i32⟩) minsi ]
theorem main_part5_ops3_sub : (main_part5_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part5_ops3_fresh : (main_part5_ops3 : List (HloOp τ sig (Elt F))).Forall fun op => op.fresh = ∅ := by
  simp only [List.Forall]; repeat' constructor
abbrev main_part5_ops4 : List (HloOp τ sig (Elt F)) :=
  [ StableHlo.nullary main_c_93 (constantI S_ 32 0#32),
    StableHlo.nullary main_c_94 (constantI S_ 32 255#32) ]
theorem main_part5_ops4_sub : (main_part5_ops4 : List (HloOp τ sig (Elt F))).Forall fun op => op.bufs ⊆ StableHlo.tcRefs τ sig :=
  ⟨StableHlo.nullary_bufs_sub .., StableHlo.nullary_bufs_sub ..⟩
theorem main_part5_ops4_fresh : (main_part5_ops4 : List (HloOp τ sig (Elt F))).Forall fun op => op.fresh = ∅ := by
  simp only [List.Forall]; repeat' constructor
abbrev main_part5_ops5 : List (HloOp τ sig (Elt F)) :=
  [ StableHlo.TRef.unary (.of main_c_93 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S1000000, .i32⟩) (broadcastInDim S1000000 ![] bcast_S_S1000000),
    StableHlo.TRef.binary (.of main_call16_v1 : StableHlo.TRef sig ⟨S1000000, .i32⟩) (.of main_v204 : StableHlo.TRef sig ⟨S1000000, .i32⟩) (.of main_call16_v2 : StableHlo.TRef sig ⟨S1000000, .i32⟩) maxsi,
    StableHlo.TRef.unary (.of main_c_94 : StableHlo.TRef sig ⟨S_, .i32⟩) (.of main_call16_v3 : StableHlo.TRef sig ⟨S_, .i32⟩) id,
    StableHlo.TRef.unary (.of main_call16_v3 : StableHlo.TRef sig ⟨S_, .i32⟩) (.of main_call16_v4 : StableHlo.TRef sig ⟨S1000000, .i32⟩) (broadcastInDim S1000000 ![] bcast_S_S1000000),
    StableHlo.TRef.binary (.of main_call16_v4 : StableHlo.TRef sig ⟨S1000000, .i32⟩) (.of main_call16_v2 : StableHlo.TRef sig ⟨S1000000, .i32⟩) (.of main_v254 : StableHlo.TRef sig ⟨S1000000, .i32⟩) minsi ]
theorem main_part5_ops5_sub : (main_part5_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part5_ops5_fresh : (main_part5_ops5 : List (HloOp τ sig (Elt F))).Forall fun op => op.fresh = ∅ := by
  simp only [List.Forall]; repeat' constructor
abbrev main_part5_ops6 : List (HloOp τ sig (Elt F)) :=
  [ StableHlo.nullary main_c_95 (constantI S_ 32 0#32),
    StableHlo.unary main_c_95 main_v255 (broadcastInDim S1000000 ![] bcast_S_S1000000 : (⟨S_, .i32⟩ : BufTy).Contents (Elt F) → (⟨S1000000, .i32⟩ : BufTy).Contents (Elt F)),
    StableHlo.binary main_v253 main_v255 main_v256 (cmpi .slt : (⟨S1000000, .i32⟩ : BufTy).Contents (Elt F) → (⟨S1000000, .i32⟩ : BufTy).Contents (Elt F) → (⟨S1000000, .i1⟩ : BufTy).Contents (Elt F)),
    StableHlo.nullary main_c_96 (constantI S_ 32 256#32),
    StableHlo.unary main_c_96 main_v257 (broadcastInDim S1000000 ![] bcast_S_S1000000 : (⟨S_, .i32⟩ : BufTy).Contents (Elt F) → (⟨S1000000, .i32⟩ : BufTy).Contents (Elt F)),
    StableHlo.binary main_v253 main_v257 main_v258 (addi : (⟨S1000000, .i32⟩ : BufTy).Contents (Elt F) → (⟨S1000000, .i32⟩ : BufTy).Contents (Elt F) → (⟨S1000000, .i32⟩ : BufTy).Contents (Elt F)),
    StableHlo.ternary main_v256 main_v258 main_v253 main_v259 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_97 (constantI S_ 32 0#32) ]
theorem main_part5_ops6_sub : (main_part5_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩
theorem main_part5_ops6_fresh : (main_part5_ops6 : List (HloOp τ sig (Elt F))).Forall fun op => op.fresh = ∅ := by
  simp only [List.Forall]; repeat' constructor
theorem main_part5_chain (c : Dev nD) : main_part5 (F := F) c = (Pipeline.chainK
  [ StableHlo.seq main_part5_ops0,
    StableHlo.seq main_part5_ops1,
    StableHlo.seq main_part5_ops2,
    StableHlo.seq main_part5_ops3,
    StableHlo.seq main_part5_ops4,
    StableHlo.seq main_part5_ops5 ]
  (StableHlo.seq main_part5_ops6) : Prog (TpuEff nD τ sig (Elt F) (Pipeline.Sig Λ₀ (Fin 0) fun p => (pcfgs (F := F) p).Adm) .tc) PUnit) := by
  chain_rfl

abbrev main_part6_ops0 : List (HloOp τ sig (Elt F)) :=
  [ StableHlo.unary main_c_97 main_v260 (broadcastInDim S1000000 ![] bcast_S_S1000000 : (⟨S_, .i32⟩ : BufTy).Contents (Elt F) → (⟨S1000000, .i32⟩ : BufTy).Contents (Elt F)),
    StableHlo.binary main_v254 main_v260 main_v261 (cmpi .slt : (⟨S1000000, .i32⟩ : BufTy).Contents (Elt F) → (⟨S1000000, .i32⟩ : BufTy).Contents (Elt F) → (⟨S1000000, .i1⟩ : BufTy).Contents (Elt F)),
    StableHlo.nullary main_c_98 (constantI S_ 32 256#32),
    StableHlo.unary main_c_98 main_v262 (broadcastInDim S1000000 ![] bcast_S_S1000000 : (⟨S_, .i32⟩ : BufTy).Contents (Elt F) → (⟨S1000000, .i32⟩ : BufTy).Contents (Elt F)),
    StableHlo.binary main_v254 main_v262 main_v263 (addi : (⟨S1000000, .i32⟩ : BufTy).Contents (Elt F) → (⟨S1000000, .i32⟩ : BufTy).Contents (Elt F) → (⟨S1000000, .i32⟩ : BufTy).Contents (Elt F)),
    StableHlo.ternary main_v261 main_v263 main_v254 main_v264 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v259 main_v265 (broadcastInDim S1000000x1 ![0] bcast_S1000000_S1000000x1_0 : (⟨S1000000, .i32⟩ : BufTy).Contents (Elt F) → (⟨S1000000x1, .i32⟩ : BufTy).Contents (Elt F)),
    StableHlo.unary main_v264 main_v266 (broadcastInDim S1000000x1 ![0] bcast_S1000000_S1000000x1_0 : (⟨S1000000, .i32⟩ : BufTy).Contents (Elt F) → (⟨S1000000x1, .i32⟩ : BufTy).Contents (Elt F)),
    StableHlo.binary main_v265 main_v266 main_v267 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg2 main_v267 main_v268 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v252 main_v269 (broadcastInDim S1x1000000 ![1] bcast_S1000000_S1x1000000_1 : (⟨S1000000, .i1⟩ : BufTy).Contents (Elt F) → (⟨S1x1000000, .i1⟩ : BufTy).Contents (Elt F)),
    StableHlo.nullary main_cst_99 (constant S_ .f32 0x00000000#32) ]
theorem main_part6_ops0_sub : (main_part6_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part6_ops0_fresh : (main_part6_ops0 : List (HloOp τ sig (Elt F))).Forall fun op => op.fresh = ∅ := by
  simp only [List.Forall]; repeat' constructor
abbrev main_part6_ops1 : List (HloOp τ sig (Elt F)) :=
  [ StableHlo.TRef.unary (.of main_cst_99 : StableHlo.TRef sig ⟨S_, .f32⟩) (.of main_call17_v0 : StableHlo.TRef sig ⟨S_, .f32⟩) id,
    StableHlo.TRef.unary (.of main_v269 : StableHlo.TRef sig ⟨S1x1000000, .i1⟩) (.of main_call17_v1 : StableHlo.TRef sig ⟨S24x1000000, .i1⟩) (broadcastInDim S24x1000000 ![0, 1] bcast_S1x1000000_S24x1000000_0_1),
    StableHlo.TRef.unary (.of main_call17_v0 : StableHlo.TRef sig ⟨S_, .f32⟩) (.of main_call17_v2 : StableHlo.TRef sig ⟨S24x1000000, .f32⟩) (broadcastInDim S24x1000000 ![] bcast_S_S24x1000000),
    StableHlo.TRef.ternary (.of main_call17_v1 : StableHlo.TRef sig ⟨S24x1000000, .i1⟩) (.of main_v268 : StableHlo.TRef sig ⟨S24x1000000, .f32⟩) (.of main_call17_v2 : StableHlo.TRef sig ⟨S24x1000000, .f32⟩) (.of main_v270 : StableHlo.TRef sig ⟨S24x1000000, .f32⟩) select ]
theorem main_part6_ops1_sub : (main_part6_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part6_ops1_fresh : (main_part6_ops1 : List (HloOp τ sig (Elt F))).Forall fun op => op.fresh = ∅ := by
  simp only [List.Forall]; repeat' constructor
abbrev main_part6_ops2 : List (HloOp τ sig (Elt F)) :=
  [ StableHlo.nullary main_cst_100 (constant S_ .f32 0x3F800000#32),
    StableHlo.unary main_cst_100 main_v271 (broadcastInDim S1000000 ![] bcast_S_S1000000 : (⟨S_, .f32⟩ : BufTy).Contents (Elt F) → (⟨S1000000, .f32⟩ : BufTy).Contents (Elt F)),
    StableHlo.binary main_v271 main_v197 main_v272 (subf : (⟨S1000000, .f32⟩ : BufTy).Contents (Elt F) → (⟨S1000000, .f32⟩ : BufTy).Contents (Elt F) → (⟨S1000000, .f32⟩ : BufTy).Contents (Elt F)),
    StableHlo.binary main_v272 main_v198 main_v273 (mulf : (⟨S1000000, .f32⟩ : BufTy).Contents (Elt F) → (⟨S1000000, .f32⟩ : BufTy).Contents (Elt F) → (⟨S1000000, .f32⟩ : BufTy).Contents (Elt F)),
    StableHlo.unary main_v273 main_v274 (broadcastInDim S1x1000000 ![1] bcast_S1000000_S1x1000000_1 : (⟨S1000000, .f32⟩ : BufTy).Contents (Elt F) → (⟨S1x1000000, .f32⟩ : BufTy).Contents (Elt F)),
    StableHlo.unary main_v274 main_v275 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v270 main_v275 main_v276 (mulf : (⟨S24x1000000, .f32⟩ : BufTy).Contents (Elt F) → (⟨S24x1000000, .f32⟩ : BufTy).Contents (Elt F) → (⟨S24x1000000, .f32⟩ : BufTy).Contents (Elt F)),
    StableHlo.binary main_v241 main_v276 main_v277 (addf : (⟨S24x1000000, .f32⟩ : BufTy).Contents (Elt F) → (⟨S24x1000000, .f32⟩ : BufTy).Contents (Elt F) → (⟨S24x1000000, .f32⟩ : BufTy).Contents (Elt F)),
    StableHlo.nullary main_c_101 (constantI S_ 32 0#32),
    StableHlo.unary main_c_101 main_v278 (broadcastInDim S1000000 ![] bcast_S_S1000000 : (⟨S_, .i32⟩ : BufTy).Contents (Elt F) → (⟨S1000000, .i32⟩ : BufTy).Contents (Elt F)),
    StableHlo.binary main_v202 main_v278 main_v279 (cmpi .sge : (⟨S1000000, .i32⟩ : BufTy).Contents (Elt F) → (⟨S1000000, .i32⟩ : BufTy).Contents (Elt F) → (⟨S1000000, .i1⟩ : BufTy).Contents (Elt F)),
    StableHlo.nullary main_c_102 (constantI S_ 32 256#32),
    StableHlo.unary main_c_102 main_v280 (broadcastInDim S1000000 ![] bcast_S_S1000000 : (⟨S_, .i32⟩ : BufTy).Contents (Elt F) → (⟨S1000000, .i32⟩ : BufTy).Contents (Elt F)),
    StableHlo.binary main_v202 main_v280 main_v281 (cmpi .slt : (⟨S1000000, .i32⟩ : BufTy).Contents (Elt F) → (⟨S1000000, .i32⟩ : BufTy).Contents (Elt F) → (⟨S1000000, .i1⟩ : BufTy).Contents (Elt F)),
    StableHlo.binary main_v279 main_v281 main_v282 (andi : (⟨S1000000, .i1⟩ : BufTy).Contents (Elt F) → (⟨S1000000, .i1⟩ : BufTy).Contents (Elt F) → (⟨S1000000, .i1⟩ : BufTy).Contents (Elt F)),
    StableHlo.nullary main_c_103 (constantI S_ 32 0#32),
    StableHlo.unary main_c_103 main_v283 (broadcastInDim S1000000 ![] bcast_S_S1000000 : (⟨S_, .i32⟩ : BufTy).Contents (Elt F) → (⟨S1000000, .i32⟩ : BufTy).Contents (Elt F)),
    StableHlo.binary main_v200 main_v283 main_v284 (cmpi .sge : (⟨S1000000, .i32⟩ : BufTy).Contents (Elt F) → (⟨S1000000, .i32⟩ : BufTy).Contents (Elt F) → (⟨S1000000, .i1⟩ : BufTy).Contents (Elt F)),
    StableHlo.binary main_v282 main_v284 main_v285 (andi : (⟨S1000000, .i1⟩ : BufTy).Contents (Elt F) → (⟨S1000000, .i1⟩ : BufTy).Contents (Elt F) → (⟨S1000000, .i1⟩ : BufTy).Contents (Elt F)),
    StableHlo.nullary main_c_104 (constantI S_ 32 256#32),
    StableHlo.unary main_c_104 main_v286 (broadcastInDim S1000000 ![] bcast_S_S1000000 : (⟨S_, .i32⟩ : BufTy).Contents (Elt F) → (⟨S1000000, .i32⟩ : BufTy).Contents (Elt F)),
    StableHlo.binary main_v200 main_v286 main_v287 (cmpi .slt : (⟨S1000000, .i32⟩ : BufTy).Contents (Elt F) → (⟨S1000000, .i32⟩ : BufTy).Contents (Elt F) → (⟨S1000000, .i1⟩ : BufTy).Contents (Elt F)),
    StableHlo.binary main_v285 main_v287 main_v288 (andi : (⟨S1000000, .i1⟩ : BufTy).Contents (Elt F) → (⟨S1000000, .i1⟩ : BufTy).Contents (Elt F) → (⟨S1000000, .i1⟩ : BufTy).Contents (Elt F)),
    StableHlo.nullary main_c_105 (constantI S_ 32 0#32),
    StableHlo.nullary main_c_106 (constantI S_ 32 255#32) ]
theorem main_part6_ops2_sub : (main_part6_ops2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part6_ops2_fresh : (main_part6_ops2 : List (HloOp τ sig (Elt F))).Forall fun op => op.fresh = ∅ := by
  simp only [List.Forall]; repeat' constructor
abbrev main_part6_ops3 : List (HloOp τ sig (Elt F)) :=
  [ StableHlo.TRef.unary (.of main_c_105 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S1000000, .i32⟩) (broadcastInDim S1000000 ![] bcast_S_S1000000),
    StableHlo.TRef.binary (.of main_call18_v1 : StableHlo.TRef sig ⟨S1000000, .i32⟩) (.of main_v202 : StableHlo.TRef sig ⟨S1000000, .i32⟩) (.of main_call18_v2 : StableHlo.TRef sig ⟨S1000000, .i32⟩) maxsi,
    StableHlo.TRef.unary (.of main_c_106 : StableHlo.TRef sig ⟨S_, .i32⟩) (.of main_call18_v3 : StableHlo.TRef sig ⟨S_, .i32⟩) id,
    StableHlo.TRef.unary (.of main_call18_v3 : StableHlo.TRef sig ⟨S_, .i32⟩) (.of main_call18_v4 : StableHlo.TRef sig ⟨S1000000, .i32⟩) (broadcastInDim S1000000 ![] bcast_S_S1000000),
    StableHlo.TRef.binary (.of main_call18_v4 : StableHlo.TRef sig ⟨S1000000, .i32⟩) (.of main_call18_v2 : StableHlo.TRef sig ⟨S1000000, .i32⟩) (.of main_v289 : StableHlo.TRef sig ⟨S1000000, .i32⟩) minsi ]
theorem main_part6_ops3_sub : (main_part6_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part6_ops3_fresh : (main_part6_ops3 : List (HloOp τ sig (Elt F))).Forall fun op => op.fresh = ∅ := by
  simp only [List.Forall]; repeat' constructor
abbrev main_part6_ops4 : List (HloOp τ sig (Elt F)) :=
  [ StableHlo.nullary main_c_107 (constantI S_ 32 0#32),
    StableHlo.nullary main_c_108 (constantI S_ 32 255#32) ]
theorem main_part6_ops4_sub : (main_part6_ops4 : List (HloOp τ sig (Elt F))).Forall fun op => op.bufs ⊆ StableHlo.tcRefs τ sig :=
  ⟨StableHlo.nullary_bufs_sub .., StableHlo.nullary_bufs_sub ..⟩
theorem main_part6_ops4_fresh : (main_part6_ops4 : List (HloOp τ sig (Elt F))).Forall fun op => op.fresh = ∅ := by
  simp only [List.Forall]; repeat' constructor
abbrev main_part6_ops5 : List (HloOp τ sig (Elt F)) :=
  [ StableHlo.TRef.unary (.of main_c_107 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S1000000, .i32⟩) (broadcastInDim S1000000 ![] bcast_S_S1000000),
    StableHlo.TRef.binary (.of main_call19_v1 : StableHlo.TRef sig ⟨S1000000, .i32⟩) (.of main_v200 : StableHlo.TRef sig ⟨S1000000, .i32⟩) (.of main_call19_v2 : StableHlo.TRef sig ⟨S1000000, .i32⟩) maxsi,
    StableHlo.TRef.unary (.of main_c_108 : StableHlo.TRef sig ⟨S_, .i32⟩) (.of main_call19_v3 : StableHlo.TRef sig ⟨S_, .i32⟩) id,
    StableHlo.TRef.unary (.of main_call19_v3 : StableHlo.TRef sig ⟨S_, .i32⟩) (.of main_call19_v4 : StableHlo.TRef sig ⟨S1000000, .i32⟩) (broadcastInDim S1000000 ![] bcast_S_S1000000),
    StableHlo.TRef.binary (.of main_call19_v4 : StableHlo.TRef sig ⟨S1000000, .i32⟩) (.of main_call19_v2 : StableHlo.TRef sig ⟨S1000000, .i32⟩) (.of main_v290 : StableHlo.TRef sig ⟨S1000000, .i32⟩) minsi ]
theorem main_part6_ops5_sub : (main_part6_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part6_ops5_fresh : (main_part6_ops5 : List (HloOp τ sig (Elt F))).Forall fun op => op.fresh = ∅ := by
  simp only [List.Forall]; repeat' constructor
abbrev main_part6_ops6 : List (HloOp τ sig (Elt F)) :=
  [ StableHlo.nullary main_c_109 (constantI S_ 32 0#32),
    StableHlo.unary main_c_109 main_v291 (broadcastInDim S1000000 ![] bcast_S_S1000000 : (⟨S_, .i32⟩ : BufTy).Contents (Elt F) → (⟨S1000000, .i32⟩ : BufTy).Contents (Elt F)),
    StableHlo.binary main_v289 main_v291 main_v292 (cmpi .slt : (⟨S1000000, .i32⟩ : BufTy).Contents (Elt F) → (⟨S1000000, .i32⟩ : BufTy).Contents (Elt F) → (⟨S1000000, .i1⟩ : BufTy).Contents (Elt F)),
    StableHlo.nullary main_c_110 (constantI S_ 32 256#32),
    StableHlo.unary main_c_110 main_v293 (broadcastInDim S1000000 ![] bcast_S_S1000000 : (⟨S_, .i32⟩ : BufTy).Contents (Elt F) → (⟨S1000000, .i32⟩ : BufTy).Contents (Elt F)),
    StableHlo.binary main_v289 main_v293 main_v294 (addi : (⟨S1000000, .i32⟩ : BufTy).Contents (Elt F) → (⟨S1000000, .i32⟩ : BufTy).Contents (Elt F) → (⟨S1000000, .i32⟩ : BufTy).Contents (Elt F)),
    StableHlo.ternary main_v292 main_v294 main_v289 main_v295 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_111 (constantI S_ 32 0#32),
    StableHlo.unary main_c_111 main_v296 (broadcastInDim S1000000 ![] bcast_S_S1000000 : (⟨S_, .i32⟩ : BufTy).Contents (Elt F) → (⟨S1000000, .i32⟩ : BufTy).Contents (Elt F)),
    StableHlo.binary main_v290 main_v296 main_v297 (cmpi .slt : (⟨S1000000, .i32⟩ : BufTy).Contents (Elt F) → (⟨S1000000, .i32⟩ : BufTy).Contents (Elt F) → (⟨S1000000, .i1⟩ : BufTy).Contents (Elt F)),
    StableHlo.nullary main_c_112 (constantI S_ 32 256#32),
    StableHlo.unary main_c_112 main_v298 (broadcastInDim S1000000 ![] bcast_S_S1000000 : (⟨S_, .i32⟩ : BufTy).Contents (Elt F) → (⟨S1000000, .i32⟩ : BufTy).Contents (Elt F)),
    StableHlo.binary main_v290 main_v298 main_v299 (addi : (⟨S1000000, .i32⟩ : BufTy).Contents (Elt F) → (⟨S1000000, .i32⟩ : BufTy).Contents (Elt F) → (⟨S1000000, .i32⟩ : BufTy).Contents (Elt F)),
    StableHlo.ternary main_v297 main_v299 main_v290 main_v300 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v295 main_v301 (broadcastInDim S1000000x1 ![0] bcast_S1000000_S1000000x1_0 : (⟨S1000000, .i32⟩ : BufTy).Contents (Elt F) → (⟨S1000000x1, .i32⟩ : BufTy).Contents (Elt F)),
    StableHlo.unary main_v300 main_v302 (broadcastInDim S1000000x1 ![0] bcast_S1000000_S1000000x1_0 : (⟨S1000000, .i32⟩ : BufTy).Contents (Elt F) → (⟨S1000000x1, .i32⟩ : BufTy).Contents (Elt F)),
    StableHlo.binary main_v301 main_v302 main_v303 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg2 main_v303 main_v304 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)) ]
theorem main_part6_ops6_sub : (main_part6_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
theorem main_part6_ops6_fresh : (main_part6_ops6 : List (HloOp τ sig (Elt F))).Forall fun op => op.fresh = ∅ := by
  simp only [List.Forall]; repeat' constructor
theorem main_part6_chain (c : Dev nD) : main_part6 (F := F) c = (Pipeline.chainK
  [ StableHlo.seq main_part6_ops0,
    StableHlo.seq main_part6_ops1,
    StableHlo.seq main_part6_ops2,
    StableHlo.seq main_part6_ops3,
    StableHlo.seq main_part6_ops4,
    StableHlo.seq main_part6_ops5 ]
  (StableHlo.seq main_part6_ops6) : Prog (TpuEff nD τ sig (Elt F) (Pipeline.Sig Λ₀ (Fin 0) fun p => (pcfgs (F := F) p).Adm) .tc) PUnit) := by
  chain_rfl

abbrev main_part7_ops0 : List (HloOp τ sig (Elt F)) :=
  [ StableHlo.unary main_v288 main_v305 (broadcastInDim S1x1000000 ![1] bcast_S1000000_S1x1000000_1 : (⟨S1000000, .i1⟩ : BufTy).Contents (Elt F) → (⟨S1x1000000, .i1⟩ : BufTy).Contents (Elt F)),
    StableHlo.nullary main_cst_113 (constant S_ .f32 0x00000000#32) ]
theorem main_part7_ops0_sub : (main_part7_ops0 : List (HloOp τ sig (Elt F))).Forall fun op => op.bufs ⊆ StableHlo.tcRefs τ sig :=
  ⟨StableHlo.unary_bufs_sub .., StableHlo.nullary_bufs_sub ..⟩
theorem main_part7_ops0_fresh : (main_part7_ops0 : List (HloOp τ sig (Elt F))).Forall fun op => op.fresh = ∅ := by
  simp only [List.Forall]; repeat' constructor
abbrev main_part7_ops1 : List (HloOp τ sig (Elt F)) :=
  [ StableHlo.TRef.unary (.of main_cst_113 : StableHlo.TRef sig ⟨S_, .f32⟩) (.of main_call20_v0 : StableHlo.TRef sig ⟨S_, .f32⟩) id,
    StableHlo.TRef.unary (.of main_v305 : StableHlo.TRef sig ⟨S1x1000000, .i1⟩) (.of main_call20_v1 : StableHlo.TRef sig ⟨S24x1000000, .i1⟩) (broadcastInDim S24x1000000 ![0, 1] bcast_S1x1000000_S24x1000000_0_1),
    StableHlo.TRef.unary (.of main_call20_v0 : StableHlo.TRef sig ⟨S_, .f32⟩) (.of main_call20_v2 : StableHlo.TRef sig ⟨S24x1000000, .f32⟩) (broadcastInDim S24x1000000 ![] bcast_S_S24x1000000),
    StableHlo.TRef.ternary (.of main_call20_v1 : StableHlo.TRef sig ⟨S24x1000000, .i1⟩) (.of main_v304 : StableHlo.TRef sig ⟨S24x1000000, .f32⟩) (.of main_call20_v2 : StableHlo.TRef sig ⟨S24x1000000, .f32⟩) (.of main_v306 : StableHlo.TRef sig ⟨S24x1000000, .f32⟩) select ]
theorem main_part7_ops1_sub : (main_part7_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part7_ops1_fresh : (main_part7_ops1 : List (HloOp τ sig (Elt F))).Forall fun op => op.fresh = ∅ := by
  simp only [List.Forall]; repeat' constructor
abbrev main_part7_ops2 : List (HloOp τ sig (Elt F)) :=
  [ StableHlo.nullary main_cst_114 (constant S_ .f32 0x3F800000#32),
    StableHlo.unary main_cst_114 main_v307 (broadcastInDim S1000000 ![] bcast_S_S1000000 : (⟨S_, .f32⟩ : BufTy).Contents (Elt F) → (⟨S1000000, .f32⟩ : BufTy).Contents (Elt F)),
    StableHlo.binary main_v307 main_v198 main_v308 (subf : (⟨S1000000, .f32⟩ : BufTy).Contents (Elt F) → (⟨S1000000, .f32⟩ : BufTy).Contents (Elt F) → (⟨S1000000, .f32⟩ : BufTy).Contents (Elt F)),
    StableHlo.binary main_v197 main_v308 main_v309 (mulf : (⟨S1000000, .f32⟩ : BufTy).Contents (Elt F) → (⟨S1000000, .f32⟩ : BufTy).Contents (Elt F) → (⟨S1000000, .f32⟩ : BufTy).Contents (Elt F)),
    StableHlo.unary main_v309 main_v310 (broadcastInDim S1x1000000 ![1] bcast_S1000000_S1x1000000_1 : (⟨S1000000, .f32⟩ : BufTy).Contents (Elt F) → (⟨S1x1000000, .f32⟩ : BufTy).Contents (Elt F)),
    StableHlo.unary main_v310 main_v311 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v306 main_v311 main_v312 (mulf : (⟨S24x1000000, .f32⟩ : BufTy).Contents (Elt F) → (⟨S24x1000000, .f32⟩ : BufTy).Contents (Elt F) → (⟨S24x1000000, .f32⟩ : BufTy).Contents (Elt F)),
    StableHlo.binary main_v277 main_v312 main_v313 (addf : (⟨S24x1000000, .f32⟩ : BufTy).Contents (Elt F) → (⟨S24x1000000, .f32⟩ : BufTy).Contents (Elt F) → (⟨S24x1000000, .f32⟩ : BufTy).Contents (Elt F)),
    StableHlo.nullary main_c_115 (constantI S_ 32 0#32),
    StableHlo.unary main_c_115 main_v314 (broadcastInDim S1000000 ![] bcast_S_S1000000 : (⟨S_, .i32⟩ : BufTy).Contents (Elt F) → (⟨S1000000, .i32⟩ : BufTy).Contents (Elt F)),
    StableHlo.binary main_v202 main_v314 main_v315 (cmpi .sge : (⟨S1000000, .i32⟩ : BufTy).Contents (Elt F) → (⟨S1000000, .i32⟩ : BufTy).Contents (Elt F) → (⟨S1000000, .i1⟩ : BufTy).Contents (Elt F)),
    StableHlo.nullary main_c_116 (constantI S_ 32 256#32),
    StableHlo.unary main_c_116 main_v316 (broadcastInDim S1000000 ![] bcast_S_S1000000 : (⟨S_, .i32⟩ : BufTy).Contents (Elt F) → (⟨S1000000, .i32⟩ : BufTy).Contents (Elt F)),
    StableHlo.binary main_v202 main_v316 main_v317 (cmpi .slt : (⟨S1000000, .i32⟩ : BufTy).Contents (Elt F) → (⟨S1000000, .i32⟩ : BufTy).Contents (Elt F) → (⟨S1000000, .i1⟩ : BufTy).Contents (Elt F)),
    StableHlo.binary main_v315 main_v317 main_v318 (andi : (⟨S1000000, .i1⟩ : BufTy).Contents (Elt F) → (⟨S1000000, .i1⟩ : BufTy).Contents (Elt F) → (⟨S1000000, .i1⟩ : BufTy).Contents (Elt F)),
    StableHlo.nullary main_c_117 (constantI S_ 32 0#32),
    StableHlo.unary main_c_117 main_v319 (broadcastInDim S1000000 ![] bcast_S_S1000000 : (⟨S_, .i32⟩ : BufTy).Contents (Elt F) → (⟨S1000000, .i32⟩ : BufTy).Contents (Elt F)),
    StableHlo.binary main_v204 main_v319 main_v320 (cmpi .sge : (⟨S1000000, .i32⟩ : BufTy).Contents (Elt F) → (⟨S1000000, .i32⟩ : BufTy).Contents (Elt F) → (⟨S1000000, .i1⟩ : BufTy).Contents (Elt F)),
    StableHlo.binary main_v318 main_v320 main_v321 (andi : (⟨S1000000, .i1⟩ : BufTy).Contents (Elt F) → (⟨S1000000, .i1⟩ : BufTy).Contents (Elt F) → (⟨S1000000, .i1⟩ : BufTy).Contents (Elt F)),
    StableHlo.nullary main_c_118 (constantI S_ 32 256#32),
    StableHlo.unary main_c_118 main_v322 (broadcastInDim S1000000 ![] bcast_S_S1000000 : (⟨S_, .i32⟩ : BufTy).Contents (Elt F) → (⟨S1000000, .i32⟩ : BufTy).Contents (Elt F)),
    StableHlo.binary main_v204 main_v322 main_v323 (cmpi .slt : (⟨S1000000, .i32⟩ : BufTy).Contents (Elt F) → (⟨S1000000, .i32⟩ : BufTy).Contents (Elt F) → (⟨S1000000, .i1⟩ : BufTy).Contents (Elt F)),
    StableHlo.binary main_v321 main_v323 main_v324 (andi : (⟨S1000000, .i1⟩ : BufTy).Contents (Elt F) → (⟨S1000000, .i1⟩ : BufTy).Contents (Elt F) → (⟨S1000000, .i1⟩ : BufTy).Contents (Elt F)),
    StableHlo.nullary main_c_119 (constantI S_ 32 0#32),
    StableHlo.nullary main_c_120 (constantI S_ 32 255#32) ]
theorem main_part7_ops2_sub : (main_part7_ops2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part7_ops2_fresh : (main_part7_ops2 : List (HloOp τ sig (Elt F))).Forall fun op => op.fresh = ∅ := by
  simp only [List.Forall]; repeat' constructor
abbrev main_part7_ops3 : List (HloOp τ sig (Elt F)) :=
  [ StableHlo.TRef.unary (.of main_c_119 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S1000000, .i32⟩) (broadcastInDim S1000000 ![] bcast_S_S1000000),
    StableHlo.TRef.binary (.of main_call21_v1 : StableHlo.TRef sig ⟨S1000000, .i32⟩) (.of main_v202 : StableHlo.TRef sig ⟨S1000000, .i32⟩) (.of main_call21_v2 : StableHlo.TRef sig ⟨S1000000, .i32⟩) maxsi,
    StableHlo.TRef.unary (.of main_c_120 : StableHlo.TRef sig ⟨S_, .i32⟩) (.of main_call21_v3 : StableHlo.TRef sig ⟨S_, .i32⟩) id,
    StableHlo.TRef.unary (.of main_call21_v3 : StableHlo.TRef sig ⟨S_, .i32⟩) (.of main_call21_v4 : StableHlo.TRef sig ⟨S1000000, .i32⟩) (broadcastInDim S1000000 ![] bcast_S_S1000000),
    StableHlo.TRef.binary (.of main_call21_v4 : StableHlo.TRef sig ⟨S1000000, .i32⟩) (.of main_call21_v2 : StableHlo.TRef sig ⟨S1000000, .i32⟩) (.of main_v325 : StableHlo.TRef sig ⟨S1000000, .i32⟩) minsi ]
theorem main_part7_ops3_sub : (main_part7_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part7_ops3_fresh : (main_part7_ops3 : List (HloOp τ sig (Elt F))).Forall fun op => op.fresh = ∅ := by
  simp only [List.Forall]; repeat' constructor
abbrev main_part7_ops4 : List (HloOp τ sig (Elt F)) :=
  [ StableHlo.nullary main_c_121 (constantI S_ 32 0#32),
    StableHlo.nullary main_c_122 (constantI S_ 32 255#32) ]
theorem main_part7_ops4_sub : (main_part7_ops4 : List (HloOp τ sig (Elt F))).Forall fun op => op.bufs ⊆ StableHlo.tcRefs τ sig :=
  ⟨StableHlo.nullary_bufs_sub .., StableHlo.nullary_bufs_sub ..⟩
theorem main_part7_ops4_fresh : (main_part7_ops4 : List (HloOp τ sig (Elt F))).Forall fun op => op.fresh = ∅ := by
  simp only [List.Forall]; repeat' constructor
abbrev main_part7_ops5 : List (HloOp τ sig (Elt F)) :=
  [ StableHlo.TRef.unary (.of main_c_121 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S1000000, .i32⟩) (broadcastInDim S1000000 ![] bcast_S_S1000000),
    StableHlo.TRef.binary (.of main_call22_v1 : StableHlo.TRef sig ⟨S1000000, .i32⟩) (.of main_v204 : StableHlo.TRef sig ⟨S1000000, .i32⟩) (.of main_call22_v2 : StableHlo.TRef sig ⟨S1000000, .i32⟩) maxsi,
    StableHlo.TRef.unary (.of main_c_122 : StableHlo.TRef sig ⟨S_, .i32⟩) (.of main_call22_v3 : StableHlo.TRef sig ⟨S_, .i32⟩) id,
    StableHlo.TRef.unary (.of main_call22_v3 : StableHlo.TRef sig ⟨S_, .i32⟩) (.of main_call22_v4 : StableHlo.TRef sig ⟨S1000000, .i32⟩) (broadcastInDim S1000000 ![] bcast_S_S1000000),
    StableHlo.TRef.binary (.of main_call22_v4 : StableHlo.TRef sig ⟨S1000000, .i32⟩) (.of main_call22_v2 : StableHlo.TRef sig ⟨S1000000, .i32⟩) (.of main_v326 : StableHlo.TRef sig ⟨S1000000, .i32⟩) minsi ]
theorem main_part7_ops5_sub : (main_part7_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part7_ops5_fresh : (main_part7_ops5 : List (HloOp τ sig (Elt F))).Forall fun op => op.fresh = ∅ := by
  simp only [List.Forall]; repeat' constructor
abbrev main_part7_ops6 : List (HloOp τ sig (Elt F)) :=
  [ StableHlo.nullary main_c_123 (constantI S_ 32 0#32),
    StableHlo.unary main_c_123 main_v327 (broadcastInDim S1000000 ![] bcast_S_S1000000 : (⟨S_, .i32⟩ : BufTy).Contents (Elt F) → (⟨S1000000, .i32⟩ : BufTy).Contents (Elt F)),
    StableHlo.binary main_v325 main_v327 main_v328 (cmpi .slt : (⟨S1000000, .i32⟩ : BufTy).Contents (Elt F) → (⟨S1000000, .i32⟩ : BufTy).Contents (Elt F) → (⟨S1000000, .i1⟩ : BufTy).Contents (Elt F)),
    StableHlo.nullary main_c_124 (constantI S_ 32 256#32),
    StableHlo.unary main_c_124 main_v329 (broadcastInDim S1000000 ![] bcast_S_S1000000 : (⟨S_, .i32⟩ : BufTy).Contents (Elt F) → (⟨S1000000, .i32⟩ : BufTy).Contents (Elt F)),
    StableHlo.binary main_v325 main_v329 main_v330 (addi : (⟨S1000000, .i32⟩ : BufTy).Contents (Elt F) → (⟨S1000000, .i32⟩ : BufTy).Contents (Elt F) → (⟨S1000000, .i32⟩ : BufTy).Contents (Elt F)),
    StableHlo.ternary main_v328 main_v330 main_v325 main_v331 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_125 (constantI S_ 32 0#32),
    StableHlo.unary main_c_125 main_v332 (broadcastInDim S1000000 ![] bcast_S_S1000000 : (⟨S_, .i32⟩ : BufTy).Contents (Elt F) → (⟨S1000000, .i32⟩ : BufTy).Contents (Elt F)),
    StableHlo.binary main_v326 main_v332 main_v333 (cmpi .slt : (⟨S1000000, .i32⟩ : BufTy).Contents (Elt F) → (⟨S1000000, .i32⟩ : BufTy).Contents (Elt F) → (⟨S1000000, .i1⟩ : BufTy).Contents (Elt F)),
    StableHlo.nullary main_c_126 (constantI S_ 32 256#32),
    StableHlo.unary main_c_126 main_v334 (broadcastInDim S1000000 ![] bcast_S_S1000000 : (⟨S_, .i32⟩ : BufTy).Contents (Elt F) → (⟨S1000000, .i32⟩ : BufTy).Contents (Elt F)),
    StableHlo.binary main_v326 main_v334 main_v335 (addi : (⟨S1000000, .i32⟩ : BufTy).Contents (Elt F) → (⟨S1000000, .i32⟩ : BufTy).Contents (Elt F) → (⟨S1000000, .i32⟩ : BufTy).Contents (Elt F)),
    StableHlo.ternary main_v333 main_v335 main_v326 main_v336 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v331 main_v337 (broadcastInDim S1000000x1 ![0] bcast_S1000000_S1000000x1_0 : (⟨S1000000, .i32⟩ : BufTy).Contents (Elt F) → (⟨S1000000x1, .i32⟩ : BufTy).Contents (Elt F)),
    StableHlo.unary main_v336 main_v338 (broadcastInDim S1000000x1 ![0] bcast_S1000000_S1000000x1_0 : (⟨S1000000, .i32⟩ : BufTy).Contents (Elt F) → (⟨S1000000x1, .i32⟩ : BufTy).Contents (Elt F)),
    StableHlo.binary main_v337 main_v338 main_v339 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg2 main_v339 main_v340 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v324 main_v341 (broadcastInDim S1x1000000 ![1] bcast_S1000000_S1x1000000_1 : (⟨S1000000, .i1⟩ : BufTy).Contents (Elt F) → (⟨S1x1000000, .i1⟩ : BufTy).Contents (Elt F)),
    StableHlo.nullary main_cst_127 (constant S_ .f32 0x00000000#32) ]
theorem main_part7_ops6_sub : (main_part7_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part7_ops6_fresh : (main_part7_ops6 : List (HloOp τ sig (Elt F))).Forall fun op => op.fresh = ∅ := by
  simp only [List.Forall]; repeat' constructor
abbrev main_part7_ops7 : List (HloOp τ sig (Elt F)) :=
  [ StableHlo.TRef.unary (.of main_cst_127 : StableHlo.TRef sig ⟨S_, .f32⟩) (.of main_call23_v0 : StableHlo.TRef sig ⟨S_, .f32⟩) id,
    StableHlo.TRef.unary (.of main_v341 : StableHlo.TRef sig ⟨S1x1000000, .i1⟩) (.of main_call23_v1 : StableHlo.TRef sig ⟨S24x1000000, .i1⟩) (broadcastInDim S24x1000000 ![0, 1] bcast_S1x1000000_S24x1000000_0_1),
    StableHlo.TRef.unary (.of main_call23_v0 : StableHlo.TRef sig ⟨S_, .f32⟩) (.of main_call23_v2 : StableHlo.TRef sig ⟨S24x1000000, .f32⟩) (broadcastInDim S24x1000000 ![] bcast_S_S24x1000000),
    StableHlo.TRef.ternary (.of main_call23_v1 : StableHlo.TRef sig ⟨S24x1000000, .i1⟩) (.of main_v340 : StableHlo.TRef sig ⟨S24x1000000, .f32⟩) (.of main_call23_v2 : StableHlo.TRef sig ⟨S24x1000000, .f32⟩) (.of main_v342 : StableHlo.TRef sig ⟨S24x1000000, .f32⟩) select ]
theorem main_part7_ops7_sub : (main_part7_ops7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part7_ops7_fresh : (main_part7_ops7 : List (HloOp τ sig (Elt F))).Forall fun op => op.fresh = ∅ := by
  simp only [List.Forall]; repeat' constructor
abbrev main_part7_ops8 : List (HloOp τ sig (Elt F)) :=
  [ StableHlo.binary main_v197 main_v198 main_v343 (mulf : (⟨S1000000, .f32⟩ : BufTy).Contents (Elt F) → (⟨S1000000, .f32⟩ : BufTy).Contents (Elt F) → (⟨S1000000, .f32⟩ : BufTy).Contents (Elt F)),
    StableHlo.unary main_v343 main_v344 (broadcastInDim S1x1000000 ![1] bcast_S1000000_S1x1000000_1 : (⟨S1000000, .f32⟩ : BufTy).Contents (Elt F) → (⟨S1x1000000, .f32⟩ : BufTy).Contents (Elt F)),
    StableHlo.unary main_v344 main_v345 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v342 main_v345 main_v346 (mulf : (⟨S24x1000000, .f32⟩ : BufTy).Contents (Elt F) → (⟨S24x1000000, .f32⟩ : BufTy).Contents (Elt F) → (⟨S24x1000000, .f32⟩ : BufTy).Contents (Elt F)),
    StableHlo.binary main_v313 main_v346 main_v347 (addf : (⟨S24x1000000, .f32⟩ : BufTy).Contents (Elt F) → (⟨S24x1000000, .f32⟩ : BufTy).Contents (Elt F) → (⟨S24x1000000, .f32⟩ : BufTy).Contents (Elt F)),
    StableHlo.unary main_v347 main_v348 ((transpose S1000000x24 [1, 0] · transposes_S24x1000000_S1000000x24_1_0) : (⟨S24x1000000, .f32⟩ : BufTy).Contents (Elt F) → (⟨S1000000x24, .f32⟩ : BufTy).Contents (Elt F)),
    StableHlo.nullary main_cst_128 (constant S_ .f32 0x3F800000#32) ]
theorem main_part7_ops8_sub : (main_part7_ops8 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.nullary_bufs_sub ..⟩
theorem main_part7_ops8_fresh : (main_part7_ops8 : List (HloOp τ sig (Elt F))).Forall fun op => op.fresh = ∅ := by
  simp only [List.Forall]; repeat' constructor
theorem main_part7_chain (c : Dev nD) : main_part7 (F := F) c = (Pipeline.chainK
  [ StableHlo.seq main_part7_ops0,
    StableHlo.seq main_part7_ops1,
    StableHlo.seq main_part7_ops2,
    StableHlo.seq main_part7_ops3,
    StableHlo.seq main_part7_ops4,
    StableHlo.seq main_part7_ops5,
    StableHlo.seq main_part7_ops6,
    StableHlo.seq main_part7_ops7 ]
  (StableHlo.seq main_part7_ops8) : Prog (TpuEff nD τ sig (Elt F) (Pipeline.Sig Λ₀ (Fin 0) fun p => (pcfgs (F := F) p).Adm) .tc) PUnit) := by
  chain_rfl

abbrev main_part8_ops0 : List (HloOp τ sig (Elt F)) :=
  ( StableHlo.unary main_cst_128 main_v349 (broadcastInDim S1000000 ![] bcast_S_S1000000 : (⟨S_, .f32⟩ : BufTy).Contents (Elt F) → (⟨S1000000, .f32⟩ : BufTy).Contents (Elt F))
  :: StableHlo.binary main_v14 main_v349 main_v350 (addf : (⟨S1000000, .f32⟩ : BufTy).Contents (Elt F) → (⟨S1000000, .f32⟩ : BufTy).Contents (Elt F) → (⟨S1000000, .f32⟩ : BufTy).Contents (Elt F))
  :: StableHlo.nullary main_cst_129 (constant S_ .f32 0x3F000000#32)
  :: StableHlo.unary main_cst_129 main_v351 (broadcastInDim S1000000 ![] bcast_S_S1000000 : (⟨S_, .f32⟩ : BufTy).Contents (Elt F) → (⟨S1000000, .f32⟩ : BufTy).Contents (Elt F))
  :: StableHlo.binary main_v350 main_v351 main_v352 (mulf : (⟨S1000000, .f32⟩ : BufTy).Contents (Elt F) → (⟨S1000000, .f32⟩ : BufTy).Contents (Elt F) → (⟨S1000000, .f32⟩ : BufTy).Contents (Elt F))
  :: StableHlo.nullary main_cst_130 (constant S_ .f32 0x437F0000#32)
  :: StableHlo.unary main_cst_130 main_v353 (broadcastInDim S1000000 ![] bcast_S_S1000000 : (⟨S_, .f32⟩ : BufTy).Contents (Elt F) → (⟨S1000000, .f32⟩ : BufTy).Contents (Elt F))
  :: StableHlo.binary main_v352 main_v353 main_v354 (mulf : (⟨S1000000, .f32⟩ : BufTy).Contents (Elt F) → (⟨S1000000, .f32⟩ : BufTy).Contents (Elt F) → (⟨S1000000, .f32⟩ : BufTy).Contents (Elt F))
  :: StableHlo.nullary main_cst_131 (constant S_ .f32 0x3F800000#32)
  :: StableHlo.unary main_cst_131 main_v355 (broadcastInDim S1000000 ![] bcast_S_S1000000 : (⟨S_, .f32⟩ : BufTy).Contents (Elt F) → (⟨S1000000, .f32⟩ : BufTy).Contents (Elt F))
  :: StableHlo.binary main_v16 main_v355 main_v356 (addf : (⟨S1000000, .f32⟩ : BufTy).Contents (Elt F) → (⟨S1000000, .f32⟩ : BufTy).Contents (Elt F) → (⟨S1000000, .f32⟩ : BufTy).Contents (Elt F))
  :: StableHlo.nullary main_cst_132 (constant S_ .f32 0x3F000000#32)
  :: StableHlo.unary main_cst_132 main_v357 (broadcastInDim S1000000 ![] bcast_S_S1000000 : (⟨S_, .f32⟩ : BufTy).Contents (Elt F) → (⟨S1000000, .f32⟩ : BufTy).Contents (Elt F))
  :: StableHlo.binary main_v356 main_v357 main_v358 (mulf : (⟨S1000000, .f32⟩ : BufTy).Contents (Elt F) → (⟨S1000000, .f32⟩ : BufTy).Contents (Elt F) → (⟨S1000000, .f32⟩ : BufTy).Contents (Elt F))
  :: StableHlo.nullary main_cst_133 (constant S_ .f32 0x437F0000#32)
  :: StableHlo.unary main_cst_133 main_v359 (broadcastInDim S1000000 ![] bcast_S_S1000000 : (⟨S_, .f32⟩ : BufTy).Contents (Elt F) → (⟨S1000000, .f32⟩ : BufTy).Contents (Elt F))
  :: StableHlo.binary main_v358 main_v359 main_v360 (mulf : (⟨S1000000, .f32⟩ : BufTy).Contents (Elt F) → (⟨S1000000, .f32⟩ : BufTy).Contents (Elt F) → (⟨S1000000, .f32⟩ : BufTy).Contents (Elt F))
  :: StableHlo.unary main_v354 main_v361 (Host.floor : (⟨S1000000, .f32⟩ : BufTy).Contents (Elt F) → (⟨S1000000, .f32⟩ : BufTy).Contents (Elt F))
  :: StableHlo.unary main_v360 main_v362 (Host.floor : (⟨S1000000, .f32⟩ : BufTy).Contents (Elt F) → (⟨S1000000, .f32⟩ : BufTy).Contents (Elt F))
  :: StableHlo.binary main_v354 main_v361 main_v363 (subf : (⟨S1000000, .f32⟩ : BufTy).Contents (Elt F) → (⟨S1000000, .f32⟩ : BufTy).Contents (Elt F) → (⟨S1000000, .f32⟩ : BufTy).Contents (Elt F))
  :: StableHlo.binary main_v360 main_v362 main_v364 (subf : (⟨S1000000, .f32⟩ : BufTy).Contents (Elt F) → (⟨S1000000, .f32⟩ : BufTy).Contents (Elt F) → (⟨S1000000, .f32⟩ : BufTy).Contents (Elt F))
  :: StableHlo.unary main_v361 main_v365 (fptosi 32 : (⟨S1000000, .f32⟩ : BufTy).Contents (Elt F) → (⟨S1000000, .i32⟩ : BufTy).Contents (Elt F))
  :: StableHlo.unary main_v362 main_v366 (fptosi 32 : (⟨S1000000, .f32⟩ : BufTy).Contents (Elt F) → (⟨S1000000, .i32⟩ : BufTy).Contents (Elt F))
  :: StableHlo.nullary main_c_134 (constantI S_ 32 1#32)
  :: StableHlo.unary main_c_134 main_v367 (broadcastInDim S1000000 ![] bcast_S_S1000000 : (⟨S_, .i32⟩ : BufTy).Contents (Elt F) → (⟨S1000000, .i32⟩ : BufTy).Contents (Elt F))
  :: StableHlo.binary main_v365 main_v367 main_v368 (addi : (⟨S1000000, .i32⟩ : BufTy).Contents (Elt F) → (⟨S1000000, .i32⟩ : BufTy).Contents (Elt F) → (⟨S1000000, .i32⟩ : BufTy).Contents (Elt F))
  :: StableHlo.nullary main_c_135 (constantI S_ 32 1#32)
  :: StableHlo.unary main_c_135 main_v369 (broadcastInDim S1000000 ![] bcast_S_S1000000 : (⟨S_, .i32⟩ : BufTy).Contents (Elt F) → (⟨S1000000, .i32⟩ : BufTy).Contents (Elt F))
  :: StableHlo.binary main_v366 main_v369 main_v370 (addi : (⟨S1000000, .i32⟩ : BufTy).Contents (Elt F) → (⟨S1000000, .i32⟩ : BufTy).Contents (Elt F) → (⟨S1000000, .i32⟩ : BufTy).Contents (Elt F))
  :: StableHlo.nullary main_c_136 (constantI S_ 32 0#32)
  :: StableHlo.unary main_c_136 main_v371 (broadcastInDim S1000000 ![] bcast_S_S1000000 : (⟨S_, .i32⟩ : BufTy).Contents (Elt F) → (⟨S1000000, .i32⟩ : BufTy).Contents (Elt F))
  :: StableHlo.binary main_v365 main_v371 main_v372 (cmpi .sge : (⟨S1000000, .i32⟩ : BufTy).Contents (Elt F) → (⟨S1000000, .i32⟩ : BufTy).Contents (Elt F) → (⟨S1000000, .i1⟩ : BufTy).Contents (Elt F))
  :: StableHlo.nullary main_c_137 (constantI S_ 32 256#32)
  :: StableHlo.unary main_c_137 main_v373 (broadcastInDim S1000000 ![] bcast_S_S1000000 : (⟨S_, .i32⟩ : BufTy).Contents (Elt F) → (⟨S1000000, .i32⟩ : BufTy).Contents (Elt F))
  :: StableHlo.binary main_v365 main_v373 main_v374 (cmpi .slt : (⟨S1000000, .i32⟩ : BufTy).Contents (Elt F) → (⟨S1000000, .i32⟩ : BufTy).Contents (Elt F) → (⟨S1000000, .i1⟩ : BufTy).Contents (Elt F))
  :: StableHlo.binary main_v372 main_v374 main_v375 (andi : (⟨S1000000, .i1⟩ : BufTy).Contents (Elt F) → (⟨S1000000, .i1⟩ : BufTy).Contents (Elt F) → (⟨S1000000, .i1⟩ : BufTy).Contents (Elt F))
  :: StableHlo.nullary main_c_138 (constantI S_ 32 0#32)
  :: StableHlo.unary main_c_138 main_v376 (broadcastInDim S1000000 ![] bcast_S_S1000000 : (⟨S_, .i32⟩ : BufTy).Contents (Elt F) → (⟨S1000000, .i32⟩ : BufTy).Contents (Elt F))
  :: StableHlo.binary main_v366 main_v376 main_v377 (cmpi .sge : (⟨S1000000, .i32⟩ : BufTy).Contents (Elt F) → (⟨S1000000, .i32⟩ : BufTy).Contents (Elt F) → (⟨S1000000, .i1⟩ : BufTy).Contents (Elt F))
  :: StableHlo.binary main_v375 main_v377 main_v378 (andi : (⟨S1000000, .i1⟩ : BufTy).Contents (Elt F) → (⟨S1000000, .i1⟩ : BufTy).Contents (Elt F) → (⟨S1000000, .i1⟩ : BufTy).Contents (Elt F))
  :: StableHlo.nullary main_c_139 (constantI S_ 32 256#32)
  :: StableHlo.unary main_c_139 main_v379 (broadcastInDim S1000000 ![] bcast_S_S1000000 : (⟨S_, .i32⟩ : BufTy).Contents (Elt F) → (⟨S1000000, .i32⟩ : BufTy).Contents (Elt F))
  :: StableHlo.binary main_v366 main_v379 main_v380 (cmpi .slt : (⟨S1000000, .i32⟩ : BufTy).Contents (Elt F) → (⟨S1000000, .i32⟩ : BufTy).Contents (Elt F) → (⟨S1000000, .i1⟩ : BufTy).Contents (Elt F))
  :: StableHlo.binary main_v378 main_v380 main_v381 (andi : (⟨S1000000, .i1⟩ : BufTy).Contents (Elt F) → (⟨S1000000, .i1⟩ : BufTy).Contents (Elt F) → (⟨S1000000, .i1⟩ : BufTy).Contents (Elt F))
  :: StableHlo.nullary main_c_140 (constantI S_ 32 0#32)
  :: StableHlo.nullary main_c_141 (constantI S_ 32 255#32)
  :: [] )
theorem main_part8_ops0_sub : (main_part8_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part8_ops0_fresh : (main_part8_ops0 : List (HloOp τ sig (Elt F))).Forall fun op => op.fresh = ∅ := by
  simp only [List.Forall]; repeat' constructor
abbrev main_part8_ops1 : List (HloOp τ sig (Elt F)) :=
  [ StableHlo.TRef.unary (.of main_c_140 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S1000000, .i32⟩) (broadcastInDim S1000000 ![] bcast_S_S1000000),
    StableHlo.TRef.binary (.of main_call24_v1 : StableHlo.TRef sig ⟨S1000000, .i32⟩) (.of main_v365 : StableHlo.TRef sig ⟨S1000000, .i32⟩) (.of main_call24_v2 : StableHlo.TRef sig ⟨S1000000, .i32⟩) maxsi,
    StableHlo.TRef.unary (.of main_c_141 : StableHlo.TRef sig ⟨S_, .i32⟩) (.of main_call24_v3 : StableHlo.TRef sig ⟨S_, .i32⟩) id,
    StableHlo.TRef.unary (.of main_call24_v3 : StableHlo.TRef sig ⟨S_, .i32⟩) (.of main_call24_v4 : StableHlo.TRef sig ⟨S1000000, .i32⟩) (broadcastInDim S1000000 ![] bcast_S_S1000000),
    StableHlo.TRef.binary (.of main_call24_v4 : StableHlo.TRef sig ⟨S1000000, .i32⟩) (.of main_call24_v2 : StableHlo.TRef sig ⟨S1000000, .i32⟩) (.of main_v382 : StableHlo.TRef sig ⟨S1000000, .i32⟩) minsi ]
theorem main_part8_ops1_sub : (main_part8_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part8_ops1_fresh : (main_part8_ops1 : List (HloOp τ sig (Elt F))).Forall fun op => op.fresh = ∅ := by
  simp only [List.Forall]; repeat' constructor
abbrev main_part8_ops2 : List (HloOp τ sig (Elt F)) :=
  [ StableHlo.nullary main_c_142 (constantI S_ 32 0#32),
    StableHlo.nullary main_c_143 (constantI S_ 32 255#32) ]
theorem main_part8_ops2_sub : (main_part8_ops2 : List (HloOp τ sig (Elt F))).Forall fun op => op.bufs ⊆ StableHlo.tcRefs τ sig :=
  ⟨StableHlo.nullary_bufs_sub .., StableHlo.nullary_bufs_sub ..⟩
theorem main_part8_ops2_fresh : (main_part8_ops2 : List (HloOp τ sig (Elt F))).Forall fun op => op.fresh = ∅ := by
  simp only [List.Forall]; repeat' constructor
abbrev main_part8_ops3 : List (HloOp τ sig (Elt F)) :=
  [ StableHlo.TRef.unary (.of main_c_142 : StableHlo.TRef sig ⟨S_, .i32⟩) (.of main_call25_v0 : StableHlo.TRef sig ⟨S_, .i32⟩) id,
    StableHlo.TRef.unary (.of main_call25_v0 : StableHlo.TRef sig ⟨S_, .i32⟩) (.of main_call25_v1 : StableHlo.TRef sig ⟨S1000000, .i32⟩) (broadcastInDim S1000000 ![] bcast_S_S1000000),
    StableHlo.TRef.binary (.of main_call25_v1 : StableHlo.TRef sig ⟨S1000000, .i32⟩) (.of main_v366 : StableHlo.TRef sig ⟨S1000000, .i32⟩) (.of main_call25_v2 : StableHlo.TRef sig ⟨S1000000, .i32⟩) maxsi,
    StableHlo.TRef.unary (.of main_c_143 : StableHlo.TRef sig ⟨S_, .i32⟩) (.of main_call25_v3 : StableHlo.TRef sig ⟨S_, .i32⟩) id,
    StableHlo.TRef.unary (.of main_call25_v3 : StableHlo.TRef sig ⟨S_, .i32⟩) (.of main_call25_v4 : StableHlo.TRef sig ⟨S1000000, .i32⟩) (broadcastInDim S1000000 ![] bcast_S_S1000000),
    StableHlo.TRef.binary (.of main_call25_v4 : StableHlo.TRef sig ⟨S1000000, .i32⟩) (.of main_call25_v2 : StableHlo.TRef sig ⟨S1000000, .i32⟩) (.of main_v383 : StableHlo.TRef sig ⟨S1000000, .i32⟩) minsi ]
theorem main_part8_ops3_sub : (main_part8_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part8_ops3_fresh : (main_part8_ops3 : List (HloOp τ sig (Elt F))).Forall fun op => op.fresh = ∅ := by
  simp only [List.Forall]; repeat' constructor
abbrev main_part8_ops4 : List (HloOp τ sig (Elt F)) :=
  [ StableHlo.nullary main_c_144 (constantI S_ 32 0#32),
    StableHlo.unary main_c_144 main_v384 (broadcastInDim S1000000 ![] bcast_S_S1000000 : (⟨S_, .i32⟩ : BufTy).Contents (Elt F) → (⟨S1000000, .i32⟩ : BufTy).Contents (Elt F)),
    StableHlo.binary main_v382 main_v384 main_v385 (cmpi .slt : (⟨S1000000, .i32⟩ : BufTy).Contents (Elt F) → (⟨S1000000, .i32⟩ : BufTy).Contents (Elt F) → (⟨S1000000, .i1⟩ : BufTy).Contents (Elt F)),
    StableHlo.nullary main_c_145 (constantI S_ 32 256#32),
    StableHlo.unary main_c_145 main_v386 (broadcastInDim S1000000 ![] bcast_S_S1000000 : (⟨S_, .i32⟩ : BufTy).Contents (Elt F) → (⟨S1000000, .i32⟩ : BufTy).Contents (Elt F)),
    StableHlo.binary main_v382 main_v386 main_v387 (addi : (⟨S1000000, .i32⟩ : BufTy).Contents (Elt F) → (⟨S1000000, .i32⟩ : BufTy).Contents (Elt F) → (⟨S1000000, .i32⟩ : BufTy).Contents (Elt F)),
    StableHlo.ternary main_v385 main_v387 main_v382 main_v388 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_146 (constantI S_ 32 0#32),
    StableHlo.unary main_c_146 main_v389 (broadcastInDim S1000000 ![] bcast_S_S1000000 : (⟨S_, .i32⟩ : BufTy).Contents (Elt F) → (⟨S1000000, .i32⟩ : BufTy).Contents (Elt F)),
    StableHlo.binary main_v383 main_v389 main_v390 (cmpi .slt : (⟨S1000000, .i32⟩ : BufTy).Contents (Elt F) → (⟨S1000000, .i32⟩ : BufTy).Contents (Elt F) → (⟨S1000000, .i1⟩ : BufTy).Contents (Elt F)) ]
theorem main_part8_ops4_sub : (main_part8_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub ..⟩
theorem main_part8_ops4_fresh : (main_part8_ops4 : List (HloOp τ sig (Elt F))).Forall fun op => op.fresh = ∅ := by
  simp only [List.Forall]; repeat' constructor
theorem main_part8_chain (c : Dev nD) : main_part8 (F := F) c = (Pipeline.chainK
  [ StableHlo.seq main_part8_ops0,
    StableHlo.seq main_part8_ops1,
    StableHlo.seq main_part8_ops2,
    StableHlo.seq main_part8_ops3 ]
  (StableHlo.seq main_part8_ops4) : Prog (TpuEff nD τ sig (Elt F) (Pipeline.Sig Λ₀ (Fin 0) fun p => (pcfgs (F := F) p).Adm) .tc) PUnit) := by
  chain_rfl

abbrev main_part9_ops0 : List (HloOp τ sig (Elt F)) :=
  [ StableHlo.nullary main_c_147 (constantI S_ 32 256#32),
    StableHlo.unary main_c_147 main_v391 (broadcastInDim S1000000 ![] bcast_S_S1000000 : (⟨S_, .i32⟩ : BufTy).Contents (Elt F) → (⟨S1000000, .i32⟩ : BufTy).Contents (Elt F)),
    StableHlo.binary main_v383 main_v391 main_v392 (addi : (⟨S1000000, .i32⟩ : BufTy).Contents (Elt F) → (⟨S1000000, .i32⟩ : BufTy).Contents (Elt F) → (⟨S1000000, .i32⟩ : BufTy).Contents (Elt F)),
    StableHlo.ternary main_v390 main_v392 main_v383 main_v393 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v388 main_v394 (broadcastInDim S1000000x1 ![0] bcast_S1000000_S1000000x1_0 : (⟨S1000000, .i32⟩ : BufTy).Contents (Elt F) → (⟨S1000000x1, .i32⟩ : BufTy).Contents (Elt F)),
    StableHlo.unary main_v393 main_v395 (broadcastInDim S1000000x1 ![0] bcast_S1000000_S1000000x1_0 : (⟨S1000000, .i32⟩ : BufTy).Contents (Elt F) → (⟨S1000000x1, .i32⟩ : BufTy).Contents (Elt F)),
    StableHlo.binary main_v394 main_v395 main_v396 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg3 main_v396 main_v397 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v381 main_v398 (broadcastInDim S1x1000000 ![1] bcast_S1000000_S1x1000000_1 : (⟨S1000000, .i1⟩ : BufTy).Contents (Elt F) → (⟨S1x1000000, .i1⟩ : BufTy).Contents (Elt F)),
    StableHlo.nullary main_cst_148 (constant S_ .f32 0x00000000#32) ]
theorem main_part9_ops0_sub : (main_part9_ops0 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part9_ops0_fresh : (main_part9_ops0 : List (HloOp τ sig (Elt F))).Forall fun op => op.fresh = ∅ := by
  simp only [List.Forall]; repeat' constructor
abbrev main_part9_ops1 : List (HloOp τ sig (Elt F)) :=
  [ StableHlo.TRef.unary (.of main_cst_148 : StableHlo.TRef sig ⟨S_, .f32⟩) (.of main_call26_v0 : StableHlo.TRef sig ⟨S_, .f32⟩) id,
    StableHlo.TRef.unary (.of main_v398 : StableHlo.TRef sig ⟨S1x1000000, .i1⟩) (.of main_call26_v1 : StableHlo.TRef sig ⟨S24x1000000, .i1⟩) (broadcastInDim S24x1000000 ![0, 1] bcast_S1x1000000_S24x1000000_0_1),
    StableHlo.TRef.unary (.of main_call26_v0 : StableHlo.TRef sig ⟨S_, .f32⟩) (.of main_call26_v2 : StableHlo.TRef sig ⟨S24x1000000, .f32⟩) (broadcastInDim S24x1000000 ![] bcast_S_S24x1000000),
    StableHlo.TRef.ternary (.of main_call26_v1 : StableHlo.TRef sig ⟨S24x1000000, .i1⟩) (.of main_v397 : StableHlo.TRef sig ⟨S24x1000000, .f32⟩) (.of main_call26_v2 : StableHlo.TRef sig ⟨S24x1000000, .f32⟩) (.of main_v399 : StableHlo.TRef sig ⟨S24x1000000, .f32⟩) select ]
theorem main_part9_ops1_sub : (main_part9_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part9_ops1_fresh : (main_part9_ops1 : List (HloOp τ sig (Elt F))).Forall fun op => op.fresh = ∅ := by
  simp only [List.Forall]; repeat' constructor
abbrev main_part9_ops2 : List (HloOp τ sig (Elt F)) :=
  [ StableHlo.nullary main_cst_149 (constant S_ .f32 0x3F800000#32),
    StableHlo.unary main_cst_149 main_v400 (broadcastInDim S1000000 ![] bcast_S_S1000000 : (⟨S_, .f32⟩ : BufTy).Contents (Elt F) → (⟨S1000000, .f32⟩ : BufTy).Contents (Elt F)),
    StableHlo.binary main_v400 main_v363 main_v401 (subf : (⟨S1000000, .f32⟩ : BufTy).Contents (Elt F) → (⟨S1000000, .f32⟩ : BufTy).Contents (Elt F) → (⟨S1000000, .f32⟩ : BufTy).Contents (Elt F)),
    StableHlo.nullary main_cst_150 (constant S_ .f32 0x3F800000#32),
    StableHlo.unary main_cst_150 main_v402 (broadcastInDim S1000000 ![] bcast_S_S1000000 : (⟨S_, .f32⟩ : BufTy).Contents (Elt F) → (⟨S1000000, .f32⟩ : BufTy).Contents (Elt F)),
    StableHlo.binary main_v402 main_v364 main_v403 (subf : (⟨S1000000, .f32⟩ : BufTy).Contents (Elt F) → (⟨S1000000, .f32⟩ : BufTy).Contents (Elt F) → (⟨S1000000, .f32⟩ : BufTy).Contents (Elt F)),
    StableHlo.binary main_v401 main_v403 main_v404 (mulf : (⟨S1000000, .f32⟩ : BufTy).Contents (Elt F) → (⟨S1000000, .f32⟩ : BufTy).Contents (Elt F) → (⟨S1000000, .f32⟩ : BufTy).Contents (Elt F)),
    StableHlo.unary main_v404 main_v405 (broadcastInDim S1x1000000 ![1] bcast_S1000000_S1x1000000_1 : (⟨S1000000, .f32⟩ : BufTy).Contents (Elt F) → (⟨S1x1000000, .f32⟩ : BufTy).Contents (Elt F)),
    StableHlo.unary main_v405 main_v406 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v399 main_v406 main_v407 (mulf : (⟨S24x1000000, .f32⟩ : BufTy).Contents (Elt F) → (⟨S24x1000000, .f32⟩ : BufTy).Contents (Elt F) → (⟨S24x1000000, .f32⟩ : BufTy).Contents (Elt F)),
    StableHlo.nullary main_c_151 (constantI S_ 32 0#32),
    StableHlo.unary main_c_151 main_v408 (broadcastInDim S1000000 ![] bcast_S_S1000000 : (⟨S_, .i32⟩ : BufTy).Contents (Elt F) → (⟨S1000000, .i32⟩ : BufTy).Contents (Elt F)),
    StableHlo.binary main_v365 main_v408 main_v409 (cmpi .sge : (⟨S1000000, .i32⟩ : BufTy).Contents (Elt F) → (⟨S1000000, .i32⟩ : BufTy).Contents (Elt F) → (⟨S1000000, .i1⟩ : BufTy).Contents (Elt F)),
    StableHlo.nullary main_c_152 (constantI S_ 32 256#32),
    StableHlo.unary main_c_152 main_v410 (broadcastInDim S1000000 ![] bcast_S_S1000000 : (⟨S_, .i32⟩ : BufTy).Contents (Elt F) → (⟨S1000000, .i32⟩ : BufTy).Contents (Elt F)),
    StableHlo.binary main_v365 main_v410 main_v411 (cmpi .slt : (⟨S1000000, .i32⟩ : BufTy).Contents (Elt F) → (⟨S1000000, .i32⟩ : BufTy).Contents (Elt F) → (⟨S1000000, .i1⟩ : BufTy).Contents (Elt F)),
    StableHlo.binary main_v409 main_v411 main_v412 (andi : (⟨S1000000, .i1⟩ : BufTy).Contents (Elt F) → (⟨S1000000, .i1⟩ : BufTy).Contents (Elt F) → (⟨S1000000, .i1⟩ : BufTy).Contents (Elt F)),
    StableHlo.nullary main_c_153 (constantI S_ 32 0#32),
    StableHlo.unary main_c_153 main_v413 (broadcastInDim S1000000 ![] bcast_S_S1000000 : (⟨S_, .i32⟩ : BufTy).Contents (Elt F) → (⟨S1000000, .i32⟩ : BufTy).Contents (Elt F)),
    StableHlo.binary main_v370 main_v413 main_v414 (cmpi .sge : (⟨S1000000, .i32⟩ : BufTy).Contents (Elt F) → (⟨S1000000, .i32⟩ : BufTy).Contents (Elt F) → (⟨S1000000, .i1⟩ : BufTy).Contents (Elt F)),
    StableHlo.binary main_v412 main_v414 main_v415 (andi : (⟨S1000000, .i1⟩ : BufTy).Contents (Elt F) → (⟨S1000000, .i1⟩ : BufTy).Contents (Elt F) → (⟨S1000000, .i1⟩ : BufTy).Contents (Elt F)),
    StableHlo.nullary main_c_154 (constantI S_ 32 256#32),
    StableHlo.unary main_c_154 main_v416 (broadcastInDim S1000000 ![] bcast_S_S1000000 : (⟨S_, .i32⟩ : BufTy).Contents (Elt F) → (⟨S1000000, .i32⟩ : BufTy).Contents (Elt F)),
    StableHlo.binary main_v370 main_v416 main_v417 (cmpi .slt : (⟨S1000000, .i32⟩ : BufTy).Contents (Elt F) → (⟨S1000000, .i32⟩ : BufTy).Contents (Elt F) → (⟨S1000000, .i1⟩ : BufTy).Contents (Elt F)),
    StableHlo.binary main_v415 main_v417 main_v418 (andi : (⟨S1000000, .i1⟩ : BufTy).Contents (Elt F) → (⟨S1000000, .i1⟩ : BufTy).Contents (Elt F) → (⟨S1000000, .i1⟩ : BufTy).Contents (Elt F)),
    StableHlo.nullary main_c_155 (constantI S_ 32 0#32),
    StableHlo.nullary main_c_156 (constantI S_ 32 255#32) ]
theorem main_part9_ops2_sub : (main_part9_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part9_ops2_fresh : (main_part9_ops2 : List (HloOp τ sig (Elt F))).Forall fun op => op.fresh = ∅ := by
  simp only [List.Forall]; repeat' constructor
abbrev main_part9_ops3 : List (HloOp τ sig (Elt F)) :=
  [ StableHlo.TRef.unary (.of main_c_155 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S1000000, .i32⟩) (broadcastInDim S1000000 ![] bcast_S_S1000000),
    StableHlo.TRef.binary (.of main_call27_v1 : StableHlo.TRef sig ⟨S1000000, .i32⟩) (.of main_v365 : StableHlo.TRef sig ⟨S1000000, .i32⟩) (.of main_call27_v2 : StableHlo.TRef sig ⟨S1000000, .i32⟩) maxsi,
    StableHlo.TRef.unary (.of main_c_156 : StableHlo.TRef sig ⟨S_, .i32⟩) (.of main_call27_v3 : StableHlo.TRef sig ⟨S_, .i32⟩) id,
    StableHlo.TRef.unary (.of main_call27_v3 : StableHlo.TRef sig ⟨S_, .i32⟩) (.of main_call27_v4 : StableHlo.TRef sig ⟨S1000000, .i32⟩) (broadcastInDim S1000000 ![] bcast_S_S1000000),
    StableHlo.TRef.binary (.of main_call27_v4 : StableHlo.TRef sig ⟨S1000000, .i32⟩) (.of main_call27_v2 : StableHlo.TRef sig ⟨S1000000, .i32⟩) (.of main_v419 : StableHlo.TRef sig ⟨S1000000, .i32⟩) minsi ]
theorem main_part9_ops3_sub : (main_part9_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part9_ops3_fresh : (main_part9_ops3 : List (HloOp τ sig (Elt F))).Forall fun op => op.fresh = ∅ := by
  simp only [List.Forall]; repeat' constructor
abbrev main_part9_ops4 : List (HloOp τ sig (Elt F)) :=
  [ StableHlo.nullary main_c_157 (constantI S_ 32 0#32),
    StableHlo.nullary main_c_158 (constantI S_ 32 255#32) ]
theorem main_part9_ops4_sub : (main_part9_ops4 : List (HloOp τ sig (Elt F))).Forall fun op => op.bufs ⊆ StableHlo.tcRefs τ sig :=
  ⟨StableHlo.nullary_bufs_sub .., StableHlo.nullary_bufs_sub ..⟩
theorem main_part9_ops4_fresh : (main_part9_ops4 : List (HloOp τ sig (Elt F))).Forall fun op => op.fresh = ∅ := by
  simp only [List.Forall]; repeat' constructor
abbrev main_part9_ops5 : List (HloOp τ sig (Elt F)) :=
  [ StableHlo.TRef.unary (.of main_c_157 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S1000000, .i32⟩) (broadcastInDim S1000000 ![] bcast_S_S1000000),
    StableHlo.TRef.binary (.of main_call28_v1 : StableHlo.TRef sig ⟨S1000000, .i32⟩) (.of main_v370 : StableHlo.TRef sig ⟨S1000000, .i32⟩) (.of main_call28_v2 : StableHlo.TRef sig ⟨S1000000, .i32⟩) maxsi,
    StableHlo.TRef.unary (.of main_c_158 : StableHlo.TRef sig ⟨S_, .i32⟩) (.of main_call28_v3 : StableHlo.TRef sig ⟨S_, .i32⟩) id,
    StableHlo.TRef.unary (.of main_call28_v3 : StableHlo.TRef sig ⟨S_, .i32⟩) (.of main_call28_v4 : StableHlo.TRef sig ⟨S1000000, .i32⟩) (broadcastInDim S1000000 ![] bcast_S_S1000000),
    StableHlo.TRef.binary (.of main_call28_v4 : StableHlo.TRef sig ⟨S1000000, .i32⟩) (.of main_call28_v2 : StableHlo.TRef sig ⟨S1000000, .i32⟩) (.of main_v420 : StableHlo.TRef sig ⟨S1000000, .i32⟩) minsi ]
theorem main_part9_ops5_sub : (main_part9_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part9_ops5_fresh : (main_part9_ops5 : List (HloOp τ sig (Elt F))).Forall fun op => op.fresh = ∅ := by
  simp only [List.Forall]; repeat' constructor
abbrev main_part9_ops6 : List (HloOp τ sig (Elt F)) :=
  [ StableHlo.nullary main_c_159 (constantI S_ 32 0#32),
    StableHlo.unary main_c_159 main_v421 (broadcastInDim S1000000 ![] bcast_S_S1000000 : (⟨S_, .i32⟩ : BufTy).Contents (Elt F) → (⟨S1000000, .i32⟩ : BufTy).Contents (Elt F)),
    StableHlo.binary main_v419 main_v421 main_v422 (cmpi .slt : (⟨S1000000, .i32⟩ : BufTy).Contents (Elt F) → (⟨S1000000, .i32⟩ : BufTy).Contents (Elt F) → (⟨S1000000, .i1⟩ : BufTy).Contents (Elt F)),
    StableHlo.nullary main_c_160 (constantI S_ 32 256#32),
    StableHlo.unary main_c_160 main_v423 (broadcastInDim S1000000 ![] bcast_S_S1000000 : (⟨S_, .i32⟩ : BufTy).Contents (Elt F) → (⟨S1000000, .i32⟩ : BufTy).Contents (Elt F)),
    StableHlo.binary main_v419 main_v423 main_v424 (addi : (⟨S1000000, .i32⟩ : BufTy).Contents (Elt F) → (⟨S1000000, .i32⟩ : BufTy).Contents (Elt F) → (⟨S1000000, .i32⟩ : BufTy).Contents (Elt F)),
    StableHlo.ternary main_v422 main_v424 main_v419 main_v425 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_161 (constantI S_ 32 0#32),
    StableHlo.unary main_c_161 main_v426 (broadcastInDim S1000000 ![] bcast_S_S1000000 : (⟨S_, .i32⟩ : BufTy).Contents (Elt F) → (⟨S1000000, .i32⟩ : BufTy).Contents (Elt F)),
    StableHlo.binary main_v420 main_v426 main_v427 (cmpi .slt : (⟨S1000000, .i32⟩ : BufTy).Contents (Elt F) → (⟨S1000000, .i32⟩ : BufTy).Contents (Elt F) → (⟨S1000000, .i1⟩ : BufTy).Contents (Elt F)),
    StableHlo.nullary main_c_162 (constantI S_ 32 256#32),
    StableHlo.unary main_c_162 main_v428 (broadcastInDim S1000000 ![] bcast_S_S1000000 : (⟨S_, .i32⟩ : BufTy).Contents (Elt F) → (⟨S1000000, .i32⟩ : BufTy).Contents (Elt F)),
    StableHlo.binary main_v420 main_v428 main_v429 (addi : (⟨S1000000, .i32⟩ : BufTy).Contents (Elt F) → (⟨S1000000, .i32⟩ : BufTy).Contents (Elt F) → (⟨S1000000, .i32⟩ : BufTy).Contents (Elt F)),
    StableHlo.ternary main_v427 main_v429 main_v420 main_v430 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v425 main_v431 (broadcastInDim S1000000x1 ![0] bcast_S1000000_S1000000x1_0 : (⟨S1000000, .i32⟩ : BufTy).Contents (Elt F) → (⟨S1000000x1, .i32⟩ : BufTy).Contents (Elt F)),
    StableHlo.unary main_v430 main_v432 (broadcastInDim S1000000x1 ![0] bcast_S1000000_S1000000x1_0 : (⟨S1000000, .i32⟩ : BufTy).Contents (Elt F) → (⟨S1000000x1, .i32⟩ : BufTy).Contents (Elt F)),
    StableHlo.binary main_v431 main_v432 main_v433 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg3 main_v433 main_v434 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)) ]
theorem main_part9_ops6_sub : (main_part9_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
theorem main_part9_ops6_fresh : (main_part9_ops6 : List (HloOp τ sig (Elt F))).Forall fun op => op.fresh = ∅ := by
  simp only [List.Forall]; repeat' constructor
theorem main_part9_chain (c : Dev nD) : main_part9 (F := F) c = (Pipeline.chainK
  [ StableHlo.seq main_part9_ops0,
    StableHlo.seq main_part9_ops1,
    StableHlo.seq main_part9_ops2,
    StableHlo.seq main_part9_ops3,
    StableHlo.seq main_part9_ops4,
    StableHlo.seq main_part9_ops5 ]
  (StableHlo.seq main_part9_ops6) : Prog (TpuEff nD τ sig (Elt F) (Pipeline.Sig Λ₀ (Fin 0) fun p => (pcfgs (F := F) p).Adm) .tc) PUnit) := by
  chain_rfl

abbrev main_part10_ops0 : List (HloOp τ sig (Elt F)) :=
  [ StableHlo.unary main_v418 main_v435 (broadcastInDim S1x1000000 ![1] bcast_S1000000_S1x1000000_1 : (⟨S1000000, .i1⟩ : BufTy).Contents (Elt F) → (⟨S1x1000000, .i1⟩ : BufTy).Contents (Elt F)),
    StableHlo.nullary main_cst_163 (constant S_ .f32 0x00000000#32) ]
theorem main_part10_ops0_sub : (main_part10_ops0 : List (HloOp τ sig (Elt F))).Forall fun op => op.bufs ⊆ StableHlo.tcRefs τ sig :=
  ⟨StableHlo.unary_bufs_sub .., StableHlo.nullary_bufs_sub ..⟩
theorem main_part10_ops0_fresh : (main_part10_ops0 : List (HloOp τ sig (Elt F))).Forall fun op => op.fresh = ∅ := by
  simp only [List.Forall]; repeat' constructor
abbrev main_part10_ops1 : List (HloOp τ sig (Elt F)) :=
  [ StableHlo.TRef.unary (.of main_cst_163 : StableHlo.TRef sig ⟨S_, .f32⟩) (.of main_call29_v0 : StableHlo.TRef sig ⟨S_, .f32⟩) id,
    StableHlo.TRef.unary (.of main_v435 : StableHlo.TRef sig ⟨S1x1000000, .i1⟩) (.of main_call29_v1 : StableHlo.TRef sig ⟨S24x1000000, .i1⟩) (broadcastInDim S24x1000000 ![0, 1] bcast_S1x1000000_S24x1000000_0_1),
    StableHlo.TRef.unary (.of main_call29_v0 : StableHlo.TRef sig ⟨S_, .f32⟩) (.of main_call29_v2 : StableHlo.TRef sig ⟨S24x1000000, .f32⟩) (broadcastInDim S24x1000000 ![] bcast_S_S24x1000000),
    StableHlo.TRef.ternary (.of main_call29_v1 : StableHlo.TRef sig ⟨S24x1000000, .i1⟩) (.of main_v434 : StableHlo.TRef sig ⟨S24x1000000, .f32⟩) (.of main_call29_v2 : StableHlo.TRef sig ⟨S24x1000000, .f32⟩) (.of main_v436 : StableHlo.TRef sig ⟨S24x1000000, .f32⟩) select ]
theorem main_part10_ops1_sub : (main_part10_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part10_ops1_fresh : (main_part10_ops1 : List (HloOp τ sig (Elt F))).Forall fun op => op.fresh = ∅ := by
  simp only [List.Forall]; repeat' constructor
abbrev main_part10_ops2 : List (HloOp τ sig (Elt F)) :=
  [ StableHlo.nullary main_cst_164 (constant S_ .f32 0x3F800000#32),
    StableHlo.unary main_cst_164 main_v437 (broadcastInDim S1000000 ![] bcast_S_S1000000 : (⟨S_, .f32⟩ : BufTy).Contents (Elt F) → (⟨S1000000, .f32⟩ : BufTy).Contents (Elt F)),
    StableHlo.binary main_v437 main_v363 main_v438 (subf : (⟨S1000000, .f32⟩ : BufTy).Contents (Elt F) → (⟨S1000000, .f32⟩ : BufTy).Contents (Elt F) → (⟨S1000000, .f32⟩ : BufTy).Contents (Elt F)),
    StableHlo.binary main_v438 main_v364 main_v439 (mulf : (⟨S1000000, .f32⟩ : BufTy).Contents (Elt F) → (⟨S1000000, .f32⟩ : BufTy).Contents (Elt F) → (⟨S1000000, .f32⟩ : BufTy).Contents (Elt F)),
    StableHlo.unary main_v439 main_v440 (broadcastInDim S1x1000000 ![1] bcast_S1000000_S1x1000000_1 : (⟨S1000000, .f32⟩ : BufTy).Contents (Elt F) → (⟨S1x1000000, .f32⟩ : BufTy).Contents (Elt F)),
    StableHlo.unary main_v440 main_v441 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v436 main_v441 main_v442 (mulf : (⟨S24x1000000, .f32⟩ : BufTy).Contents (Elt F) → (⟨S24x1000000, .f32⟩ : BufTy).Contents (Elt F) → (⟨S24x1000000, .f32⟩ : BufTy).Contents (Elt F)),
    StableHlo.binary main_v407 main_v442 main_v443 (addf : (⟨S24x1000000, .f32⟩ : BufTy).Contents (Elt F) → (⟨S24x1000000, .f32⟩ : BufTy).Contents (Elt F) → (⟨S24x1000000, .f32⟩ : BufTy).Contents (Elt F)),
    StableHlo.nullary main_c_165 (constantI S_ 32 0#32),
    StableHlo.unary main_c_165 main_v444 (broadcastInDim S1000000 ![] bcast_S_S1000000 : (⟨S_, .i32⟩ : BufTy).Contents (Elt F) → (⟨S1000000, .i32⟩ : BufTy).Contents (Elt F)),
    StableHlo.binary main_v368 main_v444 main_v445 (cmpi .sge : (⟨S1000000, .i32⟩ : BufTy).Contents (Elt F) → (⟨S1000000, .i32⟩ : BufTy).Contents (Elt F) → (⟨S1000000, .i1⟩ : BufTy).Contents (Elt F)),
    StableHlo.nullary main_c_166 (constantI S_ 32 256#32),
    StableHlo.unary main_c_166 main_v446 (broadcastInDim S1000000 ![] bcast_S_S1000000 : (⟨S_, .i32⟩ : BufTy).Contents (Elt F) → (⟨S1000000, .i32⟩ : BufTy).Contents (Elt F)),
    StableHlo.binary main_v368 main_v446 main_v447 (cmpi .slt : (⟨S1000000, .i32⟩ : BufTy).Contents (Elt F) → (⟨S1000000, .i32⟩ : BufTy).Contents (Elt F) → (⟨S1000000, .i1⟩ : BufTy).Contents (Elt F)),
    StableHlo.binary main_v445 main_v447 main_v448 (andi : (⟨S1000000, .i1⟩ : BufTy).Contents (Elt F) → (⟨S1000000, .i1⟩ : BufTy).Contents (Elt F) → (⟨S1000000, .i1⟩ : BufTy).Contents (Elt F)),
    StableHlo.nullary main_c_167 (constantI S_ 32 0#32),
    StableHlo.unary main_c_167 main_v449 (broadcastInDim S1000000 ![] bcast_S_S1000000 : (⟨S_, .i32⟩ : BufTy).Contents (Elt F) → (⟨S1000000, .i32⟩ : BufTy).Contents (Elt F)),
    StableHlo.binary main_v366 main_v449 main_v450 (cmpi .sge : (⟨S1000000, .i32⟩ : BufTy).Contents (Elt F) → (⟨S1000000, .i32⟩ : BufTy).Contents (Elt F) → (⟨S1000000, .i1⟩ : BufTy).Contents (Elt F)),
    StableHlo.binary main_v448 main_v450 main_v451 (andi : (⟨S1000000, .i1⟩ : BufTy).Contents (Elt F) → (⟨S1000000, .i1⟩ : BufTy).Contents (Elt F) → (⟨S1000000, .i1⟩ : BufTy).Contents (Elt F)),
    StableHlo.nullary main_c_168 (constantI S_ 32 256#32),
    StableHlo.unary main_c_168 main_v452 (broadcastInDim S1000000 ![] bcast_S_S1000000 : (⟨S_, .i32⟩ : BufTy).Contents (Elt F) → (⟨S1000000, .i32⟩ : BufTy).Contents (Elt F)),
    StableHlo.binary main_v366 main_v452 main_v453 (cmpi .slt : (⟨S1000000, .i32⟩ : BufTy).Contents (Elt F) → (⟨S1000000, .i32⟩ : BufTy).Contents (Elt F) → (⟨S1000000, .i1⟩ : BufTy).Contents (Elt F)),
    StableHlo.binary main_v451 main_v453 main_v454 (andi : (⟨S1000000, .i1⟩ : BufTy).Contents (Elt F) → (⟨S1000000, .i1⟩ : BufTy).Contents (Elt F) → (⟨S1000000, .i1⟩ : BufTy).Contents (Elt F)),
    StableHlo.nullary main_c_169 (constantI S_ 32 0#32),
    StableHlo.nullary main_c_170 (constantI S_ 32 255#32) ]
theorem main_part10_ops2_sub : (main_part10_ops2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part10_ops2_fresh : (main_part10_ops2 : List (HloOp τ sig (Elt F))).Forall fun op => op.fresh = ∅ := by
  simp only [List.Forall]; repeat' constructor
abbrev main_part10_ops3 : List (HloOp τ sig (Elt F)) :=
  [ StableHlo.TRef.unary (.of main_c_169 : StableHlo.TRef sig ⟨S_, .i32⟩) (.of main_call30_v0 : StableHlo.TRef sig ⟨S_, .i32⟩) id,
    StableHlo.TRef.unary (.of main_call30_v0 : StableHlo.TRef sig ⟨S_, .i32⟩) (.of main_call30_v1 : StableHlo.TRef sig ⟨S1000000, .i32⟩) (broadcastInDim S1000000 ![] bcast_S_S1000000),
    StableHlo.TRef.binary (.of main_call30_v1 : StableHlo.TRef sig ⟨S1000000, .i32⟩) (.of main_v368 : StableHlo.TRef sig ⟨S1000000, .i32⟩) (.of main_call30_v2 : StableHlo.TRef sig ⟨S1000000, .i32⟩) maxsi,
    StableHlo.TRef.unary (.of main_c_170 : StableHlo.TRef sig ⟨S_, .i32⟩) (.of main_call30_v3 : StableHlo.TRef sig ⟨S_, .i32⟩) id,
    StableHlo.TRef.unary (.of main_call30_v3 : StableHlo.TRef sig ⟨S_, .i32⟩) (.of main_call30_v4 : StableHlo.TRef sig ⟨S1000000, .i32⟩) (broadcastInDim S1000000 ![] bcast_S_S1000000),
    StableHlo.TRef.binary (.of main_call30_v4 : StableHlo.TRef sig ⟨S1000000, .i32⟩) (.of main_call30_v2 : StableHlo.TRef sig ⟨S1000000, .i32⟩) (.of main_v455 : StableHlo.TRef sig ⟨S1000000, .i32⟩) minsi ]
theorem main_part10_ops3_sub : (main_part10_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part10_ops3_fresh : (main_part10_ops3 : List (HloOp τ sig (Elt F))).Forall fun op => op.fresh = ∅ := by
  simp only [List.Forall]; repeat' constructor
abbrev main_part10_ops4 : List (HloOp τ sig (Elt F)) :=
  [ StableHlo.nullary main_c_171 (constantI S_ 32 0#32),
    StableHlo.nullary main_c_172 (constantI S_ 32 255#32) ]
theorem main_part10_ops4_sub : (main_part10_ops4 : List (HloOp τ sig (Elt F))).Forall fun op => op.bufs ⊆ StableHlo.tcRefs τ sig :=
  ⟨StableHlo.nullary_bufs_sub .., StableHlo.nullary_bufs_sub ..⟩
theorem main_part10_ops4_fresh : (main_part10_ops4 : List (HloOp τ sig (Elt F))).Forall fun op => op.fresh = ∅ := by
  simp only [List.Forall]; repeat' constructor
abbrev main_part10_ops5 : List (HloOp τ sig (Elt F)) :=
  [ StableHlo.TRef.unary (.of main_c_171 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S1000000, .i32⟩) (broadcastInDim S1000000 ![] bcast_S_S1000000),
    StableHlo.TRef.binary (.of main_call31_v1 : StableHlo.TRef sig ⟨S1000000, .i32⟩) (.of main_v366 : StableHlo.TRef sig ⟨S1000000, .i32⟩) (.of main_call31_v2 : StableHlo.TRef sig ⟨S1000000, .i32⟩) maxsi,
    StableHlo.TRef.unary (.of main_c_172 : StableHlo.TRef sig ⟨S_, .i32⟩) (.of main_call31_v3 : StableHlo.TRef sig ⟨S_, .i32⟩) id,
    StableHlo.TRef.unary (.of main_call31_v3 : StableHlo.TRef sig ⟨S_, .i32⟩) (.of main_call31_v4 : StableHlo.TRef sig ⟨S1000000, .i32⟩) (broadcastInDim S1000000 ![] bcast_S_S1000000),
    StableHlo.TRef.binary (.of main_call31_v4 : StableHlo.TRef sig ⟨S1000000, .i32⟩) (.of main_call31_v2 : StableHlo.TRef sig ⟨S1000000, .i32⟩) (.of main_v456 : StableHlo.TRef sig ⟨S1000000, .i32⟩) minsi ]
theorem main_part10_ops5_sub : (main_part10_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part10_ops5_fresh : (main_part10_ops5 : List (HloOp τ sig (Elt F))).Forall fun op => op.fresh = ∅ := by
  simp only [List.Forall]; repeat' constructor
abbrev main_part10_ops6 : List (HloOp τ sig (Elt F)) :=
  [ StableHlo.nullary main_c_173 (constantI S_ 32 0#32),
    StableHlo.unary main_c_173 main_v457 (broadcastInDim S1000000 ![] bcast_S_S1000000 : (⟨S_, .i32⟩ : BufTy).Contents (Elt F) → (⟨S1000000, .i32⟩ : BufTy).Contents (Elt F)),
    StableHlo.binary main_v455 main_v457 main_v458 (cmpi .slt : (⟨S1000000, .i32⟩ : BufTy).Contents (Elt F) → (⟨S1000000, .i32⟩ : BufTy).Contents (Elt F) → (⟨S1000000, .i1⟩ : BufTy).Contents (Elt F)),
    StableHlo.nullary main_c_174 (constantI S_ 32 256#32),
    StableHlo.unary main_c_174 main_v459 (broadcastInDim S1000000 ![] bcast_S_S1000000 : (⟨S_, .i32⟩ : BufTy).Contents (Elt F) → (⟨S1000000, .i32⟩ : BufTy).Contents (Elt F)),
    StableHlo.binary main_v455 main_v459 main_v460 (addi : (⟨S1000000, .i32⟩ : BufTy).Contents (Elt F) → (⟨S1000000, .i32⟩ : BufTy).Contents (Elt F) → (⟨S1000000, .i32⟩ : BufTy).Contents (Elt F)),
    StableHlo.ternary main_v458 main_v460 main_v455 main_v461 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_175 (constantI S_ 32 0#32),
    StableHlo.unary main_c_175 main_v462 (broadcastInDim S1000000 ![] bcast_S_S1000000 : (⟨S_, .i32⟩ : BufTy).Contents (Elt F) → (⟨S1000000, .i32⟩ : BufTy).Contents (Elt F)),
    StableHlo.binary main_v456 main_v462 main_v463 (cmpi .slt : (⟨S1000000, .i32⟩ : BufTy).Contents (Elt F) → (⟨S1000000, .i32⟩ : BufTy).Contents (Elt F) → (⟨S1000000, .i1⟩ : BufTy).Contents (Elt F)),
    StableHlo.nullary main_c_176 (constantI S_ 32 256#32),
    StableHlo.unary main_c_176 main_v464 (broadcastInDim S1000000 ![] bcast_S_S1000000 : (⟨S_, .i32⟩ : BufTy).Contents (Elt F) → (⟨S1000000, .i32⟩ : BufTy).Contents (Elt F)),
    StableHlo.binary main_v456 main_v464 main_v465 (addi : (⟨S1000000, .i32⟩ : BufTy).Contents (Elt F) → (⟨S1000000, .i32⟩ : BufTy).Contents (Elt F) → (⟨S1000000, .i32⟩ : BufTy).Contents (Elt F)),
    StableHlo.ternary main_v463 main_v465 main_v456 main_v466 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v461 main_v467 (broadcastInDim S1000000x1 ![0] bcast_S1000000_S1000000x1_0 : (⟨S1000000, .i32⟩ : BufTy).Contents (Elt F) → (⟨S1000000x1, .i32⟩ : BufTy).Contents (Elt F)),
    StableHlo.unary main_v466 main_v468 (broadcastInDim S1000000x1 ![0] bcast_S1000000_S1000000x1_0 : (⟨S1000000, .i32⟩ : BufTy).Contents (Elt F) → (⟨S1000000x1, .i32⟩ : BufTy).Contents (Elt F)),
    StableHlo.binary main_v467 main_v468 main_v469 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg3 main_v469 main_v470 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v454 main_v471 (broadcastInDim S1x1000000 ![1] bcast_S1000000_S1x1000000_1 : (⟨S1000000, .i1⟩ : BufTy).Contents (Elt F) → (⟨S1x1000000, .i1⟩ : BufTy).Contents (Elt F)),
    StableHlo.nullary main_cst_177 (constant S_ .f32 0x00000000#32) ]
theorem main_part10_ops6_sub : (main_part10_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part10_ops6_fresh : (main_part10_ops6 : List (HloOp τ sig (Elt F))).Forall fun op => op.fresh = ∅ := by
  simp only [List.Forall]; repeat' constructor
abbrev main_part10_ops7 : List (HloOp τ sig (Elt F)) :=
  [ StableHlo.TRef.unary (.of main_cst_177 : StableHlo.TRef sig ⟨S_, .f32⟩) (.of main_call32_v0 : StableHlo.TRef sig ⟨S_, .f32⟩) id,
    StableHlo.TRef.unary (.of main_v471 : StableHlo.TRef sig ⟨S1x1000000, .i1⟩) (.of main_call32_v1 : StableHlo.TRef sig ⟨S24x1000000, .i1⟩) (broadcastInDim S24x1000000 ![0, 1] bcast_S1x1000000_S24x1000000_0_1),
    StableHlo.TRef.unary (.of main_call32_v0 : StableHlo.TRef sig ⟨S_, .f32⟩) (.of main_call32_v2 : StableHlo.TRef sig ⟨S24x1000000, .f32⟩) (broadcastInDim S24x1000000 ![] bcast_S_S24x1000000),
    StableHlo.TRef.ternary (.of main_call32_v1 : StableHlo.TRef sig ⟨S24x1000000, .i1⟩) (.of main_v470 : StableHlo.TRef sig ⟨S24x1000000, .f32⟩) (.of main_call32_v2 : StableHlo.TRef sig ⟨S24x1000000, .f32⟩) (.of main_v472 : StableHlo.TRef sig ⟨S24x1000000, .f32⟩) select ]
theorem main_part10_ops7_sub : (main_part10_ops7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part10_ops7_fresh : (main_part10_ops7 : List (HloOp τ sig (Elt F))).Forall fun op => op.fresh = ∅ := by
  simp only [List.Forall]; repeat' constructor
abbrev main_part10_ops8 : List (HloOp τ sig (Elt F)) :=
  [ StableHlo.nullary main_cst_178 (constant S_ .f32 0x3F800000#32),
    StableHlo.unary main_cst_178 main_v473 (broadcastInDim S1000000 ![] bcast_S_S1000000 : (⟨S_, .f32⟩ : BufTy).Contents (Elt F) → (⟨S1000000, .f32⟩ : BufTy).Contents (Elt F)),
    StableHlo.binary main_v473 main_v364 main_v474 (subf : (⟨S1000000, .f32⟩ : BufTy).Contents (Elt F) → (⟨S1000000, .f32⟩ : BufTy).Contents (Elt F) → (⟨S1000000, .f32⟩ : BufTy).Contents (Elt F)),
    StableHlo.binary main_v363 main_v474 main_v475 (mulf : (⟨S1000000, .f32⟩ : BufTy).Contents (Elt F) → (⟨S1000000, .f32⟩ : BufTy).Contents (Elt F) → (⟨S1000000, .f32⟩ : BufTy).Contents (Elt F)),
    StableHlo.unary main_v475 main_v476 (broadcastInDim S1x1000000 ![1] bcast_S1000000_S1x1000000_1 : (⟨S1000000, .f32⟩ : BufTy).Contents (Elt F) → (⟨S1x1000000, .f32⟩ : BufTy).Contents (Elt F)),
    StableHlo.unary main_v476 main_v477 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v472 main_v477 main_v478 (mulf : (⟨S24x1000000, .f32⟩ : BufTy).Contents (Elt F) → (⟨S24x1000000, .f32⟩ : BufTy).Contents (Elt F) → (⟨S24x1000000, .f32⟩ : BufTy).Contents (Elt F)) ]
theorem main_part10_ops8_sub : (main_part10_ops8 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.unary_bufs_sub .., StableHlo.binary_bufs_sub ..⟩
theorem main_part10_ops8_fresh : (main_part10_ops8 : List (HloOp τ sig (Elt F))).Forall fun op => op.fresh = ∅ := by
  simp only [List.Forall]; repeat' constructor
theorem main_part10_chain (c : Dev nD) : main_part10 (F := F) c = (Pipeline.chainK
  [ StableHlo.seq main_part10_ops0,
    StableHlo.seq main_part10_ops1,
    StableHlo.seq main_part10_ops2,
    StableHlo.seq main_part10_ops3,
    StableHlo.seq main_part10_ops4,
    StableHlo.seq main_part10_ops5,
    StableHlo.seq main_part10_ops6,
    StableHlo.seq main_part10_ops7 ]
  (StableHlo.seq main_part10_ops8) : Prog (TpuEff nD τ sig (Elt F) (Pipeline.Sig Λ₀ (Fin 0) fun p => (pcfgs (F := F) p).Adm) .tc) PUnit) := by
  chain_rfl

abbrev main_part11_ops0 : List (HloOp τ sig (Elt F)) :=
  [ StableHlo.binary main_v443 main_v478 main_v479 (addf : (⟨S24x1000000, .f32⟩ : BufTy).Contents (Elt F) → (⟨S24x1000000, .f32⟩ : BufTy).Contents (Elt F) → (⟨S24x1000000, .f32⟩ : BufTy).Contents (Elt F)),
    StableHlo.nullary main_c_179 (constantI S_ 32 0#32),
    StableHlo.unary main_c_179 main_v480 (broadcastInDim S1000000 ![] bcast_S_S1000000 : (⟨S_, .i32⟩ : BufTy).Contents (Elt F) → (⟨S1000000, .i32⟩ : BufTy).Contents (Elt F)),
    StableHlo.binary main_v368 main_v480 main_v481 (cmpi .sge : (⟨S1000000, .i32⟩ : BufTy).Contents (Elt F) → (⟨S1000000, .i32⟩ : BufTy).Contents (Elt F) → (⟨S1000000, .i1⟩ : BufTy).Contents (Elt F)),
    StableHlo.nullary main_c_180 (constantI S_ 32 256#32),
    StableHlo.unary main_c_180 main_v482 (broadcastInDim S1000000 ![] bcast_S_S1000000 : (⟨S_, .i32⟩ : BufTy).Contents (Elt F) → (⟨S1000000, .i32⟩ : BufTy).Contents (Elt F)),
    StableHlo.binary main_v368 main_v482 main_v483 (cmpi .slt : (⟨S1000000, .i32⟩ : BufTy).Contents (Elt F) → (⟨S1000000, .i32⟩ : BufTy).Contents (Elt F) → (⟨S1000000, .i1⟩ : BufTy).Contents (Elt F)),
    StableHlo.binary main_v481 main_v483 main_v484 (andi : (⟨S1000000, .i1⟩ : BufTy).Contents (Elt F) → (⟨S1000000, .i1⟩ : BufTy).Contents (Elt F) → (⟨S1000000, .i1⟩ : BufTy).Contents (Elt F)),
    StableHlo.nullary main_c_181 (constantI S_ 32 0#32),
    StableHlo.unary main_c_181 main_v485 (broadcastInDim S1000000 ![] bcast_S_S1000000 : (⟨S_, .i32⟩ : BufTy).Contents (Elt F) → (⟨S1000000, .i32⟩ : BufTy).Contents (Elt F)),
    StableHlo.binary main_v370 main_v485 main_v486 (cmpi .sge : (⟨S1000000, .i32⟩ : BufTy).Contents (Elt F) → (⟨S1000000, .i32⟩ : BufTy).Contents (Elt F) → (⟨S1000000, .i1⟩ : BufTy).Contents (Elt F)),
    StableHlo.binary main_v484 main_v486 main_v487 (andi : (⟨S1000000, .i1⟩ : BufTy).Contents (Elt F) → (⟨S1000000, .i1⟩ : BufTy).Contents (Elt F) → (⟨S1000000, .i1⟩ : BufTy).Contents (Elt F)),
    StableHlo.nullary main_c_182 (constantI S_ 32 256#32),
    StableHlo.unary main_c_182 main_v488 (broadcastInDim S1000000 ![] bcast_S_S1000000 : (⟨S_, .i32⟩ : BufTy).Contents (Elt F) → (⟨S1000000, .i32⟩ : BufTy).Contents (Elt F)),
    StableHlo.binary main_v370 main_v488 main_v489 (cmpi .slt : (⟨S1000000, .i32⟩ : BufTy).Contents (Elt F) → (⟨S1000000, .i32⟩ : BufTy).Contents (Elt F) → (⟨S1000000, .i1⟩ : BufTy).Contents (Elt F)),
    StableHlo.binary main_v487 main_v489 main_v490 (andi : (⟨S1000000, .i1⟩ : BufTy).Contents (Elt F) → (⟨S1000000, .i1⟩ : BufTy).Contents (Elt F) → (⟨S1000000, .i1⟩ : BufTy).Contents (Elt F)),
    StableHlo.nullary main_c_183 (constantI S_ 32 0#32),
    StableHlo.nullary main_c_184 (constantI S_ 32 255#32) ]
theorem main_part11_ops0_sub : (main_part11_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part11_ops0_fresh : (main_part11_ops0 : List (HloOp τ sig (Elt F))).Forall fun op => op.fresh = ∅ := by
  simp only [List.Forall]; repeat' constructor
abbrev main_part11_ops1 : List (HloOp τ sig (Elt F)) :=
  [ StableHlo.TRef.unary (.of main_c_183 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S1000000, .i32⟩) (broadcastInDim S1000000 ![] bcast_S_S1000000),
    StableHlo.TRef.binary (.of main_call33_v1 : StableHlo.TRef sig ⟨S1000000, .i32⟩) (.of main_v368 : StableHlo.TRef sig ⟨S1000000, .i32⟩) (.of main_call33_v2 : StableHlo.TRef sig ⟨S1000000, .i32⟩) maxsi,
    StableHlo.TRef.unary (.of main_c_184 : StableHlo.TRef sig ⟨S_, .i32⟩) (.of main_call33_v3 : StableHlo.TRef sig ⟨S_, .i32⟩) id,
    StableHlo.TRef.unary (.of main_call33_v3 : StableHlo.TRef sig ⟨S_, .i32⟩) (.of main_call33_v4 : StableHlo.TRef sig ⟨S1000000, .i32⟩) (broadcastInDim S1000000 ![] bcast_S_S1000000),
    StableHlo.TRef.binary (.of main_call33_v4 : StableHlo.TRef sig ⟨S1000000, .i32⟩) (.of main_call33_v2 : StableHlo.TRef sig ⟨S1000000, .i32⟩) (.of main_v491 : StableHlo.TRef sig ⟨S1000000, .i32⟩) minsi ]
theorem main_part11_ops1_sub : (main_part11_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part11_ops1_fresh : (main_part11_ops1 : List (HloOp τ sig (Elt F))).Forall fun op => op.fresh = ∅ := by
  simp only [List.Forall]; repeat' constructor
abbrev main_part11_ops2 : List (HloOp τ sig (Elt F)) :=
  [ StableHlo.nullary main_c_185 (constantI S_ 32 0#32),
    StableHlo.nullary main_c_186 (constantI S_ 32 255#32) ]
theorem main_part11_ops2_sub : (main_part11_ops2 : List (HloOp τ sig (Elt F))).Forall fun op => op.bufs ⊆ StableHlo.tcRefs τ sig :=
  ⟨StableHlo.nullary_bufs_sub .., StableHlo.nullary_bufs_sub ..⟩
theorem main_part11_ops2_fresh : (main_part11_ops2 : List (HloOp τ sig (Elt F))).Forall fun op => op.fresh = ∅ := by
  simp only [List.Forall]; repeat' constructor
abbrev main_part11_ops3 : List (HloOp τ sig (Elt F)) :=
  [ StableHlo.TRef.unary (.of main_c_185 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S1000000, .i32⟩) (broadcastInDim S1000000 ![] bcast_S_S1000000),
    StableHlo.TRef.binary (.of main_call34_v1 : StableHlo.TRef sig ⟨S1000000, .i32⟩) (.of main_v370 : StableHlo.TRef sig ⟨S1000000, .i32⟩) (.of main_call34_v2 : StableHlo.TRef sig ⟨S1000000, .i32⟩) maxsi,
    StableHlo.TRef.unary (.of main_c_186 : StableHlo.TRef sig ⟨S_, .i32⟩) (.of main_call34_v3 : StableHlo.TRef sig ⟨S_, .i32⟩) id,
    StableHlo.TRef.unary (.of main_call34_v3 : StableHlo.TRef sig ⟨S_, .i32⟩) (.of main_call34_v4 : StableHlo.TRef sig ⟨S1000000, .i32⟩) (broadcastInDim S1000000 ![] bcast_S_S1000000),
    StableHlo.TRef.binary (.of main_call34_v4 : StableHlo.TRef sig ⟨S1000000, .i32⟩) (.of main_call34_v2 : StableHlo.TRef sig ⟨S1000000, .i32⟩) (.of main_v492 : StableHlo.TRef sig ⟨S1000000, .i32⟩) minsi ]
theorem main_part11_ops3_sub : (main_part11_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part11_ops3_fresh : (main_part11_ops3 : List (HloOp τ sig (Elt F))).Forall fun op => op.fresh = ∅ := by
  simp only [List.Forall]; repeat' constructor
abbrev main_part11_ops4 : List (HloOp τ sig (Elt F)) :=
  [ StableHlo.nullary main_c_187 (constantI S_ 32 0#32),
    StableHlo.unary main_c_187 main_v493 (broadcastInDim S1000000 ![] bcast_S_S1000000 : (⟨S_, .i32⟩ : BufTy).Contents (Elt F) → (⟨S1000000, .i32⟩ : BufTy).Contents (Elt F)),
    StableHlo.binary main_v491 main_v493 main_v494 (cmpi .slt : (⟨S1000000, .i32⟩ : BufTy).Contents (Elt F) → (⟨S1000000, .i32⟩ : BufTy).Contents (Elt F) → (⟨S1000000, .i1⟩ : BufTy).Contents (Elt F)),
    StableHlo.nullary main_c_188 (constantI S_ 32 256#32),
    StableHlo.unary main_c_188 main_v495 (broadcastInDim S1000000 ![] bcast_S_S1000000 : (⟨S_, .i32⟩ : BufTy).Contents (Elt F) → (⟨S1000000, .i32⟩ : BufTy).Contents (Elt F)),
    StableHlo.binary main_v491 main_v495 main_v496 (addi : (⟨S1000000, .i32⟩ : BufTy).Contents (Elt F) → (⟨S1000000, .i32⟩ : BufTy).Contents (Elt F) → (⟨S1000000, .i32⟩ : BufTy).Contents (Elt F)),
    StableHlo.ternary main_v494 main_v496 main_v491 main_v497 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.nullary main_c_189 (constantI S_ 32 0#32),
    StableHlo.unary main_c_189 main_v498 (broadcastInDim S1000000 ![] bcast_S_S1000000 : (⟨S_, .i32⟩ : BufTy).Contents (Elt F) → (⟨S1000000, .i32⟩ : BufTy).Contents (Elt F)),
    StableHlo.binary main_v492 main_v498 main_v499 (cmpi .slt : (⟨S1000000, .i32⟩ : BufTy).Contents (Elt F) → (⟨S1000000, .i32⟩ : BufTy).Contents (Elt F) → (⟨S1000000, .i1⟩ : BufTy).Contents (Elt F)),
    StableHlo.nullary main_c_190 (constantI S_ 32 256#32),
    StableHlo.unary main_c_190 main_v500 (broadcastInDim S1000000 ![] bcast_S_S1000000 : (⟨S_, .i32⟩ : BufTy).Contents (Elt F) → (⟨S1000000, .i32⟩ : BufTy).Contents (Elt F)),
    StableHlo.binary main_v492 main_v500 main_v501 (addi : (⟨S1000000, .i32⟩ : BufTy).Contents (Elt F) → (⟨S1000000, .i32⟩ : BufTy).Contents (Elt F) → (⟨S1000000, .i32⟩ : BufTy).Contents (Elt F)),
    StableHlo.ternary main_v499 main_v501 main_v492 main_v502 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v497 main_v503 (broadcastInDim S1000000x1 ![0] bcast_S1000000_S1000000x1_0 : (⟨S1000000, .i32⟩ : BufTy).Contents (Elt F) → (⟨S1000000x1, .i32⟩ : BufTy).Contents (Elt F)),
    StableHlo.unary main_v502 main_v504 (broadcastInDim S1000000x1 ![0] bcast_S1000000_S1000000x1_0 : (⟨S1000000, .i32⟩ : BufTy).Contents (Elt F) → (⟨S1000000x1, .i32⟩ : BufTy).Contents (Elt F)),
    StableHlo.binary main_v503 main_v504 main_v505 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    StableHlo.binary main_arg3 main_v505 main_v506 ((fun x i => Host.gather gather_S24x256x256_S1000000x2_S24x1000000_0_12_n_n_12_1_2411 x i) : (⟨S24x256x256, .f32⟩ : BufTy).Contents (Elt F) → (⟨S1000000x2, .i32⟩ : BufTy).Contents (Elt F) → (⟨S24x1000000, .f32⟩ : BufTy).Contents (Elt F)),
    StableHlo.unary main_v490 main_v507 (broadcastInDim S1x1000000 ![1] bcast_S1000000_S1x1000000_1 : (⟨S1000000, .i1⟩ : BufTy).Contents (Elt F) → (⟨S1x1000000, .i1⟩ : BufTy).Contents (Elt F)),
    StableHlo.nullary main_cst_191 (constant S_ .f32 0x00000000#32) ]
theorem main_part11_ops4_sub : (main_part11_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.unary_bufs_sub .., StableHlo.nullary_bufs_sub ..⟩
theorem main_part11_ops4_fresh : (main_part11_ops4 : List (HloOp τ sig (Elt F))).Forall fun op => op.fresh = ∅ := by
  simp only [List.Forall]; repeat' constructor
abbrev main_part11_ops5 : List (HloOp τ sig (Elt F)) :=
  [ StableHlo.TRef.unary (.of main_cst_191 : StableHlo.TRef sig ⟨S_, .f32⟩) (.of main_call35_v0 : StableHlo.TRef sig ⟨S_, .f32⟩) id,
    StableHlo.TRef.unary (.of main_v507 : StableHlo.TRef sig ⟨S1x1000000, .i1⟩) (.of main_call35_v1 : StableHlo.TRef sig ⟨S24x1000000, .i1⟩) (broadcastInDim S24x1000000 ![0, 1] bcast_S1x1000000_S24x1000000_0_1),
    StableHlo.TRef.unary (.of main_call35_v0 : StableHlo.TRef sig ⟨S_, .f32⟩) (.of main_call35_v2 : StableHlo.TRef sig ⟨S24x1000000, .f32⟩) (broadcastInDim S24x1000000 ![] bcast_S_S24x1000000),
    StableHlo.TRef.ternary (.of main_call35_v1 : StableHlo.TRef sig ⟨S24x1000000, .i1⟩) (.of main_v506 : StableHlo.TRef sig ⟨S24x1000000, .f32⟩) (.of main_call35_v2 : StableHlo.TRef sig ⟨S24x1000000, .f32⟩) (.of main_v508 : StableHlo.TRef sig ⟨S24x1000000, .f32⟩) select ]
theorem main_part11_ops5_sub : (main_part11_ops5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part11_ops5_fresh : (main_part11_ops5 : List (HloOp τ sig (Elt F))).Forall fun op => op.fresh = ∅ := by
  simp only [List.Forall]; repeat' constructor
abbrev main_part11_ops6 : List (HloOp τ sig (Elt F)) :=
  [ StableHlo.binary main_v363 main_v364 main_v509 (mulf : (⟨S1000000, .f32⟩ : BufTy).Contents (Elt F) → (⟨S1000000, .f32⟩ : BufTy).Contents (Elt F) → (⟨S1000000, .f32⟩ : BufTy).Contents (Elt F)),
    StableHlo.unary main_v509 main_v510 (broadcastInDim S1x1000000 ![1] bcast_S1000000_S1x1000000_1 : (⟨S1000000, .f32⟩ : BufTy).Contents (Elt F) → (⟨S1x1000000, .f32⟩ : BufTy).Contents (Elt F)),
    StableHlo.unary main_v510 main_v511 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v508 main_v511 main_v512 (mulf : (⟨S24x1000000, .f32⟩ : BufTy).Contents (Elt F) → (⟨S24x1000000, .f32⟩ : BufTy).Contents (Elt F) → (⟨S24x1000000, .f32⟩ : BufTy).Contents (Elt F)),
    StableHlo.binary main_v479 main_v512 main_v513 (addf : (⟨S24x1000000, .f32⟩ : BufTy).Contents (Elt F) → (⟨S24x1000000, .f32⟩ : BufTy).Contents (Elt F) → (⟨S24x1000000, .f32⟩ : BufTy).Contents (Elt F)),
    StableHlo.unary main_v513 main_v514 ((transpose S1000000x24 [1, 0] · transposes_S24x1000000_S1000000x24_1_0) : (⟨S24x1000000, .f32⟩ : BufTy).Contents (Elt F) → (⟨S1000000x24, .f32⟩ : BufTy).Contents (Elt F)),
    StableHlo.nullary main_cst_192 (constant S_ .f32 0x3F800000#32),
    StableHlo.unary main_cst_192 main_v515 (broadcastInDim S1000000 ![] bcast_S_S1000000 : (⟨S_, .f32⟩ : BufTy).Contents (Elt F) → (⟨S1000000, .f32⟩ : BufTy).Contents (Elt F)),
    StableHlo.binary main_v12 main_v515 main_v516 (addf : (⟨S1000000, .f32⟩ : BufTy).Contents (Elt F) → (⟨S1000000, .f32⟩ : BufTy).Contents (Elt F) → (⟨S1000000, .f32⟩ : BufTy).Contents (Elt F)),
    StableHlo.nullary main_cst_193 (constant S_ .f32 0x3F000000#32),
    StableHlo.unary main_cst_193 main_v517 (broadcastInDim S1000000 ![] bcast_S_S1000000 : (⟨S_, .f32⟩ : BufTy).Contents (Elt F) → (⟨S1000000, .f32⟩ : BufTy).Contents (Elt F)),
    StableHlo.binary main_v516 main_v517 main_v518 (mulf : (⟨S1000000, .f32⟩ : BufTy).Contents (Elt F) → (⟨S1000000, .f32⟩ : BufTy).Contents (Elt F) → (⟨S1000000, .f32⟩ : BufTy).Contents (Elt F)),
    StableHlo.nullary main_cst_194 (constant S_ .f32 0x437F0000#32),
    StableHlo.unary main_cst_194 main_v519 (broadcastInDim S1000000 ![] bcast_S_S1000000 : (⟨S_, .f32⟩ : BufTy).Contents (Elt F) → (⟨S1000000, .f32⟩ : BufTy).Contents (Elt F)),
    StableHlo.binary main_v518 main_v519 main_v520 (mulf : (⟨S1000000, .f32⟩ : BufTy).Contents (Elt F) → (⟨S1000000, .f32⟩ : BufTy).Contents (Elt F) → (⟨S1000000, .f32⟩ : BufTy).Contents (Elt F)),
    StableHlo.unary main_v520 main_v521 (Host.floor : (⟨S1000000, .f32⟩ : BufTy).Contents (Elt F) → (⟨S1000000, .f32⟩ : BufTy).Contents (Elt F)),
    StableHlo.binary main_v520 main_v521 main_v522 (subf : (⟨S1000000, .f32⟩ : BufTy).Contents (Elt F) → (⟨S1000000, .f32⟩ : BufTy).Contents (Elt F) → (⟨S1000000, .f32⟩ : BufTy).Contents (Elt F)) ]
theorem main_part11_ops6_sub : (main_part11_ops6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
theorem main_part11_ops6_fresh : (main_part11_ops6 : List (HloOp τ sig (Elt F))).Forall fun op => op.fresh = ∅ := by
  simp only [List.Forall]; repeat' constructor
theorem main_part11_chain (c : Dev nD) : main_part11 (F := F) c = (Pipeline.chainK
  [ StableHlo.seq main_part11_ops0,
    StableHlo.seq main_part11_ops1,
    StableHlo.seq main_part11_ops2,
    StableHlo.seq main_part11_ops3,
    StableHlo.seq main_part11_ops4,
    StableHlo.seq main_part11_ops5 ]
  (StableHlo.seq main_part11_ops6) : Prog (TpuEff nD τ sig (Elt F) (Pipeline.Sig Λ₀ (Fin 0) fun p => (pcfgs (F := F) p).Adm) .tc) PUnit) := by
  chain_rfl

abbrev main_part12_ops0 : List (HloOp τ sig (Elt F)) :=
  [ StableHlo.unary main_v521 main_v523 (fptosi 32 : (⟨S1000000, .f32⟩ : BufTy).Contents (Elt F) → (⟨S1000000, .i32⟩ : BufTy).Contents (Elt F)),
    StableHlo.nullary main_c_195 (constantI S_ 32 1#32),
    StableHlo.unary main_c_195 main_v524 (broadcastInDim S1000000 ![] bcast_S_S1000000 : (⟨S_, .i32⟩ : BufTy).Contents (Elt F) → (⟨S1000000, .i32⟩ : BufTy).Contents (Elt F)),
    StableHlo.binary main_v523 main_v524 main_v525 (addi : (⟨S1000000, .i32⟩ : BufTy).Contents (Elt F) → (⟨S1000000, .i32⟩ : BufTy).Contents (Elt F) → (⟨S1000000, .i32⟩ : BufTy).Contents (Elt F)),
    StableHlo.nullary main_c_196 (constantI S_ 32 0#32),
    StableHlo.unary main_c_196 main_v526 (broadcastInDim S1000000 ![] bcast_S_S1000000 : (⟨S_, .i32⟩ : BufTy).Contents (Elt F) → (⟨S1000000, .i32⟩ : BufTy).Contents (Elt F)),
    StableHlo.binary main_v523 main_v526 main_v527 (cmpi .sge : (⟨S1000000, .i32⟩ : BufTy).Contents (Elt F) → (⟨S1000000, .i32⟩ : BufTy).Contents (Elt F) → (⟨S1000000, .i1⟩ : BufTy).Contents (Elt F)),
    StableHlo.nullary main_c_197 (constantI S_ 32 256#32),
    StableHlo.unary main_c_197 main_v528 (broadcastInDim S1000000 ![] bcast_S_S1000000 : (⟨S_, .i32⟩ : BufTy).Contents (Elt F) → (⟨S1000000, .i32⟩ : BufTy).Contents (Elt F)),
    StableHlo.binary main_v523 main_v528 main_v529 (cmpi .slt : (⟨S1000000, .i32⟩ : BufTy).Contents (Elt F) → (⟨S1000000, .i32⟩ : BufTy).Contents (Elt F) → (⟨S1000000, .i1⟩ : BufTy).Contents (Elt F)),
    StableHlo.binary main_v527 main_v529 main_v530 (andi : (⟨S1000000, .i1⟩ : BufTy).Contents (Elt F) → (⟨S1000000, .i1⟩ : BufTy).Contents (Elt F) → (⟨S1000000, .i1⟩ : BufTy).Contents (Elt F)),
    StableHlo.nullary main_c_198 (constantI S_ 32 0#32),
    StableHlo.nullary main_c_199 (constantI S_ 32 255#32) ]
theorem main_part12_ops0_sub : (main_part12_ops0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part12_ops0_fresh : (main_part12_ops0 : List (HloOp τ sig (Elt F))).Forall fun op => op.fresh = ∅ := by
  simp only [List.Forall]; repeat' constructor
abbrev main_part12_ops1 : List (HloOp τ sig (Elt F)) :=
  [ StableHlo.TRef.unary (.of main_c_198 : StableHlo.TRef sig ⟨S_, .i32⟩) (.of main_call36_v0 : StableHlo.TRef sig ⟨S_, .i32⟩) id,
    StableHlo.TRef.unary (.of main_call36_v0 : StableHlo.TRef sig ⟨S_, .i32⟩) (.of main_call36_v1 : StableHlo.TRef sig ⟨S1000000, .i32⟩) (broadcastInDim S1000000 ![] bcast_S_S1000000),
    StableHlo.TRef.binary (.of main_call36_v1 : StableHlo.TRef sig ⟨S1000000, .i32⟩) (.of main_v523 : StableHlo.TRef sig ⟨S1000000, .i32⟩) (.of main_call36_v2 : StableHlo.TRef sig ⟨S1000000, .i32⟩) maxsi,
    StableHlo.TRef.unary (.of main_c_199 : StableHlo.TRef sig ⟨S_, .i32⟩) (.of main_call36_v3 : StableHlo.TRef sig ⟨S_, .i32⟩) id,
    StableHlo.TRef.unary (.of main_call36_v3 : StableHlo.TRef sig ⟨S_, .i32⟩) (.of main_call36_v4 : StableHlo.TRef sig ⟨S1000000, .i32⟩) (broadcastInDim S1000000 ![] bcast_S_S1000000),
    StableHlo.TRef.binary (.of main_call36_v4 : StableHlo.TRef sig ⟨S1000000, .i32⟩) (.of main_call36_v2 : StableHlo.TRef sig ⟨S1000000, .i32⟩) (.of main_v531 : StableHlo.TRef sig ⟨S1000000, .i32⟩) minsi ]
theorem main_part12_ops1_sub : (main_part12_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part12_ops1_fresh : (main_part12_ops1 : List (HloOp τ sig (Elt F))).Forall fun op => op.fresh = ∅ := by
  simp only [List.Forall]; repeat' constructor
abbrev main_part12_ops2 : List (HloOp τ sig (Elt F)) :=
  [ StableHlo.unary main_v530 main_v532 (broadcastInDim S1x1000000 ![1] bcast_S1000000_S1x1000000_1 : (⟨S1000000, .i1⟩ : BufTy).Contents (Elt F) → (⟨S1x1000000, .i1⟩ : BufTy).Contents (Elt F)),
    StableHlo.nullary main_c_200 (constantI S_ 32 0#32),
    StableHlo.unary main_c_200 main_v533 (broadcastInDim S1000000 ![] bcast_S_S1000000 : (⟨S_, .i32⟩ : BufTy).Contents (Elt F) → (⟨S1000000, .i32⟩ : BufTy).Contents (Elt F)),
    StableHlo.binary main_v531 main_v533 main_v534 (cmpi .slt : (⟨S1000000, .i32⟩ : BufTy).Contents (Elt F) → (⟨S1000000, .i32⟩ : BufTy).Contents (Elt F) → (⟨S1000000, .i1⟩ : BufTy).Contents (Elt F)),
    StableHlo.nullary main_c_201 (constantI S_ 32 256#32),
    StableHlo.unary main_c_201 main_v535 (broadcastInDim S1000000 ![] bcast_S_S1000000 : (⟨S_, .i32⟩ : BufTy).Contents (Elt F) → (⟨S1000000, .i32⟩ : BufTy).Contents (Elt F)),
    StableHlo.binary main_v531 main_v535 main_v536 (addi : (⟨S1000000, .i32⟩ : BufTy).Contents (Elt F) → (⟨S1000000, .i32⟩ : BufTy).Contents (Elt F) → (⟨S1000000, .i32⟩ : BufTy).Contents (Elt F)),
    StableHlo.ternary main_v534 main_v536 main_v531 main_v537 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v537 main_v538 (broadcastInDim S1000000x1 ![0] bcast_S1000000_S1000000x1_0 : (⟨S1000000, .i32⟩ : BufTy).Contents (Elt F) → (⟨S1000000x1, .i32⟩ : BufTy).Contents (Elt F)),
    StableHlo.binary main_arg4 main_v538 main_v539 ((fun x i => Host.gather gather_S24x256_S1000000x1_S24x1000000_0_1_n_n_1_1_241 x i) : (⟨S24x256, .f32⟩ : BufTy).Contents (Elt F) → (⟨S1000000x1, .i32⟩ : BufTy).Contents (Elt F) → (⟨S24x1000000, .f32⟩ : BufTy).Contents (Elt F)),
    StableHlo.nullary main_cst_202 (constant S_ .f32 0x00000000#32) ]
theorem main_part12_ops2_sub : (main_part12_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem main_part12_ops2_fresh : (main_part12_ops2 : List (HloOp τ sig (Elt F))).Forall fun op => op.fresh = ∅ := by
  simp only [List.Forall]; repeat' constructor
abbrev main_part12_ops3 : List (HloOp τ sig (Elt F)) :=
  [ StableHlo.TRef.unary (.of main_cst_202 : StableHlo.TRef sig ⟨S_, .f32⟩) (.of main_call37_v0 : StableHlo.TRef sig ⟨S_, .f32⟩) id,
    StableHlo.TRef.unary (.of main_v532 : StableHlo.TRef sig ⟨S1x1000000, .i1⟩) (.of main_call37_v1 : StableHlo.TRef sig ⟨S24x1000000, .i1⟩) (broadcastInDim S24x1000000 ![0, 1] bcast_S1x1000000_S24x1000000_0_1),
    StableHlo.TRef.unary (.of main_call37_v0 : StableHlo.TRef sig ⟨S_, .f32⟩) (.of main_call37_v2 : StableHlo.TRef sig ⟨S24x1000000, .f32⟩) (broadcastInDim S24x1000000 ![] bcast_S_S24x1000000),
    StableHlo.TRef.ternary (.of main_call37_v1 : StableHlo.TRef sig ⟨S24x1000000, .i1⟩) (.of main_v539 : StableHlo.TRef sig ⟨S24x1000000, .f32⟩) (.of main_call37_v2 : StableHlo.TRef sig ⟨S24x1000000, .f32⟩) (.of main_v540 : StableHlo.TRef sig ⟨S24x1000000, .f32⟩) select ]
theorem main_part12_ops3_sub : (main_part12_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part12_ops3_fresh : (main_part12_ops3 : List (HloOp τ sig (Elt F))).Forall fun op => op.fresh = ∅ := by
  simp only [List.Forall]; repeat' constructor
abbrev main_part12_ops4 : List (HloOp τ sig (Elt F)) :=
  [ StableHlo.nullary main_cst_203 (constant S_ .f32 0x3F800000#32),
    StableHlo.unary main_cst_203 main_v541 (broadcastInDim S1000000 ![] bcast_S_S1000000 : (⟨S_, .f32⟩ : BufTy).Contents (Elt F) → (⟨S1000000, .f32⟩ : BufTy).Contents (Elt F)),
    StableHlo.binary main_v541 main_v522 main_v542 (subf : (⟨S1000000, .f32⟩ : BufTy).Contents (Elt F) → (⟨S1000000, .f32⟩ : BufTy).Contents (Elt F) → (⟨S1000000, .f32⟩ : BufTy).Contents (Elt F)),
    StableHlo.unary main_v542 main_v543 (broadcastInDim S1x1000000 ![1] bcast_S1000000_S1x1000000_1 : (⟨S1000000, .f32⟩ : BufTy).Contents (Elt F) → (⟨S1x1000000, .f32⟩ : BufTy).Contents (Elt F)),
    StableHlo.unary main_v543 main_v544 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v540 main_v544 main_v545 (mulf : (⟨S24x1000000, .f32⟩ : BufTy).Contents (Elt F) → (⟨S24x1000000, .f32⟩ : BufTy).Contents (Elt F) → (⟨S24x1000000, .f32⟩ : BufTy).Contents (Elt F)),
    StableHlo.nullary main_c_204 (constantI S_ 32 0#32),
    StableHlo.unary main_c_204 main_v546 (broadcastInDim S1000000 ![] bcast_S_S1000000 : (⟨S_, .i32⟩ : BufTy).Contents (Elt F) → (⟨S1000000, .i32⟩ : BufTy).Contents (Elt F)),
    StableHlo.binary main_v525 main_v546 main_v547 (cmpi .sge : (⟨S1000000, .i32⟩ : BufTy).Contents (Elt F) → (⟨S1000000, .i32⟩ : BufTy).Contents (Elt F) → (⟨S1000000, .i1⟩ : BufTy).Contents (Elt F)),
    StableHlo.nullary main_c_205 (constantI S_ 32 256#32),
    StableHlo.unary main_c_205 main_v548 (broadcastInDim S1000000 ![] bcast_S_S1000000 : (⟨S_, .i32⟩ : BufTy).Contents (Elt F) → (⟨S1000000, .i32⟩ : BufTy).Contents (Elt F)),
    StableHlo.binary main_v525 main_v548 main_v549 (cmpi .slt : (⟨S1000000, .i32⟩ : BufTy).Contents (Elt F) → (⟨S1000000, .i32⟩ : BufTy).Contents (Elt F) → (⟨S1000000, .i1⟩ : BufTy).Contents (Elt F)),
    StableHlo.binary main_v547 main_v549 main_v550 (andi : (⟨S1000000, .i1⟩ : BufTy).Contents (Elt F) → (⟨S1000000, .i1⟩ : BufTy).Contents (Elt F) → (⟨S1000000, .i1⟩ : BufTy).Contents (Elt F)),
    StableHlo.nullary main_c_206 (constantI S_ 32 0#32),
    StableHlo.nullary main_c_207 (constantI S_ 32 255#32) ]
theorem main_part12_ops4_sub : (main_part12_ops4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part12_ops4_fresh : (main_part12_ops4 : List (HloOp τ sig (Elt F))).Forall fun op => op.fresh = ∅ := by
  simp only [List.Forall]; repeat' constructor
abbrev main_part12_ops5 : List (HloOp τ sig (Elt F)) :=
  [ StableHlo.TRef.unary (.of main_c_206 : StableHlo.TRef sig ⟨S_, .i32⟩) (.of main_call38_v0 : StableHlo.TRef sig ⟨S_, .i32⟩) id,
    StableHlo.TRef.unary (.of main_call38_v0 : StableHlo.TRef sig ⟨S_, .i32⟩) (.of main_call38_v1 : StableHlo.TRef sig ⟨S1000000, .i32⟩) (broadcastInDim S1000000 ![] bcast_S_S1000000),
    StableHlo.TRef.binary (.of main_call38_v1 : StableHlo.TRef sig ⟨S1000000, .i32⟩) (.of main_v525 : StableHlo.TRef sig ⟨S1000000, .i32⟩) (.of main_call38_v2 : StableHlo.TRef sig ⟨S1000000, .i32⟩) maxsi,
    StableHlo.TRef.unary (.of main_c_207 : StableHlo.TRef sig ⟨S_, .i32⟩) (.of main_call38_v3 : StableHlo.TRef sig ⟨S_, .i32⟩) id,
    StableHlo.TRef.unary (.of main_call38_v3 : StableHlo.TRef sig ⟨S_, .i32⟩) (.of main_call38_v4 : StableHlo.TRef sig ⟨S1000000, .i32⟩) (broadcastInDim S1000000 ![] bcast_S_S1000000),
    StableHlo.TRef.binary (.of main_call38_v4 : StableHlo.TRef sig ⟨S1000000, .i32⟩) (.of main_call38_v2 : StableHlo.TRef sig ⟨S1000000, .i32⟩) (.of main_v551 : StableHlo.TRef sig ⟨S1000000, .i32⟩) minsi ]
theorem main_part12_ops5_sub : (main_part12_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part12_ops5_fresh : (main_part12_ops5 : List (HloOp τ sig (Elt F))).Forall fun op => op.fresh = ∅ := by
  simp only [List.Forall]; repeat' constructor
abbrev main_part12_ops6 : List (HloOp τ sig (Elt F)) :=
  [ StableHlo.unary main_v550 main_v552 (broadcastInDim S1x1000000 ![1] bcast_S1000000_S1x1000000_1 : (⟨S1000000, .i1⟩ : BufTy).Contents (Elt F) → (⟨S1x1000000, .i1⟩ : BufTy).Contents (Elt F)),
    StableHlo.nullary main_c_208 (constantI S_ 32 0#32),
    StableHlo.unary main_c_208 main_v553 (broadcastInDim S1000000 ![] bcast_S_S1000000 : (⟨S_, .i32⟩ : BufTy).Contents (Elt F) → (⟨S1000000, .i32⟩ : BufTy).Contents (Elt F)),
    StableHlo.binary main_v551 main_v553 main_v554 (cmpi .slt : (⟨S1000000, .i32⟩ : BufTy).Contents (Elt F) → (⟨S1000000, .i32⟩ : BufTy).Contents (Elt F) → (⟨S1000000, .i1⟩ : BufTy).Contents (Elt F)),
    StableHlo.nullary main_c_209 (constantI S_ 32 256#32),
    StableHlo.unary main_c_209 main_v555 (broadcastInDim S1000000 ![] bcast_S_S1000000 : (⟨S_, .i32⟩ : BufTy).Contents (Elt F) → (⟨S1000000, .i32⟩ : BufTy).Contents (Elt F)),
    StableHlo.binary main_v551 main_v555 main_v556 (addi : (⟨S1000000, .i32⟩ : BufTy).Contents (Elt F) → (⟨S1000000, .i32⟩ : BufTy).Contents (Elt F) → (⟨S1000000, .i32⟩ : BufTy).Contents (Elt F)),
    StableHlo.ternary main_v554 main_v556 main_v551 main_v557 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v557 main_v558 (broadcastInDim S1000000x1 ![0] bcast_S1000000_S1000000x1_0 : (⟨S1000000, .i32⟩ : BufTy).Contents (Elt F) → (⟨S1000000x1, .i32⟩ : BufTy).Contents (Elt F)),
    StableHlo.binary main_arg4 main_v558 main_v559 ((fun x i => Host.gather gather_S24x256_S1000000x1_S24x1000000_0_1_n_n_1_1_241 x i) : (⟨S24x256, .f32⟩ : BufTy).Contents (Elt F) → (⟨S1000000x1, .i32⟩ : BufTy).Contents (Elt F) → (⟨S24x1000000, .f32⟩ : BufTy).Contents (Elt F)),
    StableHlo.nullary main_cst_210 (constant S_ .f32 0x00000000#32) ]
theorem main_part12_ops6_sub : (main_part12_ops6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem main_part12_ops6_fresh : (main_part12_ops6 : List (HloOp τ sig (Elt F))).Forall fun op => op.fresh = ∅ := by
  simp only [List.Forall]; repeat' constructor
abbrev main_part12_ops7 : List (HloOp τ sig (Elt F)) :=
  [ StableHlo.TRef.unary (.of main_cst_210 : StableHlo.TRef sig ⟨S_, .f32⟩) (.of main_call39_v0 : StableHlo.TRef sig ⟨S_, .f32⟩) id,
    StableHlo.TRef.unary (.of main_v552 : StableHlo.TRef sig ⟨S1x1000000, .i1⟩) (.of main_call39_v1 : StableHlo.TRef sig ⟨S24x1000000, .i1⟩) (broadcastInDim S24x1000000 ![0, 1] bcast_S1x1000000_S24x1000000_0_1),
    StableHlo.TRef.unary (.of main_call39_v0 : StableHlo.TRef sig ⟨S_, .f32⟩) (.of main_call39_v2 : StableHlo.TRef sig ⟨S24x1000000, .f32⟩) (broadcastInDim S24x1000000 ![] bcast_S_S24x1000000),
    StableHlo.TRef.ternary (.of main_call39_v1 : StableHlo.TRef sig ⟨S24x1000000, .i1⟩) (.of main_v559 : StableHlo.TRef sig ⟨S24x1000000, .f32⟩) (.of main_call39_v2 : StableHlo.TRef sig ⟨S24x1000000, .f32⟩) (.of main_v560 : StableHlo.TRef sig ⟨S24x1000000, .f32⟩) select ]
theorem main_part12_ops7_sub : (main_part12_ops7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part12_ops7_fresh : (main_part12_ops7 : List (HloOp τ sig (Elt F))).Forall fun op => op.fresh = ∅ := by
  simp only [List.Forall]; repeat' constructor
abbrev main_part12_ops8 : List (HloOp τ sig (Elt F)) :=
  [ StableHlo.unary main_v522 main_v561 (broadcastInDim S1x1000000 ![1] bcast_S1000000_S1x1000000_1 : (⟨S1000000, .f32⟩ : BufTy).Contents (Elt F) → (⟨S1x1000000, .f32⟩ : BufTy).Contents (Elt F)),
    StableHlo.unary main_v561 main_v562 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v560 main_v562 main_v563 (mulf : (⟨S24x1000000, .f32⟩ : BufTy).Contents (Elt F) → (⟨S24x1000000, .f32⟩ : BufTy).Contents (Elt F) → (⟨S24x1000000, .f32⟩ : BufTy).Contents (Elt F)),
    StableHlo.binary main_v545 main_v563 main_v564 (addf : (⟨S24x1000000, .f32⟩ : BufTy).Contents (Elt F) → (⟨S24x1000000, .f32⟩ : BufTy).Contents (Elt F) → (⟨S24x1000000, .f32⟩ : BufTy).Contents (Elt F)),
    StableHlo.unary main_v564 main_v565 ((transpose S1000000x24 [1, 0] · transposes_S24x1000000_S1000000x24_1_0) : (⟨S24x1000000, .f32⟩ : BufTy).Contents (Elt F) → (⟨S1000000x24, .f32⟩ : BufTy).Contents (Elt F)),
    StableHlo.nullary main_cst_211 (constant S_ .f32 0x3F800000#32) ]
theorem main_part12_ops8_sub : (main_part12_ops8 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.nullary_bufs_sub ..⟩
theorem main_part12_ops8_fresh : (main_part12_ops8 : List (HloOp τ sig (Elt F))).Forall fun op => op.fresh = ∅ := by
  simp only [List.Forall]; repeat' constructor
theorem main_part12_chain (c : Dev nD) : main_part12 (F := F) c = (Pipeline.chainK
  [ StableHlo.seq main_part12_ops0,
    StableHlo.seq main_part12_ops1,
    StableHlo.seq main_part12_ops2,
    StableHlo.seq main_part12_ops3,
    StableHlo.seq main_part12_ops4,
    StableHlo.seq main_part12_ops5,
    StableHlo.seq main_part12_ops6,
    StableHlo.seq main_part12_ops7 ]
  (StableHlo.seq main_part12_ops8) : Prog (TpuEff nD τ sig (Elt F) (Pipeline.Sig Λ₀ (Fin 0) fun p => (pcfgs (F := F) p).Adm) .tc) PUnit) := by
  chain_rfl

abbrev main_part13_ops0 : List (HloOp τ sig (Elt F)) :=
  [ StableHlo.unary main_cst_211 main_v566 (broadcastInDim S1000000 ![] bcast_S_S1000000 : (⟨S_, .f32⟩ : BufTy).Contents (Elt F) → (⟨S1000000, .f32⟩ : BufTy).Contents (Elt F)),
    StableHlo.binary main_v14 main_v566 main_v567 (addf : (⟨S1000000, .f32⟩ : BufTy).Contents (Elt F) → (⟨S1000000, .f32⟩ : BufTy).Contents (Elt F) → (⟨S1000000, .f32⟩ : BufTy).Contents (Elt F)),
    StableHlo.nullary main_cst_212 (constant S_ .f32 0x3F000000#32),
    StableHlo.unary main_cst_212 main_v568 (broadcastInDim S1000000 ![] bcast_S_S1000000 : (⟨S_, .f32⟩ : BufTy).Contents (Elt F) → (⟨S1000000, .f32⟩ : BufTy).Contents (Elt F)),
    StableHlo.binary main_v567 main_v568 main_v569 (mulf : (⟨S1000000, .f32⟩ : BufTy).Contents (Elt F) → (⟨S1000000, .f32⟩ : BufTy).Contents (Elt F) → (⟨S1000000, .f32⟩ : BufTy).Contents (Elt F)),
    StableHlo.nullary main_cst_213 (constant S_ .f32 0x437F0000#32),
    StableHlo.unary main_cst_213 main_v570 (broadcastInDim S1000000 ![] bcast_S_S1000000 : (⟨S_, .f32⟩ : BufTy).Contents (Elt F) → (⟨S1000000, .f32⟩ : BufTy).Contents (Elt F)),
    StableHlo.binary main_v569 main_v570 main_v571 (mulf : (⟨S1000000, .f32⟩ : BufTy).Contents (Elt F) → (⟨S1000000, .f32⟩ : BufTy).Contents (Elt F) → (⟨S1000000, .f32⟩ : BufTy).Contents (Elt F)),
    StableHlo.unary main_v571 main_v572 (Host.floor : (⟨S1000000, .f32⟩ : BufTy).Contents (Elt F) → (⟨S1000000, .f32⟩ : BufTy).Contents (Elt F)),
    StableHlo.binary main_v571 main_v572 main_v573 (subf : (⟨S1000000, .f32⟩ : BufTy).Contents (Elt F) → (⟨S1000000, .f32⟩ : BufTy).Contents (Elt F) → (⟨S1000000, .f32⟩ : BufTy).Contents (Elt F)),
    StableHlo.unary main_v572 main_v574 (fptosi 32 : (⟨S1000000, .f32⟩ : BufTy).Contents (Elt F) → (⟨S1000000, .i32⟩ : BufTy).Contents (Elt F)),
    StableHlo.nullary main_c_214 (constantI S_ 32 1#32),
    StableHlo.unary main_c_214 main_v575 (broadcastInDim S1000000 ![] bcast_S_S1000000 : (⟨S_, .i32⟩ : BufTy).Contents (Elt F) → (⟨S1000000, .i32⟩ : BufTy).Contents (Elt F)),
    StableHlo.binary main_v574 main_v575 main_v576 (addi : (⟨S1000000, .i32⟩ : BufTy).Contents (Elt F) → (⟨S1000000, .i32⟩ : BufTy).Contents (Elt F) → (⟨S1000000, .i32⟩ : BufTy).Contents (Elt F)),
    StableHlo.nullary main_c_215 (constantI S_ 32 0#32),
    StableHlo.unary main_c_215 main_v577 (broadcastInDim S1000000 ![] bcast_S_S1000000 : (⟨S_, .i32⟩ : BufTy).Contents (Elt F) → (⟨S1000000, .i32⟩ : BufTy).Contents (Elt F)),
    StableHlo.binary main_v574 main_v577 main_v578 (cmpi .sge : (⟨S1000000, .i32⟩ : BufTy).Contents (Elt F) → (⟨S1000000, .i32⟩ : BufTy).Contents (Elt F) → (⟨S1000000, .i1⟩ : BufTy).Contents (Elt F)),
    StableHlo.nullary main_c_216 (constantI S_ 32 256#32),
    StableHlo.unary main_c_216 main_v579 (broadcastInDim S1000000 ![] bcast_S_S1000000 : (⟨S_, .i32⟩ : BufTy).Contents (Elt F) → (⟨S1000000, .i32⟩ : BufTy).Contents (Elt F)),
    StableHlo.binary main_v574 main_v579 main_v580 (cmpi .slt : (⟨S1000000, .i32⟩ : BufTy).Contents (Elt F) → (⟨S1000000, .i32⟩ : BufTy).Contents (Elt F) → (⟨S1000000, .i1⟩ : BufTy).Contents (Elt F)),
    StableHlo.binary main_v578 main_v580 main_v581 (andi : (⟨S1000000, .i1⟩ : BufTy).Contents (Elt F) → (⟨S1000000, .i1⟩ : BufTy).Contents (Elt F) → (⟨S1000000, .i1⟩ : BufTy).Contents (Elt F)),
    StableHlo.nullary main_c_217 (constantI S_ 32 0#32),
    StableHlo.nullary main_c_218 (constantI S_ 32 255#32) ]
theorem main_part13_ops0_sub : (main_part13_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part13_ops0_fresh : (main_part13_ops0 : List (HloOp τ sig (Elt F))).Forall fun op => op.fresh = ∅ := by
  simp only [List.Forall]; repeat' constructor
abbrev main_part13_ops1 : List (HloOp τ sig (Elt F)) :=
  [ StableHlo.TRef.unary (.of main_c_217 : StableHlo.TRef sig ⟨S_, .i32⟩) (.of main_call40_v0 : StableHlo.TRef sig ⟨S_, .i32⟩) id,
    StableHlo.TRef.unary (.of main_call40_v0 : StableHlo.TRef sig ⟨S_, .i32⟩) (.of main_call40_v1 : StableHlo.TRef sig ⟨S1000000, .i32⟩) (broadcastInDim S1000000 ![] bcast_S_S1000000),
    StableHlo.TRef.binary (.of main_call40_v1 : StableHlo.TRef sig ⟨S1000000, .i32⟩) (.of main_v574 : StableHlo.TRef sig ⟨S1000000, .i32⟩) (.of main_call40_v2 : StableHlo.TRef sig ⟨S1000000, .i32⟩) maxsi,
    StableHlo.TRef.unary (.of main_c_218 : StableHlo.TRef sig ⟨S_, .i32⟩) (.of main_call40_v3 : StableHlo.TRef sig ⟨S_, .i32⟩) id,
    StableHlo.TRef.unary (.of main_call40_v3 : StableHlo.TRef sig ⟨S_, .i32⟩) (.of main_call40_v4 : StableHlo.TRef sig ⟨S1000000, .i32⟩) (broadcastInDim S1000000 ![] bcast_S_S1000000),
    StableHlo.TRef.binary (.of main_call40_v4 : StableHlo.TRef sig ⟨S1000000, .i32⟩) (.of main_call40_v2 : StableHlo.TRef sig ⟨S1000000, .i32⟩) (.of main_v582 : StableHlo.TRef sig ⟨S1000000, .i32⟩) minsi ]
theorem main_part13_ops1_sub : (main_part13_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part13_ops1_fresh : (main_part13_ops1 : List (HloOp τ sig (Elt F))).Forall fun op => op.fresh = ∅ := by
  simp only [List.Forall]; repeat' constructor
abbrev main_part13_ops2 : List (HloOp τ sig (Elt F)) :=
  [ StableHlo.unary main_v581 main_v583 (broadcastInDim S1x1000000 ![1] bcast_S1000000_S1x1000000_1 : (⟨S1000000, .i1⟩ : BufTy).Contents (Elt F) → (⟨S1x1000000, .i1⟩ : BufTy).Contents (Elt F)),
    StableHlo.nullary main_c_219 (constantI S_ 32 0#32),
    StableHlo.unary main_c_219 main_v584 (broadcastInDim S1000000 ![] bcast_S_S1000000 : (⟨S_, .i32⟩ : BufTy).Contents (Elt F) → (⟨S1000000, .i32⟩ : BufTy).Contents (Elt F)),
    StableHlo.binary main_v582 main_v584 main_v585 (cmpi .slt : (⟨S1000000, .i32⟩ : BufTy).Contents (Elt F) → (⟨S1000000, .i32⟩ : BufTy).Contents (Elt F) → (⟨S1000000, .i1⟩ : BufTy).Contents (Elt F)),
    StableHlo.nullary main_c_220 (constantI S_ 32 256#32),
    StableHlo.unary main_c_220 main_v586 (broadcastInDim S1000000 ![] bcast_S_S1000000 : (⟨S_, .i32⟩ : BufTy).Contents (Elt F) → (⟨S1000000, .i32⟩ : BufTy).Contents (Elt F)),
    StableHlo.binary main_v582 main_v586 main_v587 (addi : (⟨S1000000, .i32⟩ : BufTy).Contents (Elt F) → (⟨S1000000, .i32⟩ : BufTy).Contents (Elt F) → (⟨S1000000, .i32⟩ : BufTy).Contents (Elt F)),
    StableHlo.ternary main_v585 main_v587 main_v582 main_v588 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v588 main_v589 (broadcastInDim S1000000x1 ![0] bcast_S1000000_S1000000x1_0 : (⟨S1000000, .i32⟩ : BufTy).Contents (Elt F) → (⟨S1000000x1, .i32⟩ : BufTy).Contents (Elt F)),
    StableHlo.binary main_arg5 main_v589 main_v590 ((fun x i => Host.gather gather_S24x256_S1000000x1_S24x1000000_0_1_n_n_1_1_241 x i) : (⟨S24x256, .f32⟩ : BufTy).Contents (Elt F) → (⟨S1000000x1, .i32⟩ : BufTy).Contents (Elt F) → (⟨S24x1000000, .f32⟩ : BufTy).Contents (Elt F)),
    StableHlo.nullary main_cst_221 (constant S_ .f32 0x00000000#32) ]
theorem main_part13_ops2_sub : (main_part13_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem main_part13_ops2_fresh : (main_part13_ops2 : List (HloOp τ sig (Elt F))).Forall fun op => op.fresh = ∅ := by
  simp only [List.Forall]; repeat' constructor
abbrev main_part13_ops3 : List (HloOp τ sig (Elt F)) :=
  [ StableHlo.TRef.unary (.of main_cst_221 : StableHlo.TRef sig ⟨S_, .f32⟩) (.of main_call41_v0 : StableHlo.TRef sig ⟨S_, .f32⟩) id,
    StableHlo.TRef.unary (.of main_v583 : StableHlo.TRef sig ⟨S1x1000000, .i1⟩) (.of main_call41_v1 : StableHlo.TRef sig ⟨S24x1000000, .i1⟩) (broadcastInDim S24x1000000 ![0, 1] bcast_S1x1000000_S24x1000000_0_1),
    StableHlo.TRef.unary (.of main_call41_v0 : StableHlo.TRef sig ⟨S_, .f32⟩) (.of main_call41_v2 : StableHlo.TRef sig ⟨S24x1000000, .f32⟩) (broadcastInDim S24x1000000 ![] bcast_S_S24x1000000),
    StableHlo.TRef.ternary (.of main_call41_v1 : StableHlo.TRef sig ⟨S24x1000000, .i1⟩) (.of main_v590 : StableHlo.TRef sig ⟨S24x1000000, .f32⟩) (.of main_call41_v2 : StableHlo.TRef sig ⟨S24x1000000, .f32⟩) (.of main_v591 : StableHlo.TRef sig ⟨S24x1000000, .f32⟩) select ]
theorem main_part13_ops3_sub : (main_part13_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part13_ops3_fresh : (main_part13_ops3 : List (HloOp τ sig (Elt F))).Forall fun op => op.fresh = ∅ := by
  simp only [List.Forall]; repeat' constructor
abbrev main_part13_ops4 : List (HloOp τ sig (Elt F)) :=
  [ StableHlo.nullary main_cst_222 (constant S_ .f32 0x3F800000#32),
    StableHlo.unary main_cst_222 main_v592 (broadcastInDim S1000000 ![] bcast_S_S1000000 : (⟨S_, .f32⟩ : BufTy).Contents (Elt F) → (⟨S1000000, .f32⟩ : BufTy).Contents (Elt F)),
    StableHlo.binary main_v592 main_v573 main_v593 (subf : (⟨S1000000, .f32⟩ : BufTy).Contents (Elt F) → (⟨S1000000, .f32⟩ : BufTy).Contents (Elt F) → (⟨S1000000, .f32⟩ : BufTy).Contents (Elt F)),
    StableHlo.unary main_v593 main_v594 (broadcastInDim S1x1000000 ![1] bcast_S1000000_S1x1000000_1 : (⟨S1000000, .f32⟩ : BufTy).Contents (Elt F) → (⟨S1x1000000, .f32⟩ : BufTy).Contents (Elt F)),
    StableHlo.unary main_v594 main_v595 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v591 main_v595 main_v596 (mulf : (⟨S24x1000000, .f32⟩ : BufTy).Contents (Elt F) → (⟨S24x1000000, .f32⟩ : BufTy).Contents (Elt F) → (⟨S24x1000000, .f32⟩ : BufTy).Contents (Elt F)),
    StableHlo.nullary main_c_223 (constantI S_ 32 0#32),
    StableHlo.unary main_c_223 main_v597 (broadcastInDim S1000000 ![] bcast_S_S1000000 : (⟨S_, .i32⟩ : BufTy).Contents (Elt F) → (⟨S1000000, .i32⟩ : BufTy).Contents (Elt F)),
    StableHlo.binary main_v576 main_v597 main_v598 (cmpi .sge : (⟨S1000000, .i32⟩ : BufTy).Contents (Elt F) → (⟨S1000000, .i32⟩ : BufTy).Contents (Elt F) → (⟨S1000000, .i1⟩ : BufTy).Contents (Elt F)),
    StableHlo.nullary main_c_224 (constantI S_ 32 256#32),
    StableHlo.unary main_c_224 main_v599 (broadcastInDim S1000000 ![] bcast_S_S1000000 : (⟨S_, .i32⟩ : BufTy).Contents (Elt F) → (⟨S1000000, .i32⟩ : BufTy).Contents (Elt F)),
    StableHlo.binary main_v576 main_v599 main_v600 (cmpi .slt : (⟨S1000000, .i32⟩ : BufTy).Contents (Elt F) → (⟨S1000000, .i32⟩ : BufTy).Contents (Elt F) → (⟨S1000000, .i1⟩ : BufTy).Contents (Elt F)),
    StableHlo.binary main_v598 main_v600 main_v601 (andi : (⟨S1000000, .i1⟩ : BufTy).Contents (Elt F) → (⟨S1000000, .i1⟩ : BufTy).Contents (Elt F) → (⟨S1000000, .i1⟩ : BufTy).Contents (Elt F)),
    StableHlo.nullary main_c_225 (constantI S_ 32 0#32),
    StableHlo.nullary main_c_226 (constantI S_ 32 255#32) ]
theorem main_part13_ops4_sub : (main_part13_ops4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part13_ops4_fresh : (main_part13_ops4 : List (HloOp τ sig (Elt F))).Forall fun op => op.fresh = ∅ := by
  simp only [List.Forall]; repeat' constructor
abbrev main_part13_ops5 : List (HloOp τ sig (Elt F)) :=
  [ StableHlo.TRef.unary (.of main_c_225 : StableHlo.TRef sig ⟨S_, .i32⟩) (.of main_call42_v0 : StableHlo.TRef sig ⟨S_, .i32⟩) id,
    StableHlo.TRef.unary (.of main_call42_v0 : StableHlo.TRef sig ⟨S_, .i32⟩) (.of main_call42_v1 : StableHlo.TRef sig ⟨S1000000, .i32⟩) (broadcastInDim S1000000 ![] bcast_S_S1000000),
    StableHlo.TRef.binary (.of main_call42_v1 : StableHlo.TRef sig ⟨S1000000, .i32⟩) (.of main_v576 : StableHlo.TRef sig ⟨S1000000, .i32⟩) (.of main_call42_v2 : StableHlo.TRef sig ⟨S1000000, .i32⟩) maxsi,
    StableHlo.TRef.unary (.of main_c_226 : StableHlo.TRef sig ⟨S_, .i32⟩) (.of main_call42_v3 : StableHlo.TRef sig ⟨S_, .i32⟩) id,
    StableHlo.TRef.unary (.of main_call42_v3 : StableHlo.TRef sig ⟨S_, .i32⟩) (.of main_call42_v4 : StableHlo.TRef sig ⟨S1000000, .i32⟩) (broadcastInDim S1000000 ![] bcast_S_S1000000),
    StableHlo.TRef.binary (.of main_call42_v4 : StableHlo.TRef sig ⟨S1000000, .i32⟩) (.of main_call42_v2 : StableHlo.TRef sig ⟨S1000000, .i32⟩) (.of main_v602 : StableHlo.TRef sig ⟨S1000000, .i32⟩) minsi ]
theorem main_part13_ops5_sub : (main_part13_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part13_ops5_fresh : (main_part13_ops5 : List (HloOp τ sig (Elt F))).Forall fun op => op.fresh = ∅ := by
  simp only [List.Forall]; repeat' constructor
abbrev main_part13_ops6 : List (HloOp τ sig (Elt F)) :=
  [ StableHlo.unary main_v601 main_v603 (broadcastInDim S1x1000000 ![1] bcast_S1000000_S1x1000000_1 : (⟨S1000000, .i1⟩ : BufTy).Contents (Elt F) → (⟨S1x1000000, .i1⟩ : BufTy).Contents (Elt F)),
    StableHlo.nullary main_c_227 (constantI S_ 32 0#32),
    StableHlo.unary main_c_227 main_v604 (broadcastInDim S1000000 ![] bcast_S_S1000000 : (⟨S_, .i32⟩ : BufTy).Contents (Elt F) → (⟨S1000000, .i32⟩ : BufTy).Contents (Elt F)),
    StableHlo.binary main_v602 main_v604 main_v605 (cmpi .slt : (⟨S1000000, .i32⟩ : BufTy).Contents (Elt F) → (⟨S1000000, .i32⟩ : BufTy).Contents (Elt F) → (⟨S1000000, .i1⟩ : BufTy).Contents (Elt F)),
    StableHlo.nullary main_c_228 (constantI S_ 32 256#32),
    StableHlo.unary main_c_228 main_v606 (broadcastInDim S1000000 ![] bcast_S_S1000000 : (⟨S_, .i32⟩ : BufTy).Contents (Elt F) → (⟨S1000000, .i32⟩ : BufTy).Contents (Elt F)),
    StableHlo.binary main_v602 main_v606 main_v607 (addi : (⟨S1000000, .i32⟩ : BufTy).Contents (Elt F) → (⟨S1000000, .i32⟩ : BufTy).Contents (Elt F) → (⟨S1000000, .i32⟩ : BufTy).Contents (Elt F)),
    StableHlo.ternary main_v605 main_v607 main_v602 main_v608 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ]
theorem main_part13_ops6_sub : (main_part13_ops6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem main_part13_ops6_fresh : (main_part13_ops6 : List (HloOp τ sig (Elt F))).Forall fun op => op.fresh = ∅ := by
  simp only [List.Forall]; repeat' constructor
theorem main_part13_chain (c : Dev nD) : main_part13 (F := F) c = (Pipeline.chainK
  [ StableHlo.seq main_part13_ops0,
    StableHlo.seq main_part13_ops1,
    StableHlo.seq main_part13_ops2,
    StableHlo.seq main_part13_ops3,
    StableHlo.seq main_part13_ops4,
    StableHlo.seq main_part13_ops5 ]
  (StableHlo.seq main_part13_ops6) : Prog (TpuEff nD τ sig (Elt F) (Pipeline.Sig Λ₀ (Fin 0) fun p => (pcfgs (F := F) p).Adm) .tc) PUnit) := by
  chain_rfl

abbrev main_part14_ops0 : List (HloOp τ sig (Elt F)) :=
  [ StableHlo.unary main_v608 main_v609 (broadcastInDim S1000000x1 ![0] bcast_S1000000_S1000000x1_0 : (⟨S1000000, .i32⟩ : BufTy).Contents (Elt F) → (⟨S1000000x1, .i32⟩ : BufTy).Contents (Elt F)),
    StableHlo.binary main_arg5 main_v609 main_v610 ((fun x i => Host.gather gather_S24x256_S1000000x1_S24x1000000_0_1_n_n_1_1_241 x i) : (⟨S24x256, .f32⟩ : BufTy).Contents (Elt F) → (⟨S1000000x1, .i32⟩ : BufTy).Contents (Elt F) → (⟨S24x1000000, .f32⟩ : BufTy).Contents (Elt F)),
    StableHlo.nullary main_cst_229 (constant S_ .f32 0x00000000#32) ]
theorem main_part14_ops0_sub : (main_part14_ops0 : List (HloOp τ sig (Elt F))).Forall fun op => op.bufs ⊆ StableHlo.tcRefs τ sig :=
  ⟨StableHlo.unary_bufs_sub .., StableHlo.binary_bufs_sub .., StableHlo.nullary_bufs_sub ..⟩
theorem main_part14_ops0_fresh : (main_part14_ops0 : List (HloOp τ sig (Elt F))).Forall fun op => op.fresh = ∅ := by
  simp only [List.Forall]; repeat' constructor
abbrev main_part14_ops1 : List (HloOp τ sig (Elt F)) :=
  [ StableHlo.TRef.unary (.of main_cst_229 : StableHlo.TRef sig ⟨S_, .f32⟩) (.of main_call43_v0 : StableHlo.TRef sig ⟨S_, .f32⟩) id,
    StableHlo.TRef.unary (.of main_v603 : StableHlo.TRef sig ⟨S1x1000000, .i1⟩) (.of main_call43_v1 : StableHlo.TRef sig ⟨S24x1000000, .i1⟩) (broadcastInDim S24x1000000 ![0, 1] bcast_S1x1000000_S24x1000000_0_1),
    StableHlo.TRef.unary (.of main_call43_v0 : StableHlo.TRef sig ⟨S_, .f32⟩) (.of main_call43_v2 : StableHlo.TRef sig ⟨S24x1000000, .f32⟩) (broadcastInDim S24x1000000 ![] bcast_S_S24x1000000),
    StableHlo.TRef.ternary (.of main_call43_v1 : StableHlo.TRef sig ⟨S24x1000000, .i1⟩) (.of main_v610 : StableHlo.TRef sig ⟨S24x1000000, .f32⟩) (.of main_call43_v2 : StableHlo.TRef sig ⟨S24x1000000, .f32⟩) (.of main_v611 : StableHlo.TRef sig ⟨S24x1000000, .f32⟩) select ]
theorem main_part14_ops1_sub : (main_part14_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part14_ops1_fresh : (main_part14_ops1 : List (HloOp τ sig (Elt F))).Forall fun op => op.fresh = ∅ := by
  simp only [List.Forall]; repeat' constructor
abbrev main_part14_ops2 : List (HloOp τ sig (Elt F)) :=
  [ StableHlo.unary main_v573 main_v612 (broadcastInDim S1x1000000 ![1] bcast_S1000000_S1x1000000_1 : (⟨S1000000, .f32⟩ : BufTy).Contents (Elt F) → (⟨S1x1000000, .f32⟩ : BufTy).Contents (Elt F)),
    StableHlo.unary main_v612 main_v613 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v611 main_v613 main_v614 (mulf : (⟨S24x1000000, .f32⟩ : BufTy).Contents (Elt F) → (⟨S24x1000000, .f32⟩ : BufTy).Contents (Elt F) → (⟨S24x1000000, .f32⟩ : BufTy).Contents (Elt F)),
    StableHlo.binary main_v596 main_v614 main_v615 (addf : (⟨S24x1000000, .f32⟩ : BufTy).Contents (Elt F) → (⟨S24x1000000, .f32⟩ : BufTy).Contents (Elt F) → (⟨S24x1000000, .f32⟩ : BufTy).Contents (Elt F)),
    StableHlo.unary main_v615 main_v616 ((transpose S1000000x24 [1, 0] · transposes_S24x1000000_S1000000x24_1_0) : (⟨S24x1000000, .f32⟩ : BufTy).Contents (Elt F) → (⟨S1000000x24, .f32⟩ : BufTy).Contents (Elt F)),
    StableHlo.nullary main_cst_230 (constant S_ .f32 0x3F800000#32),
    StableHlo.unary main_cst_230 main_v617 (broadcastInDim S1000000 ![] bcast_S_S1000000 : (⟨S_, .f32⟩ : BufTy).Contents (Elt F) → (⟨S1000000, .f32⟩ : BufTy).Contents (Elt F)),
    StableHlo.binary main_v16 main_v617 main_v618 (addf : (⟨S1000000, .f32⟩ : BufTy).Contents (Elt F) → (⟨S1000000, .f32⟩ : BufTy).Contents (Elt F) → (⟨S1000000, .f32⟩ : BufTy).Contents (Elt F)),
    StableHlo.nullary main_cst_231 (constant S_ .f32 0x3F000000#32),
    StableHlo.unary main_cst_231 main_v619 (broadcastInDim S1000000 ![] bcast_S_S1000000 : (⟨S_, .f32⟩ : BufTy).Contents (Elt F) → (⟨S1000000, .f32⟩ : BufTy).Contents (Elt F)),
    StableHlo.binary main_v618 main_v619 main_v620 (mulf : (⟨S1000000, .f32⟩ : BufTy).Contents (Elt F) → (⟨S1000000, .f32⟩ : BufTy).Contents (Elt F) → (⟨S1000000, .f32⟩ : BufTy).Contents (Elt F)),
    StableHlo.nullary main_cst_232 (constant S_ .f32 0x437F0000#32),
    StableHlo.unary main_cst_232 main_v621 (broadcastInDim S1000000 ![] bcast_S_S1000000 : (⟨S_, .f32⟩ : BufTy).Contents (Elt F) → (⟨S1000000, .f32⟩ : BufTy).Contents (Elt F)),
    StableHlo.binary main_v620 main_v621 main_v622 (mulf : (⟨S1000000, .f32⟩ : BufTy).Contents (Elt F) → (⟨S1000000, .f32⟩ : BufTy).Contents (Elt F) → (⟨S1000000, .f32⟩ : BufTy).Contents (Elt F)),
    StableHlo.unary main_v622 main_v623 (Host.floor : (⟨S1000000, .f32⟩ : BufTy).Contents (Elt F) → (⟨S1000000, .f32⟩ : BufTy).Contents (Elt F)),
    StableHlo.binary main_v622 main_v623 main_v624 (subf : (⟨S1000000, .f32⟩ : BufTy).Contents (Elt F) → (⟨S1000000, .f32⟩ : BufTy).Contents (Elt F) → (⟨S1000000, .f32⟩ : BufTy).Contents (Elt F)),
    StableHlo.unary main_v623 main_v625 (fptosi 32 : (⟨S1000000, .f32⟩ : BufTy).Contents (Elt F) → (⟨S1000000, .i32⟩ : BufTy).Contents (Elt F)),
    StableHlo.nullary main_c_233 (constantI S_ 32 1#32),
    StableHlo.unary main_c_233 main_v626 (broadcastInDim S1000000 ![] bcast_S_S1000000 : (⟨S_, .i32⟩ : BufTy).Contents (Elt F) → (⟨S1000000, .i32⟩ : BufTy).Contents (Elt F)),
    StableHlo.binary main_v625 main_v626 main_v627 (addi : (⟨S1000000, .i32⟩ : BufTy).Contents (Elt F) → (⟨S1000000, .i32⟩ : BufTy).Contents (Elt F) → (⟨S1000000, .i32⟩ : BufTy).Contents (Elt F)),
    StableHlo.nullary main_c_234 (constantI S_ 32 0#32),
    StableHlo.unary main_c_234 main_v628 (broadcastInDim S1000000 ![] bcast_S_S1000000 : (⟨S_, .i32⟩ : BufTy).Contents (Elt F) → (⟨S1000000, .i32⟩ : BufTy).Contents (Elt F)),
    StableHlo.binary main_v625 main_v628 main_v629 (cmpi .sge : (⟨S1000000, .i32⟩ : BufTy).Contents (Elt F) → (⟨S1000000, .i32⟩ : BufTy).Contents (Elt F) → (⟨S1000000, .i1⟩ : BufTy).Contents (Elt F)),
    StableHlo.nullary main_c_235 (constantI S_ 32 256#32),
    StableHlo.unary main_c_235 main_v630 (broadcastInDim S1000000 ![] bcast_S_S1000000 : (⟨S_, .i32⟩ : BufTy).Contents (Elt F) → (⟨S1000000, .i32⟩ : BufTy).Contents (Elt F)),
    StableHlo.binary main_v625 main_v630 main_v631 (cmpi .slt : (⟨S1000000, .i32⟩ : BufTy).Contents (Elt F) → (⟨S1000000, .i32⟩ : BufTy).Contents (Elt F) → (⟨S1000000, .i1⟩ : BufTy).Contents (Elt F)),
    StableHlo.binary main_v629 main_v631 main_v632 (andi : (⟨S1000000, .i1⟩ : BufTy).Contents (Elt F) → (⟨S1000000, .i1⟩ : BufTy).Contents (Elt F) → (⟨S1000000, .i1⟩ : BufTy).Contents (Elt F)),
    StableHlo.nullary main_c_236 (constantI S_ 32 0#32),
    StableHlo.nullary main_c_237 (constantI S_ 32 255#32) ]
theorem main_part14_ops2_sub : (main_part14_ops2 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
theorem main_part14_ops2_fresh : (main_part14_ops2 : List (HloOp τ sig (Elt F))).Forall fun op => op.fresh = ∅ := by
  simp only [List.Forall]; repeat' constructor
abbrev main_part14_ops3 : List (HloOp τ sig (Elt F)) :=
  [ StableHlo.TRef.unary (.of main_c_236 : StableHlo.TRef sig ⟨S_, .i32⟩) (.of main_call44_v0 : StableHlo.TRef sig ⟨S_, .i32⟩) id,
    StableHlo.TRef.unary (.of main_call44_v0 : StableHlo.TRef sig ⟨S_, .i32⟩) (.of main_call44_v1 : StableHlo.TRef sig ⟨S1000000, .i32⟩) (broadcastInDim S1000000 ![] bcast_S_S1000000),
    StableHlo.TRef.binary (.of main_call44_v1 : StableHlo.TRef sig ⟨S1000000, .i32⟩) (.of main_v625 : StableHlo.TRef sig ⟨S1000000, .i32⟩) (.of main_call44_v2 : StableHlo.TRef sig ⟨S1000000, .i32⟩) maxsi,
    StableHlo.TRef.unary (.of main_c_237 : StableHlo.TRef sig ⟨S_, .i32⟩) (.of main_call44_v3 : StableHlo.TRef sig ⟨S_, .i32⟩) id,
    StableHlo.TRef.unary (.of main_call44_v3 : StableHlo.TRef sig ⟨S_, .i32⟩) (.of main_call44_v4 : StableHlo.TRef sig ⟨S1000000, .i32⟩) (broadcastInDim S1000000 ![] bcast_S_S1000000),
    StableHlo.TRef.binary (.of main_call44_v4 : StableHlo.TRef sig ⟨S1000000, .i32⟩) (.of main_call44_v2 : StableHlo.TRef sig ⟨S1000000, .i32⟩) (.of main_v633 : StableHlo.TRef sig ⟨S1000000, .i32⟩) minsi ]
theorem main_part14_ops3_sub : (main_part14_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part14_ops3_fresh : (main_part14_ops3 : List (HloOp τ sig (Elt F))).Forall fun op => op.fresh = ∅ := by
  simp only [List.Forall]; repeat' constructor
abbrev main_part14_ops4 : List (HloOp τ sig (Elt F)) :=
  [ StableHlo.unary main_v632 main_v634 (broadcastInDim S1x1000000 ![1] bcast_S1000000_S1x1000000_1 : (⟨S1000000, .i1⟩ : BufTy).Contents (Elt F) → (⟨S1x1000000, .i1⟩ : BufTy).Contents (Elt F)),
    StableHlo.nullary main_c_238 (constantI S_ 32 0#32),
    StableHlo.unary main_c_238 main_v635 (broadcastInDim S1000000 ![] bcast_S_S1000000 : (⟨S_, .i32⟩ : BufTy).Contents (Elt F) → (⟨S1000000, .i32⟩ : BufTy).Contents (Elt F)),
    StableHlo.binary main_v633 main_v635 main_v636 (cmpi .slt : (⟨S1000000, .i32⟩ : BufTy).Contents (Elt F) → (⟨S1000000, .i32⟩ : BufTy).Contents (Elt F) → (⟨S1000000, .i1⟩ : BufTy).Contents (Elt F)),
    StableHlo.nullary main_c_239 (constantI S_ 32 256#32),
    StableHlo.unary main_c_239 main_v637 (broadcastInDim S1000000 ![] bcast_S_S1000000 : (⟨S_, .i32⟩ : BufTy).Contents (Elt F) → (⟨S1000000, .i32⟩ : BufTy).Contents (Elt F)),
    StableHlo.binary main_v633 main_v637 main_v638 (addi : (⟨S1000000, .i32⟩ : BufTy).Contents (Elt F) → (⟨S1000000, .i32⟩ : BufTy).Contents (Elt F) → (⟨S1000000, .i32⟩ : BufTy).Contents (Elt F)),
    StableHlo.ternary main_v636 main_v638 main_v633 main_v639 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v639 main_v640 (broadcastInDim S1000000x1 ![0] bcast_S1000000_S1000000x1_0 : (⟨S1000000, .i32⟩ : BufTy).Contents (Elt F) → (⟨S1000000x1, .i32⟩ : BufTy).Contents (Elt F)),
    StableHlo.binary main_arg6 main_v640 main_v641 ((fun x i => Host.gather gather_S24x256_S1000000x1_S24x1000000_0_1_n_n_1_1_241 x i) : (⟨S24x256, .f32⟩ : BufTy).Contents (Elt F) → (⟨S1000000x1, .i32⟩ : BufTy).Contents (Elt F) → (⟨S24x1000000, .f32⟩ : BufTy).Contents (Elt F)),
    StableHlo.nullary main_cst_240 (constant S_ .f32 0x00000000#32) ]
theorem main_part14_ops4_sub : (main_part14_ops4 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem main_part14_ops4_fresh : (main_part14_ops4 : List (HloOp τ sig (Elt F))).Forall fun op => op.fresh = ∅ := by
  simp only [List.Forall]; repeat' constructor
abbrev main_part14_ops5 : List (HloOp τ sig (Elt F)) :=
  [ StableHlo.TRef.unary (.of main_cst_240 : StableHlo.TRef sig ⟨S_, .f32⟩) (.of main_call45_v0 : StableHlo.TRef sig ⟨S_, .f32⟩) id,
    StableHlo.TRef.unary (.of main_v634 : StableHlo.TRef sig ⟨S1x1000000, .i1⟩) (.of main_call45_v1 : StableHlo.TRef sig ⟨S24x1000000, .i1⟩) (broadcastInDim S24x1000000 ![0, 1] bcast_S1x1000000_S24x1000000_0_1),
    StableHlo.TRef.unary (.of main_call45_v0 : StableHlo.TRef sig ⟨S_, .f32⟩) (.of main_call45_v2 : StableHlo.TRef sig ⟨S24x1000000, .f32⟩) (broadcastInDim S24x1000000 ![] bcast_S_S24x1000000),
    StableHlo.TRef.ternary (.of main_call45_v1 : StableHlo.TRef sig ⟨S24x1000000, .i1⟩) (.of main_v641 : StableHlo.TRef sig ⟨S24x1000000, .f32⟩) (.of main_call45_v2 : StableHlo.TRef sig ⟨S24x1000000, .f32⟩) (.of main_v642 : StableHlo.TRef sig ⟨S24x1000000, .f32⟩) select ]
theorem main_part14_ops5_sub : (main_part14_ops5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part14_ops5_fresh : (main_part14_ops5 : List (HloOp τ sig (Elt F))).Forall fun op => op.fresh = ∅ := by
  simp only [List.Forall]; repeat' constructor
abbrev main_part14_ops6 : List (HloOp τ sig (Elt F)) :=
  [ StableHlo.nullary main_cst_241 (constant S_ .f32 0x3F800000#32),
    StableHlo.unary main_cst_241 main_v643 (broadcastInDim S1000000 ![] bcast_S_S1000000 : (⟨S_, .f32⟩ : BufTy).Contents (Elt F) → (⟨S1000000, .f32⟩ : BufTy).Contents (Elt F)),
    StableHlo.binary main_v643 main_v624 main_v644 (subf : (⟨S1000000, .f32⟩ : BufTy).Contents (Elt F) → (⟨S1000000, .f32⟩ : BufTy).Contents (Elt F) → (⟨S1000000, .f32⟩ : BufTy).Contents (Elt F)),
    StableHlo.unary main_v644 main_v645 (broadcastInDim S1x1000000 ![1] bcast_S1000000_S1x1000000_1 : (⟨S1000000, .f32⟩ : BufTy).Contents (Elt F) → (⟨S1x1000000, .f32⟩ : BufTy).Contents (Elt F)),
    StableHlo.unary main_v645 main_v646 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v642 main_v646 main_v647 (mulf : (⟨S24x1000000, .f32⟩ : BufTy).Contents (Elt F) → (⟨S24x1000000, .f32⟩ : BufTy).Contents (Elt F) → (⟨S24x1000000, .f32⟩ : BufTy).Contents (Elt F)),
    StableHlo.nullary main_c_242 (constantI S_ 32 0#32),
    StableHlo.unary main_c_242 main_v648 (broadcastInDim S1000000 ![] bcast_S_S1000000 : (⟨S_, .i32⟩ : BufTy).Contents (Elt F) → (⟨S1000000, .i32⟩ : BufTy).Contents (Elt F)),
    StableHlo.binary main_v627 main_v648 main_v649 (cmpi .sge : (⟨S1000000, .i32⟩ : BufTy).Contents (Elt F) → (⟨S1000000, .i32⟩ : BufTy).Contents (Elt F) → (⟨S1000000, .i1⟩ : BufTy).Contents (Elt F)),
    StableHlo.nullary main_c_243 (constantI S_ 32 256#32),
    StableHlo.unary main_c_243 main_v650 (broadcastInDim S1000000 ![] bcast_S_S1000000 : (⟨S_, .i32⟩ : BufTy).Contents (Elt F) → (⟨S1000000, .i32⟩ : BufTy).Contents (Elt F)),
    StableHlo.binary main_v627 main_v650 main_v651 (cmpi .slt : (⟨S1000000, .i32⟩ : BufTy).Contents (Elt F) → (⟨S1000000, .i32⟩ : BufTy).Contents (Elt F) → (⟨S1000000, .i1⟩ : BufTy).Contents (Elt F)),
    StableHlo.binary main_v649 main_v651 main_v652 (andi : (⟨S1000000, .i1⟩ : BufTy).Contents (Elt F) → (⟨S1000000, .i1⟩ : BufTy).Contents (Elt F) → (⟨S1000000, .i1⟩ : BufTy).Contents (Elt F)),
    StableHlo.nullary main_c_244 (constantI S_ 32 0#32) ]
theorem main_part14_ops6_sub : (main_part14_ops6 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩
theorem main_part14_ops6_fresh : (main_part14_ops6 : List (HloOp τ sig (Elt F))).Forall fun op => op.fresh = ∅ := by
  simp only [List.Forall]; repeat' constructor
theorem main_part14_chain (c : Dev nD) : main_part14 (F := F) c = (Pipeline.chainK
  [ StableHlo.seq main_part14_ops0,
    StableHlo.seq main_part14_ops1,
    StableHlo.seq main_part14_ops2,
    StableHlo.seq main_part14_ops3,
    StableHlo.seq main_part14_ops4,
    StableHlo.seq main_part14_ops5 ]
  (StableHlo.seq main_part14_ops6) : Prog (TpuEff nD τ sig (Elt F) (Pipeline.Sig Λ₀ (Fin 0) fun p => (pcfgs (F := F) p).Adm) .tc) PUnit) := by
  chain_rfl

abbrev main_part15_ops0 : List (HloOp τ sig (Elt F)) :=
  [ StableHlo.nullary main_c_245 (constantI S_ 32 255#32) ]
theorem main_part15_ops0_sub : (main_part15_ops0 : List (HloOp τ sig (Elt F))).Forall fun op => op.bufs ⊆ StableHlo.tcRefs τ sig :=
  StableHlo.nullary_bufs_sub ..
theorem main_part15_ops0_fresh : (main_part15_ops0 : List (HloOp τ sig (Elt F))).Forall fun op => op.fresh = ∅ := by
  simp only [List.Forall]; repeat' constructor
abbrev main_part15_ops1 : List (HloOp τ sig (Elt F)) :=
  [ StableHlo.TRef.unary (.of main_c_244 : StableHlo.TRef sig ⟨S_, .i32⟩) (.of main_call46_v0 : StableHlo.TRef sig ⟨S_, .i32⟩) id,
    StableHlo.TRef.unary (.of main_call46_v0 : StableHlo.TRef sig ⟨S_, .i32⟩) (.of main_call46_v1 : StableHlo.TRef sig ⟨S1000000, .i32⟩) (broadcastInDim S1000000 ![] bcast_S_S1000000),
    StableHlo.TRef.binary (.of main_call46_v1 : StableHlo.TRef sig ⟨S1000000, .i32⟩) (.of main_v627 : StableHlo.TRef sig ⟨S1000000, .i32⟩) (.of main_call46_v2 : StableHlo.TRef sig ⟨S1000000, .i32⟩) maxsi,
    StableHlo.TRef.unary (.of main_c_245 : StableHlo.TRef sig ⟨S_, .i32⟩) (.of main_call46_v3 : StableHlo.TRef sig ⟨S_, .i32⟩) id,
    StableHlo.TRef.unary (.of main_call46_v3 : StableHlo.TRef sig ⟨S_, .i32⟩) (.of main_call46_v4 : StableHlo.TRef sig ⟨S1000000, .i32⟩) (broadcastInDim S1000000 ![] bcast_S_S1000000),
    StableHlo.TRef.binary (.of main_call46_v4 : StableHlo.TRef sig ⟨S1000000, .i32⟩) (.of main_call46_v2 : StableHlo.TRef sig ⟨S1000000, .i32⟩) (.of main_v653 : StableHlo.TRef sig ⟨S1000000, .i32⟩) minsi ]
theorem main_part15_ops1_sub : (main_part15_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem main_part15_ops1_fresh : (main_part15_ops1 : List (HloOp τ sig (Elt F))).Forall fun op => op.fresh = ∅ := by
  simp only [List.Forall]; repeat' constructor
abbrev main_part15_ops2 : List (HloOp τ sig (Elt F)) :=
  [ StableHlo.unary main_v652 main_v654 (broadcastInDim S1x1000000 ![1] bcast_S1000000_S1x1000000_1 : (⟨S1000000, .i1⟩ : BufTy).Contents (Elt F) → (⟨S1x1000000, .i1⟩ : BufTy).Contents (Elt F)),
    StableHlo.nullary main_c_246 (constantI S_ 32 0#32),
    StableHlo.unary main_c_246 main_v655 (broadcastInDim S1000000 ![] bcast_S_S1000000 : (⟨S_, .i32⟩ : BufTy).Contents (Elt F) → (⟨S1000000, .i32⟩ : BufTy).Contents (Elt F)),
    StableHlo.binary main_v653 main_v655 main_v656 (cmpi .slt : (⟨S1000000, .i32⟩ : BufTy).Contents (Elt F) → (⟨S1000000, .i32⟩ : BufTy).Contents (Elt F) → (⟨S1000000, .i1⟩ : BufTy).Contents (Elt F)),
    StableHlo.nullary main_c_247 (constantI S_ 32 256#32),
    StableHlo.unary main_c_247 main_v657 (broadcastInDim S1000000 ![] bcast_S_S1000000 : (⟨S_, .i32⟩ : BufTy).Contents (Elt F) → (⟨S1000000, .i32⟩ : BufTy).Contents (Elt F)),
    StableHlo.binary main_v653 main_v657 main_v658 (addi : (⟨S1000000, .i32⟩ : BufTy).Contents (Elt F) → (⟨S1000000, .i32⟩ : BufTy).Contents (Elt F) → (⟨S1000000, .i32⟩ : BufTy).Contents (Elt F)),
    StableHlo.ternary main_v656 main_v658 main_v653 main_v659 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v659 main_v660 (broadcastInDim S1000000x1 ![0] bcast_S1000000_S1000000x1_0 : (⟨S1000000, .i32⟩ : BufTy).Contents (Elt F) → (⟨S1000000x1, .i32⟩ : BufTy).Contents (Elt F)),
    StableHlo.binary main_arg6 main_v660 main_v661 ((fun x i => Host.gather gather_S24x256_S1000000x1_S24x1000000_0_1_n_n_1_1_241 x i) : (⟨S24x256, .f32⟩ : BufTy).Contents (Elt F) → (⟨S1000000x1, .i32⟩ : BufTy).Contents (Elt F) → (⟨S24x1000000, .f32⟩ : BufTy).Contents (Elt F)),
    StableHlo.nullary main_cst_248 (constant S_ .f32 0x00000000#32) ]
theorem main_part15_ops2_sub : (main_part15_ops2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
theorem main_part15_ops2_fresh : (main_part15_ops2 : List (HloOp τ sig (Elt F))).Forall fun op => op.fresh = ∅ := by
  simp only [List.Forall]; repeat' constructor
abbrev main_part15_ops3 : List (HloOp τ sig (Elt F)) :=
  [ StableHlo.TRef.unary (.of main_cst_248 : StableHlo.TRef sig ⟨S_, .f32⟩) (.of main_call47_v0 : StableHlo.TRef sig ⟨S_, .f32⟩) id,
    StableHlo.TRef.unary (.of main_v654 : StableHlo.TRef sig ⟨S1x1000000, .i1⟩) (.of main_call47_v1 : StableHlo.TRef sig ⟨S24x1000000, .i1⟩) (broadcastInDim S24x1000000 ![0, 1] bcast_S1x1000000_S24x1000000_0_1),
    StableHlo.TRef.unary (.of main_call47_v0 : StableHlo.TRef sig ⟨S_, .f32⟩) (.of main_call47_v2 : StableHlo.TRef sig ⟨S24x1000000, .f32⟩) (broadcastInDim S24x1000000 ![] bcast_S_S24x1000000),
    StableHlo.TRef.ternary (.of main_call47_v1 : StableHlo.TRef sig ⟨S24x1000000, .i1⟩) (.of main_v661 : StableHlo.TRef sig ⟨S24x1000000, .f32⟩) (.of main_call47_v2 : StableHlo.TRef sig ⟨S24x1000000, .f32⟩) (.of main_v662 : StableHlo.TRef sig ⟨S24x1000000, .f32⟩) select ]
theorem main_part15_ops3_sub : (main_part15_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem main_part15_ops3_fresh : (main_part15_ops3 : List (HloOp τ sig (Elt F))).Forall fun op => op.fresh = ∅ := by
  simp only [List.Forall]; repeat' constructor
abbrev main_part15_ops4 : List (HloOp τ sig (Elt F)) :=
  [ StableHlo.unary main_v624 main_v663 (broadcastInDim S1x1000000 ![1] bcast_S1000000_S1x1000000_1 : (⟨S1000000, .f32⟩ : BufTy).Contents (Elt F) → (⟨S1x1000000, .f32⟩ : BufTy).Contents (Elt F)),
    StableHlo.unary main_v663 main_v664 (broadcastInDim S24x1000000 ![0, 1] bcast_S1x1000000_S24x1000000_0_1 : (⟨S1x1000000, .f32⟩ : BufTy).Contents (Elt F) → (⟨S24x1000000, .f32⟩ : BufTy).Contents (Elt F)),
    StableHlo.binary main_v662 main_v664 main_v665 (mulf : (⟨S24x1000000, .f32⟩ : BufTy).Contents (Elt F) → (⟨S24x1000000, .f32⟩ : BufTy).Contents (Elt F) → (⟨S24x1000000, .f32⟩ : BufTy).Contents (Elt F)),
    StableHlo.binary main_v647 main_v665 main_v666 (addf : (⟨S24x1000000, .f32⟩ : BufTy).Contents (Elt F) → (⟨S24x1000000, .f32⟩ : BufTy).Contents (Elt F) → (⟨S24x1000000, .f32⟩ : BufTy).Contents (Elt F)),
    StableHlo.unary main_v666 main_v667 ((transpose S1000000x24 [1, 0] · transposes_S24x1000000_S1000000x24_1_0) : (⟨S24x1000000, .f32⟩ : BufTy).Contents (Elt F) → (⟨S1000000x24, .f32⟩ : BufTy).Contents (Elt F)) ]
theorem main_part15_ops4_sub : (main_part15_ops4 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub ..⟩
theorem main_part15_ops4_fresh : (main_part15_ops4 : List (HloOp τ sig (Elt F))).Forall fun op => op.fresh = ∅ := by
  simp only [List.Forall]; repeat' constructor
theorem main_part15_chain (c : Dev nD) : main_part15 (F := F) c = (Pipeline.chain
  [ StableHlo.seq main_part15_ops0,
    StableHlo.seq main_part15_ops1,
    StableHlo.seq main_part15_ops2,
    StableHlo.seq main_part15_ops3,
    StableHlo.seq main_part15_ops4,
    StableHlo.seq closingOps ] : Prog (TpuEff nD τ sig (Elt F) (Pipeline.Sig Λ₀ (Fin 0) fun p => (pcfgs (F := F) p).Adm) .tc) PUnit) := by
  chain_rfl

theorem main_chain_windows (c : Dev nD) : main (F := F) c = (Pipeline.chain
  [ StableHlo.seq main_part0_ops0,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part4_ops0,
    StableHlo.seq main_part4_ops1,
    StableHlo.seq main_part4_ops2,
    StableHlo.seq main_part4_ops3,
    StableHlo.seq main_part4_ops4,
    StableHlo.seq main_part4_ops5,
    StableHlo.seq main_part5_ops0,
    StableHlo.seq main_part5_ops1,
    StableHlo.seq main_part5_ops2,
    StableHlo.seq main_part5_ops3,
    StableHlo.seq main_part5_ops4,
    StableHlo.seq main_part5_ops5,
    StableHlo.seq main_part5_ops6,
    StableHlo.seq main_part6_ops0,
    StableHlo.seq main_part6_ops1,
    StableHlo.seq main_part6_ops2,
    StableHlo.seq main_part6_ops3,
    StableHlo.seq main_part6_ops4,
    StableHlo.seq main_part6_ops5,
    StableHlo.seq main_part6_ops6,
    StableHlo.seq main_part7_ops0,
    StableHlo.seq main_part7_ops1,
    StableHlo.seq main_part7_ops2,
    StableHlo.seq main_part7_ops3,
    StableHlo.seq main_part7_ops4,
    StableHlo.seq main_part7_ops5,
    StableHlo.seq main_part7_ops6,
    StableHlo.seq main_part7_ops7,
    StableHlo.seq main_part7_ops8,
    StableHlo.seq main_part8_ops0,
    StableHlo.seq main_part8_ops1,
    StableHlo.seq main_part8_ops2,
    StableHlo.seq main_part8_ops3,
    StableHlo.seq main_part8_ops4,
    StableHlo.seq main_part9_ops0,
    StableHlo.seq main_part9_ops1,
    StableHlo.seq main_part9_ops2,
    StableHlo.seq main_part9_ops3,
    StableHlo.seq main_part9_ops4,
    StableHlo.seq main_part9_ops5,
    StableHlo.seq main_part9_ops6,
    StableHlo.seq main_part10_ops0,
    StableHlo.seq main_part10_ops1,
    StableHlo.seq main_part10_ops2,
    StableHlo.seq main_part10_ops3,
    StableHlo.seq main_part10_ops4,
    StableHlo.seq main_part10_ops5,
    StableHlo.seq main_part10_ops6,
    StableHlo.seq main_part10_ops7,
    StableHlo.seq main_part10_ops8,
    StableHlo.seq main_part11_ops0,
    StableHlo.seq main_part11_ops1,
    StableHlo.seq main_part11_ops2,
    StableHlo.seq main_part11_ops3,
    StableHlo.seq main_part11_ops4,
    StableHlo.seq main_part11_ops5,
    StableHlo.seq main_part11_ops6,
    StableHlo.seq main_part12_ops0,
    StableHlo.seq main_part12_ops1,
    StableHlo.seq main_part12_ops2,
    StableHlo.seq main_part12_ops3,
    StableHlo.seq main_part12_ops4,
    StableHlo.seq main_part12_ops5,
    StableHlo.seq main_part12_ops6,
    StableHlo.seq main_part12_ops7,
    StableHlo.seq main_part12_ops8,
    StableHlo.seq main_part13_ops0,
    StableHlo.seq main_part13_ops1,
    StableHlo.seq main_part13_ops2,
    StableHlo.seq main_part13_ops3,
    StableHlo.seq main_part13_ops4,
    StableHlo.seq main_part13_ops5,
    StableHlo.seq main_part13_ops6,
    StableHlo.seq main_part14_ops0,
    StableHlo.seq main_part14_ops1,
    StableHlo.seq main_part14_ops2,
    StableHlo.seq main_part14_ops3,
    StableHlo.seq main_part14_ops4,
    StableHlo.seq main_part14_ops5,
    StableHlo.seq main_part14_ops6,
    StableHlo.seq main_part15_ops0,
    StableHlo.seq main_part15_ops1,
    StableHlo.seq main_part15_ops2,
    StableHlo.seq main_part15_ops3,
    StableHlo.seq main_part15_ops4,
    StableHlo.seq closingOps ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c) = _
  rewrite [main_part15_chain, main_part14_chain, Pipeline.chainK_bind_chain, main_part13_chain, Pipeline.chainK_bind_chain, main_part12_chain, Pipeline.chainK_bind_chain, main_part11_chain, Pipeline.chainK_bind_chain, main_part10_chain, Pipeline.chainK_bind_chain, main_part9_chain, Pipeline.chainK_bind_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

end Cert.ReferenceIdeal.Windows

end
-- ==== Proof.LibFuseSum.lean ====
/-
  Three facts, general in the sizes, for a product against a matrix whose rows come in three equal bands.

  * The host's plain product (rows x contraction times contraction x columns, no batch axis) read at (r, c) is the sum
    over the contracted axis of lhs (r, k) * rhs (k, c): the same sum a product into the zero accumulator gives.
  * Three rank-two pieces of K columns each, laid side by side along the columns, read at (r, b * K + q) with q < K:
    piece b at (r, q).
  * A sum over K + K + K indices is the sum of the three bands' sums, in any commutative monoid: only the grouping
    of the terms changes, so it holds on the extended reals with infinite terms as well.
-/
import Idealize.ShloMosaic.Lib.Pipeline.Value
import Idealize.ShloMosaic.Lib.ValueIdx
import Idealize.ShloMosaic.PureOps.Ideal.Laws

noncomputable section

namespace Cert.LibFuseSum

open Idealize.ShloMosaic Idealize.ShloMosaic.ValueIdx

/-- The host's plain M x K by K x N product read at (r, c): the sum over k of lhs (r, k) * rhs (k, c). -/
theorem hostDot_plain_apply {φ₁ φ₂ : FTy} (M K N : Nat) (lhs : FVec Ideal ⟨2, ![M, K]⟩ φ₁) (rhs : FVec Ideal ⟨2, ![K, N]⟩ φ₂)
    (r : Fin M) (c : Fin N) :
    Host.dotGeneral (DotDims.plain M K N) none lhs rhs (ix2 r c) = ∑ k : Fin K, lhs (ix2 r k) * rhs (ix2 k c) := by
  show FloatOps.dotGeneral (DotDims.plain M K N) none .single lhs rhs (ix2 r c) = _
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- Three M x K pieces side by side along the columns, read in band b (0, 1 or 2) at column b * K + q: piece b at (r, q).
    The piece is named by its position in the list; the columns before it are b whole pieces. -/
theorem concat3_cols_apply {α : Type} {M K : Nat} (x₀ x₁ x₂ : (⟨2, ![M, K]⟩ : Shape).Idx → α)
    (h : Shape.Concatenates ([(⟨⟨2, ![M, K]⟩, x₀⟩ : (s : Shape) × (s.Idx → α)), ⟨⟨2, ![M, K]⟩, x₁⟩, ⟨⟨2, ![M, K]⟩, x₂⟩].map (·.1)) ⟨2, ![M, K + K + K]⟩ 1)
    (r : Fin M) (q : Fin K) (b : Fin 3) (col : Fin (K + K + K)) (hcol : col.val = b.val * K + q.val) :
    concatenate ⟨2, ![M, K + K + K]⟩ 1 [⟨⟨2, ![M, K]⟩, x₀⟩, ⟨⟨2, ![M, K]⟩, x₁⟩, ⟨⟨2, ![M, K]⟩, x₂⟩] h (ix2 r col)
      = (match b with | 0 => x₀ | 1 => x₁ | 2 => x₂) (ix2 r q) := by
  match b, hcol with
  | 0, hcol =>
    refine concatenate_apply_piece (1 : Fin 2) _ h (ix2 r col) 0 (by simp) ⟨2, ![M, K]⟩ x₀ rfl rfl 0 rfl (ix2 r q) ?_ ?_
    · intro d hd; match d, hd with
      | ⟨0, _⟩, _ => rfl
      | ⟨1, _⟩, hd => exact absurd rfl hd
    · show 0 + q.val = col.val; rw [hcol]; simp
  | 1, hcol =>
    refine concatenate_apply_piece (1 : Fin 2) _ h (ix2 r col) 1 (by simp) ⟨2, ![M, K]⟩ x₁ rfl rfl K ?_ (ix2 r q) ?_ ?_
    · simp
    · intro d hd; match d, hd with
      | ⟨0, _⟩, _ => rfl
      | ⟨1, _⟩, hd => exact absurd rfl hd
    · show K + q.val = col.val; rw [hcol]; simp
  | 2, hcol =>
    refine concatenate_apply_piece (1 : Fin 2) _ h (ix2 r col) 2 (by simp) ⟨2, ![M, K]⟩ x₂ rfl rfl (K + K) ?_ (ix2 r q) ?_ ?_
    · simp
    · intro d hd; match d, hd with
      | ⟨0, _⟩, _ => rfl
      | ⟨1, _⟩, hd => exact absurd rfl hd
    · show K + K + q.val = col.val; rw [hcol]; simp; omega

/-- A sum over K + K + K indices, band by band: the indices below K, then K + q, then K + K + q. -/
theorem sum_three_bands {A : Type} [AddCommMonoid A] (K : Nat) (g : Fin (K + K + K) → A) :
    ∑ k : Fin (K + K + K), g k
      = (∑ q : Fin K, g ⟨q.val, by omega⟩ + ∑ q : Fin K, g ⟨K + q.val, by omega⟩) + ∑ q : Fin K, g ⟨K + K + q.val, by omega⟩ := by
  rw [Fin.sum_univ_add, Fin.sum_univ_add]
  rfl

end Cert.LibFuseSum

end
-- ==== Proof.LibSeqLines.lean ====
/-
  General facts about straight lines of host operations.

  * The contents after two lines run one after the other: the second line's fold over the first's.
  * A chain of lines, each run as a straight line, is the straight line of all their operations in order.
  * A property of every operation of every line holds of every operation of the lines laid end to end.
  * A three-operand operation over a literal family of references reads each operand at its own reference.
  * An operation that writes one buffer, of index at least n, writes no reference of index below n; lines of such
    operations leave every reference of index below n at the contents it had.
-/
import Idealize.ShloMosaic.Lib.Pipeline.Regions
import Idealize.ShloMosaic.Lib.StableHlo.Run

noncomputable section

namespace Cert.LibSeqLines

open Idealize.ShloMosaic Idealize.ShloMosaic.StableHlo Idealize.SL.Sem

variable {nD : Nat} {τ : Topo} {sig : RefSig} {Val : EltTy → Type} {Λ : Labels}

/-- The contents after a line followed by another: the second's fold from where the first ends. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The contents after some lines and then one more line. -/
theorem after_flatten_snoc (L : List (List (HloOp τ sig Val))) (l : List (HloOp τ sig Val)) (V : Valuation τ sig Val) :
    after (L ++ [l]).flatten V = after l (after L.flatten V) := by
  rw [List.flatten_append, after_append, List.flatten_cons, List.flatten_nil, List.append_nil]

/-- The chain of lines, each a straight line, is the straight line of all their operations. -/
theorem chain_map_seq (L : List (List (HloOp τ sig Val))) :
    (Pipeline.chain (L.map seq) : Prog (TpuEff nD τ sig Val Λ .tc) PUnit) = seq L.flatten := by
  induction L with
  | nil => rfl
  | cons l L ih => simp only [List.map_cons, Pipeline.chain_cons, ih, List.flatten_cons, seq_append]

/-- What holds of every element of every line holds of every element of the lines laid end to end. -/
theorem forall_flatten {α : Type} {P : α → Prop} (L : List (List α)) (h : L.Forall fun l => l.Forall P) :
    L.flatten.Forall P := by
  rw [List.forall_iff_forall_mem] at h ⊢
  intro a ha
  obtain ⟨l, hl, hal⟩ := List.mem_flatten.mp ha
  exact List.forall_iff_forall_mem.mp (h l hl) a hal

/-- What holds of every element of some lines and of one more line holds over all of them. -/
theorem forall_snoc {α : Type} {P : α → Prop} (L : List α) (a : α) (hL : L.Forall P) (ha : P a) : (L ++ [a]).Forall P := by
  rw [List.forall_iff_forall_mem] at hL ⊢
  intro x hx
  rcases List.mem_append.mp hx with h | h
  · exact hL x h
  · rw [List.mem_singleton.mp h]; exact ha

/-- The operation writes no TensorCore reference of index below n. -/
def WritesFrom (n : Nat) (op : HloOp τ sig Val) : Prop :=
  ∀ r : Ref sig .tc, r.idx.val < n → Proc.devRef (τ := τ) .tc r ∉ op.writes

/-- An operation whose one written buffer is the reference y, of index at least n, writes no reference below n. -/
theorem writesFrom_single {n : Nat} {op : HloOp τ sig Val} (y : Ref sig .tc) (hw : op.writes = {Proc.devRef .tc y})
    (hy : n ≤ y.idx.val) : WritesFrom n op := by
  intro r hr hmem
  rw [hw, Finset.mem_singleton] at hmem
  have e : r = y := Proc.devRef_injective _ hmem
  rw [e] at hr
  exact absurd hr (Nat.not_lt.mpr hy)

/-- Lines of operations none of which writes a reference below n leave such a reference as it was. -/
theorem after_flatten_of_writesFrom {n : Nat} (L : List (List (HloOp τ sig Val))) (h : L.Forall fun l => l.Forall (WritesFrom n))
    (r : Ref sig .tc) (hr : r.idx.val < n) (V : Valuation τ sig Val) :
    after L.flatten V (Proc.devRef .tc r) = V (Proc.devRef .tc r) :=
  after_of_forall_not_mem L.flatten V fun op hop => List.forall_iff_forall_mem.mp (forall_flatten L h) op hop r hr

/-- A line of operations none of which writes a reference below n leaves such a reference as it was. -/
theorem after_of_writesFrom {n : Nat} (l : List (HloOp τ sig Val)) (h : l.Forall (WritesFrom n))
    (r : Ref sig .tc) (hr : r.idx.val < n) (V : Valuation τ sig Val) :
    after l V (Proc.devRef .tc r) = V (Proc.devRef .tc r) :=
  after_of_forall_not_mem l V fun op hop => List.forall_iff_forall_mem.mp h op hop r hr

/-- A three-operand operation over a literal family of references: its result with each operand's contents at its own
    reference. -/
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

end Cert.LibSeqLines

end
-- ==== Proof.RefKept.lean ====
/-
  No line of the reference before its last writes an argument: every operation of those lines writes one buffer, and
  that buffer's index among the references is at least 10, while the ten arguments are the references 0 to 9. So after
  those lines each argument holds what it held at launch.
-/
import proofs.«177920_j1726576856425_1_alg».proof.Proof.RefWindows
import proofs.«177920_j1726576856425_1_alg».proof.Proof.LibSeqLines

noncomputable section

namespace Cert.ReferenceIdeal.Kept

open Cert.ReferenceIdeal Cert.ReferenceIdeal.Gen Cert.ReferenceIdeal.Windows Idealize.ShloMosaic Idealize.ShloMosaic.TcCoe Idealize.SL.Sem Idealize.ShloMosaic.StableHlo
open Cert.LibSeqLines

variable {F : FTy → Type} [FloatOps F]

/-- Every operation of a literal line writes one buffer, of index at least 10: operation by operation, the written
    buffer read off the operation and its index compared with 10. -/
macro "writes_from_ten" : tactic =>
  `(tactic| (simp only [List.Forall]
             repeat' apply And.intro
             all_goals exact writesFrom_single _ rfl (by decide)))

theorem main_part0_ops0_from : (main_part0_ops0 : List (HloOp τ sig (Elt F))).Forall (WritesFrom 10) := by writes_from_ten
theorem main_part1_ops0_from : (main_part1_ops0 : List (HloOp τ sig (Elt F))).Forall (WritesFrom 10) := by writes_from_ten
theorem main_part1_ops1_from : (main_part1_ops1 : List (HloOp τ sig (Elt F))).Forall (WritesFrom 10) := by writes_from_ten
theorem main_part1_ops2_from : (main_part1_ops2 : List (HloOp τ sig (Elt F))).Forall (WritesFrom 10) := by writes_from_ten
theorem main_part1_ops3_from : (main_part1_ops3 : List (HloOp τ sig (Elt F))).Forall (WritesFrom 10) := by writes_from_ten
theorem main_part1_ops4_from : (main_part1_ops4 : List (HloOp τ sig (Elt F))).Forall (WritesFrom 10) := by writes_from_ten
theorem main_part1_ops5_from : (main_part1_ops5 : List (HloOp τ sig (Elt F))).Forall (WritesFrom 10) := by writes_from_ten
theorem main_part1_ops6_from : (main_part1_ops6 : List (HloOp τ sig (Elt F))).Forall (WritesFrom 10) := by writes_from_ten
theorem main_part1_ops7_from : (main_part1_ops7 : List (HloOp τ sig (Elt F))).Forall (WritesFrom 10) := by writes_from_ten
theorem main_part1_ops8_from : (main_part1_ops8 : List (HloOp τ sig (Elt F))).Forall (WritesFrom 10) := by writes_from_ten
theorem main_part2_ops0_from : (main_part2_ops0 : List (HloOp τ sig (Elt F))).Forall (WritesFrom 10) := by writes_from_ten
theorem main_part2_ops1_from : (main_part2_ops1 : List (HloOp τ sig (Elt F))).Forall (WritesFrom 10) := by writes_from_ten
theorem main_part2_ops2_from : (main_part2_ops2 : List (HloOp τ sig (Elt F))).Forall (WritesFrom 10) := by writes_from_ten
theorem main_part2_ops3_from : (main_part2_ops3 : List (HloOp τ sig (Elt F))).Forall (WritesFrom 10) := by writes_from_ten
theorem main_part2_ops4_from : (main_part2_ops4 : List (HloOp τ sig (Elt F))).Forall (WritesFrom 10) := by writes_from_ten
theorem main_part2_ops5_from : (main_part2_ops5 : List (HloOp τ sig (Elt F))).Forall (WritesFrom 10) := by writes_from_ten
theorem main_part2_ops6_from : (main_part2_ops6 : List (HloOp τ sig (Elt F))).Forall (WritesFrom 10) := by writes_from_ten
theorem main_part2_ops7_from : (main_part2_ops7 : List (HloOp τ sig (Elt F))).Forall (WritesFrom 10) := by writes_from_ten
theorem main_part2_ops8_from : (main_part2_ops8 : List (HloOp τ sig (Elt F))).Forall (WritesFrom 10) := by writes_from_ten
theorem main_part3_ops0_from : (main_part3_ops0 : List (HloOp τ sig (Elt F))).Forall (WritesFrom 10) := by writes_from_ten
theorem main_part3_ops1_from : (main_part3_ops1 : List (HloOp τ sig (Elt F))).Forall (WritesFrom 10) := by writes_from_ten
theorem main_part3_ops2_from : (main_part3_ops2 : List (HloOp τ sig (Elt F))).Forall (WritesFrom 10) := by writes_from_ten
theorem main_part3_ops3_from : (main_part3_ops3 : List (HloOp τ sig (Elt F))).Forall (WritesFrom 10) := by writes_from_ten
theorem main_part3_ops4_from : (main_part3_ops4 : List (HloOp τ sig (Elt F))).Forall (WritesFrom 10) := by writes_from_ten
theorem main_part3_ops5_from : (main_part3_ops5 : List (HloOp τ sig (Elt F))).Forall (WritesFrom 10) := by writes_from_ten
theorem main_part3_ops6_from : (main_part3_ops6 : List (HloOp τ sig (Elt F))).Forall (WritesFrom 10) := by writes_from_ten
theorem main_part4_ops0_from : (main_part4_ops0 : List (HloOp τ sig (Elt F))).Forall (WritesFrom 10) := by writes_from_ten
theorem main_part4_ops1_from : (main_part4_ops1 : List (HloOp τ sig (Elt F))).Forall (WritesFrom 10) := by writes_from_ten
theorem main_part4_ops2_from : (main_part4_ops2 : List (HloOp τ sig (Elt F))).Forall (WritesFrom 10) := by writes_from_ten
theorem main_part4_ops3_from : (main_part4_ops3 : List (HloOp τ sig (Elt F))).Forall (WritesFrom 10) := by writes_from_ten
theorem main_part4_ops4_from : (main_part4_ops4 : List (HloOp τ sig (Elt F))).Forall (WritesFrom 10) := by writes_from_ten
theorem main_part4_ops5_from : (main_part4_ops5 : List (HloOp τ sig (Elt F))).Forall (WritesFrom 10) := by writes_from_ten
theorem main_part5_ops0_from : (main_part5_ops0 : List (HloOp τ sig (Elt F))).Forall (WritesFrom 10) := by writes_from_ten
theorem main_part5_ops1_from : (main_part5_ops1 : List (HloOp τ sig (Elt F))).Forall (WritesFrom 10) := by writes_from_ten
theorem main_part5_ops2_from : (main_part5_ops2 : List (HloOp τ sig (Elt F))).Forall (WritesFrom 10) := by writes_from_ten
theorem main_part5_ops3_from : (main_part5_ops3 : List (HloOp τ sig (Elt F))).Forall (WritesFrom 10) := by writes_from_ten
theorem main_part5_ops4_from : (main_part5_ops4 : List (HloOp τ sig (Elt F))).Forall (WritesFrom 10) := by writes_from_ten
theorem main_part5_ops5_from : (main_part5_ops5 : List (HloOp τ sig (Elt F))).Forall (WritesFrom 10) := by writes_from_ten
theorem main_part5_ops6_from : (main_part5_ops6 : List (HloOp τ sig (Elt F))).Forall (WritesFrom 10) := by writes_from_ten
theorem main_part6_ops0_from : (main_part6_ops0 : List (HloOp τ sig (Elt F))).Forall (WritesFrom 10) := by writes_from_ten
theorem main_part6_ops1_from : (main_part6_ops1 : List (HloOp τ sig (Elt F))).Forall (WritesFrom 10) := by writes_from_ten
theorem main_part6_ops2_from : (main_part6_ops2 : List (HloOp τ sig (Elt F))).Forall (WritesFrom 10) := by writes_from_ten
theorem main_part6_ops3_from : (main_part6_ops3 : List (HloOp τ sig (Elt F))).Forall (WritesFrom 10) := by writes_from_ten
theorem main_part6_ops4_from : (main_part6_ops4 : List (HloOp τ sig (Elt F))).Forall (WritesFrom 10) := by writes_from_ten
theorem main_part6_ops5_from : (main_part6_ops5 : List (HloOp τ sig (Elt F))).Forall (WritesFrom 10) := by writes_from_ten
theorem main_part6_ops6_from : (main_part6_ops6 : List (HloOp τ sig (Elt F))).Forall (WritesFrom 10) := by writes_from_ten
theorem main_part7_ops0_from : (main_part7_ops0 : List (HloOp τ sig (Elt F))).Forall (WritesFrom 10) := by writes_from_ten
theorem main_part7_ops1_from : (main_part7_ops1 : List (HloOp τ sig (Elt F))).Forall (WritesFrom 10) := by writes_from_ten
theorem main_part7_ops2_from : (main_part7_ops2 : List (HloOp τ sig (Elt F))).Forall (WritesFrom 10) := by writes_from_ten
theorem main_part7_ops3_from : (main_part7_ops3 : List (HloOp τ sig (Elt F))).Forall (WritesFrom 10) := by writes_from_ten
theorem main_part7_ops4_from : (main_part7_ops4 : List (HloOp τ sig (Elt F))).Forall (WritesFrom 10) := by writes_from_ten
theorem main_part7_ops5_from : (main_part7_ops5 : List (HloOp τ sig (Elt F))).Forall (WritesFrom 10) := by writes_from_ten
theorem main_part7_ops6_from : (main_part7_ops6 : List (HloOp τ sig (Elt F))).Forall (WritesFrom 10) := by writes_from_ten
theorem main_part7_ops7_from : (main_part7_ops7 : List (HloOp τ sig (Elt F))).Forall (WritesFrom 10) := by writes_from_ten
theorem main_part7_ops8_from : (main_part7_ops8 : List (HloOp τ sig (Elt F))).Forall (WritesFrom 10) := by writes_from_ten
theorem main_part8_ops0_from : (main_part8_ops0 : List (HloOp τ sig (Elt F))).Forall (WritesFrom 10) := by writes_from_ten
theorem main_part8_ops1_from : (main_part8_ops1 : List (HloOp τ sig (Elt F))).Forall (WritesFrom 10) := by writes_from_ten
theorem main_part8_ops2_from : (main_part8_ops2 : List (HloOp τ sig (Elt F))).Forall (WritesFrom 10) := by writes_from_ten
theorem main_part8_ops3_from : (main_part8_ops3 : List (HloOp τ sig (Elt F))).Forall (WritesFrom 10) := by writes_from_ten
theorem main_part8_ops4_from : (main_part8_ops4 : List (HloOp τ sig (Elt F))).Forall (WritesFrom 10) := by writes_from_ten
theorem main_part9_ops0_from : (main_part9_ops0 : List (HloOp τ sig (Elt F))).Forall (WritesFrom 10) := by writes_from_ten
theorem main_part9_ops1_from : (main_part9_ops1 : List (HloOp τ sig (Elt F))).Forall (WritesFrom 10) := by writes_from_ten
theorem main_part9_ops2_from : (main_part9_ops2 : List (HloOp τ sig (Elt F))).Forall (WritesFrom 10) := by writes_from_ten
theorem main_part9_ops3_from : (main_part9_ops3 : List (HloOp τ sig (Elt F))).Forall (WritesFrom 10) := by writes_from_ten
theorem main_part9_ops4_from : (main_part9_ops4 : List (HloOp τ sig (Elt F))).Forall (WritesFrom 10) := by writes_from_ten
theorem main_part9_ops5_from : (main_part9_ops5 : List (HloOp τ sig (Elt F))).Forall (WritesFrom 10) := by writes_from_ten
theorem main_part9_ops6_from : (main_part9_ops6 : List (HloOp τ sig (Elt F))).Forall (WritesFrom 10) := by writes_from_ten
theorem main_part10_ops0_from : (main_part10_ops0 : List (HloOp τ sig (Elt F))).Forall (WritesFrom 10) := by writes_from_ten
theorem main_part10_ops1_from : (main_part10_ops1 : List (HloOp τ sig (Elt F))).Forall (WritesFrom 10) := by writes_from_ten
theorem main_part10_ops2_from : (main_part10_ops2 : List (HloOp τ sig (Elt F))).Forall (WritesFrom 10) := by writes_from_ten
theorem main_part10_ops3_from : (main_part10_ops3 : List (HloOp τ sig (Elt F))).Forall (WritesFrom 10) := by writes_from_ten
theorem main_part10_ops4_from : (main_part10_ops4 : List (HloOp τ sig (Elt F))).Forall (WritesFrom 10) := by writes_from_ten
theorem main_part10_ops5_from : (main_part10_ops5 : List (HloOp τ sig (Elt F))).Forall (WritesFrom 10) := by writes_from_ten
theorem main_part10_ops6_from : (main_part10_ops6 : List (HloOp τ sig (Elt F))).Forall (WritesFrom 10) := by writes_from_ten
theorem main_part10_ops7_from : (main_part10_ops7 : List (HloOp τ sig (Elt F))).Forall (WritesFrom 10) := by writes_from_ten
theorem main_part10_ops8_from : (main_part10_ops8 : List (HloOp τ sig (Elt F))).Forall (WritesFrom 10) := by writes_from_ten
theorem main_part11_ops0_from : (main_part11_ops0 : List (HloOp τ sig (Elt F))).Forall (WritesFrom 10) := by writes_from_ten
theorem main_part11_ops1_from : (main_part11_ops1 : List (HloOp τ sig (Elt F))).Forall (WritesFrom 10) := by writes_from_ten
theorem main_part11_ops2_from : (main_part11_ops2 : List (HloOp τ sig (Elt F))).Forall (WritesFrom 10) := by writes_from_ten
theorem main_part11_ops3_from : (main_part11_ops3 : List (HloOp τ sig (Elt F))).Forall (WritesFrom 10) := by writes_from_ten
theorem main_part11_ops4_from : (main_part11_ops4 : List (HloOp τ sig (Elt F))).Forall (WritesFrom 10) := by writes_from_ten
theorem main_part11_ops5_from : (main_part11_ops5 : List (HloOp τ sig (Elt F))).Forall (WritesFrom 10) := by writes_from_ten
theorem main_part11_ops6_from : (main_part11_ops6 : List (HloOp τ sig (Elt F))).Forall (WritesFrom 10) := by writes_from_ten
theorem main_part12_ops0_from : (main_part12_ops0 : List (HloOp τ sig (Elt F))).Forall (WritesFrom 10) := by writes_from_ten
theorem main_part12_ops1_from : (main_part12_ops1 : List (HloOp τ sig (Elt F))).Forall (WritesFrom 10) := by writes_from_ten
theorem main_part12_ops2_from : (main_part12_ops2 : List (HloOp τ sig (Elt F))).Forall (WritesFrom 10) := by writes_from_ten
theorem main_part12_ops3_from : (main_part12_ops3 : List (HloOp τ sig (Elt F))).Forall (WritesFrom 10) := by writes_from_ten
theorem main_part12_ops4_from : (main_part12_ops4 : List (HloOp τ sig (Elt F))).Forall (WritesFrom 10) := by writes_from_ten
theorem main_part12_ops5_from : (main_part12_ops5 : List (HloOp τ sig (Elt F))).Forall (WritesFrom 10) := by writes_from_ten
theorem main_part12_ops6_from : (main_part12_ops6 : List (HloOp τ sig (Elt F))).Forall (WritesFrom 10) := by writes_from_ten
theorem main_part12_ops7_from : (main_part12_ops7 : List (HloOp τ sig (Elt F))).Forall (WritesFrom 10) := by writes_from_ten
theorem main_part12_ops8_from : (main_part12_ops8 : List (HloOp τ sig (Elt F))).Forall (WritesFrom 10) := by writes_from_ten
theorem main_part13_ops0_from : (main_part13_ops0 : List (HloOp τ sig (Elt F))).Forall (WritesFrom 10) := by writes_from_ten
theorem main_part13_ops1_from : (main_part13_ops1 : List (HloOp τ sig (Elt F))).Forall (WritesFrom 10) := by writes_from_ten
theorem main_part13_ops2_from : (main_part13_ops2 : List (HloOp τ sig (Elt F))).Forall (WritesFrom 10) := by writes_from_ten
theorem main_part13_ops3_from : (main_part13_ops3 : List (HloOp τ sig (Elt F))).Forall (WritesFrom 10) := by writes_from_ten
theorem main_part13_ops4_from : (main_part13_ops4 : List (HloOp τ sig (Elt F))).Forall (WritesFrom 10) := by writes_from_ten
theorem main_part13_ops5_from : (main_part13_ops5 : List (HloOp τ sig (Elt F))).Forall (WritesFrom 10) := by writes_from_ten
theorem main_part13_ops6_from : (main_part13_ops6 : List (HloOp τ sig (Elt F))).Forall (WritesFrom 10) := by writes_from_ten
theorem main_part14_ops0_from : (main_part14_ops0 : List (HloOp τ sig (Elt F))).Forall (WritesFrom 10) := by writes_from_ten
theorem main_part14_ops1_from : (main_part14_ops1 : List (HloOp τ sig (Elt F))).Forall (WritesFrom 10) := by writes_from_ten
theorem main_part14_ops2_from : (main_part14_ops2 : List (HloOp τ sig (Elt F))).Forall (WritesFrom 10) := by writes_from_ten
theorem main_part14_ops3_from : (main_part14_ops3 : List (HloOp τ sig (Elt F))).Forall (WritesFrom 10) := by writes_from_ten
theorem main_part14_ops4_from : (main_part14_ops4 : List (HloOp τ sig (Elt F))).Forall (WritesFrom 10) := by writes_from_ten
theorem main_part14_ops5_from : (main_part14_ops5 : List (HloOp τ sig (Elt F))).Forall (WritesFrom 10) := by writes_from_ten
theorem main_part14_ops6_from : (main_part14_ops6 : List (HloOp τ sig (Elt F))).Forall (WritesFrom 10) := by writes_from_ten
theorem main_part15_ops0_from : (main_part15_ops0 : List (HloOp τ sig (Elt F))).Forall (WritesFrom 10) := by writes_from_ten
theorem main_part15_ops1_from : (main_part15_ops1 : List (HloOp τ sig (Elt F))).Forall (WritesFrom 10) := by writes_from_ten
theorem main_part15_ops2_from : (main_part15_ops2 : List (HloOp τ sig (Elt F))).Forall (WritesFrom 10) := by writes_from_ten
theorem main_part15_ops3_from : (main_part15_ops3 : List (HloOp τ sig (Elt F))).Forall (WritesFrom 10) := by writes_from_ten
theorem main_part15_ops4_from : (main_part15_ops4 : List (HloOp τ sig (Elt F))).Forall (WritesFrom 10) := by writes_from_ten

/-- The last line too writes no reference below 10. -/
theorem closingOps_from : (closingOps : List (HloOp τ sig (Elt F))).Forall (WritesFrom 10) := by writes_from_ten

/-- The lines before the last, in order: none of their operations writes a reference below 10. -/
theorem lines_from : ([main_part0_ops0, main_part1_ops0, main_part1_ops1, main_part1_ops2, main_part1_ops3, main_part1_ops4, main_part1_ops5, main_part1_ops6, main_part1_ops7, main_part1_ops8, main_part2_ops0, main_part2_ops1, main_part2_ops2, main_part2_ops3, main_part2_ops4, main_part2_ops5, main_part2_ops6, main_part2_ops7, main_part2_ops8, main_part3_ops0, main_part3_ops1, main_part3_ops2, main_part3_ops3, main_part3_ops4, main_part3_ops5, main_part3_ops6, main_part4_ops0, main_part4_ops1, main_part4_ops2, main_part4_ops3, main_part4_ops4, main_part4_ops5, main_part5_ops0, main_part5_ops1, main_part5_ops2, main_part5_ops3, main_part5_ops4, main_part5_ops5, main_part5_ops6, main_part6_ops0, main_part6_ops1, main_part6_ops2, main_part6_ops3, main_part6_ops4, main_part6_ops5, main_part6_ops6, main_part7_ops0, main_part7_ops1, main_part7_ops2, main_part7_ops3, main_part7_ops4, main_part7_ops5, main_part7_ops6, main_part7_ops7, main_part7_ops8, main_part8_ops0, main_part8_ops1, main_part8_ops2, main_part8_ops3, main_part8_ops4, main_part9_ops0, main_part9_ops1, main_part9_ops2, main_part9_ops3, main_part9_ops4, main_part9_ops5, main_part9_ops6, main_part10_ops0, main_part10_ops1, main_part10_ops2, main_part10_ops3, main_part10_ops4, main_part10_ops5, main_part10_ops6, main_part10_ops7, main_part10_ops8, main_part11_ops0, main_part11_ops1, main_part11_ops2, main_part11_ops3, main_part11_ops4, main_part11_ops5, main_part11_ops6, main_part12_ops0, main_part12_ops1, main_part12_ops2, main_part12_ops3, main_part12_ops4, main_part12_ops5, main_part12_ops6, main_part12_ops7, main_part12_ops8, main_part13_ops0, main_part13_ops1, main_part13_ops2, main_part13_ops3, main_part13_ops4, main_part13_ops5, main_part13_ops6, main_part14_ops0, main_part14_ops1, main_part14_ops2, main_part14_ops3, main_part14_ops4, main_part14_ops5, main_part14_ops6, main_part15_ops0, main_part15_ops1, main_part15_ops2, main_part15_ops3, main_part15_ops4] : List (List (HloOp τ sig (Elt F)))).Forall fun l => l.Forall (WritesFrom 10) :=
  ⟨main_part0_ops0_from, main_part1_ops0_from, main_part1_ops1_from, main_part1_ops2_from, main_part1_ops3_from, main_part1_ops4_from, main_part1_ops5_from, main_part1_ops6_from, main_part1_ops7_from, main_part1_ops8_from, main_part2_ops0_from, main_part2_ops1_from, main_part2_ops2_from, main_part2_ops3_from, main_part2_ops4_from, main_part2_ops5_from, main_part2_ops6_from, main_part2_ops7_from, main_part2_ops8_from, main_part3_ops0_from, main_part3_ops1_from, main_part3_ops2_from, main_part3_ops3_from, main_part3_ops4_from, main_part3_ops5_from, main_part3_ops6_from, main_part4_ops0_from, main_part4_ops1_from, main_part4_ops2_from, main_part4_ops3_from, main_part4_ops4_from, main_part4_ops5_from, main_part5_ops0_from, main_part5_ops1_from, main_part5_ops2_from, main_part5_ops3_from, main_part5_ops4_from, main_part5_ops5_from, main_part5_ops6_from, main_part6_ops0_from, main_part6_ops1_from, main_part6_ops2_from, main_part6_ops3_from, main_part6_ops4_from, main_part6_ops5_from, main_part6_ops6_from, main_part7_ops0_from, main_part7_ops1_from, main_part7_ops2_from, main_part7_ops3_from, main_part7_ops4_from, main_part7_ops5_from, main_part7_ops6_from, main_part7_ops7_from, main_part7_ops8_from, main_part8_ops0_from, main_part8_ops1_from, main_part8_ops2_from, main_part8_ops3_from, main_part8_ops4_from, main_part9_ops0_from, main_part9_ops1_from, main_part9_ops2_from, main_part9_ops3_from, main_part9_ops4_from, main_part9_ops5_from, main_part9_ops6_from, main_part10_ops0_from, main_part10_ops1_from, main_part10_ops2_from, main_part10_ops3_from, main_part10_ops4_from, main_part10_ops5_from, main_part10_ops6_from, main_part10_ops7_from, main_part10_ops8_from, main_part11_ops0_from, main_part11_ops1_from, main_part11_ops2_from, main_part11_ops3_from, main_part11_ops4_from, main_part11_ops5_from, main_part11_ops6_from, main_part12_ops0_from, main_part12_ops1_from, main_part12_ops2_from, main_part12_ops3_from, main_part12_ops4_from, main_part12_ops5_from, main_part12_ops6_from, main_part12_ops7_from, main_part12_ops8_from, main_part13_ops0_from, main_part13_ops1_from, main_part13_ops2_from, main_part13_ops3_from, main_part13_ops4_from, main_part13_ops5_from, main_part13_ops6_from, main_part14_ops0_from, main_part14_ops1_from, main_part14_ops2_from, main_part14_ops3_from, main_part14_ops4_from, main_part14_ops5_from, main_part14_ops6_from, main_part15_ops0_from, main_part15_ops1_from, main_part15_ops2_from, main_part15_ops3_from, main_part15_ops4_from⟩

end Cert.ReferenceIdeal.Kept

end
-- ==== Proof.RefValue.lean ====
/-
  The reference's closing computation, read at an index: the product of the row of 72 numbers (the three products
  xy*z, xz*y, yz*x laid side by side) with the mixing matrix is the fused function of the six arrays. The sum over
  the 72 rows of the matrix splits into its three bands of 24; in band b the row of 72 reads the b-th product.
-/
import proofs.«177920_j1726576856425_1_alg».proof.Proof.FuseSpec
import proofs.«177920_j1726576856425_1_alg».proof.Proof.LibFuseSum

noncomputable section

namespace Cert.ReferenceIdeal.ClosingValue

open Idealize.ShloMosaic Idealize.ShloMosaic.ValueIdx Cert.LibFuseSum

/-- The three products side by side, times the mixing matrix, at (n, c): the fused function there. -/
theorem closing_at (A B C D E G : FVec Ideal ⟨2, ![1000000, 24]⟩ .f32) (f : FVec Ideal ⟨2, ![72, 28]⟩ .f32)
    (h : Shape.Concatenates [(⟨2, ![1000000, 24]⟩ : Shape), ⟨2, ![1000000, 24]⟩, ⟨2, ![1000000, 24]⟩] ⟨2, ![1000000, 72]⟩ 1)
    (n : Fin 1000000) (c : Fin 28) :
    Host.dotGeneral (DotDims.plain 1000000 72 28) none
        (concatenate ⟨2, ![1000000, 72]⟩ 1 [⟨⟨2, ![1000000, 24]⟩, mulf A G⟩, ⟨⟨2, ![1000000, 24]⟩, mulf B E⟩, ⟨⟨2, ![1000000, 24]⟩, mulf C D⟩] h)
        f (ix2 n c)
      = Cert.FuseSpec.fusedAt A B C D E G f n c := by
  rw [hostDot_plain_apply]
  refine (sum_three_bands 24 (fun k : Fin (24 + 24 + 24) =>
    concatenate ⟨2, ![1000000, 72]⟩ 1 [⟨⟨2, ![1000000, 24]⟩, mulf A G⟩, ⟨⟨2, ![1000000, 24]⟩, mulf B E⟩, ⟨⟨2, ![1000000, 24]⟩, mulf C D⟩] h (ix2 n k)
      * f (ix2 k c))).trans ?_
  have b0 : ∀ q : Fin 24, concatenate ⟨2, ![1000000, 72]⟩ 1 [⟨⟨2, ![1000000, 24]⟩, mulf A G⟩, ⟨⟨2, ![1000000, 24]⟩, mulf B E⟩, ⟨⟨2, ![1000000, 24]⟩, mulf C D⟩] h
      (ix2 n (⟨q.val, by omega⟩ : Fin (24 + 24 + 24))) = A (ix2 n q) * G (ix2 n q) := fun q =>
    concat3_cols_apply (M := 1000000) (K := 24) (mulf A G) (mulf B E) (mulf C D) h n q 0 ⟨q.val, by omega⟩ (by simp)
  have b1 : ∀ q : Fin 24, concatenate ⟨2, ![1000000, 72]⟩ 1 [⟨⟨2, ![1000000, 24]⟩, mulf A G⟩, ⟨⟨2, ![1000000, 24]⟩, mulf B E⟩, ⟨⟨2, ![1000000, 24]⟩, mulf C D⟩] h
      (ix2 n (⟨24 + q.val, by omega⟩ : Fin (24 + 24 + 24))) = B (ix2 n q) * E (ix2 n q) := fun q =>
    concat3_cols_apply (M := 1000000) (K := 24) (mulf A G) (mulf B E) (mulf C D) h n q 1 ⟨24 + q.val, by omega⟩ (by simp)
  have b2 : ∀ q : Fin 24, concatenate ⟨2, ![1000000, 72]⟩ 1 [⟨⟨2, ![1000000, 24]⟩, mulf A G⟩, ⟨⟨2, ![1000000, 24]⟩, mulf B E⟩, ⟨⟨2, ![1000000, 24]⟩, mulf C D⟩] h
      (ix2 n (⟨24 + 24 + q.val, by omega⟩ : Fin (24 + 24 + 24))) = C (ix2 n q) * D (ix2 n q) := fun q =>
    concat3_cols_apply (M := 1000000) (K := 24) (mulf A G) (mulf B E) (mulf C D) h n q 2 ⟨24 + 24 + q.val, by omega⟩ (by simp)
  unfold Cert.FuseSpec.fusedAt
  congr 1
  · congr 1
    · exact Finset.sum_congr rfl fun q _ => congrArg (· * f (ix2 (⟨q.val, by omega⟩ : Fin 72) c)) (b0 q)
    · exact Finset.sum_congr rfl fun q _ => congrArg (· * f (ix2 (⟨24 + q.val, by omega⟩ : Fin 72) c)) (b1 q)
  · exact Finset.sum_congr rfl fun q _ => congrArg (· * f (ix2 (⟨24 + 24 + q.val, by omega⟩ : Fin 72) c)) (b2 q)

end Cert.ReferenceIdeal.ClosingValue

end
-- ==== Proof.RefRun.lean ====
import proofs.«177920_j1726576856425_1_alg».proof.Proof.RefWindows
import proofs.«177920_j1726576856425_1_alg».proof.Proof.FuseSpec
import proofs.«177920_j1726576856425_1_alg».proof.Proof.LibFuseSum
import proofs.«177920_j1726576856425_1_alg».proof.Proof.LibSeqLines
import proofs.«177920_j1726576856425_1_alg».proof.Proof.RefKept
import proofs.«177920_j1726576856425_1_alg».proof.Proof.RefValue

noncomputable section

namespace Cert.ReferenceIdeal.HostRun

open Cert.ReferenceIdeal Cert.ReferenceIdeal.Gen Cert.ReferenceIdeal.Windows Idealize.ShloMosaic Idealize.ShloMosaic.TcCoe Idealize.SL.Sem Idealize.ShloMosaic.StableHlo

variable {F : FTy → Type} [FloatOps F]

/-- The lines of host operations that sample the six feature arrays, in program order (every line of @main but the last). -/
abbrev headItems : List (List (HloOp τ sig (Elt F))) :=
  [main_part0_ops0, main_part1_ops0, main_part1_ops1, main_part1_ops2, main_part1_ops3, main_part1_ops4, main_part1_ops5, main_part1_ops6, main_part1_ops7, main_part1_ops8, main_part2_ops0, main_part2_ops1, main_part2_ops2, main_part2_ops3, main_part2_ops4, main_part2_ops5, main_part2_ops6, main_part2_ops7, main_part2_ops8, main_part3_ops0, main_part3_ops1, main_part3_ops2, main_part3_ops3, main_part3_ops4, main_part3_ops5, main_part3_ops6, main_part4_ops0, main_part4_ops1, main_part4_ops2, main_part4_ops3, main_part4_ops4, main_part4_ops5, main_part5_ops0, main_part5_ops1, main_part5_ops2, main_part5_ops3, main_part5_ops4, main_part5_ops5, main_part5_ops6, main_part6_ops0, main_part6_ops1, main_part6_ops2, main_part6_ops3, main_part6_ops4, main_part6_ops5, main_part6_ops6, main_part7_ops0, main_part7_ops1, main_part7_ops2, main_part7_ops3, main_part7_ops4, main_part7_ops5, main_part7_ops6, main_part7_ops7, main_part7_ops8, main_part8_ops0, main_part8_ops1, main_part8_ops2, main_part8_ops3, main_part8_ops4, main_part9_ops0, main_part9_ops1, main_part9_ops2, main_part9_ops3, main_part9_ops4, main_part9_ops5, main_part9_ops6, main_part10_ops0, main_part10_ops1, main_part10_ops2, main_part10_ops3, main_part10_ops4, main_part10_ops5, main_part10_ops6, main_part10_ops7, main_part10_ops8, main_part11_ops0, main_part11_ops1, main_part11_ops2, main_part11_ops3, main_part11_ops4, main_part11_ops5, main_part11_ops6, main_part12_ops0, main_part12_ops1, main_part12_ops2, main_part12_ops3, main_part12_ops4, main_part12_ops5, main_part12_ops6, main_part12_ops7, main_part12_ops8, main_part13_ops0, main_part13_ops1, main_part13_ops2, main_part13_ops3, main_part13_ops4, main_part13_ops5, main_part13_ops6, main_part14_ops0, main_part14_ops1, main_part14_ops2, main_part14_ops3, main_part14_ops4, main_part14_ops5, main_part14_ops6, main_part15_ops0, main_part15_ops1, main_part15_ops2, main_part15_ops3, main_part15_ops4]

/-- Device c's buffer contents once those lines have run, from the launch contents. -/
def headVal (m : (ℓ : Loc nD τ sig) → Buf (Elt F) ℓ) (c : Dev nD) : Valuation τ sig (Elt F) :=
  after (headItems (F := F)).flatten (launchContents m c)

variable (m : (ℓ : Loc nD τ sig) → Buf (Elt F) ℓ)

/-- The xy-plane samples the reference computes. -/
def xy (c : Dev nD) : FVec F S1000000x24 .f32 := headVal m c (Proc.devRef .tc main_v182)
/-- The xz-plane samples the reference computes. -/
def xz (c : Dev nD) : FVec F S1000000x24 .f32 := headVal m c (Proc.devRef .tc main_v348)
/-- The yz-plane samples the reference computes. -/
def yz (c : Dev nD) : FVec F S1000000x24 .f32 := headVal m c (Proc.devRef .tc main_v514)
/-- The x-line samples the reference computes. -/
def x (c : Dev nD) : FVec F S1000000x24 .f32 := headVal m c (Proc.devRef .tc main_v565)
/-- The y-line samples the reference computes. -/
def y (c : Dev nD) : FVec F S1000000x24 .f32 := headVal m c (Proc.devRef .tc main_v616)
/-- The z-line samples the reference computes. -/
def z (c : Dev nD) : FVec F S1000000x24 .f32 := headVal m c (Proc.devRef .tc main_v667)
/-- The mixing matrix, as launched. -/
def mix (c : Dev nD) : FVec F S72x28 .f32 := m ((c.tc : Thread nD τ).loc main_arg7)

/-! ## The run: @main is one straight line -/

open Cert.LibSeqLines

/-- @main is the straight line of all its operations, the lines laid end to end. -/
theorem main_eq (c : Dev nD) : main (F := F) c = seq ((headItems (F := F) ++ [closingOps]).flatten) := by
  rw [← chain_map_seq]; exact main_chain_windows c

theorem scopedRefs_eq : (Finset.univ.filter fun b : Ref sig .tc => b.isScoped) = ∅ := by decide
theorem scopedSems_eq : (Finset.univ.filter fun sm : SemLoc sig => sm.isScoped .tc) = ∅ := by decide

/-- Every operation of the lines before the last touches TensorCore references only. -/
theorem head_sub : (headItems (F := F)).Forall fun l => l.Forall fun op => op.bufs ⊆ tcRefs τ sig :=
  ⟨main_part0_ops0_sub, main_part1_ops0_sub, main_part1_ops1_sub, main_part1_ops2_sub, main_part1_ops3_sub, main_part1_ops4_sub, main_part1_ops5_sub, main_part1_ops6_sub, main_part1_ops7_sub, main_part1_ops8_sub, main_part2_ops0_sub, main_part2_ops1_sub, main_part2_ops2_sub, main_part2_ops3_sub, main_part2_ops4_sub, main_part2_ops5_sub, main_part2_ops6_sub, main_part2_ops7_sub, main_part2_ops8_sub, main_part3_ops0_sub, main_part3_ops1_sub, main_part3_ops2_sub, main_part3_ops3_sub, main_part3_ops4_sub, main_part3_ops5_sub, main_part3_ops6_sub, main_part4_ops0_sub, main_part4_ops1_sub, main_part4_ops2_sub, main_part4_ops3_sub, main_part4_ops4_sub, main_part4_ops5_sub, main_part5_ops0_sub, main_part5_ops1_sub, main_part5_ops2_sub, main_part5_ops3_sub, main_part5_ops4_sub, main_part5_ops5_sub, main_part5_ops6_sub, main_part6_ops0_sub, main_part6_ops1_sub, main_part6_ops2_sub, main_part6_ops3_sub, main_part6_ops4_sub, main_part6_ops5_sub, main_part6_ops6_sub, main_part7_ops0_sub, main_part7_ops1_sub, main_part7_ops2_sub, main_part7_ops3_sub, main_part7_ops4_sub, main_part7_ops5_sub, main_part7_ops6_sub, main_part7_ops7_sub, main_part7_ops8_sub, main_part8_ops0_sub, main_part8_ops1_sub, main_part8_ops2_sub, main_part8_ops3_sub, main_part8_ops4_sub, main_part9_ops0_sub, main_part9_ops1_sub, main_part9_ops2_sub, main_part9_ops3_sub, main_part9_ops4_sub, main_part9_ops5_sub, main_part9_ops6_sub, main_part10_ops0_sub, main_part10_ops1_sub, main_part10_ops2_sub, main_part10_ops3_sub, main_part10_ops4_sub, main_part10_ops5_sub, main_part10_ops6_sub, main_part10_ops7_sub, main_part10_ops8_sub, main_part11_ops0_sub, main_part11_ops1_sub, main_part11_ops2_sub, main_part11_ops3_sub, main_part11_ops4_sub, main_part11_ops5_sub, main_part11_ops6_sub, main_part12_ops0_sub, main_part12_ops1_sub, main_part12_ops2_sub, main_part12_ops3_sub, main_part12_ops4_sub, main_part12_ops5_sub, main_part12_ops6_sub, main_part12_ops7_sub, main_part12_ops8_sub, main_part13_ops0_sub, main_part13_ops1_sub, main_part13_ops2_sub, main_part13_ops3_sub, main_part13_ops4_sub, main_part13_ops5_sub, main_part13_ops6_sub, main_part14_ops0_sub, main_part14_ops1_sub, main_part14_ops2_sub, main_part14_ops3_sub, main_part14_ops4_sub, main_part14_ops5_sub, main_part14_ops6_sub, main_part15_ops0_sub, main_part15_ops1_sub, main_part15_ops2_sub, main_part15_ops3_sub, main_part15_ops4_sub⟩

/-- No operation of the lines before the last allocates. -/
theorem head_fresh : (headItems (F := F)).Forall fun l => l.Forall fun op => op.fresh = ∅ :=
  ⟨main_part0_ops0_fresh, main_part1_ops0_fresh, main_part1_ops1_fresh, main_part1_ops2_fresh, main_part1_ops3_fresh, main_part1_ops4_fresh, main_part1_ops5_fresh, main_part1_ops6_fresh, main_part1_ops7_fresh, main_part1_ops8_fresh, main_part2_ops0_fresh, main_part2_ops1_fresh, main_part2_ops2_fresh, main_part2_ops3_fresh, main_part2_ops4_fresh, main_part2_ops5_fresh, main_part2_ops6_fresh, main_part2_ops7_fresh, main_part2_ops8_fresh, main_part3_ops0_fresh, main_part3_ops1_fresh, main_part3_ops2_fresh, main_part3_ops3_fresh, main_part3_ops4_fresh, main_part3_ops5_fresh, main_part3_ops6_fresh, main_part4_ops0_fresh, main_part4_ops1_fresh, main_part4_ops2_fresh, main_part4_ops3_fresh, main_part4_ops4_fresh, main_part4_ops5_fresh, main_part5_ops0_fresh, main_part5_ops1_fresh, main_part5_ops2_fresh, main_part5_ops3_fresh, main_part5_ops4_fresh, main_part5_ops5_fresh, main_part5_ops6_fresh, main_part6_ops0_fresh, main_part6_ops1_fresh, main_part6_ops2_fresh, main_part6_ops3_fresh, main_part6_ops4_fresh, main_part6_ops5_fresh, main_part6_ops6_fresh, main_part7_ops0_fresh, main_part7_ops1_fresh, main_part7_ops2_fresh, main_part7_ops3_fresh, main_part7_ops4_fresh, main_part7_ops5_fresh, main_part7_ops6_fresh, main_part7_ops7_fresh, main_part7_ops8_fresh, main_part8_ops0_fresh, main_part8_ops1_fresh, main_part8_ops2_fresh, main_part8_ops3_fresh, main_part8_ops4_fresh, main_part9_ops0_fresh, main_part9_ops1_fresh, main_part9_ops2_fresh, main_part9_ops3_fresh, main_part9_ops4_fresh, main_part9_ops5_fresh, main_part9_ops6_fresh, main_part10_ops0_fresh, main_part10_ops1_fresh, main_part10_ops2_fresh, main_part10_ops3_fresh, main_part10_ops4_fresh, main_part10_ops5_fresh, main_part10_ops6_fresh, main_part10_ops7_fresh, main_part10_ops8_fresh, main_part11_ops0_fresh, main_part11_ops1_fresh, main_part11_ops2_fresh, main_part11_ops3_fresh, main_part11_ops4_fresh, main_part11_ops5_fresh, main_part11_ops6_fresh, main_part12_ops0_fresh, main_part12_ops1_fresh, main_part12_ops2_fresh, main_part12_ops3_fresh, main_part12_ops4_fresh, main_part12_ops5_fresh, main_part12_ops6_fresh, main_part12_ops7_fresh, main_part12_ops8_fresh, main_part13_ops0_fresh, main_part13_ops1_fresh, main_part13_ops2_fresh, main_part13_ops3_fresh, main_part13_ops4_fresh, main_part13_ops5_fresh, main_part13_ops6_fresh, main_part14_ops0_fresh, main_part14_ops1_fresh, main_part14_ops2_fresh, main_part14_ops3_fresh, main_part14_ops4_fresh, main_part14_ops5_fresh, main_part14_ops6_fresh, main_part15_ops0_fresh, main_part15_ops1_fresh, main_part15_ops2_fresh, main_part15_ops3_fresh, main_part15_ops4_fresh⟩

theorem all_sub : ((headItems (F := F) ++ [closingOps]).flatten).Forall fun op : HloOp τ sig (Elt F) => op.bufs ⊆ tcRefs τ sig :=
  forall_flatten _ (forall_snoc _ _ head_sub closingOps_sub)

theorem all_fresh : ((headItems (F := F) ++ [closingOps]).flatten).Forall fun op : HloOp τ sig (Elt F) => op.fresh = ∅ :=
  forall_flatten _ (forall_snoc _ _ head_fresh closingOps_fresh)

/-- Every weakly fair execution of @main terminates, each buffer at the last line's fold over the contents the lines
    before it leave. -/
theorem run_all (m : (ℓ : Loc nD τ sig) → Buf (Elt F) ℓ) (ρ : Dev nD → PrngReg) :
    θ_run (defs (F := F)) (onTc (τ := τ) (main (F := F))) ⟨m, fun _ => 0, ρ⟩ fun r => ∀ (c : Dev nD) (b : Ref sig .tc),
      r.2.mem ((c.tc : Thread nD τ).loc b) = after closingOps (headVal m c) (Proc.devRef .tc b) :=
  (θ_run defs _ _).mono (fun _ h c b => (h c b).trans (by rw [after_flatten_snoc]; rfl))
    (run_seq scopedRefs_eq scopedSems_eq defs main (fun _ => (headItems (F := F) ++ [closingOps]).flatten) main_eq
      (fun _ => all_sub) m ρ (fun _ => List.forall_iff_forall_mem.mp all_fresh))

/-! ## The arguments -/

/-- The lines before the last leave a reference of index below 10 (an argument) as launched. -/
theorem headVal_low (m : (ℓ : Loc nD τ sig) → Buf (Elt F) ℓ) (c : Dev nD) (r : Ref sig .tc) (hr : r.idx.val < 10) :
    headVal m c (Proc.devRef .tc r) = m ((c.tc : Thread nD τ).loc r) :=
  after_flatten_of_writesFrom headItems Kept.lines_from r hr _

/-- So does the last line. -/
theorem closing_low (W : Valuation τ sig (Elt F)) (r : Ref sig .tc) (hr : r.idx.val < 10) :
    after closingOps W (Proc.devRef .tc r) = W (Proc.devRef .tc r) :=
  after_of_writesFrom closingOps Kept.closingOps_from r hr W

/-! ## The result -/

/-- What the last line leaves in the result buffer, from any contents W: the product with the mixing matrix of the
    three products laid side by side. -/
theorem closing_result (W : Valuation τ sig (Elt F)) :
    after closingOps W (Proc.devRef .tc main_v672)
      = Host.dotGeneral dot_S1000000x72_S72x28_S1000000x28_1_0_0_1_n_n none
          (concatenate S1000000x72 1
            [⟨S1000000x24, mulf (W (Proc.devRef .tc main_v182)) (W (Proc.devRef .tc main_v667))⟩,
             ⟨S1000000x24, mulf (W (Proc.devRef .tc main_v348)) (W (Proc.devRef .tc main_v616))⟩,
             ⟨S1000000x24, mulf (W (Proc.devRef .tc main_v514)) (W (Proc.devRef .tc main_v565))⟩]
            concatenates_S1000000x24_S1000000x24_S1000000x24_S1000000x72_d1)
          (W (Proc.devRef .tc main_arg7)) := by
  simp only [after_cons, after_nil]
  repeat (first
    | rw [binary_result] | rw [nary3_result]
    | (rw [binary_result_ne]; rotate_left; decide)
    | (rw [nary_result_ne]; rotate_left; decide))
  rfl

/-- The reference's run at Ideal: the result array is the fused function of the six feature arrays it computes and the mixing matrix; the arguments end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v672)
        = Cert.FuseSpec.fused (xy m c) (xz m c) (yz m c) (x m c) (y m c) (z m c) (mix m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v672).trans (by
        rw [closing_result, headVal_low m c main_arg7 (by decide)]
        funext i
        obtain ⟨n, k, rfl⟩ : ∃ n k, i = ValueIdx.ix2 n k := ⟨i 0, i 1, ValueIdx.eq_ix2 i⟩
        exact ClosingValue.closing_at _ _ _ _ _ _ _ _ n k),
     (h c main_arg0).trans ((closing_low _ main_arg0 (by decide)).trans (headVal_low m c main_arg0 (by decide))),
     (h c main_arg1).trans ((closing_low _ main_arg1 (by decide)).trans (headVal_low m c main_arg1 (by decide))),
     (h c main_arg2).trans ((closing_low _ main_arg2 (by decide)).trans (headVal_low m c main_arg2 (by decide))),
     (h c main_arg3).trans ((closing_low _ main_arg3 (by decide)).trans (headVal_low m c main_arg3 (by decide))),
     (h c main_arg4).trans ((closing_low _ main_arg4 (by decide)).trans (headVal_low m c main_arg4 (by decide))),
     (h c main_arg5).trans ((closing_low _ main_arg5 (by decide)).trans (headVal_low m c main_arg5 (by decide))),
     (h c main_arg6).trans ((closing_low _ main_arg6 (by decide)).trans (headVal_low m c main_arg6 (by decide))),
     (h c main_arg7).trans ((closing_low _ main_arg7 (by decide)).trans (headVal_low m c main_arg7 (by decide))),
     (h c main_arg8).trans ((closing_low _ main_arg8 (by decide)).trans (headVal_low m c main_arg8 (by decide))),
     (h c main_arg9).trans ((closing_low _ main_arg9 (by decide)).trans (headVal_low m c main_arg9 (by decide)))⟩)
    (run_all m ρ)

end Cert.ReferenceIdeal.HostRun

end
-- ==== Proof.LibConcatPair.lean ====
/-
  Two pieces laid side by side along an axis, with the pieces as plain arguments.

  The concatenation of a list of pieces carries each piece inside a pair (its shape, its contents), the contents'
  type depending on the shape. For a list of exactly two pieces the same array is written here as a function of the
  two contents directly, so that an equation about one piece can be used inside the concatenation by congruence.
-/
import Idealize.ShloMosaic.PureOps.ShapeOps

noncomputable section

namespace Cert.LibConcatPair

open Idealize.ShloMosaic

/-- The two pieces a (of shape s₁) and b (of shape s₂) side by side along axis ax of the shape t. -/
def concat2 {α : Type} (t : Shape) (ax : Fin t.rank) (s₁ s₂ : Shape) (a : s₁.Idx → α) (b : s₂.Idx → α)
    (h : Shape.Concatenates [s₁, s₂] t ax) : t.Idx → α :=
  concatenate t ax [⟨s₁, a⟩, ⟨s₂, b⟩] h

/-- The concatenation of a two-piece list is `concat2` of its pieces. -/
theorem concatenate_pair_eq {α : Type} (t : Shape) (ax : Fin t.rank) (s₁ s₂ : Shape) (a : s₁.Idx → α) (b : s₂.Idx → α)
    (h : Shape.Concatenates [s₁, s₂] t ax) :
    concatenate t ax [⟨s₁, a⟩, ⟨s₂, b⟩] h = concat2 t ax s₁ s₂ a b h := rfl

end Cert.LibConcatPair

end
-- ==== Proof.HostHeadTac.lean ====
/-
  Both programs sample the six feature arrays with the same straight line of host operations, written in each
  program as a list of shorter lines (the kernel program cuts it at every called function, the reference at every
  called function and every sixty statements). The step here only opens those lines and joins them: what is left on
  each side is ONE list of operations folded over the launch contents. The second step reads that fold back,
  operation by operation, as a term of the argument arrays: at its own result an operation gives its function of
  its operands' contents, at any other reference what was there before it; a pair of index columns laid side by
  side is read through its two columns.
-/
import proofs.«177920_j1726576856425_1_alg».proof.Proof.KernelFeats
import proofs.«177920_j1726576856425_1_alg».proof.Proof.RefRun
import proofs.«177920_j1726576856425_1_alg».proof.Proof.LibConcatPair

namespace Cert.HostHead

/-- Open every line of both programs' sampling operations and join each program's lines into one list. -/
macro "open_host_lines" : tactic =>
  `(tactic| simp only [
      Cert.KernelIdeal.Gen.hostOps0, Cert.KernelIdeal.Gen.hostOps0_1, Cert.KernelIdeal.Gen.hostOps0_2,
      Cert.KernelIdeal.Gen.hostOps0_3, Cert.KernelIdeal.Gen.hostOps0_4, Cert.KernelIdeal.Gen.hostOps0_5,
      Cert.KernelIdeal.Gen.hostOps0_6, Cert.KernelIdeal.Gen.hostOps0_7, Cert.KernelIdeal.Gen.hostOps0_8,
      Cert.KernelIdeal.Gen.hostOps0_9, Cert.KernelIdeal.Gen.hostOps0_10, Cert.KernelIdeal.Gen.hostOps0_11,
      Cert.KernelIdeal.Gen.hostOps0_12, Cert.KernelIdeal.Gen.hostOps0_13, Cert.KernelIdeal.Gen.hostOps0_14,
      Cert.KernelIdeal.Gen.hostOps0_15, Cert.KernelIdeal.Gen.hostOps0_16, Cert.KernelIdeal.Gen.hostOps0_17,
      Cert.KernelIdeal.Gen.hostOps0_18, Cert.KernelIdeal.Gen.hostOps0_19, Cert.KernelIdeal.Gen.hostOps0_20,
      Cert.KernelIdeal.Gen.hostOps0_21, Cert.KernelIdeal.Gen.hostOps0_22, Cert.KernelIdeal.Gen.hostOps0_23,
      Cert.KernelIdeal.Gen.hostOps0_24, Cert.KernelIdeal.Gen.hostOps0_25, Cert.KernelIdeal.Gen.hostOps0_26,
      Cert.KernelIdeal.Gen.hostOps0_27, Cert.KernelIdeal.Gen.hostOps0_28, Cert.KernelIdeal.Gen.hostOps0_29,
      Cert.KernelIdeal.Gen.hostOps0_30, Cert.KernelIdeal.Gen.hostOps0_31, Cert.KernelIdeal.Gen.hostOps0_32,
      Cert.KernelIdeal.Gen.hostOps0_33, Cert.KernelIdeal.Gen.hostOps0_34, Cert.KernelIdeal.Gen.hostOps0_35,
      Cert.KernelIdeal.Gen.hostOps0_36, Cert.KernelIdeal.Gen.hostOps0_37, Cert.KernelIdeal.Gen.hostOps0_38,
      Cert.KernelIdeal.Gen.hostOps0_39, Cert.KernelIdeal.Gen.hostOps0_40, Cert.KernelIdeal.Gen.hostOps0_41,
      Cert.KernelIdeal.Gen.hostOps0_42, Cert.KernelIdeal.Gen.hostOps0_43, Cert.KernelIdeal.Gen.hostOps0_44,
      Cert.KernelIdeal.Gen.hostOps0_45, Cert.KernelIdeal.Gen.hostOps0_46, Cert.KernelIdeal.Gen.hostOps0_47,
      Cert.KernelIdeal.Gen.hostOps0_48, Cert.KernelIdeal.Gen.hostOps0_49, Cert.KernelIdeal.Gen.hostOps0_50,
      Cert.KernelIdeal.Gen.hostOps0_51, Cert.KernelIdeal.Gen.hostOps0_52, Cert.KernelIdeal.Gen.hostOps0_53,
      Cert.KernelIdeal.Gen.hostOps0_54, Cert.KernelIdeal.Gen.hostOps0_55, Cert.KernelIdeal.Gen.hostOps0_56,
      Cert.KernelIdeal.Gen.hostOps0_57, Cert.KernelIdeal.Gen.hostOps0_58, Cert.KernelIdeal.Gen.hostOps0_59,
      Cert.KernelIdeal.Gen.hostOps0_60, Cert.KernelIdeal.Gen.hostOps0_61, Cert.KernelIdeal.Gen.hostOps0_62,
      Cert.KernelIdeal.Gen.hostOps0_63, Cert.KernelIdeal.Gen.hostOps0_64, Cert.KernelIdeal.Gen.hostOps0_65,
      Cert.KernelIdeal.Gen.hostOps0_66, Cert.KernelIdeal.Gen.hostOps0_67, Cert.KernelIdeal.Gen.hostOps0_68,
      Cert.KernelIdeal.Gen.hostOps0_69, Cert.KernelIdeal.Gen.hostOps0_70, Cert.KernelIdeal.Gen.hostOps0_71,
      Cert.KernelIdeal.Gen.hostOps0_72, Cert.KernelIdeal.Gen.hostOps0_73, Cert.KernelIdeal.Gen.hostOps0_74,
      Cert.KernelIdeal.Gen.hostOps0_75, Cert.KernelIdeal.Gen.hostOps0_76, Cert.KernelIdeal.Gen.hostOps0_77,
      Cert.KernelIdeal.Gen.hostOps0_78, Cert.KernelIdeal.Gen.hostOps0_79, Cert.KernelIdeal.Gen.hostOps0_80,
      Cert.KernelIdeal.Gen.hostOps0_81, Cert.KernelIdeal.Gen.hostOps0_82, Cert.KernelIdeal.Gen.hostOps0_83,
      Cert.KernelIdeal.Gen.hostOps0_84, Cert.KernelIdeal.Gen.hostOps0_85, Cert.KernelIdeal.Gen.hostOps0_86,
      Cert.KernelIdeal.Gen.hostOps0_87, Cert.KernelIdeal.Gen.hostOps0_88, Cert.KernelIdeal.Gen.hostOps0_89,
      Cert.KernelIdeal.Gen.hostOps0_90, Cert.KernelIdeal.Gen.hostOps0_91, Cert.KernelIdeal.Gen.hostOps0_92,
      Cert.KernelIdeal.Gen.hostOps0_93, Cert.KernelIdeal.Gen.hostOps0_94, Cert.KernelIdeal.Gen.hostOps0_95,
      Cert.KernelIdeal.Gen.hostOps0_96,
      Cert.ReferenceIdeal.Windows.main_part0_ops0, Cert.ReferenceIdeal.Windows.main_part1_ops0,
      Cert.ReferenceIdeal.Windows.main_part1_ops1, Cert.ReferenceIdeal.Windows.main_part1_ops2,
      Cert.ReferenceIdeal.Windows.main_part1_ops3, Cert.ReferenceIdeal.Windows.main_part1_ops4,
      Cert.ReferenceIdeal.Windows.main_part1_ops5, Cert.ReferenceIdeal.Windows.main_part1_ops6,
      Cert.ReferenceIdeal.Windows.main_part1_ops7, Cert.ReferenceIdeal.Windows.main_part1_ops8,
      Cert.ReferenceIdeal.Windows.main_part2_ops0, Cert.ReferenceIdeal.Windows.main_part2_ops1,
      Cert.ReferenceIdeal.Windows.main_part2_ops2, Cert.ReferenceIdeal.Windows.main_part2_ops3,
      Cert.ReferenceIdeal.Windows.main_part2_ops4, Cert.ReferenceIdeal.Windows.main_part2_ops5,
      Cert.ReferenceIdeal.Windows.main_part2_ops6, Cert.ReferenceIdeal.Windows.main_part2_ops7,
      Cert.ReferenceIdeal.Windows.main_part2_ops8, Cert.ReferenceIdeal.Windows.main_part3_ops0,
      Cert.ReferenceIdeal.Windows.main_part3_ops1, Cert.ReferenceIdeal.Windows.main_part3_ops2,
      Cert.ReferenceIdeal.Windows.main_part3_ops3, Cert.ReferenceIdeal.Windows.main_part3_ops4,
      Cert.ReferenceIdeal.Windows.main_part3_ops5, Cert.ReferenceIdeal.Windows.main_part3_ops6,
      Cert.ReferenceIdeal.Windows.main_part4_ops0, Cert.ReferenceIdeal.Windows.main_part4_ops1,
      Cert.ReferenceIdeal.Windows.main_part4_ops2, Cert.ReferenceIdeal.Windows.main_part4_ops3,
      Cert.ReferenceIdeal.Windows.main_part4_ops4, Cert.ReferenceIdeal.Windows.main_part4_ops5,
      Cert.ReferenceIdeal.Windows.main_part5_ops0, Cert.ReferenceIdeal.Windows.main_part5_ops1,
      Cert.ReferenceIdeal.Windows.main_part5_ops2, Cert.ReferenceIdeal.Windows.main_part5_ops3,
      Cert.ReferenceIdeal.Windows.main_part5_ops4, Cert.ReferenceIdeal.Windows.main_part5_ops5,
      Cert.ReferenceIdeal.Windows.main_part5_ops6, Cert.ReferenceIdeal.Windows.main_part6_ops0,
      Cert.ReferenceIdeal.Windows.main_part6_ops1, Cert.ReferenceIdeal.Windows.main_part6_ops2,
      Cert.ReferenceIdeal.Windows.main_part6_ops3, Cert.ReferenceIdeal.Windows.main_part6_ops4,
      Cert.ReferenceIdeal.Windows.main_part6_ops5, Cert.ReferenceIdeal.Windows.main_part6_ops6,
      Cert.ReferenceIdeal.Windows.main_part7_ops0, Cert.ReferenceIdeal.Windows.main_part7_ops1,
      Cert.ReferenceIdeal.Windows.main_part7_ops2, Cert.ReferenceIdeal.Windows.main_part7_ops3,
      Cert.ReferenceIdeal.Windows.main_part7_ops4, Cert.ReferenceIdeal.Windows.main_part7_ops5,
      Cert.ReferenceIdeal.Windows.main_part7_ops6, Cert.ReferenceIdeal.Windows.main_part7_ops7,
      Cert.ReferenceIdeal.Windows.main_part7_ops8, Cert.ReferenceIdeal.Windows.main_part8_ops0,
      Cert.ReferenceIdeal.Windows.main_part8_ops1, Cert.ReferenceIdeal.Windows.main_part8_ops2,
      Cert.ReferenceIdeal.Windows.main_part8_ops3, Cert.ReferenceIdeal.Windows.main_part8_ops4,
      Cert.ReferenceIdeal.Windows.main_part9_ops0, Cert.ReferenceIdeal.Windows.main_part9_ops1,
      Cert.ReferenceIdeal.Windows.main_part9_ops2, Cert.ReferenceIdeal.Windows.main_part9_ops3,
      Cert.ReferenceIdeal.Windows.main_part9_ops4, Cert.ReferenceIdeal.Windows.main_part9_ops5,
      Cert.ReferenceIdeal.Windows.main_part9_ops6, Cert.ReferenceIdeal.Windows.main_part10_ops0,
      Cert.ReferenceIdeal.Windows.main_part10_ops1, Cert.ReferenceIdeal.Windows.main_part10_ops2,
      Cert.ReferenceIdeal.Windows.main_part10_ops3, Cert.ReferenceIdeal.Windows.main_part10_ops4,
      Cert.ReferenceIdeal.Windows.main_part10_ops5, Cert.ReferenceIdeal.Windows.main_part10_ops6,
      Cert.ReferenceIdeal.Windows.main_part10_ops7, Cert.ReferenceIdeal.Windows.main_part10_ops8,
      Cert.ReferenceIdeal.Windows.main_part11_ops0, Cert.ReferenceIdeal.Windows.main_part11_ops1,
      Cert.ReferenceIdeal.Windows.main_part11_ops2, Cert.ReferenceIdeal.Windows.main_part11_ops3,
      Cert.ReferenceIdeal.Windows.main_part11_ops4, Cert.ReferenceIdeal.Windows.main_part11_ops5,
      Cert.ReferenceIdeal.Windows.main_part11_ops6, Cert.ReferenceIdeal.Windows.main_part12_ops0,
      Cert.ReferenceIdeal.Windows.main_part12_ops1, Cert.ReferenceIdeal.Windows.main_part12_ops2,
      Cert.ReferenceIdeal.Windows.main_part12_ops3, Cert.ReferenceIdeal.Windows.main_part12_ops4,
      Cert.ReferenceIdeal.Windows.main_part12_ops5, Cert.ReferenceIdeal.Windows.main_part12_ops6,
      Cert.ReferenceIdeal.Windows.main_part12_ops7, Cert.ReferenceIdeal.Windows.main_part12_ops8,
      Cert.ReferenceIdeal.Windows.main_part13_ops0, Cert.ReferenceIdeal.Windows.main_part13_ops1,
      Cert.ReferenceIdeal.Windows.main_part13_ops2, Cert.ReferenceIdeal.Windows.main_part13_ops3,
      Cert.ReferenceIdeal.Windows.main_part13_ops4, Cert.ReferenceIdeal.Windows.main_part13_ops5,
      Cert.ReferenceIdeal.Windows.main_part13_ops6, Cert.ReferenceIdeal.Windows.main_part14_ops0,
      Cert.ReferenceIdeal.Windows.main_part14_ops1, Cert.ReferenceIdeal.Windows.main_part14_ops2,
      Cert.ReferenceIdeal.Windows.main_part14_ops3, Cert.ReferenceIdeal.Windows.main_part14_ops4,
      Cert.ReferenceIdeal.Windows.main_part14_ops5, Cert.ReferenceIdeal.Windows.main_part14_ops6,
      Cert.ReferenceIdeal.Windows.main_part15_ops0, Cert.ReferenceIdeal.Windows.main_part15_ops1,
      Cert.ReferenceIdeal.Windows.main_part15_ops2, Cert.ReferenceIdeal.Windows.main_part15_ops3,
      Cert.ReferenceIdeal.Windows.main_part15_ops4,
      List.flatten_cons, List.flatten_nil, List.append_nil, List.cons_append, List.nil_append])

open Idealize.ShloMosaic.StableHlo in
/-- Read the fold of one list of operations back as a term of the launch contents. -/
macro "read_host_lines" : tactic =>
  `(tactic| simp (disch := decide) only [after_cons, after_nil,
      nullary_result', unary_result', binary_result', ternary_result', quaternary_result', reshape_result',
      nullary_result_ne', unary_result_ne', binary_result_ne', ternary_result_ne', quaternary_result_ne', reshape_result_ne',
      Cert.LibConcatPair.concatenate_pair_eq])

end Cert.HostHead
-- ==== Proof.HostHeadXY.lean ====
/-
  The xy-plane samples are the same array in both programs: each program computes them from the point coordinates
  (argument 0), the xy-plane table (argument 1) and the two corners of the bounding box (arguments 8 and 9) by the
  same operations in the same order, so read back as terms of those four arrays the two are one term, and the
  arguments agree.
-/
import proofs.«177920_j1726576856425_1_alg».proof.Proof.HostHeadTac

set_option maxRecDepth 65536

noncomputable section

namespace Cert.HostHead

open Idealize.ShloMosaic Idealize.ShloMosaic.TcCoe Idealize.SL.Sem Idealize.ShloMosaic.StableHlo

variable {F : FTy → Type} [FloatOps F]

set_option maxHeartbeats 400000000 in
/-- The reference's xy-plane samples are the kernel program's, when the two memories agree on arguments 0, 1, 8 and 9. -/
theorem xy_eq (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (hT : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.HostRun.xy mR c = Cert.KernelIdeal.Feats.xy mK c := by
  unfold Cert.ReferenceIdeal.HostRun.xy Cert.ReferenceIdeal.HostRun.headVal Cert.KernelIdeal.Feats.xy
  dsimp only [Cert.KernelIdeal.GenP.V, Cert.ReferenceIdeal.HostRun.headItems]
  open_host_lines
  read_host_lines
  have e0 : launchContents mR c (Proc.devRef .tc Cert.ReferenceIdeal.main_arg0) = mK (c, Proc.devRef .tc Cert.KernelIdeal.main_arg0) := h0
  have eT : launchContents mR c (Proc.devRef .tc Cert.ReferenceIdeal.main_arg1) = mK (c, Proc.devRef .tc Cert.KernelIdeal.main_arg1) := hT
  have e8 : launchContents mR c (Proc.devRef .tc Cert.ReferenceIdeal.main_arg8) = mK (c, Proc.devRef .tc Cert.KernelIdeal.main_arg8) := h8
  have e9 : launchContents mR c (Proc.devRef .tc Cert.ReferenceIdeal.main_arg9) = mK (c, Proc.devRef .tc Cert.KernelIdeal.main_arg9) := h9
  rw [e0, eT, e8, e9]
  first | done | rfl

end Cert.HostHead

end
-- ==== Proof.HostHeadXZ.lean ====
/-
  The xz-plane samples are the same array in both programs: each program computes them from the point coordinates
  (argument 0), the xz-plane table (argument 2) and the two corners of the bounding box (arguments 8 and 9) by the
  same operations in the same order, so read back as terms of those four arrays the two are one term, and the
  arguments agree.
-/
import proofs.«177920_j1726576856425_1_alg».proof.Proof.HostHeadTac

set_option maxRecDepth 65536

noncomputable section

namespace Cert.HostHead

open Idealize.ShloMosaic Idealize.ShloMosaic.TcCoe Idealize.SL.Sem Idealize.ShloMosaic.StableHlo

variable {F : FTy → Type} [FloatOps F]

set_option maxHeartbeats 400000000 in
/-- The reference's xz-plane samples are the kernel program's, when the two memories agree on arguments 0, 2, 8 and 9. -/
theorem xz_eq (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (hT : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.HostRun.xz mR c = Cert.KernelIdeal.Feats.xz mK c := by
  unfold Cert.ReferenceIdeal.HostRun.xz Cert.ReferenceIdeal.HostRun.headVal Cert.KernelIdeal.Feats.xz
  dsimp only [Cert.KernelIdeal.GenP.V, Cert.ReferenceIdeal.HostRun.headItems]
  open_host_lines
  read_host_lines
  have e0 : launchContents mR c (Proc.devRef .tc Cert.ReferenceIdeal.main_arg0) = mK (c, Proc.devRef .tc Cert.KernelIdeal.main_arg0) := h0
  have eT : launchContents mR c (Proc.devRef .tc Cert.ReferenceIdeal.main_arg2) = mK (c, Proc.devRef .tc Cert.KernelIdeal.main_arg2) := hT
  have e8 : launchContents mR c (Proc.devRef .tc Cert.ReferenceIdeal.main_arg8) = mK (c, Proc.devRef .tc Cert.KernelIdeal.main_arg8) := h8
  have e9 : launchContents mR c (Proc.devRef .tc Cert.ReferenceIdeal.main_arg9) = mK (c, Proc.devRef .tc Cert.KernelIdeal.main_arg9) := h9
  rw [e0, eT, e8, e9]
  first | done | rfl

end Cert.HostHead

end
-- ==== Proof.HostHeadYZ.lean ====
/-
  The yz-plane samples are the same array in both programs: each program computes them from the point coordinates
  (argument 0), the yz-plane table (argument 3) and the two corners of the bounding box (arguments 8 and 9) by the
  same operations in the same order, so read back as terms of those four arrays the two are one term, and the
  arguments agree.
-/
import proofs.«177920_j1726576856425_1_alg».proof.Proof.HostHeadTac

set_option maxRecDepth 65536

noncomputable section

namespace Cert.HostHead

open Idealize.ShloMosaic Idealize.ShloMosaic.TcCoe Idealize.SL.Sem Idealize.ShloMosaic.StableHlo

variable {F : FTy → Type} [FloatOps F]

set_option maxHeartbeats 400000000 in
/-- The reference's yz-plane samples are the kernel program's, when the two memories agree on arguments 0, 3, 8 and 9. -/
theorem yz_eq (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (hT : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.HostRun.yz mR c = Cert.KernelIdeal.Feats.yz mK c := by
  unfold Cert.ReferenceIdeal.HostRun.yz Cert.ReferenceIdeal.HostRun.headVal Cert.KernelIdeal.Feats.yz
  dsimp only [Cert.KernelIdeal.GenP.V, Cert.ReferenceIdeal.HostRun.headItems]
  open_host_lines
  read_host_lines
  have e0 : launchContents mR c (Proc.devRef .tc Cert.ReferenceIdeal.main_arg0) = mK (c, Proc.devRef .tc Cert.KernelIdeal.main_arg0) := h0
  have eT : launchContents mR c (Proc.devRef .tc Cert.ReferenceIdeal.main_arg3) = mK (c, Proc.devRef .tc Cert.KernelIdeal.main_arg3) := hT
  have e8 : launchContents mR c (Proc.devRef .tc Cert.ReferenceIdeal.main_arg8) = mK (c, Proc.devRef .tc Cert.KernelIdeal.main_arg8) := h8
  have e9 : launchContents mR c (Proc.devRef .tc Cert.ReferenceIdeal.main_arg9) = mK (c, Proc.devRef .tc Cert.KernelIdeal.main_arg9) := h9
  rw [e0, eT, e8, e9]
  first | done | rfl

end Cert.HostHead

end
-- ==== Proof.HostHeadX.lean ====
/-
  The x-line samples are the same array in both programs: each program computes them from the point coordinates
  (argument 0), the x-line table (argument 4) and the two corners of the bounding box (arguments 8 and 9) by the
  same operations in the same order, so read back as terms of those four arrays the two are one term, and the
  arguments agree.
-/
import proofs.«177920_j1726576856425_1_alg».proof.Proof.HostHeadTac

set_option maxRecDepth 65536

noncomputable section

namespace Cert.HostHead

open Idealize.ShloMosaic Idealize.ShloMosaic.TcCoe Idealize.SL.Sem Idealize.ShloMosaic.StableHlo

variable {F : FTy → Type} [FloatOps F]

set_option maxHeartbeats 400000000 in
/-- The reference's x-line samples are the kernel program's, when the two memories agree on arguments 0, 4, 8 and 9. -/
theorem x_eq (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (hT : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.HostRun.x mR c = Cert.KernelIdeal.Feats.x mK c := by
  unfold Cert.ReferenceIdeal.HostRun.x Cert.ReferenceIdeal.HostRun.headVal Cert.KernelIdeal.Feats.x
  dsimp only [Cert.KernelIdeal.GenP.V, Cert.ReferenceIdeal.HostRun.headItems]
  open_host_lines
  read_host_lines
  have e0 : launchContents mR c (Proc.devRef .tc Cert.ReferenceIdeal.main_arg0) = mK (c, Proc.devRef .tc Cert.KernelIdeal.main_arg0) := h0
  have eT : launchContents mR c (Proc.devRef .tc Cert.ReferenceIdeal.main_arg4) = mK (c, Proc.devRef .tc Cert.KernelIdeal.main_arg4) := hT
  have e8 : launchContents mR c (Proc.devRef .tc Cert.ReferenceIdeal.main_arg8) = mK (c, Proc.devRef .tc Cert.KernelIdeal.main_arg8) := h8
  have e9 : launchContents mR c (Proc.devRef .tc Cert.ReferenceIdeal.main_arg9) = mK (c, Proc.devRef .tc Cert.KernelIdeal.main_arg9) := h9
  rw [e0, eT, e8, e9]
  first | done | rfl

end Cert.HostHead

end
-- ==== Proof.HostHeadY.lean ====
/-
  The y-line samples are the same array in both programs: each program computes them from the point coordinates
  (argument 0), the y-line table (argument 5) and the two corners of the bounding box (arguments 8 and 9) by the
  same operations in the same order, so read back as terms of those four arrays the two are one term, and the
  arguments agree.
-/
import proofs.«177920_j1726576856425_1_alg».proof.Proof.HostHeadTac

set_option maxRecDepth 65536

noncomputable section

namespace Cert.HostHead

open Idealize.ShloMosaic Idealize.ShloMosaic.TcCoe Idealize.SL.Sem Idealize.ShloMosaic.StableHlo

variable {F : FTy → Type} [FloatOps F]

set_option maxHeartbeats 400000000 in
/-- The reference's y-line samples are the kernel program's, when the two memories agree on arguments 0, 5, 8 and 9. -/
theorem y_eq (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (hT : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.HostRun.y mR c = Cert.KernelIdeal.Feats.y mK c := by
  unfold Cert.ReferenceIdeal.HostRun.y Cert.ReferenceIdeal.HostRun.headVal Cert.KernelIdeal.Feats.y
  dsimp only [Cert.KernelIdeal.GenP.V, Cert.ReferenceIdeal.HostRun.headItems]
  open_host_lines
  read_host_lines
  have e0 : launchContents mR c (Proc.devRef .tc Cert.ReferenceIdeal.main_arg0) = mK (c, Proc.devRef .tc Cert.KernelIdeal.main_arg0) := h0
  have eT : launchContents mR c (Proc.devRef .tc Cert.ReferenceIdeal.main_arg5) = mK (c, Proc.devRef .tc Cert.KernelIdeal.main_arg5) := hT
  have e8 : launchContents mR c (Proc.devRef .tc Cert.ReferenceIdeal.main_arg8) = mK (c, Proc.devRef .tc Cert.KernelIdeal.main_arg8) := h8
  have e9 : launchContents mR c (Proc.devRef .tc Cert.ReferenceIdeal.main_arg9) = mK (c, Proc.devRef .tc Cert.KernelIdeal.main_arg9) := h9
  rw [e0, eT, e8, e9]
  first | done | rfl

end Cert.HostHead

end
-- ==== Proof.HostHeadZ.lean ====
/-
  The z-line samples are the same array in both programs: each program computes them from the point coordinates
  (argument 0), the z-line table (argument 6) and the two corners of the bounding box (arguments 8 and 9) by the
  same operations in the same order, so read back as terms of those four arrays the two are one term, and the
  arguments agree.
-/
import proofs.«177920_j1726576856425_1_alg».proof.Proof.HostHeadTac

set_option maxRecDepth 65536

noncomputable section

namespace Cert.HostHead

open Idealize.ShloMosaic Idealize.ShloMosaic.TcCoe Idealize.SL.Sem Idealize.ShloMosaic.StableHlo

variable {F : FTy → Type} [FloatOps F]

set_option maxHeartbeats 400000000 in
/-- The reference's z-line samples are the kernel program's, when the two memories agree on arguments 0, 6, 8 and 9. -/
theorem z_eq (mK : (ℓ : Loc Cert.KernelIdeal.nD Cert.KernelIdeal.τ Cert.KernelIdeal.sig) → Buf (Elt F) ℓ)
    (mR : (ℓ : Loc Cert.ReferenceIdeal.nD Cert.ReferenceIdeal.τ Cert.ReferenceIdeal.sig) → Buf (Elt F) ℓ) (c : Dev Cert.KernelIdeal.nD)
    (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (hT : mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.HostRun.z mR c = Cert.KernelIdeal.Feats.z mK c := by
  unfold Cert.ReferenceIdeal.HostRun.z Cert.ReferenceIdeal.HostRun.headVal Cert.KernelIdeal.Feats.z
  dsimp only [Cert.KernelIdeal.GenP.V, Cert.ReferenceIdeal.HostRun.headItems]
  open_host_lines
  read_host_lines
  have e0 : launchContents mR c (Proc.devRef .tc Cert.ReferenceIdeal.main_arg0) = mK (c, Proc.devRef .tc Cert.KernelIdeal.main_arg0) := h0
  have eT : launchContents mR c (Proc.devRef .tc Cert.ReferenceIdeal.main_arg6) = mK (c, Proc.devRef .tc Cert.KernelIdeal.main_arg6) := hT
  have e8 : launchContents mR c (Proc.devRef .tc Cert.ReferenceIdeal.main_arg8) = mK (c, Proc.devRef .tc Cert.KernelIdeal.main_arg8) := h8
  have e9 : launchContents mR c (Proc.devRef .tc Cert.ReferenceIdeal.main_arg9) = mK (c, Proc.devRef .tc Cert.KernelIdeal.main_arg9) := h9
  rw [e0, eT, e8, e9]
  first | done | rfl

end Cert.HostHead

end
-- ==== Proof.lean ====
/-
  Both programs map one million points to 28 channels. From the point coordinates they first sample, by the same
  host operations, six arrays of 24 features per point: bilinear samples of three planes (xy, xz, yz) and linear
  samples of three lines (x, y, z). The reference then multiplies them in pairs (xy * z, xz * y, yz * x), lays the
  three products side by side into rows of 72 numbers and multiplies by the 72 x 28 mixing matrix. The kernel
  program hands the six arrays to a kernel that, on each block of 10000 points, forms the same three products,
  multiplies each by its own band of 24 rows of the mixing matrix, and adds the three results.

  The certificate:
  * the two kernel programs run, fault nowhere and leave their arguments as they were (the frame of each);
  * the idealized kernel is the printed kernel read over the extended reals, nothing rewritten (nothing to preserve);
  * over the extended reals the kernel's result array is the function `FuseSpec.fused` of the six sampled arrays and
    the mixing matrix (block by block: three products into zero, added), and so is the reference's (one sum over
    72 rows, which is the sum of its three bands of 24); the six sampled arrays are the same in both programs,
    each being the same term of arguments that agree. No finiteness of the inputs is used: the only law between the
    two sides regroups the terms of a sum.
-/
import proofs.«177920_j1726576856425_1_alg».proof.Defs
import proofs.«177920_j1726576856425_1_alg».proof.Proof.KernelFrame
import proofs.«177920_j1726576856425_1_alg».proof.Proof.KernelIdealFrame
import proofs.«177920_j1726576856425_1_alg».proof.Proof.KernelArray
import proofs.«177920_j1726576856425_1_alg».proof.Proof.RefRun
import proofs.«177920_j1726576856425_1_alg».proof.Proof.HostHeadXY
import proofs.«177920_j1726576856425_1_alg».proof.Proof.HostHeadXZ
import proofs.«177920_j1726576856425_1_alg».proof.Proof.HostHeadYZ
import proofs.«177920_j1726576856425_1_alg».proof.Proof.HostHeadX
import proofs.«177920_j1726576856425_1_alg».proof.Proof.HostHeadY
import proofs.«177920_j1726576856425_1_alg».proof.Proof.HostHeadZ
import proofs.«177920_j1726576856425_1_alg».proof.Proof.Gen.Kernel
import proofs.«177920_j1726576856425_1_alg».proof.Proof.Gen.KernelIdeal
import proofs.«177920_j1726576856425_1_alg».proof.Proof.Gen.ReferenceIdeal
import proofs.«177920_j1726576856425_1_alg».proof.Proof.Gen.Pre_finite_inputs
import Idealize.ShloMosaic.Adequacy
import Idealize.ShloMosaic.Init

noncomputable section

namespace Cert.Proof

open Idealize.ShloMosaic Idealize.SL.Sem

/-- The printed kernel program runs and keeps its arguments. -/
theorem frame_kernel : Cert.frame_Kernel := fun m ρ _ => Cert.Kernel.GenP.frame m ρ

/-- The idealized kernel program runs and keeps its arguments. -/
theorem frame_kernelIdeal : Cert.frame_KernelIdeal := fun m ρ _ => Cert.KernelIdeal.GenP.frame m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.HostRun.ref_run m ρ)

/-- The idealization rewrote no operation. -/
theorem preserves : Cert.preserves_Kernel_KernelIdeal := trivial

/-- From memories that agree on the arguments both programs end with the fused function of the same six arrays and
    the same mixing matrix. -/
theorem algebraic : Cert.algebraic_KernelIdeal_ReferenceIdeal := by
  intro m ρ m' ρ' _ hagree
  refine ⟨fun c => Cert.FuseSpec.fused (Cert.KernelIdeal.Feats.xy m c) (Cert.KernelIdeal.Feats.xz m c) (Cert.KernelIdeal.Feats.yz m c)
    (Cert.KernelIdeal.Feats.x m c) (Cert.KernelIdeal.Feats.y m c) (Cert.KernelIdeal.Feats.z m c) (Cert.KernelIdeal.Feats.mix m c),
    Cert.KernelIdeal.FuseValue.kernel_run m ρ, ?_⟩
  refine (θ_run Cert.ReferenceIdeal.defs _ _).mono (fun r h c => ⟨(h c).1.trans ?_, (h c).2⟩)
    (Cert.ReferenceIdeal.HostRun.ref_run m' ρ')
  obtain ⟨a0, a1, a2, a3, a4, a5, a6, a7, a8, a9⟩ := hagree c
  have emix : Cert.ReferenceIdeal.HostRun.mix m' c = Cert.KernelIdeal.Feats.mix m c := a7
  rw [Cert.HostHead.xy_eq m m' c a0 a1 a8 a9, Cert.HostHead.xz_eq m m' c a0 a2 a8 a9, Cert.HostHead.yz_eq m m' c a0 a3 a8 a9,
    Cert.HostHead.x_eq m m' c a0 a4 a8 a9, Cert.HostHead.y_eq m m' c a0 a5 a8 a9, Cert.HostHead.z_eq m m' c a0 a6 a8 a9, emix]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
